-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)) →
    ∃ (v0 : (c : Dev Cert.KernelIdeal.nD) → Buf (Elt Ideal) ((c.tc : Thread Cert.KernelIdeal.nD Cert.KernelIdeal.τ).loc Cert.KernelIdeal.main_v71)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v71) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v165) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x800000 : Shape := ⟨2, ![2, 800000]⟩
abbrev S128x128 : Shape := ⟨2, ![128, 128]⟩
abbrev S128 : Shape := ⟨1, ![128]⟩
abbrev S2x128x256 : Shape := ⟨3, ![2, 128, 256]⟩
abbrev S2x128 : Shape := ⟨2, ![2, 128]⟩
abbrev S2x128x128 : Shape := ⟨3, ![2, 128, 128]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S2x128x256 : S_.BroadcastsInDim S2x128x256 (![] : Fin 0 → Fin S2x128x256.rank)
  reducesTo_S2x128x256_S_d0_1_2 : S2x128x256.ReducesTo [0, 1, 2] S_
  bcast_S_S2x128 : S_.BroadcastsInDim S2x128 (![] : Fin 0 → Fin S2x128.rank)
  reducesTo_S2x128_S_d0_1 : S2x128.ReducesTo [0, 1] S_
  bcast_S_S2x128x128 : S_.BroadcastsInDim S2x128x128 (![] : Fin 0 → Fin S2x128x128.rank)
  reducesTo_S2x128x128_S_d0_1_2 : S2x128x128.ReducesTo [0, 1, 2] S_
  bcast_S_S2x800000 : S_.BroadcastsInDim S2x800000 (![] : Fin 0 → Fin S2x800000.rank)
  reducesTo_S2x800000_S_d0_1 : S2x800000.ReducesTo [0, 1] S_

variable [Facts]

def fn_part4 {F : FTy → Type} [FloatOps F] (main_arg1 : IVec S2x800000 32) (main_v67 : IVec S_ 1) : IVec S_ 1 :=
  let main_c_26 : IVec S_ 32 := constantI S_ 32 50000#32
  let main_v68 : IVec S2x800000 32 := broadcastInDim S2x800000 ![] bcast_S_S2x800000 main_c_26
  let main_v69 : IVec S2x800000 1 := cmpi .slt main_arg1 main_v68
  let main_c_27 : IVec S_ 1 := constantI S_ 1 1#1
  let main_v70 : IVec S_ 1 := (fun x v => Host.reduce IntOp.andi x v reducesTo_S2x800000_S_d0_1 h_S_) main_v69 main_c_27
  let main_v71 : IVec S_ 1 := andi main_v67 main_v70
  main_v71

def fn_part3 {F : FTy → Type} [FloatOps F] (main_arg1 : IVec S2x800000 32) (main_arg12 : FVec F S128x128 .f32) (main_arg13 : FVec F S128 .f32) (main_v48 : IVec S_ 1) (main_v49 : FVec F S2x128 .f32) (main_v50 : FVec F S2x128 .f32) : IVec S_ 1 :=
  let main_v51 : IVec S2x128 1 := cmpf .olt main_v49 main_v50
  let main_c_19 : IVec S_ 1 := constantI S_ 1 1#1
  let main_v52 : IVec S_ 1 := (fun x v => Host.reduce IntOp.andi x v reducesTo_S2x128_S_d0_1 h_S_) main_v51 main_c_19
  let main_v53 : IVec S_ 1 := andi main_v48 main_v52
  let main_v54 : FVec F S128x128 .f32 := Host.absf main_arg12
  let main_cst_20 : FVec F S_ .f32 := constant S_ .f32 0x7F800000#32
  let main_v55 : FVec F S128x128 .f32 := broadcastInDim S128x128 ![] bcast_S_S128x128 main_cst_20
  let main_v56 : IVec S128x128 1 := cmpf .olt main_v54 main_v55
  let main_c_21 : IVec S_ 1 := constantI S_ 1 1#1
  let main_v57 : IVec S_ 1 := (fun x v => Host.reduce IntOp.andi x v reducesTo_S128x128_S_d0_1 h_S_) main_v56 main_c_21
  let main_v58 : IVec S_ 1 := andi main_v53 main_v57
  let main_v59 : FVec F S128 .f32 := Host.absf main_arg13
  let main_cst_22 : FVec F S_ .f32 := constant S_ .f32 0x7F800000#32
  let main_v60 : FVec F S128 .f32 := broadcastInDim S128 ![] bcast_S_S128 main_cst_22
  let main_v61 : IVec S128 1 := cmpf .olt main_v59 main_v60
  let main_c_23 : IVec S_ 1 := constantI S_ 1 1#1
  let main_v62 : IVec S_ 1 := (fun x v => Host.reduce IntOp.andi x v reducesTo_S128_S_d0 h_S_) main_v61 main_c_23
  let main_v63 : IVec S_ 1 := andi main_v58 main_v62
  let main_c_24 : IVec S_ 32 := constantI S_ 32 0#32
  let main_v64 : IVec S2x800000 32 := broadcastInDim S2x800000 ![] bcast_S_S2x800000 main_c_24
  let main_v65 : IVec S2x800000 1 := cmpi .sge main_arg1 main_v64
  let main_c_25 : IVec S_ 1 := constantI S_ 1 1#1
  let main_v66 : IVec S_ 1 := (fun x v => Host.reduce IntOp.andi x v reducesTo_S2x800000_S_d0_1 h_S_) main_v65 main_c_25
  let main_v67 : IVec S_ 1 := andi main_v63 main_v66
  fn_part4 (F := F) main_arg1 main_v67

def fn_part2 {F : FTy → Type} [FloatOps F] (main_arg1 : IVec S2x800000 32) (main_arg8 : FVec F S2x128x256 .f32) (main_arg9 : FVec F S2x128 .f32) (main_arg10 : FVec F S2x128 .f32) (main_arg11 : FVec F S2x128 .f32) (main_arg12 : FVec F S128x128 .f32) (main_arg13 : FVec F S128 .f32) (main_v33 : IVec S_ 1) : IVec S_ 1 :=
  let main_v34 : FVec F S2x128x256 .f32 := Host.absf main_arg8
  let main_cst_12 : FVec F S_ .f32 := constant S_ .f32 0x7F800000#32
  let main_v35 : FVec F S2x128x256 .f32 := broadcastInDim S2x128x256 ![] bcast_S_S2x128x256 main_cst_12
  let main_v36 : IVec S2x128x256 1 := cmpf .olt main_v34 main_v35
  let main_c_13 : IVec S_ 1 := constantI S_ 1 1#1
  let main_v37 : IVec S_ 1 := (fun x v => Host.reduce IntOp.andi x v reducesTo_S2x128x256_S_d0_1_2 h_S_) main_v36 main_c_13
  let main_v38 : IVec S_ 1 := andi main_v33 main_v37
  let main_v39 : FVec F S2x128 .f32 := Host.absf main_arg9
  let main_cst_14 : FVec F S_ .f32 := constant S_ .f32 0x7F800000#32
  let main_v40 : FVec F S2x128 .f32 := broadcastInDim S2x128 ![] bcast_S_S2x128 main_cst_14
  let main_v41 : IVec S2x128 1 := cmpf .olt main_v39 main_v40
  let main_c_15 : IVec S_ 1 := constantI S_ 1 1#1
  let main_v42 : IVec S_ 1 := (fun x v => Host.reduce IntOp.andi x v reducesTo_S2x128_S_d0_1 h_S_) main_v41 main_c_15
  let main_v43 : IVec S_ 1 := andi main_v38 main_v42
  let main_v44 : FVec F S2x128 .f32 := Host.absf main_arg10
  let main_cst_16 : FVec F S_ .f32 := constant S_ .f32 0x7F800000#32
  let main_v45 : FVec F S2x128 .f32 := broadcastInDim S2x128 ![] bcast_S_S2x128 main_cst_16
  let main_v46 : IVec S2x128 1 := cmpf .olt main_v44 main_v45
  let main_c_17 : IVec S_ 1 := constantI S_ 1 1#1
  let main_v47 : IVec S_ 1 := (fun x v => Host.reduce IntOp.andi x v reducesTo_S2x128_S_d0_1 h_S_) main_v46 main_c_17
  let main_v48 : IVec S_ 1 := andi main_v43 main_v47
  let main_v49 : FVec F S2x128 .f32 := Host.absf main_arg11
  let main_cst_18 : FVec F S_ .f32 := constant S_ .f32 0x7F800000#32
  let main_v50 : FVec F S2x128 .f32 := broadcastInDim S2x128 ![] bcast_S_S2x128 main_cst_18
  fn_part3 (F := F) main_arg1 main_arg12 main_arg13 main_v48 main_v49 main_v50

def fn_part1 {F : FTy → Type} [FloatOps F] (main_arg1 : IVec S2x800000 32) (main_arg5 : FVec F S2x128 .f32) (main_arg6 : FVec F S2x128x128 .f32) (main_arg7 : FVec F S2x128 .f32) (main_arg8 : FVec F S2x128x256 .f32) (main_arg9 : FVec F S2x128 .f32) (main_arg10 : FVec F S2x128 .f32) (main_arg11 : FVec F S2x128 .f32) (main_arg12 : FVec F S128x128 .f32) (main_arg13 : FVec F S128 .f32) (main_v13 : IVec S_ 1) (main_v16 : IVec S2x128x256 1) : IVec S_ 1 :=
  let main_c_5 : IVec S_ 1 := constantI S_ 1 1#1
  let main_v17 : IVec S_ 1 := (fun x v => Host.reduce IntOp.andi x v reducesTo_S2x128x256_S_d0_1_2 h_S_) main_v16 main_c_5
  let main_v18 : IVec S_ 1 := andi main_v13 main_v17
  let main_v19 : FVec F S2x128 .f32 := Host.absf main_arg5
  let main_cst_6 : FVec F S_ .f32 := constant S_ .f32 0x7F800000#32
  let main_v20 : FVec F S2x128 .f32 := broadcastInDim S2x128 ![] bcast_S_S2x128 main_cst_6
  let main_v21 : IVec S2x128 1 := cmpf .olt main_v19 main_v20
  let main_c_7 : IVec S_ 1 := constantI S_ 1 1#1
  let main_v22 : IVec S_ 1 := (fun x v => Host.reduce IntOp.andi x v reducesTo_S2x128_S_d0_1 h_S_) main_v21 main_c_7
  let main_v23 : IVec S_ 1 := andi main_v18 main_v22
  let main_v24 : FVec F S2x128x128 .f32 := Host.absf main_arg6
  let main_cst_8 : FVec F S_ .f32 := constant S_ .f32 0x7F800000#32
  let main_v25 : FVec F S2x128x128 .f32 := broadcastInDim S2x128x128 ![] bcast_S_S2x128x128 main_cst_8
  let main_v26 : IVec S2x128x128 1 := cmpf .olt main_v24 main_v25
  let main_c_9 : IVec S_ 1 := constantI S_ 1 1#1
  let main_v27 : IVec S_ 1 := (fun x v => Host.reduce IntOp.andi x v reducesTo_S2x128x128_S_d0_1_2 h_S_) main_v26 main_c_9
  let main_v28 : IVec S_ 1 := andi main_v23 main_v27
  let main_v29 : FVec F S2x128 .f32 := Host.absf main_arg7
  let main_cst_10 : FVec F S_ .f32 := constant S_ .f32 0x7F800000#32
  let main_v30 : FVec F S2x128 .f32 := broadcastInDim S2x128 ![] bcast_S_S2x128 main_cst_10
  let main_v31 : IVec S2x128 1 := cmpf .olt main_v29 main_v30
  let main_c_11 : IVec S_ 1 := constantI S_ 1 1#1
  let main_v32 : IVec S_ 1 := (fun x v => Host.reduce IntOp.andi x v reducesTo_S2x128_S_d0_1 h_S_) main_v31 main_c_11
  let main_v33 : IVec S_ 1 := andi main_v28 main_v32
  fn_part2 (F := F) main_arg1 main_arg8 main_arg9 main_arg10 main_arg11 main_arg12 main_arg13 main_v33

def fn {F : FTy → Type} [FloatOps F] (main_arg0 : FVec F S50000x128 .f32) (main_arg1 : IVec S2x800000 32) (main_arg2 : FVec F S128x128 .f32) (main_arg3 : FVec F S128 .f32) (main_arg4 : FVec F S2x128x256 .f32) (main_arg5 : FVec F S2x128 .f32) (main_arg6 : FVec F S2x128x128 .f32) (main_arg7 : FVec F S2x128 .f32) (main_arg8 : FVec F S2x128x256 .f32) (main_arg9 : FVec F S2x128 .f32) (main_arg10 : FVec F S2x128 .f32) (main_arg11 : FVec F S2x128 .f32) (main_arg12 : FVec F S128x128 .f32) (main_arg13 : FVec F S128 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S128x128 .f32 := Host.absf main_arg2
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S2x128x256 .f32 := Host.absf main_arg4
  let main_cst_4 : FVec F S_ .f32 := constant S_ .f32 0x7F800000#32
  let main_v15 : FVec F S2x128x256 .f32 := broadcastInDim S2x128x256 ![] bcast_S_S2x128x256 main_cst_4
  let main_v16 : IVec S2x128x256 1 := cmpf .olt main_v14 main_v15
  fn_part1 (F := F) main_arg1 main_arg5 main_arg6 main_arg7 main_arg8 main_arg9 main_arg10 main_arg11 main_arg12 main_arg13 main_v13 main_v16
-- ==== Kernel.lean ====
abbrev S50000x128 : Shape := ⟨2, ![50000, 128]⟩
abbrev S2x800000 : Shape := ⟨2, ![2, 800000]⟩
abbrev S128x128 : Shape := ⟨2, ![128, 128]⟩
abbrev S128 : Shape := ⟨1, ![128]⟩
abbrev S2x128x256 : Shape := ⟨3, ![2, 128, 256]⟩
abbrev S2x128 : Shape := ⟨2, ![2, 128]⟩
abbrev S2x128x128 : Shape := ⟨3, ![2, 128, 128]⟩
abbrev S1x800000 : Shape := ⟨2, ![1, 800000]⟩
abbrev S800000 : Shape := ⟨1, ![800000]⟩
abbrev S1x128 : Shape := ⟨2, ![1, 128]⟩
abbrev S5000x128 : Shape := ⟨2, ![5000, 128]⟩
abbrev S_ : Shape := ⟨0, ![]⟩
abbrev S800000x1 : Shape := ⟨2, ![800000, 1]⟩
abbrev S1 : Shape := ⟨1, ![1]⟩
abbrev S1x1 : Shape := ⟨2, ![1, 1]⟩
abbrev S800000x128 : Shape := ⟨2, ![800000, 128]⟩
abbrev S1x128x256 : Shape := ⟨3, ![1, 128, 256]⟩
abbrev S128x256 : Shape := ⟨2, ![128, 256]⟩
abbrev S1x128x128 : Shape := ⟨3, ![1, 128, 128]⟩
abbrev S256x128 : Shape := ⟨2, ![256, 128]⟩
abbrev S4000x128 : Shape := ⟨2, ![4000, 128]⟩
abbrev S4000x256 : Shape := ⟨2, ![4000, 256]⟩
abbrev S5000x256 : Shape := ⟨2, ![5000, 256]⟩
abbrev S5000 : Shape := ⟨1, ![5000]⟩
abbrev S5000x1 : Shape := ⟨2, ![5000, 1]⟩

abbrev nBuf : Space → Nat
  | .hbm => 176
  | .vmem => 52
  | .smem => 0
  | _ => 0

abbrev hbmTy0_0 (i : Nat) : BufTy := match i % 128 with
  | 0 => ⟨S50000x128, .f32⟩
  | 1 => ⟨S2x800000, .i32⟩
  | 2 => ⟨S128x128, .f32⟩
  | 3 => ⟨S128, .f32⟩
  | 4 => ⟨S2x128x256, .f32⟩
  | 5 => ⟨S2x128, .f32⟩
  | 6 => ⟨S2x128x128, .f32⟩
  | 7 => ⟨S2x128, .f32⟩
  | 8 => ⟨S2x128x256, .f32⟩
  | 9 => ⟨S2x128, .f32⟩
  | 10 => ⟨S2x128, .f32⟩
  | 11 => ⟨S2x128, .f32⟩
  | 12 => ⟨S128x128, .f32⟩
  | 13 => ⟨S128, .f32⟩
  | 14 => ⟨S1x800000, .i32⟩
  | 15 => ⟨S800000, .i32⟩
  | 16 => ⟨S1x800000, .i32⟩
  | 17 => ⟨S800000, .i32⟩
  | 18 => ⟨S128x128, .f32⟩
  | 19 => ⟨S1x128, .f32⟩
  | 20 => ⟨S50000x128, .f32⟩
  | 21 => ⟨S_, .i32⟩
  | 22 => ⟨S800000, .i32⟩
  | 23 => ⟨S800000, .i1⟩
  | 24 => ⟨S_, .i32⟩
  | 25 => ⟨S800000, .i32⟩
  | 26 => ⟨S800000, .i32⟩
  | 27 => ⟨S800000, .i32⟩
  | 28 => ⟨S800000x1, .i32⟩
  | 29 => ⟨S1, .i32⟩
  | 30 => ⟨S_, .i32⟩
  | 31 => ⟨S800000x1, .i32⟩
  | 32 => ⟨S800000x1, .i1⟩
  | 33 => ⟨S1x1, .i32⟩
  | 34 => ⟨S800000x1, .i32⟩
  | 35 => ⟨S800000x1, .i1⟩
  | 36 => ⟨S800000x1, .i1⟩
  | 37 => ⟨S_, .i1⟩
  | 38 => ⟨S800000, .i1⟩
  | 39 => ⟨S800000x128, .f32⟩
  | 40 => ⟨S800000x128, .i1⟩
  | 41 => ⟨S_, .f32⟩
  | 42 => ⟨S800000x128, .f32⟩
  | 43 => ⟨S800000x128, .f32⟩
  | 44 => ⟨S_, .i32⟩
  | 45 => ⟨S800000, .i32⟩
  | 46 => ⟨S800000, .i1⟩
  | 47 => ⟨S_, .i32⟩
  | 48 => ⟨S800000, .i32⟩
  | 49 => ⟨S800000, .i32⟩
  | 50 => ⟨S800000, .i32⟩
  | 51 => ⟨S800000x1, .i32⟩
  | 52 => ⟨S1, .i32⟩
  | 53 => ⟨S_, .i32⟩
  | 54 => ⟨S800000x1, .i32⟩
  | 55 => ⟨S800000x1, .i1⟩
  | 56 => ⟨S1x1, .i32⟩
  | 57 => ⟨S800000x1, .i32⟩
  | 58 => ⟨S800000x1, .i1⟩
  | 59 => ⟨S800000x1, .i1⟩
  | 60 => ⟨S_, .i1⟩
  | 61 => ⟨S800000, .i1⟩
  | 62 => ⟨S800000x128, .f32⟩
  | 63 => ⟨S800000x128, .i1⟩
  | 64 => ⟨S_, .f32⟩
  | 65 => ⟨S800000x128, .f32⟩
  | 66 => ⟨S800000x128, .f32⟩
  | 67 => ⟨S1x128x256, .f32⟩
  | 68 => ⟨S128x256, .f32⟩
  | 69 => ⟨S1x128, .f32⟩
  | 70 => ⟨S128, .f32⟩
  | 71 => ⟨S1x128x128, .f32⟩
  | 72 => ⟨S128x128, .f32⟩
  | 73 => ⟨S1x128, .f32⟩
  | 74 => ⟨S128, .f32⟩
  | 75 => ⟨S256x128, .f32⟩
  | 76 => ⟨S128x128, .f32⟩
  | 77 => ⟨S1x128, .f32⟩
  | 78 => ⟨S1x128, .f32⟩
  | 79 => ⟨S800000x128, .f32⟩
  | 80 => ⟨S_, .f32⟩
  | 81 => ⟨S50000x128, .f32⟩
  | 82 => ⟨S800000x1, .i32⟩
  | 83 => ⟨S50000x128, .f32⟩
  | 84 => ⟨S1x128x256, .f32⟩
  | 85 => ⟨S128x256, .f32⟩
  | 86 => ⟨S1x128, .f32⟩
  | 87 => ⟨S128, .f32⟩
  | 88 => ⟨S1x128, .f32⟩
  | 89 => ⟨S128, .f32⟩
  | 90 => ⟨S1x128, .f32⟩
  | 91 => ⟨S128, .f32⟩
  | 92 => ⟨S256x128, .f32⟩
  | 93 => ⟨S1x128, .f32⟩
  | 94 => ⟨S1x128, .f32⟩
  | 95 => ⟨S1x128, .f32⟩
  | 96 => ⟨S50000x128, .f32⟩
  | 97 => ⟨S_, .i32⟩
  | 98 => ⟨S800000, .i32⟩
  | 99 => ⟨S800000, .i1⟩
  | 100 => ⟨S_, .i32⟩
  | 101 => ⟨S800000, .i32⟩
  | 102 => ⟨S800000, .i32⟩
  | 103 => ⟨S800000, .i32⟩
  | 104 => ⟨S800000x1, .i32⟩
  | 105 => ⟨S1, .i32⟩
  | 106 => ⟨S_, .i32⟩
  | 107 => ⟨S800000x1, .i32⟩
  | 108 => ⟨S800000x1, .i1⟩
  | 109 => ⟨S1x1, .i32⟩
  | 110 => ⟨S800000x1, .i32⟩
  | 111 => ⟨S800000x1, .i1⟩
  | 112 => ⟨S800000x1, .i1⟩
  | 113 => ⟨S_, .i1⟩
  | 114 => ⟨S800000, .i1⟩
  | 115 => ⟨S800000x128, .f32⟩
  | 116 => ⟨S800000x128, .i1⟩
  | 117 => ⟨S_, .f32⟩
  | 118 => ⟨S800000x128, .f32⟩
  | 119 => ⟨S800000x128, .f32⟩
  | 120 => ⟨S_, .i32⟩
  | 121 => ⟨S800000, .i32⟩
  | 122 => ⟨S800000, .i1⟩
  | 123 => ⟨S_, .i32⟩
  | 124 => ⟨S800000, .i32⟩
  | 125 => ⟨S800000, .i32⟩
  | 126 => ⟨S800000, .i32⟩
  | 127 => ⟨S800000x1, .i32⟩
  | _ => ⟨S50000x128, .f32⟩

abbrev hbmTy0_1 (i : Nat) : BufTy := match i % 128 with
  | 0 => ⟨S1, .i32⟩
  | 1 => ⟨S_, .i32⟩
  | 2 => ⟨S800000x1, .i32⟩
  | 3 => ⟨S800000x1, .i1⟩
  | 4 => ⟨S1x1, .i32⟩
  | 5 => ⟨S800000x1, .i32⟩
  | 6 => ⟨S800000x1, .i1⟩
  | 7 => ⟨S800000x1, .i1⟩
  | 8 => ⟨S_, .i1⟩
  | 9 => ⟨S800000, .i1⟩
  | 10 => ⟨S800000x128, .f32⟩
  | 11 => ⟨S800000x128, .i1⟩
  | 12 => ⟨S_, .f32⟩
  | 13 => ⟨S800000x128, .f32⟩
  | 14 => ⟨S800000x128, .f32⟩
  | 15 => ⟨S1x128x256, .f32⟩
  | 16 => ⟨S128x256, .f32⟩
  | 17 => ⟨S1x128, .f32⟩
  | 18 => ⟨S128, .f32⟩
  | 19 => ⟨S1x128x128, .f32⟩
  | 20 => ⟨S128x128, .f32⟩
  | 21 => ⟨S1x128, .f32⟩
  | 22 => ⟨S128, .f32⟩
  | 23 => ⟨S256x128, .f32⟩
  | 24 => ⟨S128x128, .f32⟩
  | 25 => ⟨S1x128, .f32⟩
  | 26 => ⟨S1x128, .f32⟩
  | 27 => ⟨S800000x128, .f32⟩
  | 28 => ⟨S_, .f32⟩
  | 29 => ⟨S50000x128, .f32⟩
  | 30 => ⟨S800000x1, .i32⟩
  | 31 => ⟨S50000x128, .f32⟩
  | 32 => ⟨S1x128x256, .f32⟩
  | 33 => ⟨S128x256, .f32⟩
  | 34 => ⟨S1x128, .f32⟩
  | 35 => ⟨S128, .f32⟩
  | 36 => ⟨S1x128, .f32⟩
  | 37 => ⟨S128, .f32⟩
  | 38 => ⟨S1x128, .f32⟩
  | 39 => ⟨S128, .f32⟩
  | 40 => ⟨S256x128, .f32⟩
  | 41 => ⟨S1x128, .f32⟩
  | 42 => ⟨S1x128, .f32⟩
  | 43 => ⟨S1x128, .f32⟩
  | 44 => ⟨S50000x128, .f32⟩
  | 45 => ⟨S128x128, .f32⟩
  | 46 => ⟨S1x128, .f32⟩
  | 47 => ⟨S50000x128, .f32⟩
  | _ => ⟨S50000x128, .f32⟩

abbrev hbmTy (i : Nat) : BufTy := match i / 128 with
  | 0 => hbmTy0_0 i
  | 1 => hbmTy0_1 i
  | _ => ⟨S50000x128, .f32⟩

abbrev bufTy : (tb : Table) → Fin (tcTables nBuf tb) → BufTy
  | .hbm, ⟨i, _⟩ => hbmTy i
  | .local _ .vmem, ⟨0, _⟩ => ⟨S5000x128, .f32⟩
  | .local _ .vmem, ⟨1, _⟩ => ⟨S5000x128, .f32⟩
  | .local _ .vmem, ⟨2, _⟩ => ⟨S128x128, .f32⟩
  | .local _ .vmem, ⟨3, _⟩ => ⟨S1x128, .f32⟩
  | .local _ .vmem, ⟨4, _⟩ => ⟨S5000x128, .f32⟩
  | .local _ .vmem, ⟨5, _⟩ => ⟨S5000x128, .f32⟩
  | .local _ .vmem, ⟨6, _⟩ => ⟨S4000x128, .f32⟩
  | .local _ .vmem, ⟨7, _⟩ => ⟨S4000x128, .f32⟩
  | .local _ .vmem, ⟨8, _⟩ => ⟨S4000x128, .f32⟩
  | .local _ .vmem, ⟨9, _⟩ => ⟨S4000x128, .f32⟩
  | .local _ .vmem, ⟨10, _⟩ => ⟨S256x128, .f32⟩
  | .local _ .vmem, ⟨11, _⟩ => ⟨S1x128, .f32⟩
  | .local _ .vmem, ⟨12, _⟩ => ⟨S128x128, .f32⟩
  | .local _ .vmem, ⟨13, _⟩ => ⟨S1x128, .f32⟩
  | .local _ .vmem, ⟨14, _⟩ => ⟨S4000x128, .f32⟩
  | .local _ .vmem, ⟨15, _⟩ => ⟨S4000x128, .f32⟩
  | .local _ .vmem, ⟨16, _⟩ => ⟨S5000x128, .f32⟩
  | .local _ .vmem, ⟨17, _⟩ => ⟨S5000x128, .f32⟩
  | .local _ .vmem, ⟨18, _⟩ => ⟨S5000x128, .f32⟩
  | .local _ .vmem, ⟨19, _⟩ => ⟨S5000x128, .f32⟩
  | .local _ .vmem, ⟨20, _⟩ => ⟨S256x128, .f32⟩
  | .local _ .vmem, ⟨21, _⟩ => ⟨S1x128, .f32⟩
  | .local _ .vmem, ⟨22, _⟩ => ⟨S1x128, .f32⟩
  | .local _ .vmem, ⟨23, _⟩ => ⟨S1x128, .f32⟩
  | .local _ .vmem, ⟨24, _⟩ => ⟨S5000x128, .f32⟩
  | .local _ .vmem, ⟨25, _⟩ => ⟨S5000x128, .f32⟩
  | .local _ .vmem, ⟨26, _⟩ => ⟨S4000x128, .f32⟩
  | .local _ .vmem, ⟨27, _⟩ => ⟨S4000x128, .f32⟩
  | .local _ .vmem, ⟨28, _⟩ => ⟨S4000x128, .f32⟩
  | .local _ .vmem, ⟨29, _⟩ => ⟨S4000x128, .f32⟩
  | .local _ .vmem, ⟨30, _⟩ => ⟨S256x128, .f32⟩
  | .local _ .vmem, ⟨31, _⟩ => ⟨S1x128, .f32⟩
  | .local _ .vmem, ⟨32, _⟩ => ⟨S128x128, .f32⟩
  | .local _ .vmem, ⟨33, _⟩ => ⟨S1x128, .f32⟩
  | .local _ .vmem, ⟨34, _⟩ => ⟨S4000x128, .f32⟩
  | .local _ .vmem, ⟨35, _⟩ => ⟨S4000x128, .f32⟩
  | .local _ .vmem, ⟨36, _⟩ => ⟨S5000x128, .f32⟩
  | .local _ .vmem, ⟨37, _⟩ => ⟨S5000x128, .f32⟩
  | .local _ .vmem, ⟨38, _⟩ => ⟨S5000x128, .f32⟩
  | .local _ .vmem, ⟨39, _⟩ => ⟨S5000x128, .f32⟩
  | .local _ .vmem, ⟨40, _⟩ => ⟨S256x128, .f32⟩
  | .local _ .vmem, ⟨41, _⟩ => ⟨S1x128, .f32⟩
  | .local _ .vmem, ⟨42, _⟩ => ⟨S1x128, .f32⟩
  | .local _ .vmem, ⟨43, _⟩ => ⟨S1x128, .f32⟩
  | .local _ .vmem, ⟨44, _⟩ => ⟨S5000x128, .f32⟩
  | .local _ .vmem, ⟨45, _⟩ => ⟨S5000x128, .f32⟩
  | .local _ .vmem, ⟨46, _⟩ => ⟨S5000x128, .f32⟩
  | .local _ .vmem, ⟨47, _⟩ => ⟨S5000x128, .f32⟩
  | .local _ .vmem, ⟨48, _⟩ => ⟨S128x128, .f32⟩
  | .local _ .vmem, ⟨49, _⟩ => ⟨S1x128, .f32⟩
  | .local _ .vmem, ⟨50, _⟩ => ⟨S5000x128, .f32⟩
  | .local _ .vmem, ⟨51, _⟩ => ⟨S5000x128, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | _, _ => false

abbrev semScoped : Fin 0 → Bool
  | ⟨_, h⟩ => absurd h (Nat.not_lt_zero _)

abbrev dmaSemScoped : Fin 52 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | _ => false

abbrev sig : RefSig :=
  ofTc nBuf bufTy 0 52 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_call0_c : Ref sig .tc := ⟨.hbm, 21, rfl⟩
abbrev main_call0_v0 : Ref sig .tc := ⟨.hbm, 22, rfl⟩
abbrev main_call0_v1 : Ref sig .tc := ⟨.hbm, 23, rfl⟩
abbrev main_call0_c_0 : Ref sig .tc := ⟨.hbm, 24, rfl⟩
abbrev main_call0_v2 : Ref sig .tc := ⟨.hbm, 25, rfl⟩
abbrev main_call0_v3 : Ref sig .tc := ⟨.hbm, 26, rfl⟩
abbrev main_call0_v4 : Ref sig .tc := ⟨.hbm, 27, rfl⟩
abbrev main_call0_v5 : Ref sig .tc := ⟨.hbm, 28, rfl⟩
abbrev main_call0_c_1 : Ref sig .tc := ⟨.hbm, 29, rfl⟩
abbrev main_call0_c_2 : Ref sig .tc := ⟨.hbm, 30, rfl⟩
abbrev main_call0_v6 : Ref sig .tc := ⟨.hbm, 31, rfl⟩
abbrev main_call0_v7 : Ref sig .tc := ⟨.hbm, 32, rfl⟩
abbrev main_call0_v8 : Ref sig .tc := ⟨.hbm, 33, rfl⟩
abbrev main_call0_v9 : Ref sig .tc := ⟨.hbm, 34, rfl⟩
abbrev main_call0_v10 : Ref sig .tc := ⟨.hbm, 35, rfl⟩
abbrev main_call0_v11 : Ref sig .tc := ⟨.hbm, 36, rfl⟩
abbrev main_call0_c_3 : Ref sig .tc := ⟨.hbm, 37, rfl⟩
abbrev main_call0_v12 : Ref sig .tc := ⟨.hbm, 38, rfl⟩
abbrev main_call0_v13 : Ref sig .tc := ⟨.hbm, 39, rfl⟩
abbrev main_call0_v14 : Ref sig .tc := ⟨.hbm, 40, rfl⟩
abbrev main_call0_cst : Ref sig .tc := ⟨.hbm, 41, rfl⟩
abbrev main_call0_v15 : Ref sig .tc := ⟨.hbm, 42, rfl⟩
abbrev main_v7 : Ref sig .tc := ⟨.hbm, 43, rfl⟩
abbrev main_call1_c : Ref sig .tc := ⟨.hbm, 44, rfl⟩
abbrev main_call1_v0 : Ref sig .tc := ⟨.hbm, 45, rfl⟩
abbrev main_call1_v1 : Ref sig .tc := ⟨.hbm, 46, rfl⟩
abbrev main_call1_c_0 : Ref sig .tc := ⟨.hbm, 47, rfl⟩
abbrev main_call1_v2 : Ref sig .tc := ⟨.hbm, 48, rfl⟩
abbrev main_call1_v3 : Ref sig .tc := ⟨.hbm, 49, rfl⟩
abbrev main_call1_v4 : Ref sig .tc := ⟨.hbm, 50, rfl⟩
abbrev main_call1_v5 : Ref sig .tc := ⟨.hbm, 51, rfl⟩
abbrev main_call1_c_1 : Ref sig .tc := ⟨.hbm, 52, rfl⟩
abbrev main_call1_c_2 : Ref sig .tc := ⟨.hbm, 53, rfl⟩
abbrev main_call1_v6 : Ref sig .tc := ⟨.hbm, 54, rfl⟩
abbrev main_call1_v7 : Ref sig .tc := ⟨.hbm, 55, rfl⟩
abbrev main_call1_v8 : Ref sig .tc := ⟨.hbm, 56, rfl⟩
abbrev main_call1_v9 : Ref sig .tc := ⟨.hbm, 57, rfl⟩
abbrev main_call1_v10 : Ref sig .tc := ⟨.hbm, 58, rfl⟩
abbrev main_call1_v11 : Ref sig .tc := ⟨.hbm, 59, rfl⟩
abbrev main_call1_c_3 : Ref sig .tc := ⟨.hbm, 60, rfl⟩
abbrev main_call1_v12 : Ref sig .tc := ⟨.hbm, 61, rfl⟩
abbrev main_call1_v13 : Ref sig .tc := ⟨.hbm, 62, rfl⟩
abbrev main_call1_v14 : Ref sig .tc := ⟨.hbm, 63, rfl⟩
abbrev main_call1_cst : Ref sig .tc := ⟨.hbm, 64, rfl⟩
abbrev main_call1_v15 : Ref sig .tc := ⟨.hbm, 65, rfl⟩
abbrev main_v8 : Ref sig .tc := ⟨.hbm, 66, rfl⟩
abbrev main_v9 : Ref sig .tc := ⟨.hbm, 67, rfl⟩
abbrev main_v10 : Ref sig .tc := ⟨.hbm, 68, rfl⟩
abbrev main_v11 : Ref sig .tc := ⟨.hbm, 69, rfl⟩
abbrev main_v12 : Ref sig .tc := ⟨.hbm, 70, rfl⟩
abbrev main_v13 : Ref sig .tc := ⟨.hbm, 71, rfl⟩
abbrev main_v14 : Ref sig .tc := ⟨.hbm, 72, rfl⟩
abbrev main_v15 : Ref sig .tc := ⟨.hbm, 73, rfl⟩
abbrev main_v16 : Ref sig .tc := ⟨.hbm, 74, rfl⟩
abbrev main_v17 : Ref sig .tc := ⟨.hbm, 75, rfl⟩
abbrev main_v18 : Ref sig .tc := ⟨.hbm, 76, rfl⟩
abbrev main_v19 : Ref sig .tc := ⟨.hbm, 77, rfl⟩
abbrev main_v20 : Ref sig .tc := ⟨.hbm, 78, rfl⟩
abbrev main_v21 : Ref sig .tc := ⟨.hbm, 79, rfl⟩
abbrev main_cst : Ref sig .tc := ⟨.hbm, 80, rfl⟩
abbrev main_v22 : Ref sig .tc := ⟨.hbm, 81, rfl⟩
abbrev main_v23 : Ref sig .tc := ⟨.hbm, 82, rfl⟩
abbrev main_v24 : Ref sig .tc := ⟨.hbm, 83, rfl⟩
abbrev main_v25 : Ref sig .tc := ⟨.hbm, 84, rfl⟩
abbrev main_v26 : Ref sig .tc := ⟨.hbm, 85, rfl⟩
abbrev main_v27 : Ref sig .tc := ⟨.hbm, 86, rfl⟩
abbrev main_v28 : Ref sig .tc := ⟨.hbm, 87, rfl⟩
abbrev main_v29 : Ref sig .tc := ⟨.hbm, 88, rfl⟩
abbrev main_v30 : Ref sig .tc := ⟨.hbm, 89, rfl⟩
abbrev main_v31 : Ref sig .tc := ⟨.hbm, 90, rfl⟩
abbrev main_v32 : Ref sig .tc := ⟨.hbm, 91, rfl⟩
abbrev main_v33 : Ref sig .tc := ⟨.hbm, 92, rfl⟩
abbrev main_v34 : Ref sig .tc := ⟨.hbm, 93, rfl⟩
abbrev main_v35 : Ref sig .tc := ⟨.hbm, 94, rfl⟩
abbrev main_v36 : Ref sig .tc := ⟨.hbm, 95, rfl⟩
abbrev main_v37 : Ref sig .tc := ⟨.hbm, 96, rfl⟩
abbrev main_call2_c : Ref sig .tc := ⟨.hbm, 97, rfl⟩
abbrev main_call2_v0 : Ref sig .tc := ⟨.hbm, 98, rfl⟩
abbrev main_call2_v1 : Ref sig .tc := ⟨.hbm, 99, rfl⟩
abbrev main_call2_c_0 : Ref sig .tc := ⟨.hbm, 100, rfl⟩
abbrev main_call2_v2 : Ref sig .tc := ⟨.hbm, 101, rfl⟩
abbrev main_call2_v3 : Ref sig .tc := ⟨.hbm, 102, rfl⟩
abbrev main_call2_v4 : Ref sig .tc := ⟨.hbm, 103, rfl⟩
abbrev main_call2_v5 : Ref sig .tc := ⟨.hbm, 104, rfl⟩
abbrev main_call2_c_1 : Ref sig .tc := ⟨.hbm, 105, rfl⟩
abbrev main_call2_c_2 : Ref sig .tc := ⟨.hbm, 106, rfl⟩
abbrev main_call2_v6 : Ref sig .tc := ⟨.hbm, 107, rfl⟩
abbrev main_call2_v7 : Ref sig .tc := ⟨.hbm, 108, rfl⟩
abbrev main_call2_v8 : Ref sig .tc := ⟨.hbm, 109, rfl⟩
abbrev main_call2_v9 : Ref sig .tc := ⟨.hbm, 110, rfl⟩
abbrev main_call2_v10 : Ref sig .tc := ⟨.hbm, 111, rfl⟩
abbrev main_call2_v11 : Ref sig .tc := ⟨.hbm, 112, rfl⟩
abbrev main_call2_c_3 : Ref sig .tc := ⟨.hbm, 113, rfl⟩
abbrev main_call2_v12 : Ref sig .tc := ⟨.hbm, 114, rfl⟩
abbrev main_call2_v13 : Ref sig .tc := ⟨.hbm, 115, rfl⟩
abbrev main_call2_v14 : Ref sig .tc := ⟨.hbm, 116, rfl⟩
abbrev main_call2_cst : Ref sig .tc := ⟨.hbm, 117, rfl⟩
abbrev main_call2_v15 : Ref sig .tc := ⟨.hbm, 118, rfl⟩
abbrev main_v38 : Ref sig .tc := ⟨.hbm, 119, rfl⟩
abbrev main_call3_c : Ref sig .tc := ⟨.hbm, 120, rfl⟩
abbrev main_call3_v0 : Ref sig .tc := ⟨.hbm, 121, rfl⟩
abbrev main_call3_v1 : Ref sig .tc := ⟨.hbm, 122, rfl⟩
abbrev main_call3_c_0 : Ref sig .tc := ⟨.hbm, 123, rfl⟩
abbrev main_call3_v2 : Ref sig .tc := ⟨.hbm, 124, rfl⟩
abbrev main_call3_v3 : Ref sig .tc := ⟨.hbm, 125, rfl⟩
abbrev main_call3_v4 : Ref sig .tc := ⟨.hbm, 126, rfl⟩
abbrev main_call3_v5 : Ref sig .tc := ⟨.hbm, 127, rfl⟩
abbrev main_call3_c_1 : Ref sig .tc := ⟨.hbm, 128, rfl⟩
abbrev main_call3_c_2 : Ref sig .tc := ⟨.hbm, 129, rfl⟩
abbrev main_call3_v6 : Ref sig .tc := ⟨.hbm, 130, rfl⟩
abbrev main_call3_v7 : Ref sig .tc := ⟨.hbm, 131, rfl⟩
abbrev main_call3_v8 : Ref sig .tc := ⟨.hbm, 132, rfl⟩
abbrev main_call3_v9 : Ref sig .tc := ⟨.hbm, 133, rfl⟩
abbrev main_call3_v10 : Ref sig .tc := ⟨.hbm, 134, rfl⟩
abbrev main_call3_v11 : Ref sig .tc := ⟨.hbm, 135, rfl⟩
abbrev main_call3_c_3 : Ref sig .tc := ⟨.hbm, 136, rfl⟩
abbrev main_call3_v12 : Ref sig .tc := ⟨.hbm, 137, rfl⟩
abbrev main_call3_v13 : Ref sig .tc := ⟨.hbm, 138, rfl⟩
abbrev main_call3_v14 : Ref sig .tc := ⟨.hbm, 139, rfl⟩
abbrev main_call3_cst : Ref sig .tc := ⟨.hbm, 140, rfl⟩
abbrev main_call3_v15 : Ref sig .tc := ⟨.hbm, 141, rfl⟩
abbrev main_v39 : Ref sig .tc := ⟨.hbm, 142, rfl⟩
abbrev main_v40 : Ref sig .tc := ⟨.hbm, 143, rfl⟩
abbrev main_v41 : Ref sig .tc := ⟨.hbm, 144, rfl⟩
abbrev main_v42 : Ref sig .tc := ⟨.hbm, 145, rfl⟩
abbrev main_v43 : Ref sig .tc := ⟨.hbm, 146, rfl⟩
abbrev main_v44 : Ref sig .tc := ⟨.hbm, 147, rfl⟩
abbrev main_v45 : Ref sig .tc := ⟨.hbm, 148, rfl⟩
abbrev main_v46 : Ref sig .tc := ⟨.hbm, 149, rfl⟩
abbrev main_v47 : Ref sig .tc := ⟨.hbm, 150, rfl⟩
abbrev main_v48 : Ref sig .tc := ⟨.hbm, 151, rfl⟩
abbrev main_v49 : Ref sig .tc := ⟨.hbm, 152, rfl⟩
abbrev main_v50 : Ref sig .tc := ⟨.hbm, 153, rfl⟩
abbrev main_v51 : Ref sig .tc := ⟨.hbm, 154, rfl⟩
abbrev main_v52 : Ref sig .tc := ⟨.hbm, 155, rfl⟩
abbrev main_cst_0 : Ref sig .tc := ⟨.hbm, 156, rfl⟩
abbrev main_v53 : Ref sig .tc := ⟨.hbm, 157, rfl⟩
abbrev main_v54 : Ref sig .tc := ⟨.hbm, 158, rfl⟩
abbrev main_v55 : Ref sig .tc := ⟨.hbm, 159, rfl⟩
abbrev main_v56 : Ref sig .tc := ⟨.hbm, 160, rfl⟩
abbrev main_v57 : Ref sig .tc := ⟨.hbm, 161, rfl⟩
abbrev main_v58 : Ref sig .tc := ⟨.hbm, 162, rfl⟩
abbrev main_v59 : Ref sig .tc := ⟨.hbm, 163, rfl⟩
abbrev main_v60 : Ref sig .tc := ⟨.hbm, 164, rfl⟩
abbrev main_v61 : Ref sig .tc := ⟨.hbm, 165, rfl⟩
abbrev main_v62 : Ref sig .tc := ⟨.hbm, 166, rfl⟩
abbrev main_v63 : Ref sig .tc := ⟨.hbm, 167, rfl⟩
abbrev main_v64 : Ref sig .tc := ⟨.hbm, 168, rfl⟩
abbrev main_v65 : Ref sig .tc := ⟨.hbm, 169, rfl⟩
abbrev main_v66 : Ref sig .tc := ⟨.hbm, 170, rfl⟩
abbrev main_v67 : Ref sig .tc := ⟨.hbm, 171, rfl⟩
abbrev main_v68 : Ref sig .tc := ⟨.hbm, 172, rfl⟩
abbrev main_v69 : Ref sig .tc := ⟨.hbm, 173, rfl⟩
abbrev main_v70 : Ref sig .tc := ⟨.hbm, 174, rfl⟩
abbrev main_v71 : Ref sig .tc := ⟨.hbm, 175, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg3_0 : Ref sig .tc := ⟨.vmem, 11, rfl⟩
abbrev cc1_stg4_0 : Ref sig .tc := ⟨.vmem, 12, rfl⟩
abbrev cc1_stg5_0 : Ref sig .tc := ⟨.vmem, 13, rfl⟩
abbrev cc1_stg6_0 : Ref sig .tc := ⟨.vmem, 14, rfl⟩
abbrev cc1_stg6_1 : Ref sig .tc := ⟨.vmem, 15, rfl⟩
abbrev cc2_stg0_0 : Ref sig .tc := ⟨.vmem, 16, rfl⟩
abbrev cc2_stg0_1 : Ref sig .tc := ⟨.vmem, 17, rfl⟩
abbrev cc2_stg1_0 : Ref sig .tc := ⟨.vmem, 18, rfl⟩
abbrev cc2_stg1_1 : Ref sig .tc := ⟨.vmem, 19, rfl⟩
abbrev cc2_stg2_0 : Ref sig .tc := ⟨.vmem, 20, rfl⟩
abbrev cc2_stg3_0 : Ref sig .tc := ⟨.vmem, 21, rfl⟩
abbrev cc2_stg4_0 : Ref sig .tc := ⟨.vmem, 22, rfl⟩
abbrev cc2_stg5_0 : Ref sig .tc := ⟨.vmem, 23, rfl⟩
abbrev cc2_stg6_0 : Ref sig .tc := ⟨.vmem, 24, rfl⟩
abbrev cc2_stg6_1 : Ref sig .tc := ⟨.vmem, 25, rfl⟩
abbrev cc3_stg0_0 : Ref sig .tc := ⟨.vmem, 26, rfl⟩
abbrev cc3_stg0_1 : Ref sig .tc := ⟨.vmem, 27, rfl⟩
abbrev cc3_stg1_0 : Ref sig .tc := ⟨.vmem, 28, rfl⟩
abbrev cc3_stg1_1 : Ref sig .tc := ⟨.vmem, 29, rfl⟩
abbrev cc3_stg2_0 : Ref sig .tc := ⟨.vmem, 30, rfl⟩
abbrev cc3_stg3_0 : Ref sig .tc := ⟨.vmem, 31, rfl⟩
abbrev cc3_stg4_0 : Ref sig .tc := ⟨.vmem, 32, rfl⟩
abbrev cc3_stg5_0 : Ref sig .tc := ⟨.vmem, 33, rfl⟩
abbrev cc3_stg6_0 : Ref sig .tc := ⟨.vmem, 34, rfl⟩
abbrev cc3_stg6_1 : Ref sig .tc := ⟨.vmem, 35, rfl⟩
abbrev cc4_stg0_0 : Ref sig .tc := ⟨.vmem, 36, rfl⟩
abbrev cc4_stg0_1 : Ref sig .tc := ⟨.vmem, 37, rfl⟩
abbrev cc4_stg1_0 : Ref sig .tc := ⟨.vmem, 38, rfl⟩
abbrev cc4_stg1_1 : Ref sig .tc := ⟨.vmem, 39, rfl⟩
abbrev cc4_stg2_0 : Ref sig .tc := ⟨.vmem, 40, rfl⟩
abbrev cc4_stg3_0 : Ref sig .tc := ⟨.vmem, 41, rfl⟩
abbrev cc4_stg4_0 : Ref sig .tc := ⟨.vmem, 42, rfl⟩
abbrev cc4_stg5_0 : Ref sig .tc := ⟨.vmem, 43, rfl⟩
abbrev cc4_stg6_0 : Ref sig .tc := ⟨.vmem, 44, rfl⟩
abbrev cc4_stg6_1 : Ref sig .tc := ⟨.vmem, 45, rfl⟩
abbrev cc5_stg0_0 : Ref sig .tc := ⟨.vmem, 46, rfl⟩
abbrev cc5_stg0_1 : Ref sig .tc := ⟨.vmem, 47, rfl⟩
abbrev cc5_stg1_0 : Ref sig .tc := ⟨.vmem, 48, rfl⟩
abbrev cc5_stg2_0 : Ref sig .tc := ⟨.vmem, 49, rfl⟩
abbrev cc5_stg3_0 : Ref sig .tc := ⟨.vmem, 50, rfl⟩
abbrev cc5_stg3_1 : Ref sig .tc := ⟨.vmem, 51, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem3_0 : DmaSem sig := 11
abbrev cc1_sem4_0 : DmaSem sig := 12
abbrev cc1_sem5_0 : DmaSem sig := 13
abbrev cc1_sem6_0 : DmaSem sig := 14
abbrev cc1_sem6_1 : DmaSem sig := 15
abbrev cc2_sem0_0 : DmaSem sig := 16
abbrev cc2_sem0_1 : DmaSem sig := 17
abbrev cc2_sem1_0 : DmaSem sig := 18
abbrev cc2_sem1_1 : DmaSem sig := 19
abbrev cc2_sem2_0 : DmaSem sig := 20
abbrev cc2_sem3_0 : DmaSem sig := 21
abbrev cc2_sem4_0 : DmaSem sig := 22
abbrev cc2_sem5_0 : DmaSem sig := 23
abbrev cc2_sem6_0 : DmaSem sig := 24
abbrev cc2_sem6_1 : DmaSem sig := 25
abbrev cc3_sem0_0 : DmaSem sig := 26
abbrev cc3_sem0_1 : DmaSem sig := 27
abbrev cc3_sem1_0 : DmaSem sig := 28
abbrev cc3_sem1_1 : DmaSem sig := 29
abbrev cc3_sem2_0 : DmaSem sig := 30
abbrev cc3_sem3_0 : DmaSem sig := 31
abbrev cc3_sem4_0 : DmaSem sig := 32
abbrev cc3_sem5_0 : DmaSem sig := 33
abbrev cc3_sem6_0 : DmaSem sig := 34
abbrev cc3_sem6_1 : DmaSem sig := 35
abbrev cc4_sem0_0 : DmaSem sig := 36
abbrev cc4_sem0_1 : DmaSem sig := 37
abbrev cc4_sem1_0 : DmaSem sig := 38
abbrev cc4_sem1_1 : DmaSem sig := 39
abbrev cc4_sem2_0 : DmaSem sig := 40
abbrev cc4_sem3_0 : DmaSem sig := 41
abbrev cc4_sem4_0 : DmaSem sig := 42
abbrev cc4_sem5_0 : DmaSem sig := 43
abbrev cc4_sem6_0 : DmaSem sig := 44
abbrev cc4_sem6_1 : DmaSem sig := 45
abbrev cc5_sem0_0 : DmaSem sig := 46
abbrev cc5_sem0_1 : DmaSem sig := 47
abbrev cc5_sem1_0 : DmaSem sig := 48
abbrev cc5_sem2_0 : DmaSem sig := 49
abbrev cc5_sem3_0 : DmaSem sig := 50
abbrev cc5_sem3_1 : DmaSem sig := 51

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S5000x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![200], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S4000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S4000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S256x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S128x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1x128 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 2 → Memref sig .tc .vmem S4000x128 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S5000x128 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S256x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x128 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S1x128 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 2 → Memref sig .tc .vmem S5000x128 .f32 := fun | 0 => Memref.whole cc2_stg6_0 | 1 => Memref.whole cc2_stg6_1 | ⟨_ + 2, h⟩ => absurd h (Nat.not_lt.2 (Nat.le_add_left _ _))
abbrev sem2_6 : Fin 2 → DmaSem sig := fun | 0 => cc2_sem6_0 | 1 => cc2_sem6_1 | ⟨_ + 2, h⟩ => absurd h (Nat.not_lt.2 (Nat.le_add_left _ _))
abbrev reads2_6 : Fin grid2.rank → Bool := ![true]

abbrev grid3 : Pipeline.Grid := ⟨1, ![200], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_6 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S4000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S4000x128 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 1 → Memref sig .tc .vmem S256x128 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S1x128 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S128x128 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 1 → Memref sig .tc .vmem S1x128 .f32 := fun | 0 => Memref.whole cc3_stg5_0 | ⟨_ + 1, h⟩ => absurd h (Nat.not_lt.2 (Nat.le_add_left _ _))
abbrev sem3_5 : Fin 1 → DmaSem sig := fun | 0 => cc3_sem5_0 | ⟨_ + 1, h⟩ => absurd h (Nat.not_lt.2 (Nat.le_add_left _ _))
abbrev reads3_5 : Fin grid3.rank → Bool := ![false]

abbrev stage3_6 : Fin 2 → Memref sig .tc .vmem S4000x128 .f32 := fun | 0 => Memref.whole cc3_stg6_0 | 1 => Memref.whole cc3_stg6_1 | ⟨_ + 2, h⟩ => absurd h (Nat.not_lt.2 (Nat.le_add_left _ _))
abbrev sem3_6 : Fin 2 → DmaSem sig := fun | 0 => cc3_sem6_0 | 1 => cc3_sem6_1 | ⟨_ + 2, h⟩ => absurd h (Nat.not_lt.2 (Nat.le_add_left _ _))
abbrev reads3_6 : Fin grid3.rank → Bool := ![true]

abbrev grid4 : Pipeline.Grid := ⟨1, ![10], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_4 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_5 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_6 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S5000x128 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 2 → Memref sig .tc .vmem S5000x128 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

abbrev stage4_2 : Fin 1 → Memref sig .tc .vmem S256x128 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 1 → Memref sig .tc .vmem S1x128 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false]

abbrev stage4_4 : Fin 1 → Memref sig .tc .vmem S1x128 .f32 := fun | 0 => Memref.whole cc4_stg4_0 | ⟨_ + 1, h⟩ => absurd h (Nat.not_lt.2 (Nat.le_add_left _ _))
abbrev sem4_4 : Fin 1 → DmaSem sig := fun | 0 => cc4_sem4_0 | ⟨_ + 1, h⟩ => absurd h (Nat.not_lt.2 (Nat.le_add_left _ _))
abbrev reads4_4 : Fin grid4.rank → Bool := ![false]

abbrev stage4_5 : Fin 1 → Memref sig .tc .vmem S1x128 .f32 := fun | 0 => Memref.whole cc4_stg5_0 | ⟨_ + 1, h⟩ => absurd h (Nat.not_lt.2 (Nat.le_add_left _ _))
abbrev sem4_5 : Fin 1 → DmaSem sig := fun | 0 => cc4_sem5_0 | ⟨_ + 1, h⟩ => absurd h (Nat.not_lt.2 (Nat.le_add_left _ _))
abbrev reads4_5 : Fin grid4.rank → Bool := ![false]

abbrev stage4_6 : Fin 2 → Memref sig .tc .vmem S5000x128 .f32 := fun | 0 => Memref.whole cc4_stg6_0 | 1 => Memref.whole cc4_stg6_1 | ⟨_ + 2, h⟩ => absurd h (Nat.not_lt.2 (Nat.le_add_left _ _))
abbrev sem4_6 : Fin 2 → DmaSem sig := fun | 0 => cc4_sem6_0 | 1 => cc4_sem6_1 | ⟨_ + 2, h⟩ => absurd h (Nat.not_lt.2 (Nat.le_add_left _ _))
abbrev reads4_6 : Fin grid4.rank → Bool := ![true]

abbrev grid5 : Pipeline.Grid := ⟨1, ![10], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_2 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_3 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S5000x128 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 1 → Memref sig .tc .vmem S128x128 .f32 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false]

abbrev stage5_2 : Fin 1 → Memref sig .tc .vmem S1x128 .f32 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![false]

abbrev stage5_3 : Fin 2 → Memref sig .tc .vmem S5000x128 .f32 := fun | 0 => Memref.whole cc5_stg3_0 | 1 => Memref.whole cc5_stg3_1 | ⟨_ + 2, h⟩ => absurd h (Nat.not_lt.2 (Nat.le_add_left _ _))
abbrev sem5_3 : Fin 2 → DmaSem sig := fun | 0 => cc5_sem3_0 | 1 => cc5_sem3_1 | ⟨_ + 2, h⟩ => absurd h (Nat.not_lt.2 (Nat.le_add_left _ _))
abbrev reads5_3 : Fin grid5.rank → Bool := ![true]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  transposes_S128x128_S128x128_1_0 : S128x128.Transposes [1, 0] S128x128
  shapeCasts_S128_S1x128 : S128.ShapeCasts S1x128
  inb_S5000x128_S5000x128_0_0 : ∀ a, (![0, 0] : Fin 2 → Nat) a + S5000x128.size a ≤ S5000x128.size a
  h_S5000x128 : 0 < S5000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  bcast_S_S800000 : S_.BroadcastsInDim S800000 (![] : Fin 0 → Fin S800000.rank)
  bcast_S800000_S800000x1_0 : S800000.BroadcastsInDim S800000x1 (![0] : Fin 1 → Fin S800000x1.rank)
  bcast_S_S800000x1 : S_.BroadcastsInDim S800000x1 (![] : Fin 0 → Fin S800000x1.rank)
  bcast_S1_S1x1_1 : S1.BroadcastsInDim S1x1 (![1] : Fin 1 → Fin S1x1.rank)
  bcast_S1x1_S800000x1_0_1 : S1x1.BroadcastsInDim S800000x1 (![0, 1] : Fin 2 → Fin S800000x1.rank)
  reducesTo_S800000x1_S800000_d1 : S800000x1.ReducesTo [1] S800000
  h_S_ : 0 < S_.numel
  bcast_S800000_S800000x128_0 : S800000.BroadcastsInDim S800000x128 (![0] : Fin 1 → Fin S800000x128.rank)
  bcast_S_S800000x128 : S_.BroadcastsInDim S800000x128 (![] : Fin 0 → Fin S800000x128.rank)
  slices_S2x128x256_S1x128x256_0_0_0 : S2x128x256.Slices ![0, 0, 0] S1x128x256
  shapeCasts_S1x128x256_S128x256 : S1x128x256.ShapeCasts S128x256
  slices_S2x128_S1x128_0_0 : S2x128.Slices ![0, 0] S1x128
  shapeCasts_S1x128_S128 : S1x128.ShapeCasts S128
  slices_S2x128x128_S1x128x128_0_0_0 : S2x128x128.Slices ![0, 0, 0] S1x128x128
  shapeCasts_S1x128x128_S128x128 : S1x128x128.ShapeCasts S128x128
  transposes_S128x256_S256x128_1_0 : S128x256.Transposes [1, 0] S256x128
  inb_S4000x128_S4000x128_0_0 : ∀ a, (![0, 0] : Fin 2 → Nat) a + S4000x128.size a ≤ S4000x128.size a
  h_S4000x128 : 0 < S4000x128.numel
  shapeCasts_S4000x128_S4000x128 : S4000x128.ShapeCasts S4000x128
  concatenates_S4000x128_S4000x128_S4000x256_d1 : Shape.Concatenates [S4000x128, S4000x128] S4000x256 1
  inb_S256x128_S256x128_0_0 : ∀ a, (![0, 0] : Fin 2 → Nat) a + S256x128.size a ≤ S256x128.size a
  h_S256x128 : 0 < S256x128.numel
  shapeCasts_S256x128_S256x128 : S256x128.ShapeCasts S256x128
  broadcasts_S1x128_S4000x128 : S1x128.Broadcasts S4000x128
  bcast_S_S50000x128 : S_.BroadcastsInDim S50000x128 (![] : Fin 0 → Fin S50000x128.rank)
  shapeCasts_S5000x128_S5000x128 : S5000x128.ShapeCasts S5000x128
  concatenates_S5000x128_S5000x128_S5000x256_d1 : Shape.Concatenates [S5000x128, S5000x128] S5000x256 1
  reduces_S5000x128_S5000 : S5000x128.Reduces [1] S5000
  shapeCasts_S5000_S5000x1 : S5000.ShapeCasts S5000x1
  broadcasts_S5000x1_S5000x128 : S5000x1.Broadcasts S5000x128
  slices_S2x128x256_S1x128x256_1_0_0 : S2x128x256.Slices ![1, 0, 0] S1x128x256
  slices_S2x128_S1x128_1_0 : S2x128.Slices ![1, 0] S1x128
  slices_S2x128x128_S1x128x128_1_0_0 : S2x128x128.Slices ![1, 0, 0] S1x128x128
  dot_S5000x128_S128x128_S5000x128_1_0_0_1_n_n_wf : DotDims.WF S5000x128 S128x128 S5000x128 [1] [0] [0] [1] [] []
  gather_S50000x128_S800000x1_S800000x128_1_0_n_n_0_1_1128_wf : GatherDims.WF S50000x128 S800000x1 S800000x128 [1] [0] [] [0] [] 1 ![1, 128]
  dot_S4000x256_S256x128_S4000x128_1_0_0_1_n_n_wf : DotDims.WF S4000x256 S256x128 S4000x128 [1] [0] [0] [1] [] []
  dot_S4000x128_S128x128_S4000x128_1_0_0_1_n_n_wf : DotDims.WF S4000x128 S128x128 S4000x128 [1] [0] [0] [1] [] []
  scatter_S50000x128_S800000x1_S800000x128_1_0_0_1_wf : ScatterDims.WF S50000x128 S800000x1 S800000x128 [1] [0] [0] 1
  dot_S5000x256_S256x128_S5000x128_1_0_0_1_n_n_wf : DotDims.WF S5000x256 S256x128 S5000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S50000x128.size a
  hwx0_0 : ∀ i : grid0.Coords, EltTy.bits .f32 = 32 ∨ (Rect.block (s := S50000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x128.size a ≤ S1x128.size a
  hwx0_2 : ∀ i : grid0.Coords, EltTy.bits .f32 = 32 ∨ (Rect.block (s := S1x128) S1x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S5000x128.size a ≤ S50000x128.size a
  hwx0_3 : ∀ i : grid0.Coords, EltTy.bits .f32 = 32 ∨ (Rect.block (s := S50000x128) S5000x128.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S4000x128.size a ≤ S800000x128.size a
  hwx1_0 : ∀ i : grid1.Coords, EltTy.bits .f32 = 32 ∨ (Rect.block (s := S800000x128) S4000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S4000x128.size a ≤ S800000x128.size a
  hwx1_1 : ∀ i : grid1.Coords, EltTy.bits .f32 = 32 ∨ (Rect.block (s := S800000x128) S4000x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S256x128.size a ≤ S256x128.size a
  hwx1_2 : ∀ i : grid1.Coords, EltTy.bits .f32 = 32 ∨ (Rect.block (s := S256x128) S256x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x128.size a ≤ S1x128.size a
  hwx1_3 : ∀ i : grid1.Coords, EltTy.bits .f32 = 32 ∨ (Rect.block (s := S1x128) S1x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S128x128.size a ≤ S128x128.size a
  hwx1_4 : ∀ i : grid1.Coords, EltTy.bits .f32 = 32 ∨ (Rect.block (s := S128x128) S128x128.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x128.size a ≤ S1x128.size a
  hwx1_5 : ∀ i : grid1.Coords, EltTy.bits .f32 = 32 ∨ (Rect.block (s := S1x128) S1x128.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S4000x128.size a ≤ S800000x128.size a
  hwx1_6 : ∀ i : grid1.Coords, EltTy.bits .f32 = 32 ∨ (Rect.block (s := S800000x128) S4000x128.size (cc1_transform_6 i) (hinb1_6 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S50000x128.size a
  hwx2_0 : ∀ i : grid2.Coords, EltTy.bits .f32 = 32 ∨ (Rect.block (s := S50000x128) S5000x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S5000x128.size a ≤ S50000x128.size a
  hwx2_1 : ∀ i : grid2.Coords, EltTy.bits .f32 = 32 ∨ (Rect.block (s := S50000x128) S5000x128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S256x128.size a ≤ S256x128.size a
  hwx2_2 : ∀ i : grid2.Coords, EltTy.bits .f32 = 32 ∨ (Rect.block (s := S256x128) S256x128.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x128.size a ≤ S1x128.size a
  hwx2_3 : ∀ i : grid2.Coords, EltTy.bits .f32 = 32 ∨ (Rect.block (s := S1x128) S1x128.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x128.size a ≤ S1x128.size a
  hwx2_4 : ∀ i : grid2.Coords, EltTy.bits .f32 = 32 ∨ (Rect.block (s := S1x128) S1x128.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S1x128.size a ≤ S1x128.size a
  hwx2_5 : ∀ i : grid2.Coords, EltTy.bits .f32 = 32 ∨ (Rect.block (s := S1x128) S1x128.size (cc2_transform_5 i) (hinb2_5 i)).WholeWords (EltTy.packing .f32)
  hstage2_6 : ∀ j, (stage2_6 j).IsWhole
  nbuf2_6 : grid2.bufCount reads2_6 false = 2
  hreads2_6 : ∀ i i' : grid2.Coords, (∀ a, reads2_6 a = true → i a = i' a) → cc2_transform_6 i = cc2_transform_6 i'
  hinb2_6 : ∀ (i : grid2.Coords) a, (cc2_transform_6 i a + 1) * S5000x128.size a ≤ S50000x128.size a
  hwx2_6 : ∀ i : grid2.Coords, EltTy.bits .f32 = 32 ∨ (Rect.block (s := S50000x128) S5000x128.size (cc2_transform_6 i) (hinb2_6 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S4000x128.size a ≤ S800000x128.size a
  hwx3_0 : ∀ i : grid3.Coords, EltTy.bits .f32 = 32 ∨ (Rect.block (s := S800000x128) S4000x128.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S4000x128.size a ≤ S800000x128.size a
  hwx3_1 : ∀ i : grid3.Coords, EltTy.bits .f32 = 32 ∨ (Rect.block (s := S800000x128) S4000x128.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S256x128.size a ≤ S256x128.size a
  hwx3_2 : ∀ i : grid3.Coords, EltTy.bits .f32 = 32 ∨ (Rect.block (s := S256x128) S256x128.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S1x128.size a ≤ S1x128.size a
  hwx3_3 : ∀ i : grid3.Coords, EltTy.bits .f32 = 32 ∨ (Rect.block (s := S1x128) S1x128.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S128x128.size a ≤ S128x128.size a
  hwx3_4 : ∀ i : grid3.Coords, EltTy.bits .f32 = 32 ∨ (Rect.block (s := S128x128) S128x128.size (cc3_transform_4 i) (hinb3_4 i)).WholeWords (EltTy.packing .f32)
  hstage3_5 : ∀ j, (stage3_5 j).IsWhole
  nbuf3_5 : grid3.bufCount reads3_5 true = 1
  hreads3_5 : ∀ i i' : grid3.Coords, (∀ a, reads3_5 a = true → i a = i' a) → cc3_transform_5 i = cc3_transform_5 i'
  hinb3_5 : ∀ (i : grid3.Coords) a, (cc3_transform_5 i a + 1) * S1x128.size a ≤ S1x128.size a
  hwx3_5 : ∀ i : grid3.Coords, EltTy.bits .f32 = 32 ∨ (Rect.block (s := S1x128) S1x128.size (cc3_transform_5 i) (hinb3_5 i)).WholeWords (EltTy.packing .f32)
  hstage3_6 : ∀ j, (stage3_6 j).IsWhole
  nbuf3_6 : grid3.bufCount reads3_6 false = 2
  hreads3_6 : ∀ i i' : grid3.Coords, (∀ a, reads3_6 a = true → i a = i' a) → cc3_transform_6 i = cc3_transform_6 i'
  hinb3_6 : ∀ (i : grid3.Coords) a, (cc3_transform_6 i a + 1) * S4000x128.size a ≤ S800000x128.size a
  hwx3_6 : ∀ i : grid3.Coords, EltTy.bits .f32 = 32 ∨ (Rect.block (s := S800000x128) S4000x128.size (cc3_transform_6 i) (hinb3_6 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S5000x128.size a ≤ S50000x128.size a
  hwx4_0 : ∀ i : grid4.Coords, EltTy.bits .f32 = 32 ∨ (Rect.block (s := S50000x128) S5000x128.size (cc4_transform_0 i) (hinb4_0 i)).WholeWords (EltTy.packing .f32)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S5000x128.size a ≤ S50000x128.size a
  hwx4_1 : ∀ i : grid4.Coords, EltTy.bits .f32 = 32 ∨ (Rect.block (s := S50000x128) S5000x128.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S256x128.size a ≤ S256x128.size a
  hwx4_2 : ∀ i : grid4.Coords, EltTy.bits .f32 = 32 ∨ (Rect.block (s := S256x128) S256x128.size (cc4_transform_2 i) (hinb4_2 i)).WholeWords (EltTy.packing .f32)
  hstage4_3 : ∀ j, (stage4_3 j).IsWhole
  nbuf4_3 : grid4.bufCount reads4_3 true = 1
  hreads4_3 : ∀ i i' : grid4.Coords, (∀ a, reads4_3 a = true → i a = i' a) → cc4_transform_3 i = cc4_transform_3 i'
  hinb4_3 : ∀ (i : grid4.Coords) a, (cc4_transform_3 i a + 1) * S1x128.size a ≤ S1x128.size a
  hwx4_3 : ∀ i : grid4.Coords, EltTy.bits .f32 = 32 ∨ (Rect.block (s := S1x128) S1x128.size (cc4_transform_3 i) (hinb4_3 i)).WholeWords (EltTy.packing .f32)
  hstage4_4 : ∀ j, (stage4_4 j).IsWhole
  nbuf4_4 : grid4.bufCount reads4_4 true = 1
  hreads4_4 : ∀ i i' : grid4.Coords, (∀ a, reads4_4 a = true → i a = i' a) → cc4_transform_4 i = cc4_transform_4 i'
  hinb4_4 : ∀ (i : grid4.Coords) a, (cc4_transform_4 i a + 1) * S1x128.size a ≤ S1x128.size a
  hwx4_4 : ∀ i : grid4.Coords, EltTy.bits .f32 = 32 ∨ (Rect.block (s := S1x128) S1x128.size (cc4_transform_4 i) (hinb4_4 i)).WholeWords (EltTy.packing .f32)
  hstage4_5 : ∀ j, (stage4_5 j).IsWhole
  nbuf4_5 : grid4.bufCount reads4_5 true = 1
  hreads4_5 : ∀ i i' : grid4.Coords, (∀ a, reads4_5 a = true → i a = i' a) → cc4_transform_5 i = cc4_transform_5 i'
  hinb4_5 : ∀ (i : grid4.Coords) a, (cc4_transform_5 i a + 1) * S1x128.size a ≤ S1x128.size a
  hwx4_5 : ∀ i : grid4.Coords, EltTy.bits .f32 = 32 ∨ (Rect.block (s := S1x128) S1x128.size (cc4_transform_5 i) (hinb4_5 i)).WholeWords (EltTy.packing .f32)
  hstage4_6 : ∀ j, (stage4_6 j).IsWhole
  nbuf4_6 : grid4.bufCount reads4_6 false = 2
  hreads4_6 : ∀ i i' : grid4.Coords, (∀ a, reads4_6 a = true → i a = i' a) → cc4_transform_6 i = cc4_transform_6 i'
  hinb4_6 : ∀ (i : grid4.Coords) a, (cc4_transform_6 i a + 1) * S5000x128.size a ≤ S50000x128.size a
  hwx4_6 : ∀ i : grid4.Coords, EltTy.bits .f32 = 32 ∨ (Rect.block (s := S50000x128) S5000x128.size (cc4_transform_6 i) (hinb4_6 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S5000x128.size a ≤ S50000x128.size a
  hwx5_0 : ∀ i : grid5.Coords, EltTy.bits .f32 = 32 ∨ (Rect.block (s := S50000x128) S5000x128.size (cc5_transform_0 i) (hinb5_0 i)).WholeWords (EltTy.packing .f32)
  hstage5_1 : ∀ j, (stage5_1 j).IsWhole
  nbuf5_1 : grid5.bufCount reads5_1 true = 1
  hreads5_1 : ∀ i i' : grid5.Coords, (∀ a, reads5_1 a = true → i a = i' a) → cc5_transform_1 i = cc5_transform_1 i'
  hinb5_1 : ∀ (i : grid5.Coords) a, (cc5_transform_1 i a + 1) * S128x128.size a ≤ S128x128.size a
  hwx5_1 : ∀ i : grid5.Coords, EltTy.bits .f32 = 32 ∨ (Rect.block (s := S128x128) S128x128.size (cc5_transform_1 i) (hinb5_1 i)).WholeWords (EltTy.packing .f32)
  hstage5_2 : ∀ j, (stage5_2 j).IsWhole
  nbuf5_2 : grid5.bufCount reads5_2 true = 1
  hreads5_2 : ∀ i i' : grid5.Coords, (∀ a, reads5_2 a = true → i a = i' a) → cc5_transform_2 i = cc5_transform_2 i'
  hinb5_2 : ∀ (i : grid5.Coords) a, (cc5_transform_2 i a + 1) * S1x128.size a ≤ S1x128.size a
  hwx5_2 : ∀ i : grid5.Coords, EltTy.bits .f32 = 32 ∨ (Rect.block (s := S1x128) S1x128.size (cc5_transform_2 i) (hinb5_2 i)).WholeWords (EltTy.packing .f32)
  hstage5_3 : ∀ j, (stage5_3 j).IsWhole
  nbuf5_3 : grid5.bufCount reads5_3 false = 2
  hreads5_3 : ∀ i i' : grid5.Coords, (∀ a, reads5_3 a = true → i a = i' a) → cc5_transform_3 i = cc5_transform_3 i'
  hinb5_3 : ∀ (i : grid5.Coords) a, (cc5_transform_3 i a + 1) * S5000x128.size a ≤ S50000x128.size a
  hwx5_3 : ∀ i : grid5.Coords, EltTy.bits .f32 = 32 ∨ (Rect.block (s := S50000x128) S5000x128.size (cc5_transform_3 i) (hinb5_3 i)).WholeWords (EltTy.packing .f32)

variable [Facts₀]

def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def dot_S4000x256_S256x128_S4000x128_1_0_0_1_n_n : DotDims S4000x256 S256x128 S4000x128 where
  lhsContracting := [1]
  rhsContracting := [0]
  lhsNonContracting := [0]
  rhsNonContracting := [1]
  lhsBatch := []
  rhsBatch := []
  wf := dot_S4000x256_S256x128_S4000x128_1_0_0_1_n_n_wf
def dot_S4000x128_S128x128_S4000x128_1_0_0_1_n_n : DotDims S4000x128 S128x128 S4000x128 where
  lhsContracting := [1]
  rhsContracting := [0]
  lhsNonContracting := [0]
  rhsNonContracting := [1]
  lhsBatch := []
  rhsBatch := []
  wf := dot_S4000x128_S128x128_S4000x128_1_0_0_1_n_n_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S5000x256_S256x128_S5000x128_1_0_0_1_n_n : DotDims S5000x256 S256x128 S5000x128 where
  lhsContracting := [1]
  rhsContracting := [0]
  lhsNonContracting := [0]
  rhsNonContracting := [1]
  lhsBatch := []
  rhsBatch := []
  wf := dot_S5000x256_S256x128_S5000x128_1_0_0_1_n_n_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v4) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v5) S1x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v6) S5000x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v7) S4000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v8) S4000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v17) S256x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v19) S1x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v18) S128x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v20) S1x128.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v21) S4000x128.size cc1_transform_6 reads1_6 true false 2 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

abbrev win2_0 : Pipeline.Window sig grid2 :=
  Pipeline.Window.ofSpec (Memref.whole main_v6) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v24) S5000x128.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v33) S256x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v34) S1x128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v35) S1x128.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v36) S1x128.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v37) S5000x128.size cc2_transform_6 reads2_6 true false 2 stage2_6 sem2_6
    hrank2 hreads2_6 hinb2_6 nbuf2_6 (Memref.isWhole_whole _) hwx2_6 hstage2_6

abbrev win2 : Fin 7 → Pipeline.Window sig grid2 := fun | 0 => win2_0 | 1 => win2_1 | 2 => win2_2 | 3 => win2_3 | 4 => win2_4 | 5 => win2_5 | 6 => win2_6 | ⟨_ + 7, h⟩ => absurd h (Nat.not_lt.2 (Nat.le_add_left _ _))
abbrev spec2 : Fin 7 → Pipeline.WinSpec sig grid2.rank := fun w => (win2 w).toWinSpec

abbrev win3_0 : Pipeline.Window sig grid3 :=
  Pipeline.Window.ofSpec (Memref.whole main_v38) S4000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v39) S4000x128.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v48) S256x128.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v50) S1x128.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v49) S128x128.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v51) S1x128.size cc3_transform_5 reads3_5 false true 1 stage3_5 sem3_5
    hrank3 hreads3_5 hinb3_5 nbuf3_5 (Memref.isWhole_whole _) hwx3_5 hstage3_5

abbrev win3_6 : Pipeline.Window sig grid3 :=
  Pipeline.Window.ofSpec (Memref.whole main_v52) S4000x128.size cc3_transform_6 reads3_6 true false 2 stage3_6 sem3_6
    hrank3 hreads3_6 hinb3_6 nbuf3_6 (Memref.isWhole_whole _) hwx3_6 hstage3_6

abbrev win3 : Fin 7 → Pipeline.Window sig grid3 := fun | 0 => win3_0 | 1 => win3_1 | 2 => win3_2 | 3 => win3_3 | 4 => win3_4 | 5 => win3_5 | 6 => win3_6 | ⟨_ + 7, h⟩ => absurd h (Nat.not_lt.2 (Nat.le_add_left _ _))
abbrev spec3 : Fin 7 → Pipeline.WinSpec sig grid3.rank := fun w => (win3 w).toWinSpec

abbrev win4_0 : Pipeline.Window sig grid4 :=
  Pipeline.Window.ofSpec (Memref.whole main_v37) S5000x128.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v55) S5000x128.size cc4_transform_1 reads4_1 false false 2 stage4_1 sem4_1
    hrank4 hreads4_1 hinb4_1 nbuf4_1 (Memref.isWhole_whole _) hwx4_1 hstage4_1

abbrev win4_2 : Pipeline.Window sig grid4 :=
  Pipeline.Window.ofSpec (Memref.whole main_v64) S256x128.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_v65) S1x128.size cc4_transform_3 reads4_3 false true 1 stage4_3 sem4_3
    hrank4 hreads4_3 hinb4_3 nbuf4_3 (Memref.isWhole_whole _) hwx4_3 hstage4_3

abbrev win4_4 : Pipeline.Window sig grid4 :=
  Pipeline.Window.ofSpec (Memref.whole main_v66) S1x128.size cc4_transform_4 reads4_4 false true 1 stage4_4 sem4_4
    hrank4 hreads4_4 hinb4_4 nbuf4_4 (Memref.isWhole_whole _) hwx4_4 hstage4_4

abbrev win4_5 : Pipeline.Window sig grid4 :=
  Pipeline.Window.ofSpec (Memref.whole main_v67) S1x128.size cc4_transform_5 reads4_5 false true 1 stage4_5 sem4_5
    hrank4 hreads4_5 hinb4_5 nbuf4_5 (Memref.isWhole_whole _) hwx4_5 hstage4_5

abbrev win4_6 : Pipeline.Window sig grid4 :=
  Pipeline.Window.ofSpec (Memref.whole main_v68) S5000x128.size cc4_transform_6 reads4_6 true false 2 stage4_6 sem4_6
    hrank4 hreads4_6 hinb4_6 nbuf4_6 (Memref.isWhole_whole _) hwx4_6 hstage4_6

abbrev win4 : Fin 7 → Pipeline.Window sig grid4 := fun | 0 => win4_0 | 1 => win4_1 | 2 => win4_2 | 3 => win4_3 | 4 => win4_4 | 5 => win4_5 | 6 => win4_6 | ⟨_ + 7, h⟩ => absurd h (Nat.not_lt.2 (Nat.le_add_left _ _))
abbrev spec4 : Fin 7 → Pipeline.WinSpec sig grid4.rank := fun w => (win4 w).toWinSpec

abbrev win5_0 : Pipeline.Window sig grid5 :=
  Pipeline.Window.ofSpec (Memref.whole main_v68) S5000x128.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v69) S128x128.size cc5_transform_1 reads5_1 false true 1 stage5_1 sem5_1
    hrank5 hreads5_1 hinb5_1 nbuf5_1 (Memref.isWhole_whole _) hwx5_1 hstage5_1

abbrev win5_2 : Pipeline.Window sig grid5 :=
  Pipeline.Window.ofSpec (Memref.whole main_v70) S1x128.size cc5_transform_2 reads5_2 false true 1 stage5_2 sem5_2
    hrank5 hreads5_2 hinb5_2 nbuf5_2 (Memref.isWhole_whole _) hwx5_2 hstage5_2

abbrev win5_3 : Pipeline.Window sig grid5 :=
  Pipeline.Window.ofSpec (Memref.whole main_v71) S5000x128.size cc5_transform_3 reads5_3 true false 2 stage5_3 sem5_3
    hrank5 hreads5_3 hinb5_3 nbuf5_3 (Memref.isWhole_whole _) hwx5_3 hstage5_3

abbrev win5 : Fin 4 → Pipeline.Window sig grid5 := fun | 0 => win5_0 | 1 => win5_1 | 2 => win5_2 | 3 => win5_3 | ⟨_ + 4, h⟩ => absurd h (Nat.not_lt.2 (Nat.le_add_left _ _))
abbrev spec5 : Fin 4 → Pipeline.WinSpec sig grid5.rank := fun w => (win5 w).toWinSpec

class Facts : Prop extends Facts₀ where

variable [Facts]
-- ==== ReferenceIdeal.lean ====
abbrev S50000x128 : Shape := ⟨2, ![50000, 128]⟩
abbrev S2x800000 : Shape := ⟨2, ![2, 800000]⟩
abbrev S128x128 : Shape := ⟨2, ![128, 128]⟩
abbrev S128 : Shape := ⟨1, ![128]⟩
abbrev S2x128x256 : Shape := ⟨3, ![2, 128, 256]⟩
abbrev S2x128 : Shape := ⟨2, ![2, 128]⟩
abbrev S2x128x128 : Shape := ⟨3, ![2, 128, 128]⟩
abbrev S1x800000 : Shape := ⟨2, ![1, 800000]⟩
abbrev S800000 : Shape := ⟨1, ![800000]⟩
abbrev S1x128 : Shape := ⟨2, ![1, 128]⟩
abbrev S_ : Shape := ⟨0, ![]⟩
abbrev S800000x1 : Shape := ⟨2, ![800000, 1]⟩
abbrev S800000x128 : Shape := ⟨2, ![800000, 128]⟩
abbrev S800000x256 : Shape := ⟨2, ![800000, 256]⟩
abbrev S1x128x256 : Shape := ⟨3, ![1, 128, 256]⟩
abbrev S128x256 : Shape := ⟨2, ![128, 256]⟩
abbrev S256x128 : Shape := ⟨2, ![256, 128]⟩
abbrev S1x128x128 : Shape := ⟨3, ![1, 128, 128]⟩
abbrev S50000x256 : Shape := ⟨2, ![50000, 256]⟩
abbrev S50000 : Shape := ⟨1, ![50000]⟩
abbrev S50000x1 : Shape := ⟨2, ![50000, 1]⟩

abbrev nBuf : Space → Nat
  | .hbm => 204
  | .vmem => 0
  | .smem => 0
  | _ => 0

abbrev hbmTy0_0 (i : Nat) : BufTy := match i % 128 with
  | 0 => ⟨S50000x128, .f32⟩
  | 1 => ⟨S2x800000, .i32⟩
  | 2 => ⟨S128x128, .f32⟩
  | 3 => ⟨S128, .f32⟩
  | 4 => ⟨S2x128x256, .f32⟩
  | 5 => ⟨S2x128, .f32⟩
  | 6 => ⟨S2x128x128, .f32⟩
  | 7 => ⟨S2x128, .f32⟩
  | 8 => ⟨S2x128x256, .f32⟩
  | 9 => ⟨S2x128, .f32⟩
  | 10 => ⟨S2x128, .f32⟩
  | 11 => ⟨S2x128, .f32⟩
  | 12 => ⟨S128x128, .f32⟩
  | 13 => ⟨S128, .f32⟩
  | 14 => ⟨S1x800000, .i32⟩
  | 15 => ⟨S800000, .i32⟩
  | 16 => ⟨S1x800000, .i32⟩
  | 17 => ⟨S800000, .i32⟩
  | 18 => ⟨S128x128, .f32⟩
  | 19 => ⟨S50000x128, .f32⟩
  | 20 => ⟨S1x128, .f32⟩
  | 21 => ⟨S50000x128, .f32⟩
  | 22 => ⟨S50000x128, .f32⟩
  | 23 => ⟨S_, .i32⟩
  | 24 => ⟨S800000, .i32⟩
  | 25 => ⟨S800000, .i1⟩
  | 26 => ⟨S_, .i32⟩
  | 27 => ⟨S800000, .i32⟩
  | 28 => ⟨S800000, .i32⟩
  | 29 => ⟨S800000, .i32⟩
  | 30 => ⟨S800000x1, .i32⟩
  | 31 => ⟨S800000x128, .f32⟩
  | 32 => ⟨S_, .i32⟩
  | 33 => ⟨S800000, .i32⟩
  | 34 => ⟨S800000, .i1⟩
  | 35 => ⟨S_, .i32⟩
  | 36 => ⟨S800000, .i32⟩
  | 37 => ⟨S800000, .i32⟩
  | 38 => ⟨S800000, .i32⟩
  | 39 => ⟨S800000x1, .i32⟩
  | 40 => ⟨S800000x128, .f32⟩
  | 41 => ⟨S800000x256, .f32⟩
  | 42 => ⟨S1x128x256, .f32⟩
  | 43 => ⟨S128x256, .f32⟩
  | 44 => ⟨S256x128, .f32⟩
  | 45 => ⟨S800000x128, .f32⟩
  | 46 => ⟨S1x128, .f32⟩
  | 47 => ⟨S128, .f32⟩
  | 48 => ⟨S1x128, .f32⟩
  | 49 => ⟨S800000x128, .f32⟩
  | 50 => ⟨S800000x128, .f32⟩
  | 51 => ⟨S_, .f32⟩
  | 52 => ⟨S800000x128, .f32⟩
  | 53 => ⟨S800000x128, .f32⟩
  | 54 => ⟨S1x128x128, .f32⟩
  | 55 => ⟨S128x128, .f32⟩
  | 56 => ⟨S128x128, .f32⟩
  | 57 => ⟨S800000x128, .f32⟩
  | 58 => ⟨S1x128, .f32⟩
  | 59 => ⟨S128, .f32⟩
  | 60 => ⟨S1x128, .f32⟩
  | 61 => ⟨S800000x128, .f32⟩
  | 62 => ⟨S800000x128, .f32⟩
  | 63 => ⟨S_, .f32⟩
  | 64 => ⟨S50000x128, .f32⟩
  | 65 => ⟨S800000x1, .i32⟩
  | 66 => ⟨S50000x128, .f32⟩
  | 67 => ⟨S50000x256, .f32⟩
  | 68 => ⟨S1x128x256, .f32⟩
  | 69 => ⟨S128x256, .f32⟩
  | 70 => ⟨S256x128, .f32⟩
  | 71 => ⟨S50000x128, .f32⟩
  | 72 => ⟨S1x128, .f32⟩
  | 73 => ⟨S128, .f32⟩
  | 74 => ⟨S1x128, .f32⟩
  | 75 => ⟨S50000x128, .f32⟩
  | 76 => ⟨S50000x128, .f32⟩
  | 77 => ⟨S50000x128, .f32⟩
  | 78 => ⟨S1x128, .f32⟩
  | 79 => ⟨S128, .f32⟩
  | 80 => ⟨S1x128, .f32⟩
  | 81 => ⟨S128, .f32⟩
  | 82 => ⟨S_, .f32⟩
  | 83 => ⟨S50000, .f32⟩
  | 84 => ⟨S50000x1, .f32⟩
  | 85 => ⟨S_, .f32⟩
  | 86 => ⟨S50000x1, .f32⟩
  | 87 => ⟨S50000x1, .f32⟩
  | 88 => ⟨S50000x128, .f32⟩
  | 89 => ⟨S50000x128, .f32⟩
  | 90 => ⟨S50000x128, .f32⟩
  | 91 => ⟨S_, .f32⟩
  | 92 => ⟨S50000, .f32⟩
  | 93 => ⟨S50000x1, .f32⟩
  | 94 => ⟨S_, .f32⟩
  | 95 => ⟨S50000x1, .f32⟩
  | 96 => ⟨S50000x1, .f32⟩
  | 97 => ⟨S50000x128, .f32⟩
  | 98 => ⟨S50000x128, .f32⟩
  | 99 => ⟨S_, .f32⟩
  | 100 => ⟨S50000x1, .f32⟩
  | 101 => ⟨S50000x1, .f32⟩
  | 102 => ⟨S50000x1, .f32⟩
  | 103 => ⟨S50000x128, .f32⟩
  | 104 => ⟨S50000x128, .f32⟩
  | 105 => ⟨S1x128, .f32⟩
  | 106 => ⟨S50000x128, .f32⟩
  | 107 => ⟨S50000x128, .f32⟩
  | 108 => ⟨S1x128, .f32⟩
  | 109 => ⟨S50000x128, .f32⟩
  | 110 => ⟨S50000x128, .f32⟩
  | 111 => ⟨S_, .i32⟩
  | 112 => ⟨S800000, .i32⟩
  | 113 => ⟨S800000, .i1⟩
  | 114 => ⟨S_, .i32⟩
  | 115 => ⟨S800000, .i32⟩
  | 116 => ⟨S800000, .i32⟩
  | 117 => ⟨S800000, .i32⟩
  | 118 => ⟨S800000x1, .i32⟩
  | 119 => ⟨S800000x128, .f32⟩
  | 120 => ⟨S_, .i32⟩
  | 121 => ⟨S800000, .i32⟩
  | 122 => ⟨S800000, .i1⟩
  | 123 => ⟨S_, .i32⟩
  | 124 => ⟨S800000, .i32⟩
  | 125 => ⟨S800000, .i32⟩
  | 126 => ⟨S800000, .i32⟩
  | 127 => ⟨S800000x1, .i32⟩
  | _ => ⟨S50000x128, .f32⟩

abbrev hbmTy0_1 (i : Nat) : BufTy := match i % 128 with
  | 0 => ⟨S800000x128, .f32⟩
  | 1 => ⟨S800000x256, .f32⟩
  | 2 => ⟨S1x128x256, .f32⟩
  | 3 => ⟨S128x256, .f32⟩
  | 4 => ⟨S256x128, .f32⟩
  | 5 => ⟨S800000x128, .f32⟩
  | 6 => ⟨S1x128, .f32⟩
  | 7 => ⟨S128, .f32⟩
  | 8 => ⟨S1x128, .f32⟩
  | 9 => ⟨S800000x128, .f32⟩
  | 10 => ⟨S800000x128, .f32⟩
  | 11 => ⟨S_, .f32⟩
  | 12 => ⟨S800000x128, .f32⟩
  | 13 => ⟨S800000x128, .f32⟩
  | 14 => ⟨S1x128x128, .f32⟩
  | 15 => ⟨S128x128, .f32⟩
  | 16 => ⟨S128x128, .f32⟩
  | 17 => ⟨S800000x128, .f32⟩
  | 18 => ⟨S1x128, .f32⟩
  | 19 => ⟨S128, .f32⟩
  | 20 => ⟨S1x128, .f32⟩
  | 21 => ⟨S800000x128, .f32⟩
  | 22 => ⟨S800000x128, .f32⟩
  | 23 => ⟨S_, .f32⟩
  | 24 => ⟨S50000x128, .f32⟩
  | 25 => ⟨S800000x1, .i32⟩
  | 26 => ⟨S50000x128, .f32⟩
  | 27 => ⟨S50000x256, .f32⟩
  | 28 => ⟨S1x128x256, .f32⟩
  | 29 => ⟨S128x256, .f32⟩
  | 30 => ⟨S256x128, .f32⟩
  | 31 => ⟨S50000x128, .f32⟩
  | 32 => ⟨S1x128, .f32⟩
  | 33 => ⟨S128, .f32⟩
  | 34 => ⟨S1x128, .f32⟩
  | 35 => ⟨S50000x128, .f32⟩
  | 36 => ⟨S50000x128, .f32⟩
  | 37 => ⟨S50000x128, .f32⟩
  | 38 => ⟨S1x128, .f32⟩
  | 39 => ⟨S128, .f32⟩
  | 40 => ⟨S1x128, .f32⟩
  | 41 => ⟨S128, .f32⟩
  | 42 => ⟨S_, .f32⟩
  | 43 => ⟨S50000, .f32⟩
  | 44 => ⟨S50000x1, .f32⟩
  | 45 => ⟨S_, .f32⟩
  | 46 => ⟨S50000x1, .f32⟩
  | 47 => ⟨S50000x1, .f32⟩
  | 48 => ⟨S50000x128, .f32⟩
  | 49 => ⟨S50000x128, .f32⟩
  | 50 => ⟨S50000x128, .f32⟩
  | 51 => ⟨S_, .f32⟩
  | 52 => ⟨S50000, .f32⟩
  | 53 => ⟨S50000x1, .f32⟩
  | 54 => ⟨S_, .f32⟩
  | 55 => ⟨S50000x1, .f32⟩
  | 56 => ⟨S50000x1, .f32⟩
  | 57 => ⟨S50000x128, .f32⟩
  | 58 => ⟨S50000x128, .f32⟩
  | 59 => ⟨S_, .f32⟩
  | 60 => ⟨S50000x1, .f32⟩
  | 61 => ⟨S50000x1, .f32⟩
  | 62 => ⟨S50000x1, .f32⟩
  | 63 => ⟨S50000x128, .f32⟩
  | 64 => ⟨S50000x128, .f32⟩
  | 65 => ⟨S1x128, .f32⟩
  | 66 => ⟨S50000x128, .f32⟩
  | 67 => ⟨S50000x128, .f32⟩
  | 68 => ⟨S1x128, .f32⟩
  | 69 => ⟨S50000x128, .f32⟩
  | 70 => ⟨S50000x128, .f32⟩
  | 71 => ⟨S128x128, .f32⟩
  | 72 => ⟨S50000x128, .f32⟩
  | 73 => ⟨S1x128, .f32⟩
  | 74 => ⟨S50000x128, .f32⟩
  | 75 => ⟨S50000x128, .f32⟩
  | _ => ⟨S50000x128, .f32⟩

abbrev hbmTy (i : Nat) : BufTy := match i / 128 with
  | 0 => hbmTy0_0 i
  | 1 => hbmTy0_1 i
  | _ => ⟨S50000x128, .f32⟩

abbrev bufTy : (tb : Table) → Fin (tcTables nBuf tb) → BufTy
  | .hbm, ⟨i, _⟩ => hbmTy i
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_c : Ref sig .tc := ⟨.hbm, 23, rfl⟩
abbrev main_v9 : Ref sig .tc := ⟨.hbm, 24, rfl⟩
abbrev main_v10 : Ref sig .tc := ⟨.hbm, 25, rfl⟩
abbrev main_c_0 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_c_1 : Ref sig .tc := ⟨.hbm, 32, rfl⟩
abbrev main_v16 : Ref sig .tc := ⟨.hbm, 33, rfl⟩
abbrev main_v17 : Ref sig .tc := ⟨.hbm, 34, rfl⟩
abbrev main_c_2 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_call0_cst : Ref sig .tc := ⟨.hbm, 51, rfl⟩
abbrev main_call0_v0 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_cst : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev main_v57 : Ref sig .tc := ⟨.hbm, 78, rfl⟩
abbrev main_v58 : Ref sig .tc := ⟨.hbm, 79, rfl⟩
abbrev main_v59 : Ref sig .tc := ⟨.hbm, 80, rfl⟩
abbrev main_v60 : Ref sig .tc := ⟨.hbm, 81, rfl⟩
abbrev main_cst_3 : Ref sig .tc := ⟨.hbm, 82, rfl⟩
abbrev main_v61 : Ref sig .tc := ⟨.hbm, 83, rfl⟩
abbrev main_v62 : Ref sig .tc := ⟨.hbm, 84, rfl⟩
abbrev main_cst_4 : Ref sig .tc := ⟨.hbm, 85, rfl⟩
abbrev main_v63 : Ref sig .tc := ⟨.hbm, 86, rfl⟩
abbrev main_v64 : Ref sig .tc := ⟨.hbm, 87, rfl⟩
abbrev main_v65 : Ref sig .tc := ⟨.hbm, 88, rfl⟩
abbrev main_v66 : Ref sig .tc := ⟨.hbm, 89, rfl⟩
abbrev main_v67 : Ref sig .tc := ⟨.hbm, 90, rfl⟩
abbrev main_cst_5 : Ref sig .tc := ⟨.hbm, 91, rfl⟩
abbrev main_v68 : Ref sig .tc := ⟨.hbm, 92, rfl⟩
abbrev main_v69 : Ref sig .tc := ⟨.hbm, 93, rfl⟩
abbrev main_cst_6 : Ref sig .tc := ⟨.hbm, 94, rfl⟩
abbrev main_v70 : Ref sig .tc := ⟨.hbm, 95, rfl⟩
abbrev main_v71 : Ref sig .tc := ⟨.hbm, 96, rfl⟩
abbrev main_v72 : Ref sig .tc := ⟨.hbm, 97, rfl⟩
abbrev main_v73 : Ref sig .tc := ⟨.hbm, 98, rfl⟩
abbrev main_cst_7 : Ref sig .tc := ⟨.hbm, 99, rfl⟩
abbrev main_v74 : Ref sig .tc := ⟨.hbm, 100, rfl⟩
abbrev main_v75 : Ref sig .tc := ⟨.hbm, 101, rfl⟩
abbrev main_v76 : Ref sig .tc := ⟨.hbm, 102, rfl⟩
abbrev main_v77 : Ref sig .tc := ⟨.hbm, 103, rfl⟩
abbrev main_v78 : Ref sig .tc := ⟨.hbm, 104, rfl⟩
abbrev main_v79 : Ref sig .tc := ⟨.hbm, 105, rfl⟩
abbrev main_v80 : Ref sig .tc := ⟨.hbm, 106, rfl⟩
abbrev main_v81 : Ref sig .tc := ⟨.hbm, 107, rfl⟩
abbrev main_v82 : Ref sig .tc := ⟨.hbm, 108, rfl⟩
abbrev main_v83 : Ref sig .tc := ⟨.hbm, 109, rfl⟩
abbrev main_v84 : Ref sig .tc := ⟨.hbm, 110, rfl⟩
abbrev main_c_8 : Ref sig .tc := ⟨.hbm, 111, rfl⟩
abbrev main_v85 : Ref sig .tc := ⟨.hbm, 112, rfl⟩
abbrev main_v86 : Ref sig .tc := ⟨.hbm, 113, rfl⟩
abbrev main_c_9 : Ref sig .tc := ⟨.hbm, 114, rfl⟩
abbrev main_v87 : Ref sig .tc := ⟨.hbm, 115, rfl⟩
abbrev main_v88 : Ref sig .tc := ⟨.hbm, 116, rfl⟩
abbrev main_v89 : Ref sig .tc := ⟨.hbm, 117, rfl⟩
abbrev main_v90 : Ref sig .tc := ⟨.hbm, 118, rfl⟩
abbrev main_v91 : Ref sig .tc := ⟨.hbm, 119, rfl⟩
abbrev main_c_10 : Ref sig .tc := ⟨.hbm, 120, rfl⟩
abbrev main_v92 : Ref sig .tc := ⟨.hbm, 121, rfl⟩
abbrev main_v93 : Ref sig .tc := ⟨.hbm, 122, rfl⟩
abbrev main_c_11 : Ref sig .tc := ⟨.hbm, 123, rfl⟩
abbrev main_v94 : Ref sig .tc := ⟨.hbm, 124, rfl⟩
abbrev main_v95 : Ref sig .tc := ⟨.hbm, 125, rfl⟩
abbrev main_v96 : Ref sig .tc := ⟨.hbm, 126, rfl⟩
abbrev main_v97 : Ref sig .tc := ⟨.hbm, 127, rfl⟩
abbrev main_v98 : Ref sig .tc := ⟨.hbm, 128, rfl⟩
abbrev main_v99 : Ref sig .tc := ⟨.hbm, 129, rfl⟩
abbrev main_v100 : Ref sig .tc := ⟨.hbm, 130, rfl⟩
abbrev main_v101 : Ref sig .tc := ⟨.hbm, 131, rfl⟩
abbrev main_v102 : Ref sig .tc := ⟨.hbm, 132, rfl⟩
abbrev main_v103 : Ref sig .tc := ⟨.hbm, 133, rfl⟩
abbrev main_v104 : Ref sig .tc := ⟨.hbm, 134, rfl⟩
abbrev main_v105 : Ref sig .tc := ⟨.hbm, 135, rfl⟩
abbrev main_v106 : Ref sig .tc := ⟨.hbm, 136, rfl⟩
abbrev main_v107 : Ref sig .tc := ⟨.hbm, 137, rfl⟩
abbrev main_v108 : Ref sig .tc := ⟨.hbm, 138, rfl⟩
abbrev main_call1_cst : Ref sig .tc := ⟨.hbm, 139, rfl⟩
abbrev main_call1_v0 : Ref sig .tc := ⟨.hbm, 140, rfl⟩
abbrev main_v109 : Ref sig .tc := ⟨.hbm, 141, rfl⟩
abbrev main_v110 : Ref sig .tc := ⟨.hbm, 142, rfl⟩
abbrev main_v111 : Ref sig .tc := ⟨.hbm, 143, rfl⟩
abbrev main_v112 : Ref sig .tc := ⟨.hbm, 144, rfl⟩
abbrev main_v113 : Ref sig .tc := ⟨.hbm, 145, rfl⟩
abbrev main_v114 : Ref sig .tc := ⟨.hbm, 146, rfl⟩
abbrev main_v115 : Ref sig .tc := ⟨.hbm, 147, rfl⟩
abbrev main_v116 : Ref sig .tc := ⟨.hbm, 148, rfl⟩
abbrev main_v117 : Ref sig .tc := ⟨.hbm, 149, rfl⟩
abbrev main_v118 : Ref sig .tc := ⟨.hbm, 150, rfl⟩
abbrev main_cst_12 : Ref sig .tc := ⟨.hbm, 151, rfl⟩
abbrev main_v119 : Ref sig .tc := ⟨.hbm, 152, rfl⟩
abbrev main_v120 : Ref sig .tc := ⟨.hbm, 153, rfl⟩
abbrev main_v121 : Ref sig .tc := ⟨.hbm, 154, rfl⟩
abbrev main_v122 : Ref sig .tc := ⟨.hbm, 155, rfl⟩
abbrev main_v123 : Ref sig .tc := ⟨.hbm, 156, rfl⟩
abbrev main_v124 : Ref sig .tc := ⟨.hbm, 157, rfl⟩
abbrev main_v125 : Ref sig .tc := ⟨.hbm, 158, rfl⟩
abbrev main_v126 : Ref sig .tc := ⟨.hbm, 159, rfl⟩
abbrev main_v127 : Ref sig .tc := ⟨.hbm, 160, rfl⟩
abbrev main_v128 : Ref sig .tc := ⟨.hbm, 161, rfl⟩
abbrev main_v129 : Ref sig .tc := ⟨.hbm, 162, rfl⟩
abbrev main_v130 : Ref sig .tc := ⟨.hbm, 163, rfl⟩
abbrev main_v131 : Ref sig .tc := ⟨.hbm, 164, rfl⟩
abbrev main_v132 : Ref sig .tc := ⟨.hbm, 165, rfl⟩
abbrev main_v133 : Ref sig .tc := ⟨.hbm, 166, rfl⟩
abbrev main_v134 : Ref sig .tc := ⟨.hbm, 167, rfl⟩
abbrev main_v135 : Ref sig .tc := ⟨.hbm, 168, rfl⟩
abbrev main_v136 : Ref sig .tc := ⟨.hbm, 169, rfl⟩
abbrev main_cst_13 : Ref sig .tc := ⟨.hbm, 170, rfl⟩
abbrev main_v137 : Ref sig .tc := ⟨.hbm, 171, rfl⟩
abbrev main_v138 : Ref sig .tc := ⟨.hbm, 172, rfl⟩
abbrev main_cst_14 : Ref sig .tc := ⟨.hbm, 173, rfl⟩
abbrev main_v139 : Ref sig .tc := ⟨.hbm, 174, rfl⟩
abbrev main_v140 : Ref sig .tc := ⟨.hbm, 175, rfl⟩
abbrev main_v141 : Ref sig .tc := ⟨.hbm, 176, rfl⟩
abbrev main_v142 : Ref sig .tc := ⟨.hbm, 177, rfl⟩
abbrev main_v143 : Ref sig .tc := ⟨.hbm, 178, rfl⟩
abbrev main_cst_15 : Ref sig .tc := ⟨.hbm, 179, rfl⟩
abbrev main_v144 : Ref sig .tc := ⟨.hbm, 180, rfl⟩
abbrev main_v145 : Ref sig .tc := ⟨.hbm, 181, rfl⟩
abbrev main_cst_16 : Ref sig .tc := ⟨.hbm, 182, rfl⟩
abbrev main_v146 : Ref sig .tc := ⟨.hbm, 183, rfl⟩
abbrev main_v147 : Ref sig .tc := ⟨.hbm, 184, rfl⟩
abbrev main_v148 : Ref sig .tc := ⟨.hbm, 185, rfl⟩
abbrev main_v149 : Ref sig .tc := ⟨.hbm, 186, rfl⟩
abbrev main_cst_17 : Ref sig .tc := ⟨.hbm, 187, rfl⟩
abbrev main_v150 : Ref sig .tc := ⟨.hbm, 188, rfl⟩
abbrev main_v151 : Ref sig .tc := ⟨.hbm, 189, rfl⟩
abbrev main_v152 : Ref sig .tc := ⟨.hbm, 190, rfl⟩
abbrev main_v153 : Ref sig .tc := ⟨.hbm, 191, rfl⟩
abbrev main_v154 : Ref sig .tc := ⟨.hbm, 192, rfl⟩
abbrev main_v155 : Ref sig .tc := ⟨.hbm, 193, rfl⟩
abbrev main_v156 : Ref sig .tc := ⟨.hbm, 194, rfl⟩
abbrev main_v157 : Ref sig .tc := ⟨.hbm, 195, rfl⟩
abbrev main_v158 : Ref sig .tc := ⟨.hbm, 196, rfl⟩
abbrev main_v159 : Ref sig .tc := ⟨.hbm, 197, rfl⟩
abbrev main_v160 : Ref sig .tc := ⟨.hbm, 198, rfl⟩
abbrev main_v161 : Ref sig .tc := ⟨.hbm, 199, rfl⟩
abbrev main_v162 : Ref sig .tc := ⟨.hbm, 200, rfl⟩
abbrev main_v163 : Ref sig .tc := ⟨.hbm, 201, rfl⟩
abbrev main_v164 : Ref sig .tc := ⟨.hbm, 202, rfl⟩
abbrev main_v165 : Ref sig .tc := ⟨.hbm, 203, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  transposes_S128x128_S128x128_1_0 : S128x128.Transposes [1, 0] S128x128
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  bcast_S_S800000 : S_.BroadcastsInDim S800000 (![] : Fin 0 → Fin S800000.rank)
  bcast_S800000_S800000x1_0 : S800000.BroadcastsInDim S800000x1 (![0] : Fin 1 → Fin S800000x1.rank)
  concatenates_S800000x128_S800000x128_S800000x256_d1 : Shape.Concatenates [S800000x128, S800000x128] S800000x256 1
  slices_S2x128x256_S1x128x256_0_0_0 : S2x128x256.Slices ![0, 0, 0] S1x128x256
  shapeCasts_S1x128x256_S128x256 : S1x128x256.ShapeCasts S128x256
  transposes_S128x256_S256x128_1_0 : S128x256.Transposes [1, 0] S256x128
  slices_S2x128_S1x128_0_0 : S2x128.Slices ![0, 0] S1x128
  shapeCasts_S1x128_S128 : S1x128.ShapeCasts S128
  bcast_S1x128_S800000x128_0_1 : S1x128.BroadcastsInDim S800000x128 (![0, 1] : Fin 2 → Fin S800000x128.rank)
  bcast_S_S800000x128 : S_.BroadcastsInDim S800000x128 (![] : Fin 0 → Fin S800000x128.rank)
  slices_S2x128x128_S1x128x128_0_0_0 : S2x128x128.Slices ![0, 0, 0] S1x128x128
  shapeCasts_S1x128x128_S128x128 : S1x128x128.ShapeCasts S128x128
  bcast_S_S50000x128 : S_.BroadcastsInDim S50000x128 (![] : Fin 0 → Fin S50000x128.rank)
  concatenates_S50000x128_S50000x128_S50000x256_d1 : Shape.Concatenates [S50000x128, S50000x128] S50000x256 1
  reducesTo_S50000x128_S50000_d1 : S50000x128.ReducesTo [1] S50000
  h_S_ : 0 < S_.numel
  bcast_S50000_S50000x1_0 : S50000.BroadcastsInDim S50000x1 (![0] : Fin 1 → Fin S50000x1.rank)
  bcast_S_S50000x1 : S_.BroadcastsInDim S50000x1 (![] : Fin 0 → Fin S50000x1.rank)
  bcast_S50000x1_S50000x128_0_1 : S50000x1.BroadcastsInDim S50000x128 (![0, 1] : Fin 2 → Fin S50000x128.rank)
  slices_S2x128x256_S1x128x256_1_0_0 : S2x128x256.Slices ![1, 0, 0] S1x128x256
  slices_S2x128_S1x128_1_0 : S2x128.Slices ![1, 0] S1x128
  slices_S2x128x128_S1x128x128_1_0_0 : S2x128x128.Slices ![1, 0, 0] S1x128x128
  dot_S50000x128_S128x128_S50000x128_1_0_0_1_n_n_wf : DotDims.WF S50000x128 S128x128 S50000x128 [1] [0] [0] [1] [] []
  gather_S50000x128_S800000x1_S800000x128_1_0_n_n_0_1_1128_wf : GatherDims.WF S50000x128 S800000x1 S800000x128 [1] [0] [] [0] [] 1 ![1, 128]
  dot_S800000x256_S256x128_S800000x128_1_0_0_1_n_n_wf : DotDims.WF S800000x256 S256x128 S800000x128 [1] [0] [0] [1] [] []
  dot_S800000x128_S128x128_S800000x128_1_0_0_1_n_n_wf : DotDims.WF S800000x128 S128x128 S800000x128 [1] [0] [0] [1] [] []
  scatter_S50000x128_S800000x1_S800000x128_1_0_0_1_wf : ScatterDims.WF S50000x128 S800000x1 S800000x128 [1] [0] [0] 1
  dot_S50000x256_S256x128_S50000x128_1_0_0_1_n_n_wf : DotDims.WF S50000x256 S256x128 S50000x128 [1] [0] [0] [1] [] []

variable [Facts₀]

def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def dot_S800000x256_S256x128_S800000x128_1_0_0_1_n_n : DotDims S800000x256 S256x128 S800000x128 where
  lhsContracting := [1]
  rhsContracting := [0]
  lhsNonContracting := [0]
  rhsNonContracting := [1]
  lhsBatch := []
  rhsBatch := []
  wf := dot_S800000x256_S256x128_S800000x128_1_0_0_1_n_n_wf
def dot_S800000x128_S128x128_S800000x128_1_0_0_1_n_n : DotDims S800000x128 S128x128 S800000x128 where
  lhsContracting := [1]
  rhsContracting := [0]
  lhsNonContracting := [0]
  rhsNonContracting := [1]
  lhsBatch := []
  rhsBatch := []
  wf := dot_S800000x128_S128x128_S800000x128_1_0_0_1_n_n_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S50000x256_S256x128_S50000x128_1_0_0_1_n_n : DotDims S50000x256 S256x128 S50000x128 where
  lhsContracting := [1]
  rhsContracting := [0]
  lhsNonContracting := [0]
  rhsNonContracting := [1]
  lhsBatch := []
  rhsBatch := []
  wf := dot_S50000x256_S256x128_S50000x128_1_0_0_1_n_n_wf

class Facts : Prop extends Facts₀ where

variable [Facts]
-- ==== Proof.Spec.lean ====
/-
  What each of the three kernels computes, row by row, on the extended reals.

  Every pallas_call of the program works on whole rows of 128 features: an output row depends on the same row of each
  row-indexed input and on the (small) weight operands only. So each kernel is described by a function of ROWS:
  * `linRow`  — a linear layer: `x · Wt + b`, the bias a 1 x 128 operand;
  * `msgRow`  — the message network on the concatenation of two rows: `max (cat · W1t + b1) 0 · W2t + b2`;
  * `updRow`  — the node update: `hh = h + (cat h agg · Wut + bu)`, then layer normalisation of `hh` over its 128 features
    (mean and variance as sums divided by 128, `rsqrt (var + eps)`), scaled by `g` and shifted by `be`.
  The whole-array functions `Glin`, `Gmsg`, `Gupd` apply them to every row.
-/
import proofs.«429507_j9285719294448_1_alg».proof.KernelIdeal
import Idealize.ShloMosaic.Lib.ValueIdx
import Idealize.ShloMosaic.PureOps.Ideal.Laws

noncomputable section

open scoped BigOperators

namespace Cert.Bridge

open Idealize.ShloMosaic Idealize.ShloMosaic.ValueIdx Cert.KernelIdeal

/-- A row of 128 features. -/
abbrev Row := Fin 128 → EReal

/-- The concatenation of two rows along the feature axis: 256 features. -/
def catRow (a b : Row) (q : Fin 256) : EReal :=
  if h : q.val < 128 then a ⟨q.val, h⟩ else b ⟨q.val - 128, by have := q.isLt; omega⟩

/-- A linear layer on one row: feature `j` of `x · Wt + b`. -/
def linRow (x : Row) (Wt : FVec Ideal S128x128 .f32) (b2 : FVec Ideal S1x128 .f32) (j : Fin 128) : EReal :=
  (∑ k : Fin 128, x k * Wt (ix2 k j)) + b2 (ix2 0 j)

/-- The message network on one edge: the two gathered rows concatenated, a linear layer to 128 features, the
    positive part, a second linear layer. -/
def msgRow (hr hc : Row) (W1t : FVec Ideal S256x128 .f32) (b1 : FVec Ideal S1x128 .f32) (W2t : FVec Ideal S128x128 .f32)
    (b2 : FVec Ideal S1x128 .f32) (j : Fin 128) : EReal :=
  (∑ k : Fin 128, max ((∑ q : Fin 256, catRow hr hc q * W1t (ix2 q k)) + b1 (ix2 0 k)) 0 * W2t (ix2 k j)) + b2 (ix2 0 j)

/-- The residual update of one node before normalisation: `h + (cat h agg · Wut + bu)`. -/
def hhRow (h agg : Row) (Wut : FVec Ideal S256x128 .f32) (bu : FVec Ideal S1x128 .f32) (j : Fin 128) : EReal :=
  h j + ((∑ q : Fin 256, catRow h agg q * Wut (ix2 q j)) + bu (ix2 0 j))

/-- The divisor 128 and the variance offset, as the words both programs print. -/
abbrev c128 : EReal := Ideal.ofBits .f32 0x43000000#32
abbrev cEps : EReal := Ideal.ofBits .f32 0x3727C5AC#32

/-- The mean of the updated row over its 128 features. -/
def muRow (h agg : Row) (Wut : FVec Ideal S256x128 .f32) (bu : FVec Ideal S1x128 .f32) : EReal :=
  Ideal.div (∑ k : Fin 128, hhRow h agg Wut bu k) c128

/-- Its variance: the mean of the squared deviations. -/
def varRow (h agg : Row) (Wut : FVec Ideal S256x128 .f32) (bu : FVec Ideal S1x128 .f32) : EReal :=
  Ideal.div (∑ k : Fin 128, (hhRow h agg Wut bu k - muRow h agg Wut bu) * (hhRow h agg Wut bu k - muRow h agg Wut bu)) c128

/-- The node update with layer normalisation: feature `j` of `(hh - mu) · rsqrt (var + eps) · g + be`. -/
def updRow (h agg : Row) (Wut : FVec Ideal S256x128 .f32) (bu g be : FVec Ideal S1x128 .f32) (j : Fin 128) : EReal :=
  (hhRow h agg Wut bu j - muRow h agg Wut bu) * Ideal.rsqrt (varRow h agg Wut bu + cEps) * g (ix2 0 j) + be (ix2 0 j)

/-- Row `r` of an array with 128 columns. -/
abbrev rowAt {n : Nat} (X : (⟨2, ![n, 128]⟩ : Shape).Idx → EReal) (r : Fin n) : Row := fun k => X (ix2 r k)

/-- The linear layer on every node. -/
def Glin (X : FVec Ideal S50000x128 .f32) (Wt : FVec Ideal S128x128 .f32) (b2 : FVec Ideal S1x128 .f32) : FVec Ideal S50000x128 .f32 :=
  fun i => linRow (rowAt (n := 50000) X (i 0)) Wt b2 (i 1)

/-- The message network on every edge. -/
def Gmsg (hr hc : FVec Ideal S800000x128 .f32) (W1t : FVec Ideal S256x128 .f32) (b1 : FVec Ideal S1x128 .f32)
    (W2t : FVec Ideal S128x128 .f32) (b2 : FVec Ideal S1x128 .f32) : FVec Ideal S800000x128 .f32 :=
  fun i => msgRow (rowAt (n := 800000) hr (i 0)) (rowAt (n := 800000) hc (i 0)) W1t b1 W2t b2 (i 1)

/-- The node update on every node. -/
def Gupd (h agg : FVec Ideal S50000x128 .f32) (Wut : FVec Ideal S256x128 .f32) (bu g be : FVec Ideal S1x128 .f32) :
    FVec Ideal S50000x128 .f32 :=
  fun i => updRow (rowAt (n := 50000) h (i 0)) (rowAt (n := 50000) agg (i 0)) Wut bu g be (i 1)

theorem Glin_ix2 (X : FVec Ideal S50000x128 .f32) (Wt : FVec Ideal S128x128 .f32) (b2 : FVec Ideal S1x128 .f32) (r : Fin 50000) (j : Fin 128) :
    Glin X Wt b2 (ix2 r j) = linRow (rowAt (n := 50000) X r) Wt b2 j := rfl

theorem Gmsg_ix2 (hr hc : FVec Ideal S800000x128 .f32) (W1t : FVec Ideal S256x128 .f32) (b1 : FVec Ideal S1x128 .f32)
    (W2t : FVec Ideal S128x128 .f32) (b2 : FVec Ideal S1x128 .f32) (r : Fin 800000) (j : Fin 128) :
    Gmsg hr hc W1t b1 W2t b2 (ix2 r j) = msgRow (rowAt (n := 800000) hr r) (rowAt (n := 800000) hc r) W1t b1 W2t b2 j := rfl

theorem Gupd_ix2 (h agg : FVec Ideal S50000x128 .f32) (Wut : FVec Ideal S256x128 .f32) (bu g be : FVec Ideal S1x128 .f32) (r : Fin 50000) (j : Fin 128) :
    Gupd h agg Wut bu g be (ix2 r j) = updRow (rowAt (n := 50000) h r) (rowAt (n := 50000) agg r) Wut bu g be j := rfl

end Cert.Bridge

end
-- ==== Proof.KOps.lean ====
/-
  The host-side operations the kernel's program applies between its pallas_calls, as pure functions of arrays:
  the two index rows cut out of `edge_index`, the row gather `jnp.take` in its fill mode (negative indices wrapped by
  the number of rows, the gather itself, then every row whose wrapped index is outside `[0, 49999]` replaced by the
  fill word), the plain wrapped gather that the fill-mode one equals on in-range indices, and the scatter-add of edge
  messages into a zero array of node rows (`segment_sum`). `InR` says an index vector stays inside the node range.
-/
import proofs.«429507_j9285719294448_1_alg».proof.Proof.Gen.KernelIdeal

noncomputable section

namespace Cert.Bridge

open Idealize.ShloMosaic Idealize.ShloMosaic.TcCoe Cert.KernelIdeal Cert.KernelIdeal.Gen

variable {F : FTy → Type} [FloatOps F]

/-- Row 0 of `edge_index`: the source node of every edge. -/
def rowK (ei : IVec S2x800000 32) : IVec S800000 32 :=
  shapeCast S800000 (extractStridedSlice S1x800000 ![0, 0] ei slices_S2x800000_S1x800000_0_0) shapeCasts_S1x800000_S800000

/-- Row 1 of `edge_index`: the destination node of every edge. -/
def colK (ei : IVec S2x800000 32) : IVec S800000 32 :=
  shapeCast S800000 (extractStridedSlice S1x800000 ![1, 0] ei slices_S2x800000_S1x800000_1_0) shapeCasts_S1x800000_S800000

/-- An index vector with its negative entries shifted up by the number of rows, as a column of start indices. -/
def wrapK (idx : IVec S800000 32) : IVec S800000x1 32 :=
  broadcastInDim S800000x1 ![0] bcast_S800000_S800000x1_0
    (select (cmpi .slt idx (broadcastInDim S800000 ![] bcast_S_S800000 (constantI S_ 32 0#32)))
      (addi idx (broadcastInDim S800000 ![] bcast_S_S800000 (constantI S_ 32 50000#32))) idx)

/-- The rows of `h` at the wrapped indices. -/
def gatherK (h : FVec F S50000x128 .f32) (idx : IVec S800000 32) : FVec F S800000x128 .f32 :=
  Host.gather gather_S50000x128_S800000x1_S800000x128_1_0_n_n_0_1_1128 h (wrapK idx)

/-- Per edge: is the wrapped index inside `[0, 49999]`? -/
def inboundsK (idx : IVec S800000 32) : IVec S800000 1 :=
  Host.reduce IntOp.andi
    (andi (cmpi .sge (wrapK idx) (broadcastInDim S800000x1 ![] bcast_S_S800000x1 (constantI S_ 32 0#32)))
      (cmpi .sle (wrapK idx) (broadcastInDim S800000x1 ![0, 1] bcast_S1x1_S800000x1_0_1
        (broadcastInDim S1x1 ![1] bcast_S1_S1x1_1 (constantI S1 32 49999#32)))))
    (constantI S_ 1 1#1) reducesTo_S800000x1_S800000_d1 h_S_

/-- `jnp.take (h, idx, axis = 0)` in fill mode: the gathered row where the wrapped index is in bounds, the fill word elsewhere. -/
def takeK (h : FVec F S50000x128 .f32) (idx : IVec S800000 32) : FVec F S800000x128 .f32 :=
  select (broadcastInDim S800000x128 ![0] bcast_S800000_S800000x128_0 (inboundsK idx)) (gatherK h idx)
    (broadcastInDim S800000x128 ![] bcast_S_S800000x128 (constant S_ .f32 0x7FC00000#32))

/-- `segment_sum`: the edge rows `u` added into a zero array at the node rows `idx` names. -/
def scatK (idx : IVec S800000 32) (u : FVec F S800000x128 .f32) : FVec F S50000x128 .f32 :=
  Host.scatterAdd scatter_S50000x128_S800000x1_S800000x128_1_0_0_1
    (broadcastInDim S50000x128 ![] bcast_S_S50000x128 (constant S_ .f32 0x00000000#32))
    (broadcastInDim S800000x1 ![0] bcast_S800000_S800000x1_0 idx) u

/-! ## The weight operands, as the program's host operations cut them out of the stacked parameters -/

/-- A square weight matrix transposed (`W.T`). -/
def matT (x : FVec F S128x128 .f32) : FVec F S128x128 .f32 := transpose S128x128 [1, 0] x transposes_S128x128_S128x128_1_0

/-- A bias vector as a 1 x 128 operand. -/
def vec2 (x : FVec F S128 .f32) : FVec F S1x128 .f32 := shapeCast S1x128 x shapeCasts_S128_S1x128

/-- Layer 0 / layer 1 of a stacked bias-like parameter, as a vector of 128. -/
def row0 (x : FVec F S2x128 .f32) : FVec F S128 .f32 :=
  shapeCast S128 (extractStridedSlice S1x128 ![0, 0] x slices_S2x128_S1x128_0_0) shapeCasts_S1x128_S128
def row1 (x : FVec F S2x128 .f32) : FVec F S128 .f32 :=
  shapeCast S128 (extractStridedSlice S1x128 ![1, 0] x slices_S2x128_S1x128_1_0) shapeCasts_S1x128_S128

/-- Layer 0 / layer 1 of a stacked 128 x 256 weight, transposed to 256 x 128. -/
def wide0 (x : FVec F S2x128x256 .f32) : FVec F S256x128 .f32 :=
  transpose S256x128 [1, 0] (shapeCast S128x256 (extractStridedSlice S1x128x256 ![0, 0, 0] x slices_S2x128x256_S1x128x256_0_0_0) shapeCasts_S1x128x256_S128x256) transposes_S128x256_S256x128_1_0
def wide1 (x : FVec F S2x128x256 .f32) : FVec F S256x128 .f32 :=
  transpose S256x128 [1, 0] (shapeCast S128x256 (extractStridedSlice S1x128x256 ![1, 0, 0] x slices_S2x128x256_S1x128x256_1_0_0) shapeCasts_S1x128x256_S128x256) transposes_S128x256_S256x128_1_0

/-- Layer 0 / layer 1 of a stacked 128 x 128 weight, transposed. -/
def sq0 (x : FVec F S2x128x128 .f32) : FVec F S128x128 .f32 :=
  transpose S128x128 [1, 0] (shapeCast S128x128 (extractStridedSlice S1x128x128 ![0, 0, 0] x slices_S2x128x128_S1x128x128_0_0_0) shapeCasts_S1x128x128_S128x128) transposes_S128x128_S128x128_1_0
def sq1 (x : FVec F S2x128x128 .f32) : FVec F S128x128 .f32 :=
  transpose S128x128 [1, 0] (shapeCast S128x128 (extractStridedSlice S1x128x128 ![1, 0, 0] x slices_S2x128x128_S1x128x128_1_0_0) shapeCasts_S1x128x128_S128x128) transposes_S128x128_S128x128_1_0

/-- Every entry of the index vector, read as a signed word, is a node number. -/
def InR (idx : IVec S800000 32) : Prop := ∀ e : S800000.Idx, 0 ≤ (idx e).toInt ∧ (idx e).toInt < 50000

end Cert.Bridge

end
-- ==== Proof.KLin.lean ====
/-
  The two linear-layer kernels, entry by entry, on the extended reals.

  Both kernel bodies compute, from a block `x` of 5000 rows, the 128 x 128 weight `Wt` and the 1 x 128 bias `b`,
  the block `x · Wt + b`: a matrix product accumulated into the zero block, plus the bias row repeated over the
  5000 rows. The narrowing to bf16 before the product is the identity on extended reals, and the shape casts are
  casts of a shape to itself. So entry (r, j) of the result is  Σ_k x(r,k) · Wt(k,j) + b(0,j),  which is `linRow`
  of row r of the block.
-/
import proofs.«429507_j9285719294448_1_alg».proof.Proof.Gen.KernelIdeal.Skeleton
import proofs.«429507_j9285719294448_1_alg».proof.Proof.Spec
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

open scoped BigOperators

namespace Cert.Bridge.K

open Cert.KernelIdeal Cert.KernelIdeal.Gen Idealize.ShloMosaic Idealize.ShloMosaic.TcCoe Idealize.SL.Sem Idealize.ShloMosaic.ValueIdx Cert.Bridge

/-! ## The product's operand indices

  The product contracts axis 1 of the left operand with axis 0 of the right one. At output entry `i` and contraction
  position `q`, the left operand is read at (i 0, q) and the right one at (q, i 1). One lemma per axis. -/

theorem linDot_lhs_0 (i : S5000x128.Idx) (q : dot_S5000x128_S128x128_S5000x128_1_0_0_1_n_n.contr.Idx) :
    (dot_S5000x128_S128x128_S5000x128_1_0_0_1_n_n.lhsIdx i q 0).val = (i 0).val := by
  unfold DotDims.lhsIdx
  rw [dif_neg (show ¬(0 : Fin S5000x128.rank) ∈ dot_S5000x128_S128x128_S5000x128_1_0_0_1_n_n.lhsBatch by decide), dif_pos (show (0 : Fin S5000x128.rank) ∈ dot_S5000x128_S128x128_S5000x128_1_0_0_1_n_n.lhsNonContracting by decide)]
  rfl

theorem linDot_lhs_1 (i : S5000x128.Idx) (q : dot_S5000x128_S128x128_S5000x128_1_0_0_1_n_n.contr.Idx) :
    (dot_S5000x128_S128x128_S5000x128_1_0_0_1_n_n.lhsIdx i q 1).val = (q ⟨0, by decide⟩).val :=
  dot_S5000x128_S128x128_S5000x128_1_0_0_1_n_n.lhsIdx_val_of_single rfl i q

theorem linDot_rhs_0 (i : S5000x128.Idx) (q : dot_S5000x128_S128x128_S5000x128_1_0_0_1_n_n.contr.Idx) :
    (dot_S5000x128_S128x128_S5000x128_1_0_0_1_n_n.rhsIdx i q 0).val = (q ⟨0, by decide⟩).val :=
  dot_S5000x128_S128x128_S5000x128_1_0_0_1_n_n.rhsIdx_val_of_single rfl i q

theorem linDot_rhs_1 (i : S5000x128.Idx) (q : dot_S5000x128_S128x128_S5000x128_1_0_0_1_n_n.contr.Idx) :
    (dot_S5000x128_S128x128_S5000x128_1_0_0_1_n_n.rhsIdx i q 1).val = (i 1).val := by
  unfold DotDims.rhsIdx
  rw [dif_neg (show ¬(1 : Fin S128x128.rank) ∈ dot_S5000x128_S128x128_S5000x128_1_0_0_1_n_n.rhsBatch by decide), dif_pos (show (1 : Fin S128x128.rank) ∈ dot_S5000x128_S128x128_S5000x128_1_0_0_1_n_n.rhsNonContracting by decide)]
  rfl

/-- The product into the zero block, at entry (r, j): the sum over the 128 contracted positions. -/
theorem linDot_apply (A : FVec Ideal S5000x128 .bf16) (B : FVec Ideal S128x128 .bf16) (r : Fin 5000) (j : Fin 128) :
    matmul dot_S5000x128_S128x128_S5000x128_1_0_0_1_n_n none A B (constant (F := Ideal) S5000x128 .f32 0x00000000#32) (ix2 r j)
      = ∑ k : Fin 128, A (ix2 r k) * B (ix2 k j) := by
  show FloatOps.matmul dot_S5000x128_S128x128_S5000x128_1_0_0_1_n_n none A B (constant (F := Ideal) S5000x128 .f32 0x00000000#32) (ix2 r j) = _
  rw [Ideal.matmul_constant_zero_apply, ← Equiv.sum_comp (contrEquiv1 dot_S5000x128_S128x128_S5000x128_1_0_0_1_n_n 128 rfl rfl).symm]
  refine Finset.sum_congr rfl fun k _ => ?_
  have hk := contrEquiv1_symm_val dot_S5000x128_S128x128_S5000x128_1_0_0_1_n_n 128 rfl rfl k
  have el : dot_S5000x128_S128x128_S5000x128_1_0_0_1_n_n.lhsIdx (ix2 r j) ((contrEquiv1 dot_S5000x128_S128x128_S5000x128_1_0_0_1_n_n 128 rfl rfl).symm k) = ix2 r k := funext fun a => Fin.ext (by
    match a with
    | ⟨0, _⟩ => exact linDot_lhs_0 _ _
    | ⟨1, _⟩ => exact (linDot_lhs_1 _ _).trans hk)
  have er : dot_S5000x128_S128x128_S5000x128_1_0_0_1_n_n.rhsIdx (ix2 r j) ((contrEquiv1 dot_S5000x128_S128x128_S5000x128_1_0_0_1_n_n 128 rfl rfl).symm k) = ix2 k j := funext fun a => Fin.ext (by
    match a with
    | ⟨0, _⟩ => exact (linDot_rhs_0 _ _).trans hk
    | ⟨1, _⟩ => exact linDot_rhs_1 _ _)
  rw [el, er]

/-! ## The two bodies at an entry -/

/-- The first linear kernel's stored block at entry (r, j) is `linRow` of row r of its input block. -/
theorem pay0_apply (x0 : FVec Ideal S5000x128 .f32) (x1 : FVec Ideal S128x128 .f32) (x2 : FVec Ideal S1x128 .f32)
    (r : Fin 5000) (j : Fin 128) :
    k0_pay1 (F := Ideal) x0 x1 x2 (ix2 r j) = linRow (fun k => x0 (ix2 r k)) x1 x2 j := by
  unfold k0_pay1 linRow
  dsimp only
  rw [addf_apply, shapeCast_self, shapeCast_self, linDot_apply, broadcastTo_1b_ab_apply]
  rfl

/-- The last linear kernel's stored block likewise (its body differs by one more cast of a shape to itself). -/
theorem pay5_apply (x0 : FVec Ideal S5000x128 .f32) (x1 : FVec Ideal S128x128 .f32) (x2 : FVec Ideal S1x128 .f32)
    (r : Fin 5000) (j : Fin 128) :
    k5_pay1 (F := Ideal) x0 x1 x2 (ix2 r j) = linRow (fun k => x0 (ix2 r k)) x1 x2 j := by
  unfold k5_pay1 linRow
  dsimp only
  rw [addf_apply, shapeCast_self, shapeCast_self, shapeCast_self, linDot_apply, broadcastTo_1b_ab_apply]
  rfl

end Cert.Bridge.K

end
-- ==== Proof.KFin0.lean ====
/-
  The first linear layer, `x · Wt + b` on all 50000 nodes, as its pallas_call leaves it in memory.

  The call runs over 10 grid points. Point `t` reads rows 5000 t … 5000 t + 4999 of the node array, the whole 128 x 128
  weight and the whole 1 x 128 bias, and writes the same rows of the result array. Each entry the body stores is
  `linRow` of the node row it belongs to (KLin), so what point `t` writes back is block `t` of `Glin` of the three
  arrays as the region finds them; the ten blocks tile the result array; hence the array ends holding `Glin`.
-/
import proofs.«429507_j9285719294448_1_alg».proof.Proof.Gen.KernelIdeal.Frame
import proofs.«429507_j9285719294448_1_alg».proof.Proof.Spec
import proofs.«429507_j9285719294448_1_alg».proof.Proof.KLin
import Idealize.ShloMosaic.Lib.Pipeline.Value

set_option maxRecDepth 16384

noncomputable section

open scoped BigOperators

namespace Cert.Bridge.K

open Cert.KernelIdeal Cert.KernelIdeal.Gen Idealize.ShloMosaic Idealize.ShloMosaic.TcCoe Idealize.SL.Sem Idealize.ShloMosaic.ValueIdx Cert.Bridge
open Idealize.ShloMosaic.Pipeline (Dat)

variable (V : (c : Dev nD) → (b : Ref sig .tc) → Buf (Elt Ideal) ((c : Thread nD τ).loc b))

/-- The body's loads and its store are at offsets zero. -/
theorem zeroOff0 : (![0, 0] : Fin 2 → Nat) = fun _ => 0 := funext fun a => by fin_cases a <;> rfl

/-- Where each window's block sits at grid point `t` (of 10): the node rows and the result rows are block `t` along
    the rows and block 0 along the features; the weight and the bias are their one block. -/
theorem blockIdx0 : ∀ t : Fin cfg0.N, t.val < 10
    ∧ win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

/-- An entry of the node block at point `t` is the entry of the node array 5000 t rows further down. -/
theorem rows0_apply (c : Dev nD) (t : Fin cfg0.N) (x : S5000x128.Idx) (k : S50000x128.Idx)
    (hk0 : (k 0).val = t.val * 5000 + (x 0).val) (hk1 : (k 1).val = (x 1).val) :
    (iblk0 (F := Ideal) V c 0 t : FVec Ideal S5000x128 .f32) x = (V c (Pipeline.arrRef spec0 0) : FVec Ideal S50000x128 .f32) k := by
  obtain ⟨-, e00, e01, -⟩ := blockIdx0 t
  unfold iblk0
  show (V c (Pipeline.arrRef spec0 0) : FVec Ideal S50000x128 .f32) (((cfg0.win 0).blk t).view.emb x) = _
  congr 1
  funext a
  apply Fin.ext
  match a with
  | ⟨0, _⟩ => show win0_0.index t (0 : Fin 2) * 5000 + 1 * (x 0).val = (k 0).val; rw [e00, hk0]; omega
  | ⟨1, _⟩ => show win0_0.index t (1 : Fin 2) * 128 + 1 * (x 1).val = (k 1).val; rw [e01, hk1]; omega

/-- The weight block at every point is the whole weight array. -/
theorem weight0_eq (c : Dev nD) (t : Fin cfg0.N) :
    (iblk0 (F := Ideal) V c 1 t : FVec Ideal S128x128 .f32) = (V c (Pipeline.arrRef spec0 1) : FVec Ideal S128x128 .f32) := by
  obtain ⟨-, -, -, e10, e11, -⟩ := blockIdx0 t
  unfold iblk0
  funext x
  show (V c (Pipeline.arrRef spec0 1) : FVec Ideal S128x128 .f32) (((cfg0.win 1).blk t).view.emb x) = _
  congr 1
  funext a
  apply Fin.ext
  match a with
  | ⟨0, _⟩ => show win0_1.index t (0 : Fin 2) * 128 + 1 * (x 0).val = (x 0).val; rw [e10]; omega
  | ⟨1, _⟩ => show win0_1.index t (1 : Fin 2) * 128 + 1 * (x 1).val = (x 1).val; rw [e11]; omega

/-- The bias block at every point is the whole bias row. -/
theorem bias0_eq (c : Dev nD) (t : Fin cfg0.N) :
    (iblk0 (F := Ideal) V c 2 t : FVec Ideal S1x128 .f32) = (V c (Pipeline.arrRef spec0 2) : FVec Ideal S1x128 .f32) := by
  obtain ⟨-, -, -, -, -, e20, e21, -⟩ := blockIdx0 t
  unfold iblk0
  funext x
  show (V c (Pipeline.arrRef spec0 2) : FVec Ideal S1x128 .f32) (((cfg0.win 2).blk t).view.emb x) = _
  congr 1
  funext a
  apply Fin.ext
  match a with
  | ⟨0, _⟩ => show win0_2.index t (0 : Fin 2) * 1 + 1 * (x 0).val = (x 0).val; rw [e20]; omega
  | ⟨1, _⟩ => show win0_2.index t (1 : Fin 2) * 128 + 1 * (x 1).val = (x 1).val; rw [e21]; omega

/-- The body's block at entry `y` is the linear layer of the node array at entry `i`, when the block's row `y 0` is the
    array's row `i 0`, the two feature coordinates agree, and the weight and bias blocks are the whole operands. -/
theorem linBlock0_apply (X : FVec Ideal S50000x128 .f32) (W : FVec Ideal S128x128 .f32) (b : FVec Ideal S1x128 .f32)
    (x0 : FVec Ideal S5000x128 .f32) (x1 : FVec Ideal S128x128 .f32) (x2 : FVec Ideal S1x128 .f32)
    (y : S5000x128.Idx) (i : S50000x128.Idx)
    (hx0 : ∀ k : Fin 128, x0 (ix2 (y 0) k) = X (ix2 (i 0) k)) (hx1 : x1 = W) (hx2 : x2 = b) (hi : (i 1).val = (y 1).val) :
    k0_pay1 (F := Ideal) x0 x1 x2 y = Glin X W b i := by
  subst hx1 hx2
  obtain ⟨p, q, rfl⟩ : ∃ (p : Fin 5000) (q : Fin 128), y = ix2 p q := ⟨y 0, y 1, eq_ix2 y⟩
  obtain ⟨r, j, rfl⟩ : ∃ (r : Fin 50000) (j : Fin 128), i = ix2 r j := ⟨i 0, i 1, eq_ix2 i⟩
  obtain rfl : j = q := Fin.ext hi
  rw [pay0_apply, Glin_ix2]
  exact congrArg (fun x => linRow x x1 x2 j) (funext hx0)

/-- Where an entry of the result block at point `t` sits in the result array. -/
theorem outAt0 (t : Fin cfg0.N) (y : ((cfg0.win 3).xblock (cfg0.grid.coords t)).Idx) :
    ((((cfg0.win 3).blk t).view.emb y) 0).val = t.val * 5000 + (y 0).val
    ∧ ((((cfg0.win 3).blk t).view.emb y) 1).val = (y 1).val := by
  obtain ⟨-, -, -, -, -, -, -, e30, e31⟩ := blockIdx0 t
  constructor
  · show win0_3.index t (0 : Fin 2) * 5000 + 1 * (y 0).val = _; rw [e30]; omega
  · show win0_3.index t (1 : Fin 2) * 128 + 1 * (y 1).val = _; rw [e31]; omega

/-- What point `t` writes back is block `t` of the linear layer of the arrays the region finds. -/
theorem flushed0_eq (c : Dev nD) (t : Fin cfg0.N) :
    (dat0 (F := Ideal) V c).flushed 3 t = ((cfg0.win 3).blk t).view.read (Elt Ideal)
      (Glin (V c (Pipeline.arrRef spec0 0)) (V c (Pipeline.arrRef spec0 1)) (V c (Pipeline.arrRef spec0 2))) := by
  show (cfg0.win 3).cut (grid0.coords t) ((dat0 (F := Ideal) V c).after 3 t) = _
  rw [after0_3]
  unfold out0_3
  rw [View.canon_unit_zero zeroOff0]
  simp only [View.ld_unit_zero (S := S5000x128) zeroOff0, View.ld_unit_zero (S := S128x128) zeroOff0, View.ld_unit_zero (S := S1x128) zeroOff0]
  funext y
  obtain ⟨o0, o1⟩ := outAt0 t y
  show k0_pay1 (F := Ideal) (iblk0 V c 0 t) (iblk0 V c 1 t) (iblk0 V c 2 t) ((cfg0.win 3).xinj (grid0.coords t) y)
    = Glin (V c (Pipeline.arrRef spec0 0)) (V c (Pipeline.arrRef spec0 1)) (V c (Pipeline.arrRef spec0 2)) (((cfg0.win 3).blk t).view.emb y)
  exact linBlock0_apply (V c (Pipeline.arrRef spec0 0)) (V c (Pipeline.arrRef spec0 1)) (V c (Pipeline.arrRef spec0 2))
    (iblk0 V c 0 t) (iblk0 V c 1 t) (iblk0 V c 2 t)
    ((cfg0.win 3).xinj (grid0.coords t) y) (((cfg0.win 3).blk t).view.emb y)
    (fun k => rows0_apply V c t _ _ o0 rfl) (weight0_eq V c t) (bias0_eq V c t) o1

/-- An entry of the result array is in point `t`'s block iff each coordinate is in the block's range. -/
theorem mem_block0 (t : Fin cfg0.N) (i : S50000x128.Idx) :
    i ∈ ((cfg0.win 3).blk t).view.set ↔ ∀ a : Fin 2, win0_3.index t a * S5000x128.size a ≤ (i a).val ∧ (i a).val < win0_3.index t a * S5000x128.size a + S5000x128.size a := by
  show i ∈ ((View.whole main_v6).slice (win0_3.rect t)).set ↔ _
  rw [View.set_slice_whole, Rect.mem_set_unit]
  exact Iff.rfl

/-- The ten blocks tile the result array: row `r` is in the block of point `r / 5000`. -/
theorem cover0 (i : S50000x128.Idx) :
    ∃ t : Fin cfg0.N, (cfg0.win 3).flush t = true ∧ i ∈ ((cfg0.win 3).blk t).view.set := by
  have hi0 : (i 0).val < 50000 := (i 0).isLt
  have hi1 : (i 1).val < 128 := (i 1).isLt
  have hN : cfg0.N = 10 := N_0
  obtain ⟨t, ht⟩ : ∃ t : Fin cfg0.N, t.val = (i 0).val / 5000 := ⟨⟨(i 0).val / 5000, by omega⟩, rfl⟩
  obtain ⟨-, -, -, -, -, -, -, e30, e31⟩ := blockIdx0 t
  refine ⟨t, flush0_3 t, ?_⟩
  rw [mem_block0]
  intro a
  match a with
  | ⟨0, _⟩ => show win0_3.index t (0 : Fin 2) * 5000 ≤ (i 0).val ∧ (i 0).val < win0_3.index t (0 : Fin 2) * 5000 + 5000; rw [e30, ht]; omega
  | ⟨1, _⟩ => show win0_3.index t (1 : Fin 2) * 128 ≤ (i 1).val ∧ (i 1).val < win0_3.index t (1 : Fin 2) * 128 + 128; rw [e31]; omega

/-- After the run the result array holds the linear layer of the arrays the region found. -/
theorem final0 (c : Dev nD) :
    (dat0 (F := Ideal) V c).arrAt 3 cfg0.N = Glin (V c (Pipeline.arrRef spec0 0)) (V c (Pipeline.arrRef spec0 1)) (V c (Pipeline.arrRef spec0 2)) :=
  (dat0 (F := Ideal) V c).arrAt_eq_of_cover 3
    (Glin (V c (Pipeline.arrRef spec0 0)) (V c (Pipeline.arrRef spec0 1)) (V c (Pipeline.arrRef spec0 2)))
    (fun t _ => flushed0_eq V c t) cover0

end Cert.Bridge.K

end
-- ==== Proof.KMsg.lean ====
/-
  The message network's block computation, read one entry at a time.

  Both message launches run the same body on a block of 4000 edges: the two gathered blocks are set side by side
  (256 features per edge), multiplied by a 256 x 128 weight, shifted by a bias row, cut off below at zero, multiplied
  by a 128 x 128 weight and shifted by a second bias row. Entry (r, j) of the result depends on row r of the two
  gathered blocks only, and is the row function `msgRow` of those two rows at feature j.
-/
import proofs.«429507_j9285719294448_1_alg».proof.Proof.Gen.KernelIdeal.Skeleton
import proofs.«429507_j9285719294448_1_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open scoped BigOperators

namespace Cert.Bridge.K

open Cert.KernelIdeal Cert.KernelIdeal.Gen Idealize.ShloMosaic Idealize.SL.Sem Idealize.ShloMosaic.ValueIdx Cert.Bridge

/-- A plain matrix product, [M, K] by [K, N], accumulated into the zero splat: entry (a, b) is the sum over the
    contracted coordinate of the products of the two operands' entries. -/
theorem matmul_plain_zero_apply {M K N : Nat} {φ₁ φ₂ : FTy}
    (w : DotDims.WF ⟨2, ![M, K]⟩ ⟨2, ![K, N]⟩ ⟨2, ![M, N]⟩ [1] [0] [0] [1] [] [])
    (prec : Option ContractPrecision) (A : FVec Ideal ⟨2, ![M, K]⟩ φ₁) (B : FVec Ideal ⟨2, ![K, N]⟩ φ₂)
    (a : Fin M) (b : Fin N) :
    matmul (⟨[1], [0], [0], [1], [], [], w⟩ : DotDims _ _ _) prec A B
        (constant (F := Ideal) ⟨2, ![M, N]⟩ .f32 0x00000000#32) (ix2 a b)
      = ∑ c : Fin K, A (ix2 a c) * B (ix2 c b) := by
  show FloatOps.matmul _ prec A B _ (ix2 a b) = _
  rw [Ideal.matmul_constant_zero_apply,
    ← Equiv.sum_comp (contrEquiv1 (⟨[1], [0], [0], [1], [], [], w⟩ : DotDims _ _ _) K rfl rfl).symm]
  refine Finset.sum_congr rfl fun c _ => ?_
  have c2 := contrEquiv1_symm_val
    (⟨[1], [0], [0], [1], [], [], w⟩ : DotDims ⟨2, ![M, K]⟩ ⟨2, ![K, N]⟩ ⟨2, ![M, N]⟩) K rfl rfl c
  have l2 : (⟨[1], [0], [0], [1], [], [], w⟩ : DotDims ⟨2, ![M, K]⟩ ⟨2, ![K, N]⟩ ⟨2, ![M, N]⟩).lhsIdx (ix2 a b)
      ((contrEquiv1 _ K rfl rfl).symm c) = ix2 a c := by
    funext ax; apply Fin.ext
    match ax with
    | ⟨0, _⟩ => simp [DotDims.lhsIdx]; rfl
    | ⟨1, _⟩ => simp [DotDims.lhsIdx]; exact c2
  have r2 : (⟨[1], [0], [0], [1], [], [], w⟩ : DotDims ⟨2, ![M, K]⟩ ⟨2, ![K, N]⟩ ⟨2, ![M, N]⟩).rhsIdx (ix2 a b)
      ((contrEquiv1 _ K rfl rfl).symm c) = ix2 c b := by
    funext ax; apply Fin.ext
    match ax with
    | ⟨0, _⟩ => simp [DotDims.rhsIdx]; exact c2
    | ⟨1, _⟩ => simp [DotDims.rhsIdx]; rfl
  rw [l2, r2]

/-- The first product of the body: the 4000 x 256 concatenation by the 256 x 128 weight. -/
theorem mmA_apply (A : FVec Ideal S4000x256 .bf16) (B : FVec Ideal S256x128 .bf16) (r : Fin 4000) (k : Fin 128) :
    matmul dot_S4000x256_S256x128_S4000x128_1_0_0_1_n_n none A B
        (constant (F := Ideal) S4000x128 .f32 0x00000000#32) (ix2 r k)
      = ∑ q : Fin 256, A (ix2 r q) * B (ix2 q k) :=
  matmul_plain_zero_apply dot_S4000x256_S256x128_S4000x128_1_0_0_1_n_n_wf none A B r k

/-- The second product of the body: the 4000 x 128 hidden block by the 128 x 128 weight. -/
theorem mmB_apply (A : FVec Ideal S4000x128 .bf16) (B : FVec Ideal S128x128 .bf16) (r : Fin 4000) (j : Fin 128) :
    matmul dot_S4000x128_S128x128_S4000x128_1_0_0_1_n_n none A B
        (constant (F := Ideal) S4000x128 .f32 0x00000000#32) (ix2 r j)
      = ∑ k : Fin 128, A (ix2 r k) * B (ix2 k j) :=
  matmul_plain_zero_apply dot_S4000x128_S128x128_S4000x128_1_0_0_1_n_n_wf none A B r j

/-- Two blocks of 4000 rows set side by side along the feature axis: row `r` of the result is the concatenation of
    the two rows `r`. -/
theorem cat_apply (a b : FVec Ideal S4000x128 .f32) (r : Fin 4000) (q : Fin 256) :
    concatenate S4000x256 1 [⟨S4000x128, a⟩, ⟨S4000x128, b⟩] concatenates_S4000x128_S4000x128_S4000x256_d1 (ix2 r q)
      = catRow (fun k => a (ix2 r k)) (fun k => b (ix2 r k)) q := by
  unfold catRow
  by_cases h : q.val < 128
  · rw [dif_pos h]
    exact concatenate_pair_apply_left (1 : Fin S4000x256.rank) a b concatenates_S4000x128_S4000x128_S4000x256_d1
      (ix2 r q) rfl (ix2 r ⟨q.val, h⟩) (fun c => by match c with | ⟨0, _⟩ => rfl | ⟨1, _⟩ => rfl)
  · rw [dif_neg h]
    exact concatenate_pair_apply_right (1 : Fin S4000x256.rank) a b concatenates_S4000x128_S4000x128_S4000x256_d1
      (ix2 r q) rfl rfl (ix2 r ⟨q.val - 128, by have := q.isLt; omega⟩)
      (fun c => by match c with | ⟨0, _⟩ => exact fun _ => rfl | ⟨1, _⟩ => exact fun hc => absurd rfl hc)
      (by show q.val - 128 + 128 = q.val; omega)

/-- The zero the positive part compares against. -/
theorem zero_word : (Scalar.ofBits (F := Ideal) .f32 0x00000000#32) = 0 := Ideal.ofBits_zero_f32

/-- Entry (r, j) of the first message launch's block result is the message network of the two gathered rows `r`. -/
theorem pay1_apply (x0 x1 : Vec Ideal S4000x128 .f32) (x2 : Vec Ideal S256x128 .f32) (x3 : Vec Ideal S1x128 .f32)
    (x4 : Vec Ideal S128x128 .f32) (x5 : Vec Ideal S1x128 .f32) (r : Fin 4000) (j : Fin 128) :
    k1_pay1 (F := Ideal) x0 x1 x2 x3 x4 x5 (ix2 r j)
      = msgRow (fun k => x0 (ix2 r k)) (fun k => x1 (ix2 r k)) x2 x3 x4 x5 j := by
  unfold k1_pay1 msgRow
  simp only [shapeCast_self]
  rw [addf_apply, mmB_apply, broadcastTo_1b_ab_apply]
  simp only [truncf_apply, maximumf_apply, addf_apply, mmA_apply, broadcastTo_1b_ab_apply, broadcast_apply, cat_apply,
    zero_word, shapeCast_self]

/-- The second message launch runs the same body: its block result, entry by entry, is the same row function. -/
theorem pay3_apply (x0 x1 : Vec Ideal S4000x128 .f32) (x2 : Vec Ideal S256x128 .f32) (x3 : Vec Ideal S1x128 .f32)
    (x4 : Vec Ideal S128x128 .f32) (x5 : Vec Ideal S1x128 .f32) (r : Fin 4000) (j : Fin 128) :
    k3_pay1 (F := Ideal) x0 x1 x2 x3 x4 x5 (ix2 r j)
      = msgRow (fun k => x0 (ix2 r k)) (fun k => x1 (ix2 r k)) x2 x3 x4 x5 j := by
  unfold k3_pay1 msgRow
  simp only [shapeCast_self]
  rw [addf_apply, mmB_apply, broadcastTo_1b_ab_apply]
  simp only [truncf_apply, maximumf_apply, addf_apply, mmA_apply, broadcastTo_1b_ab_apply, broadcast_apply, cat_apply,
    zero_word, shapeCast_self]

end Cert.Bridge.K

end
-- ==== Proof.KFin1.lean ====
/-
  The first message launch, from blocks to the whole array.

  The launch walks the 800000 edges in 200 blocks of 4000 rows. At block `t` the two gathered operands and the
  result move together (rows `4000 t … 4000 t + 3999`, all 128 features), while the two weights and the two bias rows
  are held whole. The body's result at a block is, entry by entry, the message network of the two gathered rows
  (`pay1_apply`), so what block `t` writes back is block `t` of the whole-array function `Gmsg` of the six operands;
  the 200 blocks tile the array, so the array ends holding `Gmsg`.
-/
import proofs.«429507_j9285719294448_1_alg».proof.Proof.Gen.KernelIdeal.Frame
import proofs.«429507_j9285719294448_1_alg».proof.Proof.Spec
import proofs.«429507_j9285719294448_1_alg».proof.Proof.KMsg
import Idealize.ShloMosaic.Lib.Pipeline.Value

set_option maxRecDepth 16384

noncomputable section

namespace Cert.Bridge.K

open Cert.KernelIdeal Cert.KernelIdeal.Gen Idealize.ShloMosaic Idealize.ShloMosaic.TcCoe Idealize.SL.Sem Idealize.ShloMosaic.ValueIdx Cert.Bridge
open Idealize.ShloMosaic.Pipeline (Dat)

variable (V : (c : Dev nD) → (b : Ref sig .tc) → Buf (Elt Ideal) ((c : Thread nD τ).loc b))

/-- The body loads and stores whole staging buffers: every offset is zero. -/
theorem zero_offsets1 : (![0, 0] : Fin 2 → Nat) = fun _ => 0 := funext fun a => by fin_cases a <;> rfl

/-- The printed index maps over the 200 points: the gathered operands and the result are at block `t` along the
    rows and block 0 along the features; the weights and biases stay at block (0, 0). -/
theorem index_facts1 : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0
    ∧ win1_6.index t (0 : Fin 2) = t.val ∧ win1_6.index t (1 : Fin 2) = 0 :=
  (by decide +kernel : ∀ t : Fin grid1.N, _)

/-- Window 0 walks a gathered array 4000 rows at a time: row `r` of its block at point `t` is row `4000 t + r` of the array. -/
theorem rows1_0 (c : Dev nD) (t : Fin cfg1.N) (r : Fin 4000) (k : Fin 128) (R : Fin 800000)
    (hR : R.val = t.val * 4000 + r.val) :
    (iblk1 (F := Ideal) V c 0 t : Vec Ideal S4000x128 .f32) (ix2 r k)
      = (V c (Pipeline.arrRef spec1 0) : FVec Ideal S800000x128 .f32) (ix2 R k) := by
  obtain ⟨e0, e1, -⟩ := index_facts1 t
  unfold iblk1
  show (V c (Pipeline.arrRef spec1 0) : FVec Ideal S800000x128 .f32) (((cfg1.win 0).blk t).view.emb (ix2 r k)) = _
  refine congrArg _ (funext fun a => Fin.ext ?_)
  match a with
  | ⟨0, _⟩ => show win1_0.index t (0 : Fin 2) * 4000 + 1 * r.val = R.val; omega
  | ⟨1, _⟩ => show win1_0.index t (1 : Fin 2) * 128 + 1 * k.val = k.val; omega

/-- Window 1 walks a gathered array 4000 rows at a time: row `r` of its block at point `t` is row `4000 t + r` of the array. -/
theorem rows1_1 (c : Dev nD) (t : Fin cfg1.N) (r : Fin 4000) (k : Fin 128) (R : Fin 800000)
    (hR : R.val = t.val * 4000 + r.val) :
    (iblk1 (F := Ideal) V c 1 t : Vec Ideal S4000x128 .f32) (ix2 r k)
      = (V c (Pipeline.arrRef spec1 1) : FVec Ideal S800000x128 .f32) (ix2 R k) := by
  obtain ⟨-, -, e0, e1, -⟩ := index_facts1 t
  unfold iblk1
  show (V c (Pipeline.arrRef spec1 1) : FVec Ideal S800000x128 .f32) (((cfg1.win 1).blk t).view.emb (ix2 r k)) = _
  refine congrArg _ (funext fun a => Fin.ext ?_)
  match a with
  | ⟨0, _⟩ => show win1_1.index t (0 : Fin 2) * 4000 + 1 * r.val = R.val; omega
  | ⟨1, _⟩ => show win1_1.index t (1 : Fin 2) * 128 + 1 * k.val = k.val; omega

/-- Window 2 holds a weight operand whole: its one block, at every point, is the operand itself. -/
theorem whole1_2 (c : Dev nD) (t : Fin cfg1.N) :
    (iblk1 (F := Ideal) V c 2 t : Vec Ideal S256x128 .f32) = (V c (Pipeline.arrRef spec1 2) : FVec Ideal S256x128 .f32) := by
  obtain ⟨-, -, -, -, e0, e1, -⟩ := index_facts1 t
  unfold iblk1
  funext y
  show (V c (Pipeline.arrRef spec1 2) : FVec Ideal S256x128 .f32) (((cfg1.win 2).blk t).view.emb y) = _
  refine congrArg _ (funext fun a => Fin.ext ?_)
  match a with
  | ⟨0, _⟩ => show win1_2.index t (0 : Fin 2) * 256 + 1 * (y 0).val = (y 0).val; omega
  | ⟨1, _⟩ => show win1_2.index t (1 : Fin 2) * 128 + 1 * (y 1).val = (y 1).val; omega

/-- Window 3 holds a weight operand whole: its one block, at every point, is the operand itself. -/
theorem whole1_3 (c : Dev nD) (t : Fin cfg1.N) :
    (iblk1 (F := Ideal) V c 3 t : Vec Ideal S1x128 .f32) = (V c (Pipeline.arrRef spec1 3) : FVec Ideal S1x128 .f32) := by
  obtain ⟨-, -, -, -, -, -, e0, e1, -⟩ := index_facts1 t
  unfold iblk1
  funext y
  show (V c (Pipeline.arrRef spec1 3) : FVec Ideal S1x128 .f32) (((cfg1.win 3).blk t).view.emb y) = _
  refine congrArg _ (funext fun a => Fin.ext ?_)
  match a with
  | ⟨0, _⟩ => show win1_3.index t (0 : Fin 2) * 1 + 1 * (y 0).val = (y 0).val; omega
  | ⟨1, _⟩ => show win1_3.index t (1 : Fin 2) * 128 + 1 * (y 1).val = (y 1).val; omega

/-- Window 4 holds a weight operand whole: its one block, at every point, is the operand itself. -/
theorem whole1_4 (c : Dev nD) (t : Fin cfg1.N) :
    (iblk1 (F := Ideal) V c 4 t : Vec Ideal S128x128 .f32) = (V c (Pipeline.arrRef spec1 4) : FVec Ideal S128x128 .f32) := by
  obtain ⟨-, -, -, -, -, -, -, -, e0, e1, -⟩ := index_facts1 t
  unfold iblk1
  funext y
  show (V c (Pipeline.arrRef spec1 4) : FVec Ideal S128x128 .f32) (((cfg1.win 4).blk t).view.emb y) = _
  refine congrArg _ (funext fun a => Fin.ext ?_)
  match a with
  | ⟨0, _⟩ => show win1_4.index t (0 : Fin 2) * 128 + 1 * (y 0).val = (y 0).val; omega
  | ⟨1, _⟩ => show win1_4.index t (1 : Fin 2) * 128 + 1 * (y 1).val = (y 1).val; omega

/-- Window 5 holds a weight operand whole: its one block, at every point, is the operand itself. -/
theorem whole1_5 (c : Dev nD) (t : Fin cfg1.N) :
    (iblk1 (F := Ideal) V c 5 t : Vec Ideal S1x128 .f32) = (V c (Pipeline.arrRef spec1 5) : FVec Ideal S1x128 .f32) := by
  obtain ⟨-, -, -, -, -, -, -, -, -, -, e0, e1, -⟩ := index_facts1 t
  unfold iblk1
  funext y
  show (V c (Pipeline.arrRef spec1 5) : FVec Ideal S1x128 .f32) (((cfg1.win 5).blk t).view.emb y) = _
  refine congrArg _ (funext fun a => Fin.ext ?_)
  match a with
  | ⟨0, _⟩ => show win1_5.index t (0 : Fin 2) * 1 + 1 * (y 0).val = (y 0).val; omega
  | ⟨1, _⟩ => show win1_5.index t (1 : Fin 2) * 128 + 1 * (y 1).val = (y 1).val; omega

/-- One entry of one block: if the two row-indexed blocks are rows `4000 T + r` of their arrays and the other four
    blocks are their operands whole, the body's result at `y` is the whole-array message function at the array
    index `i` that sits at row `4000 T + y 0`, feature `y 1`. -/
theorem point1 (A0 A1 : FVec Ideal S800000x128 .f32) (A2 : FVec Ideal S256x128 .f32) (A3 : FVec Ideal S1x128 .f32)
    (A4 : FVec Ideal S128x128 .f32) (A5 : FVec Ideal S1x128 .f32)
    (x0 x1 : Vec Ideal S4000x128 .f32) (x2 : Vec Ideal S256x128 .f32) (x3 : Vec Ideal S1x128 .f32)
    (x4 : Vec Ideal S128x128 .f32) (x5 : Vec Ideal S1x128 .f32)
    (T : Nat) (y : S4000x128.Idx) (i : S800000x128.Idx)
    (hi0 : (i 0).val = T * 4000 + (y 0).val) (hi1 : (i 1).val = (y 1).val)
    (h0 : ∀ (r : Fin 4000) (k : Fin 128) (R : Fin 800000), R.val = T * 4000 + r.val → x0 (ix2 r k) = A0 (ix2 R k))
    (h1 : ∀ (r : Fin 4000) (k : Fin 128) (R : Fin 800000), R.val = T * 4000 + r.val → x1 (ix2 r k) = A1 (ix2 R k))
    (h2 : x2 = A2) (h3 : x3 = A3) (h4 : x4 = A4) (h5 : x5 = A5) :
    k1_pay1 (F := Ideal) x0 x1 x2 x3 x4 x5 y = Gmsg A0 A1 A2 A3 A4 A5 i := by
  obtain ⟨r, j, rfl⟩ : ∃ (r : Fin 4000) (j : Fin 128), y = ix2 r j := ⟨y 0, y 1, eq_ix2 y⟩
  obtain ⟨R, J, rfl⟩ : ∃ (R : Fin 800000) (J : Fin 128), i = ix2 R J := ⟨i 0, i 1, eq_ix2 i⟩
  obtain rfl : J = j := Fin.ext hi1
  subst h2 h3 h4 h5
  rw [pay1_apply, Gmsg_ix2]
  have e0 : (fun k => x0 (ix2 r k)) = rowAt (n := 800000) A0 R := funext fun k => h0 r k R hi0
  have e1 : (fun k => x1 (ix2 r k)) = rowAt (n := 800000) A1 R := funext fun k => h1 r k R hi0
  rw [e0, e1]

/-- What point `t` writes back is the body's result on the six blocks at `t`: the body stores one whole block. -/
theorem flushed1_body (c : Dev nD) (t : Fin cfg1.N) :
    (dat1 (F := Ideal) V c).flushed 6 t
      = (cfg1.win 6).cut (grid1.coords t) (k1_pay1 (F := Ideal) (iblk1 (F := Ideal) V c 0 t) (iblk1 (F := Ideal) V c 1 t) (iblk1 (F := Ideal) V c 2 t) (iblk1 (F := Ideal) V c 3 t) (iblk1 (F := Ideal) V c 4 t) (iblk1 (F := Ideal) V c 5 t)) := by
  show (cfg1.win 6).cut (grid1.coords t) ((dat1 (F := Ideal) V c).after 6 t) = _
  rw [after1_6]
  unfold out1_6
  rw [View.canon_unit_zero zero_offsets1]
  simp only [View.ld_unit_zero (S := S4000x128) zero_offsets1, View.ld_unit_zero (S := S256x128) zero_offsets1,
    View.ld_unit_zero (S := S1x128) zero_offsets1, View.ld_unit_zero (S := S128x128) zero_offsets1]

/-- What point `t` writes back is block `t` of the message function of the six operands as the launch finds them. -/
theorem flushed1_eq (c : Dev nD) (t : Fin cfg1.N) :
    (dat1 (F := Ideal) V c).flushed 6 t
      = ((cfg1.win 6).blk t).view.read (Elt Ideal) (Gmsg (V c (Pipeline.arrRef spec1 0)) (V c (Pipeline.arrRef spec1 1)) (V c (Pipeline.arrRef spec1 2)) (V c (Pipeline.arrRef spec1 3)) (V c (Pipeline.arrRef spec1 4)) (V c (Pipeline.arrRef spec1 5))) := by
  rw [flushed1_body V c t]
  obtain ⟨-, -, -, -, -, -, -, -, -, -, -, -, e0, e1⟩ := index_facts1 t
  funext y
  show k1_pay1 (F := Ideal) (iblk1 (F := Ideal) V c 0 t) (iblk1 (F := Ideal) V c 1 t) (iblk1 (F := Ideal) V c 2 t) (iblk1 (F := Ideal) V c 3 t) (iblk1 (F := Ideal) V c 4 t) (iblk1 (F := Ideal) V c 5 t) y
      = (Gmsg (V c (Pipeline.arrRef spec1 0)) (V c (Pipeline.arrRef spec1 1)) (V c (Pipeline.arrRef spec1 2)) (V c (Pipeline.arrRef spec1 3)) (V c (Pipeline.arrRef spec1 4)) (V c (Pipeline.arrRef spec1 5))) (((cfg1.win 6).blk t).view.emb y)
  refine point1 (V c (Pipeline.arrRef spec1 0)) (V c (Pipeline.arrRef spec1 1)) (V c (Pipeline.arrRef spec1 2)) (V c (Pipeline.arrRef spec1 3)) (V c (Pipeline.arrRef spec1 4)) (V c (Pipeline.arrRef spec1 5))
    (iblk1 (F := Ideal) V c 0 t) (iblk1 (F := Ideal) V c 1 t) (iblk1 (F := Ideal) V c 2 t) (iblk1 (F := Ideal) V c 3 t) (iblk1 (F := Ideal) V c 4 t) (iblk1 (F := Ideal) V c 5 t)
    t.val y (((cfg1.win 6).blk t).view.emb y) ?_ ?_ (rows1_0 V c t) (rows1_1 V c t)
    (whole1_2 V c t) (whole1_3 V c t) (whole1_4 V c t) (whole1_5 V c t)
  · show win1_6.index t (0 : Fin 2) * 4000 + 1 * (y 0).val = t.val * 4000 + (y 0).val; omega
  · show win1_6.index t (1 : Fin 2) * 128 + 1 * (y 1).val = (y 1).val; omega

/-- An index of the result array is in point `t`'s block iff, on each axis, it lies in the block's range. -/
theorem mem_block1 (t : Fin cfg1.N) (i : S800000x128.Idx) :
    i ∈ ((cfg1.win 6).blk t).view.set ↔ ∀ a : Fin 2, win1_6.index t a * S4000x128.size a ≤ (i a).val
      ∧ (i a).val < win1_6.index t a * S4000x128.size a + S4000x128.size a := by
  show i ∈ ((View.whole main_v21).slice (win1_6.rect t)).set ↔ _
  rw [View.set_slice_whole, Rect.mem_set_unit]
  exact Iff.rfl

/-- The 200 blocks tile the array: row `R` lies in block `R / 4000`. -/
theorem cover1 (i : S800000x128.Idx) :
    ∃ t : Fin cfg1.N, (cfg1.win 6).flush t = true ∧ i ∈ ((cfg1.win 6).blk t).view.set := by
  have hi0 : (i 0).val < 800000 := (i 0).isLt
  have hi1 : (i 1).val < 128 := (i 1).isLt
  have hN : cfg1.N = 200 := N_1
  obtain ⟨t, ht⟩ : ∃ t : Fin cfg1.N, t.val = (i 0).val / 4000 := ⟨⟨(i 0).val / 4000, by rw [hN]; omega⟩, rfl⟩
  obtain ⟨-, -, -, -, -, -, -, -, -, -, -, -, e0, e1⟩ := index_facts1 t
  refine ⟨t, flush1_6 t, ?_⟩
  rw [mem_block1]
  intro a
  match a with
  | ⟨0, _⟩ =>
    show win1_6.index t (0 : Fin 2) * 4000 ≤ (i 0).val ∧ (i 0).val < win1_6.index t (0 : Fin 2) * 4000 + 4000
    omega
  | ⟨1, _⟩ =>
    show win1_6.index t (1 : Fin 2) * 128 ≤ (i 1).val ∧ (i 1).val < win1_6.index t (1 : Fin 2) * 128 + 128
    omega

/-- After the first message launch its result array holds the message network of every edge's two gathered rows. -/
theorem final1 (V : (c : Dev nD) → (b : Ref sig .tc) → Buf (Elt Ideal) ((c : Thread nD τ).loc b)) (c : Dev nD) :
    (dat1 (F := Ideal) V c).arrAt 6 cfg1.N = Gmsg (V c (Pipeline.arrRef spec1 0)) (V c (Pipeline.arrRef spec1 1)) (V c (Pipeline.arrRef spec1 2)) (V c (Pipeline.arrRef spec1 3)) (V c (Pipeline.arrRef spec1 4)) (V c (Pipeline.arrRef spec1 5)) :=
  (dat1 (F := Ideal) V c).arrAt_eq_of_cover 6 (Gmsg (V c (Pipeline.arrRef spec1 0)) (V c (Pipeline.arrRef spec1 1)) (V c (Pipeline.arrRef spec1 2)) (V c (Pipeline.arrRef spec1 3)) (V c (Pipeline.arrRef spec1 4)) (V c (Pipeline.arrRef spec1 5)))
    (fun t _ => flushed1_eq V c t) cover1

end Cert.Bridge.K

end
-- ==== Proof.KUpd.lean ====
/-
  The node-update kernel body, read at one entry of its 5000 x 128 block.

  The body concatenates a row of `h` with the same row of `agg` (256 features), multiplies by the 256 x 128 weight,
  adds the bias and the row of `h` itself, and then normalises the resulting row: its mean and its variance are lane
  sums divided by 128, kept as a column, broadcast back over the 128 lanes; the centred row is scaled by
  `rsqrt (var + eps)`, by `g` and shifted by `be`. Entry `(r, j)` of the result therefore depends on row `r` of the two
  row-indexed blocks and on the weight operands only: it is `updRow` of those two rows at `j`.

  First each operation of the body that is not pointwise is read at an index `(r, j)`; then the whole body.
-/
import proofs.«429507_j9285719294448_1_alg».proof.Proof.Gen.KernelIdeal.Skeleton
import proofs.«429507_j9285719294448_1_alg».proof.Proof.Spec
import Idealize.ShloMosaic.Lib.Pipeline.Value
import Idealize.ShloMosaic.Lib.ValueLayout
import Idealize.ShloMosaic.Lib.ValueIdx
import Idealize.ShloMosaic.PureOps.Ideal.Laws

set_option maxRecDepth 16384

noncomputable section

open scoped BigOperators

namespace Cert.Bridge.K.Upd

open Cert.KernelIdeal Cert.KernelIdeal.Gen Idealize.ShloMosaic Idealize.ShloMosaic.TcCoe Idealize.SL.Sem Idealize.ShloMosaic.ValueIdx Cert.Bridge

/-! ## The operations that move data, at an index -/

/-- Two 128-feature blocks side by side: feature `q` of row `r` comes from the first block when `q < 128` and from the
    second, at `q - 128`, otherwise. -/
theorem cat_apply (a b : FVec Ideal S5000x128 .f32) (r : Fin 5000) (q : Fin 256) :
    concatenate S5000x256 1 [⟨S5000x128, a⟩, ⟨S5000x128, b⟩] concatenates_S5000x128_S5000x128_S5000x256_d1 (ix2 r q)
      = catRow (fun k => a (ix2 r k)) (fun k => b (ix2 r k)) q := by
  unfold catRow
  split
  · next h =>
    exact concatenate_pair_apply_left (1 : Fin S5000x256.rank) a b concatenates_S5000x128_S5000x128_S5000x256_d1 (ix2 r q) rfl
      (ix2 r ⟨q.val, h⟩) (fun c => match c with | ⟨0, _⟩ => rfl | ⟨1, _⟩ => rfl)
  · next h =>
    exact concatenate_pair_apply_right (1 : Fin S5000x256.rank) a b concatenates_S5000x128_S5000x128_S5000x256_d1 (ix2 r q) rfl rfl
      (ix2 r ⟨q.val - 128, by have := q.isLt; omega⟩)
      (fun c hc => match c, hc with | ⟨0, _⟩, _ => rfl | ⟨1, _⟩, hc => absurd rfl hc)
      (by show q.val - 128 + 128 = q.val; omega)

/-- The 1 x 128 operands (bias, scale, shift) broadcast over the rows: every row reads the one row. -/
theorem bcastRow_apply (v : FVec Ideal S1x128 .f32) (r : Fin 5000) (j : Fin 128) :
    broadcastTo S5000x128 v broadcasts_S1x128_S5000x128 (ix2 r j) = v (ix2 (0 : Fin 1) j) :=
  broadcastTo_1b_ab_apply v broadcasts_S1x128_S5000x128 r j

/-- A vector of 5000 row statistics kept as a column. -/
theorem col_apply (v : FVec Ideal S5000 .f32) (r : Fin 5000) (u : Fin 1) :
    shapeCast S5000x1 v shapeCasts_S5000_S5000x1 (ix2 r u) = v (ix1 r) :=
  shapeCast_apply v shapeCasts_S5000_S5000x1 _ _ (by
    rw [Shape.rowMajor_val_two, Shape.rowMajor_val_one]
    show r.val = r.val * 1 + u.val
    omega)

/-- A column of row statistics broadcast over the 128 lanes: lane `j` of row `r` reads the statistic of row `r`. -/
theorem bcastCol_apply (w : FVec Ideal S5000x1 .f32) (r : Fin 5000) (j : Fin 128) :
    broadcastTo S5000x128 w broadcasts_S5000x1_S5000x128 (ix2 r j) = w (ix2 r (0 : Fin 1)) := by
  refine broadcastTo_apply w broadcasts_S5000x1_S5000x128 (ix2 r j) (ix2 r (0 : Fin 1)) fun ax => ?_
  match ax with
  | ⟨0, _⟩ => rfl
  | ⟨1, _⟩ => rfl

/-- A lane sum: the sum of a row's 128 entries. -/
theorem rowSum_apply (src : FVec Ideal S5000x128 .f32) (hφ : FKind.Formats .f32)
    (hacc : @Eq (BitVec (FTy.bits .f32)) 0x00000000#32 0x00000000#32) (r : Fin 5000) :
    multiReduction (F := Ideal) .add [1] S5000 src 0x00000000#32 reduces_S5000x128_S5000 hφ hacc (ix1 r)
      = ∑ k : Fin 128, src (ix2 r k) := by
  refine (Ideal.multiReduction_add_single src 0x00000000#32 reduces_S5000x128_S5000 hφ hacc (ix1 r)).trans ?_
  refine Finset.sum_congr rfl fun k _ => congrArg src ?_
  funext c
  match c with
  | ⟨0, _⟩ => rfl
  | ⟨1, _⟩ => rfl

/-! ## The product with the 256 x 128 weight -/

theorem lhs_ax0 (i : S5000x128.Idx) (q : dot_S5000x256_S256x128_S5000x128_1_0_0_1_n_n.contr.Idx) :
    (dot_S5000x256_S256x128_S5000x128_1_0_0_1_n_n.lhsIdx i q 0).val = (i 0).val := by
  unfold DotDims.lhsIdx
  rw [dif_neg (show ¬(0 : Fin S5000x256.rank) ∈ dot_S5000x256_S256x128_S5000x128_1_0_0_1_n_n.lhsBatch by decide),
    dif_pos (show (0 : Fin S5000x256.rank) ∈ dot_S5000x256_S256x128_S5000x128_1_0_0_1_n_n.lhsNonContracting by decide)]
  rfl
theorem lhs_ax1 (i : S5000x128.Idx) (q : dot_S5000x256_S256x128_S5000x128_1_0_0_1_n_n.contr.Idx) :
    (dot_S5000x256_S256x128_S5000x128_1_0_0_1_n_n.lhsIdx i q 1).val = (q ⟨0, by decide⟩).val :=
  dot_S5000x256_S256x128_S5000x128_1_0_0_1_n_n.lhsIdx_val_of_single rfl i q
theorem rhs_ax0 (i : S5000x128.Idx) (q : dot_S5000x256_S256x128_S5000x128_1_0_0_1_n_n.contr.Idx) :
    (dot_S5000x256_S256x128_S5000x128_1_0_0_1_n_n.rhsIdx i q 0).val = (q ⟨0, by decide⟩).val :=
  dot_S5000x256_S256x128_S5000x128_1_0_0_1_n_n.rhsIdx_val_of_single rfl i q
theorem rhs_ax1 (i : S5000x128.Idx) (q : dot_S5000x256_S256x128_S5000x128_1_0_0_1_n_n.contr.Idx) :
    (dot_S5000x256_S256x128_S5000x128_1_0_0_1_n_n.rhsIdx i q 1).val = (i 1).val := by
  unfold DotDims.rhsIdx
  rw [dif_neg (show ¬(1 : Fin S256x128.rank) ∈ dot_S5000x256_S256x128_S5000x128_1_0_0_1_n_n.rhsBatch by decide),
    dif_pos (show (1 : Fin S256x128.rank) ∈ dot_S5000x256_S256x128_S5000x128_1_0_0_1_n_n.rhsNonContracting by decide)]
  rfl

/-- The matrix product into a zero accumulator: entry `(r, j)` is the sum over the 256 contracted features of row `r`
    of the left operand times column `j` of the right one. -/
theorem mm_apply (L : FVec Ideal S5000x256 .bf16) (R : FVec Ideal S256x128 .bf16) (r : Fin 5000) (j : Fin 128) :
    matmul dot_S5000x256_S256x128_S5000x128_1_0_0_1_n_n none L R (constant (F := Ideal) S5000x128 .f32 0x00000000#32) (ix2 r j)
      = ∑ q : Fin 256, L (ix2 r q) * R (ix2 q j) := by
  simp only [matmul]
  rw [Ideal.matmul_constant_zero_apply, ← Equiv.sum_comp (contrEquiv1 dot_S5000x256_S256x128_S5000x128_1_0_0_1_n_n 256 rfl rfl).symm]
  refine Finset.sum_congr rfl fun k _ => ?_
  have hk := contrEquiv1_symm_val dot_S5000x256_S256x128_S5000x128_1_0_0_1_n_n 256 rfl rfl k
  have el : dot_S5000x256_S256x128_S5000x128_1_0_0_1_n_n.lhsIdx (ix2 r j) ((contrEquiv1 dot_S5000x256_S256x128_S5000x128_1_0_0_1_n_n 256 rfl rfl).symm k) = ix2 r k :=
    funext fun a => Fin.ext (by
      match a with
      | ⟨0, _⟩ => exact lhs_ax0 _ _
      | ⟨1, _⟩ => exact (lhs_ax1 _ _).trans hk)
  have er : dot_S5000x256_S256x128_S5000x128_1_0_0_1_n_n.rhsIdx (ix2 r j) ((contrEquiv1 dot_S5000x256_S256x128_S5000x128_1_0_0_1_n_n 256 rfl rfl).symm k) = ix2 k j :=
    funext fun a => Fin.ext (by
      match a with
      | ⟨0, _⟩ => exact (rhs_ax0 _ _).trans hk
      | ⟨1, _⟩ => exact rhs_ax1 _ _)
  rw [el, er]

/-! ## The whole body at an index -/

/-- The reciprocal square root of a vector, at an index. -/
theorem rsqrt_apply {s : Shape} {φ : FTy} (a : FVec Ideal s φ) (i : s.Idx) : rsqrt a i = Ideal.rsqrt (a i) := rfl

/-- Entry `(r, j)` of the node-update body is `updRow` of row `r` of its two row-indexed blocks, at feature `j`. -/
theorem pay2_apply (x0 x2 : Vec Ideal S5000x128 .f32) (x6 : Vec Ideal S256x128 .f32) (x10 x33 x37 : Vec Ideal S1x128 .f32)
    (r : Fin 5000) (j : Fin 128) :
    k2_pay1 (F := Ideal) x0 x2 x6 x10 x33 x37 (ix2 r j)
      = updRow (fun k => x0 (ix2 r k)) (fun k => x2 (ix2 r k)) x6 x10 x33 x37 j := by
  unfold k2_pay1
  -- the outer pointwise operations, down to the two lane sums (mean and variance) at row `r`
  simp only [shapeCast_self, addf_apply, mulf_apply, subf_apply, divf_apply, truncf_apply, broadcast_apply, rsqrt_apply,
    bcastRow_apply, bcastCol_apply, col_apply, mm_apply, cat_apply]
  rw [rowSum_apply, rowSum_apply]
  -- inside the variance's sum the mean appears again, now under the lane index
  simp only [shapeCast_self, addf_apply, mulf_apply, subf_apply, divf_apply, truncf_apply, broadcast_apply, rsqrt_apply,
    bcastRow_apply, bcastCol_apply, col_apply, mm_apply, cat_apply]
  rw [rowSum_apply]
  simp only [shapeCast_self, addf_apply, mulf_apply, subf_apply, divf_apply, truncf_apply, broadcast_apply, rsqrt_apply,
    bcastRow_apply, bcastCol_apply, col_apply, mm_apply, cat_apply]
  rfl

/-- The second node-update call runs the same body. -/
theorem pay4_apply (x0 x2 : Vec Ideal S5000x128 .f32) (x6 : Vec Ideal S256x128 .f32) (x10 x33 x37 : Vec Ideal S1x128 .f32)
    (r : Fin 5000) (j : Fin 128) :
    k4_pay1 (F := Ideal) x0 x2 x6 x10 x33 x37 (ix2 r j)
      = updRow (fun k => x0 (ix2 r k)) (fun k => x2 (ix2 r k)) x6 x10 x33 x37 j :=
  pay2_apply x0 x2 x6 x10 x33 x37 r j

end Cert.Bridge.K.Upd

end
-- ==== Proof.KFin2.lean ====
/-
  The first node-update call, from blocks to the whole array.

  The call walks the 50000 rows in 10 blocks of 5000: at grid point `t` the two row-indexed operands and the result are
  at block `t` along the rows, and the four weight operands (256 x 128 and three 1 x 128) are whole, at block 0. The
  body stores one value over its whole result block, and entry `(r, j)` of that value is `updRow` of row `r` of the two
  input blocks — which are rows `5000 t + r` of the arrays. So what point `t` writes back is block `t` of the one
  whole-array function `Gupd` of the operand arrays; the ten blocks tile the 50000 rows (row `r` lies in block
  `r / 5000`), hence the array ends holding `Gupd`.
-/
import proofs.«429507_j9285719294448_1_alg».proof.Proof.Gen.KernelIdeal.Frame
import proofs.«429507_j9285719294448_1_alg».proof.Proof.Spec
import proofs.«429507_j9285719294448_1_alg».proof.Proof.KUpd
import Idealize.ShloMosaic.Lib.Pipeline.Value

set_option maxRecDepth 16384

noncomputable section

namespace Cert.Bridge.K.Upd

open Cert.KernelIdeal Cert.KernelIdeal.Gen Idealize.ShloMosaic Idealize.ShloMosaic.TcCoe Idealize.SL.Sem Idealize.ShloMosaic.ValueIdx Cert.Bridge
open Idealize.ShloMosaic.Pipeline (Dat)

/-- The body reads and writes its buffers from their corner. -/
theorem corner2 : (![0, 0] : Fin 2 → Nat) = fun _ => 0 := funext fun a => by fin_cases a <;> rfl

/-- Where each operand's block sits at grid point `t`: the row-indexed operands and the result at block `t` along the
    rows, the weight operands at block 0. -/
theorem blocks2 : ∀ t : Fin cfg2.N,
    win2_0.index t (0 : Fin 2) = t.val ∧ win2_0.index t (1 : Fin 2) = 0
    ∧ win2_1.index t (0 : Fin 2) = t.val ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = 0 ∧ win2_5.index t (1 : Fin 2) = 0
    ∧ win2_6.index t (0 : Fin 2) = t.val ∧ win2_6.index t (1 : Fin 2) = 0 :=
  (by decide +kernel : ∀ t : Fin grid2.N, _)

/-- One entry of the body's value is `Gupd` at the array index under it: when the two row blocks are rows
    `5000 n + ·` of the arrays `A0`, `A1` and the weight blocks are the weight arrays, entry `y` of the body is `Gupd` at
    `(5000 n + y 0, y 1)`. -/
theorem body_entry2 (A0 A1 : FVec Ideal S50000x128 .f32) (W : FVec Ideal S256x128 .f32) (b g be : FVec Ideal S1x128 .f32)
    (x0 x1 : Vec Ideal S5000x128 .f32) (x2 : Vec Ideal S256x128 .f32) (x3 x4 x5 : Vec Ideal S1x128 .f32)
    (n : Nat) (y : S5000x128.Idx) (i : S50000x128.Idx)
    (hi0 : (i 0).val = n * 5000 + (y 0).val) (hi1 : (i 1).val = (y 1).val)
    (h0 : ∀ (z : S5000x128.Idx) (k : S50000x128.Idx), (k 0).val = n * 5000 + (z 0).val → (k 1).val = (z 1).val → x0 z = A0 k)
    (h1 : ∀ (z : S5000x128.Idx) (k : S50000x128.Idx), (k 0).val = n * 5000 + (z 0).val → (k 1).val = (z 1).val → x1 z = A1 k)
    (h2 : ∀ z, x2 z = W z) (h3 : ∀ z, x3 z = b z) (h4 : ∀ z, x4 z = g z) (h5 : ∀ z, x5 z = be z) :
    k2_pay1 (F := Ideal) x0 x1 x2 x3 x4 x5 y = Gupd A0 A1 W b g be i := by
  obtain rfl : x2 = W := funext h2
  obtain rfl : x3 = b := funext h3
  obtain rfl : x4 = g := funext h4
  obtain rfl : x5 = be := funext h5
  obtain ⟨r, j, rfl⟩ : ∃ (r : Fin 5000) (j : Fin 128), y = ix2 r j := ⟨y 0, y 1, eq_ix2 y⟩
  obtain ⟨R, J, rfl⟩ : ∃ (R : Fin 50000) (J : Fin 128), i = ix2 R J := ⟨i 0, i 1, eq_ix2 i⟩
  obtain rfl : J = j := Fin.ext hi1
  rw [pay2_apply, Gupd_ix2]
  have e0 : (fun k => x0 (ix2 r k)) = rowAt (n := 50000) A0 R := funext fun k => h0 (ix2 r k) (ix2 R k) hi0 rfl
  have e1 : (fun k => x1 (ix2 r k)) = rowAt (n := 50000) A1 R := funext fun k => h1 (ix2 r k) (ix2 R k) hi0 rfl
  rw [e0, e1]

variable (V : (c : Dev nD) → (b : Ref sig .tc) → Buf (Elt Ideal) ((c : Thread nD τ).loc b))

/-! ## Each operand's block, read off its array -/

/-- Block `t` of the node features: entry `z` of the block is the array at row `5000 t + z 0`, column `z 1`. -/
theorem rows2_0 (c : Dev nD) (t : Fin cfg2.N) (z : S5000x128.Idx) (k : S50000x128.Idx)
    (hk0 : (k 0).val = t.val * 5000 + (z 0).val) (hk1 : (k 1).val = (z 1).val) :
    (iblk2 V c 0 t : Vec Ideal S5000x128 .f32) z = (V c (Pipeline.arrRef spec2 0) : FVec Ideal S50000x128 .f32) k := by
  obtain ⟨f00, f01, f10, f11, -⟩ := blocks2 t
  unfold iblk2
  rw [View.read_apply]
  show V c (Pipeline.arrRef spec2 0) _ = V c (Pipeline.arrRef spec2 0) _
  congr 1
  funext a
  apply Fin.ext
  match a with
  | ⟨0, _⟩ => show win2_0.index t (0 : Fin 2) * 5000 + 1 * (z 0).val = (k 0).val; omega
  | ⟨1, _⟩ => show win2_0.index t (1 : Fin 2) * 128 + 1 * (z 1).val = (k 1).val; omega

/-- Block `t` of the aggregated messages: entry `z` of the block is the array at row `5000 t + z 0`, column `z 1`. -/
theorem rows2_1 (c : Dev nD) (t : Fin cfg2.N) (z : S5000x128.Idx) (k : S50000x128.Idx)
    (hk0 : (k 0).val = t.val * 5000 + (z 0).val) (hk1 : (k 1).val = (z 1).val) :
    (iblk2 V c 1 t : Vec Ideal S5000x128 .f32) z = (V c (Pipeline.arrRef spec2 1) : FVec Ideal S50000x128 .f32) k := by
  obtain ⟨f00, f01, f10, f11, -⟩ := blocks2 t
  unfold iblk2
  rw [View.read_apply]
  show V c (Pipeline.arrRef spec2 1) _ = V c (Pipeline.arrRef spec2 1) _
  congr 1
  funext a
  apply Fin.ext
  match a with
  | ⟨0, _⟩ => show win2_1.index t (0 : Fin 2) * 5000 + 1 * (z 0).val = (k 0).val; omega
  | ⟨1, _⟩ => show win2_1.index t (1 : Fin 2) * 128 + 1 * (z 1).val = (k 1).val; omega

/-- The 256 x 128 weight is one block, the whole array, at every grid point. -/
theorem whole2_2 (c : Dev nD) (t : Fin cfg2.N) (z : S256x128.Idx) :
    (iblk2 V c 2 t : Vec Ideal S256x128 .f32) z = (V c (Pipeline.arrRef spec2 2) : FVec Ideal S256x128 .f32) z := by
  obtain ⟨-, -, -, -, f20, f21, f30, f31, f40, f41, f50, f51, -⟩ := blocks2 t
  unfold iblk2
  rw [View.read_apply]
  show V c (Pipeline.arrRef spec2 2) _ = V c (Pipeline.arrRef spec2 2) _
  congr 1
  funext a
  apply Fin.ext
  match a with
  | ⟨0, _⟩ => show win2_2.index t (0 : Fin 2) * 256 + 1 * (z 0).val = (z 0).val; omega
  | ⟨1, _⟩ => show win2_2.index t (1 : Fin 2) * 128 + 1 * (z 1).val = (z 1).val; omega

/-- The bias is one block, the whole array, at every grid point. -/
theorem whole2_3 (c : Dev nD) (t : Fin cfg2.N) (z : S1x128.Idx) :
    (iblk2 V c 3 t : Vec Ideal S1x128 .f32) z = (V c (Pipeline.arrRef spec2 3) : FVec Ideal S1x128 .f32) z := by
  obtain ⟨-, -, -, -, f20, f21, f30, f31, f40, f41, f50, f51, -⟩ := blocks2 t
  unfold iblk2
  rw [View.read_apply]
  show V c (Pipeline.arrRef spec2 3) _ = V c (Pipeline.arrRef spec2 3) _
  congr 1
  funext a
  apply Fin.ext
  match a with
  | ⟨0, _⟩ => show win2_3.index t (0 : Fin 2) * 1 + 1 * (z 0).val = (z 0).val; omega
  | ⟨1, _⟩ => show win2_3.index t (1 : Fin 2) * 128 + 1 * (z 1).val = (z 1).val; omega

/-- The normalisation scale is one block, the whole array, at every grid point. -/
theorem whole2_4 (c : Dev nD) (t : Fin cfg2.N) (z : S1x128.Idx) :
    (iblk2 V c 4 t : Vec Ideal S1x128 .f32) z = (V c (Pipeline.arrRef spec2 4) : FVec Ideal S1x128 .f32) z := by
  obtain ⟨-, -, -, -, f20, f21, f30, f31, f40, f41, f50, f51, -⟩ := blocks2 t
  unfold iblk2
  rw [View.read_apply]
  show V c (Pipeline.arrRef spec2 4) _ = V c (Pipeline.arrRef spec2 4) _
  congr 1
  funext a
  apply Fin.ext
  match a with
  | ⟨0, _⟩ => show win2_4.index t (0 : Fin 2) * 1 + 1 * (z 0).val = (z 0).val; omega
  | ⟨1, _⟩ => show win2_4.index t (1 : Fin 2) * 128 + 1 * (z 1).val = (z 1).val; omega

/-- The normalisation shift is one block, the whole array, at every grid point. -/
theorem whole2_5 (c : Dev nD) (t : Fin cfg2.N) (z : S1x128.Idx) :
    (iblk2 V c 5 t : Vec Ideal S1x128 .f32) z = (V c (Pipeline.arrRef spec2 5) : FVec Ideal S1x128 .f32) z := by
  obtain ⟨-, -, -, -, f20, f21, f30, f31, f40, f41, f50, f51, -⟩ := blocks2 t
  unfold iblk2
  rw [View.read_apply]
  show V c (Pipeline.arrRef spec2 5) _ = V c (Pipeline.arrRef spec2 5) _
  congr 1
  funext a
  apply Fin.ext
  match a with
  | ⟨0, _⟩ => show win2_5.index t (0 : Fin 2) * 1 + 1 * (z 0).val = (z 0).val; omega
  | ⟨1, _⟩ => show win2_5.index t (1 : Fin 2) * 128 + 1 * (z 1).val = (z 1).val; omega

/-! ## What a grid point writes back, and the whole array -/

/-- What grid point `t` writes back is the body's one stored value, over the operands' blocks at `t`. -/
theorem stored2 (c : Dev nD) (t : Fin cfg2.N) :
    (dat2 (F := Ideal) V c).flushed 6 t
      = k2_pay1 (F := Ideal) (iblk2 V c 0 t) (iblk2 V c 1 t) (iblk2 V c 2 t) (iblk2 V c 3 t) (iblk2 V c 4 t) (iblk2 V c 5 t) := by
  show (cfg2.win 6).cut (grid2.coords t) ((dat2 V c).after 6 t) = _
  rw [after2_6]
  unfold out2_6
  rw [View.canon_unit_zero corner2]
  simp only [View.ld_unit_zero (S := S5000x128) corner2, View.ld_unit_zero (S := S256x128) corner2, View.ld_unit_zero (S := S1x128) corner2]
  rfl

/-- So it is block `t` of `Gupd` of the operand arrays as the call finds them. -/
theorem writeback2 (c : Dev nD) (t : Fin cfg2.N) :
    (dat2 (F := Ideal) V c).flushed 6 t = ((cfg2.win 6).blk t).view.read (Elt Ideal) (Gupd (V c (Pipeline.arrRef spec2 0)) (V c (Pipeline.arrRef spec2 1)) (V c (Pipeline.arrRef spec2 2)) (V c (Pipeline.arrRef spec2 3)) (V c (Pipeline.arrRef spec2 4)) (V c (Pipeline.arrRef spec2 5))) := by
  rw [stored2]
  have f := blocks2 t
  funext y
  refine body_entry2 _ _ _ _ _ _ _ _ _ _ _ _ t.val y (((cfg2.win 6).blk t).view.emb y) ?_ ?_
    (rows2_0 V c t) (rows2_1 V c t) (whole2_2 V c t) (whole2_3 V c t) (whole2_4 V c t) (whole2_5 V c t)
  · show win2_6.index t (0 : Fin 2) * 5000 + 1 * (y 0).val = t.val * 5000 + (y 0).val; omega
  · show win2_6.index t (1 : Fin 2) * 128 + 1 * (y 1).val = (y 1).val; omega

/-- An index of the result array lies in point `t`'s block iff each coordinate lies in the block's range. -/
theorem mem_block2 (t : Fin cfg2.N) (i : S50000x128.Idx) :
    i ∈ ((cfg2.win 6).blk t).view.set ↔ ∀ a : Fin 2, win2_6.index t a * S5000x128.size a ≤ (i a).val ∧ (i a).val < win2_6.index t a * S5000x128.size a + S5000x128.size a := by
  show i ∈ ((View.whole main_v37).slice (win2_6.rect t)).set ↔ _
  rw [View.set_slice_whole, Rect.mem_set_unit]
  exact Iff.rfl

/-- The ten blocks tile the rows: row `r` lies in block `r / 5000`. -/
theorem tiles2 (i : S50000x128.Idx) :
    ∃ t : Fin cfg2.N, (cfg2.win 6).flush t = true ∧ i ∈ ((cfg2.win 6).blk t).view.set := by
  have hi0 : (i 0).val < 50000 := (i 0).isLt
  have hi1 : (i 1).val < 128 := (i 1).isLt
  have ht : (i 0).val / 5000 < 10 := by omega
  obtain ⟨-, -, -, -, -, -, -, -, -, -, -, -, f60, f61⟩ := blocks2 ⟨(i 0).val / 5000, ht⟩
  have f60' : win2_6.index ⟨(i 0).val / 5000, ht⟩ (0 : Fin 2) = (i 0).val / 5000 := f60
  refine ⟨⟨(i 0).val / 5000, ht⟩, flush2_6 _, ?_⟩
  rw [mem_block2]
  intro a
  match a with
  | ⟨0, _⟩ =>
    show win2_6.index ⟨(i 0).val / 5000, ht⟩ (0 : Fin 2) * 5000 ≤ (i 0).val ∧ (i 0).val < win2_6.index ⟨(i 0).val / 5000, ht⟩ (0 : Fin 2) * 5000 + 5000
    omega
  | ⟨1, _⟩ =>
    show win2_6.index ⟨(i 0).val / 5000, ht⟩ (1 : Fin 2) * 128 ≤ (i 1).val ∧ (i 1).val < win2_6.index ⟨(i 0).val / 5000, ht⟩ (1 : Fin 2) * 128 + 128
    omega

end Cert.Bridge.K.Upd

namespace Cert.Bridge.K

open Cert.KernelIdeal Cert.KernelIdeal.Gen Idealize.ShloMosaic Idealize.ShloMosaic.TcCoe Idealize.SL.Sem Idealize.ShloMosaic.ValueIdx Cert.Bridge

/-- THE RESULT ARRAY after the call: `Gupd` of the operand arrays as the call finds them. -/
theorem final2 (V : (c : Dev nD) → (b : Ref sig .tc) → Buf (Elt Ideal) ((c : Thread nD τ).loc b)) (c : Dev nD) :
    (dat2 (F := Ideal) V c).arrAt 6 cfg2.N = Gupd (V c (Pipeline.arrRef spec2 0)) (V c (Pipeline.arrRef spec2 1)) (V c (Pipeline.arrRef spec2 2)) (V c (Pipeline.arrRef spec2 3)) (V c (Pipeline.arrRef spec2 4)) (V c (Pipeline.arrRef spec2 5)) :=
  (dat2 (F := Ideal) V c).arrAt_eq_of_cover 6 (Gupd (V c (Pipeline.arrRef spec2 0)) (V c (Pipeline.arrRef spec2 1)) (V c (Pipeline.arrRef spec2 2)) (V c (Pipeline.arrRef spec2 3)) (V c (Pipeline.arrRef spec2 4)) (V c (Pipeline.arrRef spec2 5))) (fun t _ => Upd.writeback2 V c t) Upd.tiles2

end Cert.Bridge.K

end
-- ==== Proof.KFin3.lean ====
/-
  The second message launch, from blocks to the whole array.

  The launch walks the 800000 edges in 200 blocks of 4000 rows. At block `t` the two gathered operands and the
  result move together (rows `4000 t … 4000 t + 3999`, all 128 features), while the two weights and the two bias rows
  are held whole. The body's result at a block is, entry by entry, the message network of the two gathered rows
  (`pay3_apply`), so what block `t` writes back is block `t` of the whole-array function `Gmsg` of the six operands;
  the 200 blocks tile the array, so the array ends holding `Gmsg`.
-/
import proofs.«429507_j9285719294448_1_alg».proof.Proof.Gen.KernelIdeal.Frame
import proofs.«429507_j9285719294448_1_alg».proof.Proof.Spec
import proofs.«429507_j9285719294448_1_alg».proof.Proof.KMsg
import Idealize.ShloMosaic.Lib.Pipeline.Value

set_option maxRecDepth 16384

noncomputable section

namespace Cert.Bridge.K

open Cert.KernelIdeal Cert.KernelIdeal.Gen Idealize.ShloMosaic Idealize.ShloMosaic.TcCoe Idealize.SL.Sem Idealize.ShloMosaic.ValueIdx Cert.Bridge
open Idealize.ShloMosaic.Pipeline (Dat)

variable (V : (c : Dev nD) → (b : Ref sig .tc) → Buf (Elt Ideal) ((c : Thread nD τ).loc b))

/-- The body loads and stores whole staging buffers: every offset is zero. -/
theorem zero_offsets3 : (![0, 0] : Fin 2 → Nat) = fun _ => 0 := funext fun a => by fin_cases a <;> rfl

/-- The printed index maps over the 200 points: the gathered operands and the result are at block `t` along the
    rows and block 0 along the features; the weights and biases stay at block (0, 0). -/
theorem index_facts3 : ∀ t : Fin cfg3.N,
    win3_0.index t (0 : Fin 2) = t.val ∧ win3_0.index t (1 : Fin 2) = 0
    ∧ win3_1.index t (0 : Fin 2) = t.val ∧ win3_1.index t (1 : Fin 2) = 0
    ∧ win3_2.index t (0 : Fin 2) = 0 ∧ win3_2.index t (1 : Fin 2) = 0
    ∧ win3_3.index t (0 : Fin 2) = 0 ∧ win3_3.index t (1 : Fin 2) = 0
    ∧ win3_4.index t (0 : Fin 2) = 0 ∧ win3_4.index t (1 : Fin 2) = 0
    ∧ win3_5.index t (0 : Fin 2) = 0 ∧ win3_5.index t (1 : Fin 2) = 0
    ∧ win3_6.index t (0 : Fin 2) = t.val ∧ win3_6.index t (1 : Fin 2) = 0 :=
  (by decide +kernel : ∀ t : Fin grid3.N, _)

/-- Window 0 walks a gathered array 4000 rows at a time: row `r` of its block at point `t` is row `4000 t + r` of the array. -/
theorem rows3_0 (c : Dev nD) (t : Fin cfg3.N) (r : Fin 4000) (k : Fin 128) (R : Fin 800000)
    (hR : R.val = t.val * 4000 + r.val) :
    (iblk3 (F := Ideal) V c 0 t : Vec Ideal S4000x128 .f32) (ix2 r k)
      = (V c (Pipeline.arrRef spec3 0) : FVec Ideal S800000x128 .f32) (ix2 R k) := by
  obtain ⟨e0, e1, -⟩ := index_facts3 t
  unfold iblk3
  show (V c (Pipeline.arrRef spec3 0) : FVec Ideal S800000x128 .f32) (((cfg3.win 0).blk t).view.emb (ix2 r k)) = _
  refine congrArg _ (funext fun a => Fin.ext ?_)
  match a with
  | ⟨0, _⟩ => show win3_0.index t (0 : Fin 2) * 4000 + 1 * r.val = R.val; omega
  | ⟨1, _⟩ => show win3_0.index t (1 : Fin 2) * 128 + 1 * k.val = k.val; omega

/-- Window 1 walks a gathered array 4000 rows at a time: row `r` of its block at point `t` is row `4000 t + r` of the array. -/
theorem rows3_1 (c : Dev nD) (t : Fin cfg3.N) (r : Fin 4000) (k : Fin 128) (R : Fin 800000)
    (hR : R.val = t.val * 4000 + r.val) :
    (iblk3 (F := Ideal) V c 1 t : Vec Ideal S4000x128 .f32) (ix2 r k)
      = (V c (Pipeline.arrRef spec3 1) : FVec Ideal S800000x128 .f32) (ix2 R k) := by
  obtain ⟨-, -, e0, e1, -⟩ := index_facts3 t
  unfold iblk3
  show (V c (Pipeline.arrRef spec3 1) : FVec Ideal S800000x128 .f32) (((cfg3.win 1).blk t).view.emb (ix2 r k)) = _
  refine congrArg _ (funext fun a => Fin.ext ?_)
  match a with
  | ⟨0, _⟩ => show win3_1.index t (0 : Fin 2) * 4000 + 1 * r.val = R.val; omega
  | ⟨1, _⟩ => show win3_1.index t (1 : Fin 2) * 128 + 1 * k.val = k.val; omega

/-- Window 2 holds a weight operand whole: its one block, at every point, is the operand itself. -/
theorem whole3_2 (c : Dev nD) (t : Fin cfg3.N) :
    (iblk3 (F := Ideal) V c 2 t : Vec Ideal S256x128 .f32) = (V c (Pipeline.arrRef spec3 2) : FVec Ideal S256x128 .f32) := by
  obtain ⟨-, -, -, -, e0, e1, -⟩ := index_facts3 t
  unfold iblk3
  funext y
  show (V c (Pipeline.arrRef spec3 2) : FVec Ideal S256x128 .f32) (((cfg3.win 2).blk t).view.emb y) = _
  refine congrArg _ (funext fun a => Fin.ext ?_)
  match a with
  | ⟨0, _⟩ => show win3_2.index t (0 : Fin 2) * 256 + 1 * (y 0).val = (y 0).val; omega
  | ⟨1, _⟩ => show win3_2.index t (1 : Fin 2) * 128 + 1 * (y 1).val = (y 1).val; omega

/-- Window 3 holds a weight operand whole: its one block, at every point, is the operand itself. -/
theorem whole3_3 (c : Dev nD) (t : Fin cfg3.N) :
    (iblk3 (F := Ideal) V c 3 t : Vec Ideal S1x128 .f32) = (V c (Pipeline.arrRef spec3 3) : FVec Ideal S1x128 .f32) := by
  obtain ⟨-, -, -, -, -, -, e0, e1, -⟩ := index_facts3 t
  unfold iblk3
  funext y
  show (V c (Pipeline.arrRef spec3 3) : FVec Ideal S1x128 .f32) (((cfg3.win 3).blk t).view.emb y) = _
  refine congrArg _ (funext fun a => Fin.ext ?_)
  match a with
  | ⟨0, _⟩ => show win3_3.index t (0 : Fin 2) * 1 + 1 * (y 0).val = (y 0).val; omega
  | ⟨1, _⟩ => show win3_3.index t (1 : Fin 2) * 128 + 1 * (y 1).val = (y 1).val; omega

/-- Window 4 holds a weight operand whole: its one block, at every point, is the operand itself. -/
theorem whole3_4 (c : Dev nD) (t : Fin cfg3.N) :
    (iblk3 (F := Ideal) V c 4 t : Vec Ideal S128x128 .f32) = (V c (Pipeline.arrRef spec3 4) : FVec Ideal S128x128 .f32) := by
  obtain ⟨-, -, -, -, -, -, -, -, e0, e1, -⟩ := index_facts3 t
  unfold iblk3
  funext y
  show (V c (Pipeline.arrRef spec3 4) : FVec Ideal S128x128 .f32) (((cfg3.win 4).blk t).view.emb y) = _
  refine congrArg _ (funext fun a => Fin.ext ?_)
  match a with
  | ⟨0, _⟩ => show win3_4.index t (0 : Fin 2) * 128 + 1 * (y 0).val = (y 0).val; omega
  | ⟨1, _⟩ => show win3_4.index t (1 : Fin 2) * 128 + 1 * (y 1).val = (y 1).val; omega

/-- Window 5 holds a weight operand whole: its one block, at every point, is the operand itself. -/
theorem whole3_5 (c : Dev nD) (t : Fin cfg3.N) :
    (iblk3 (F := Ideal) V c 5 t : Vec Ideal S1x128 .f32) = (V c (Pipeline.arrRef spec3 5) : FVec Ideal S1x128 .f32) := by
  obtain ⟨-, -, -, -, -, -, -, -, -, -, e0, e1, -⟩ := index_facts3 t
  unfold iblk3
  funext y
  show (V c (Pipeline.arrRef spec3 5) : FVec Ideal S1x128 .f32) (((cfg3.win 5).blk t).view.emb y) = _
  refine congrArg _ (funext fun a => Fin.ext ?_)
  match a with
  | ⟨0, _⟩ => show win3_5.index t (0 : Fin 2) * 1 + 1 * (y 0).val = (y 0).val; omega
  | ⟨1, _⟩ => show win3_5.index t (1 : Fin 2) * 128 + 1 * (y 1).val = (y 1).val; omega

/-- One entry of one block: if the two row-indexed blocks are rows `4000 T + r` of their arrays and the other four
    blocks are their operands whole, the body's result at `y` is the whole-array message function at the array
    index `i` that sits at row `4000 T + y 0`, feature `y 1`. -/
theorem point3 (A0 A1 : FVec Ideal S800000x128 .f32) (A2 : FVec Ideal S256x128 .f32) (A3 : FVec Ideal S1x128 .f32)
    (A4 : FVec Ideal S128x128 .f32) (A5 : FVec Ideal S1x128 .f32)
    (x0 x1 : Vec Ideal S4000x128 .f32) (x2 : Vec Ideal S256x128 .f32) (x3 : Vec Ideal S1x128 .f32)
    (x4 : Vec Ideal S128x128 .f32) (x5 : Vec Ideal S1x128 .f32)
    (T : Nat) (y : S4000x128.Idx) (i : S800000x128.Idx)
    (hi0 : (i 0).val = T * 4000 + (y 0).val) (hi1 : (i 1).val = (y 1).val)
    (h0 : ∀ (r : Fin 4000) (k : Fin 128) (R : Fin 800000), R.val = T * 4000 + r.val → x0 (ix2 r k) = A0 (ix2 R k))
    (h1 : ∀ (r : Fin 4000) (k : Fin 128) (R : Fin 800000), R.val = T * 4000 + r.val → x1 (ix2 r k) = A1 (ix2 R k))
    (h2 : x2 = A2) (h3 : x3 = A3) (h4 : x4 = A4) (h5 : x5 = A5) :
    k3_pay1 (F := Ideal) x0 x1 x2 x3 x4 x5 y = Gmsg A0 A1 A2 A3 A4 A5 i := by
  obtain ⟨r, j, rfl⟩ : ∃ (r : Fin 4000) (j : Fin 128), y = ix2 r j := ⟨y 0, y 1, eq_ix2 y⟩
  obtain ⟨R, J, rfl⟩ : ∃ (R : Fin 800000) (J : Fin 128), i = ix2 R J := ⟨i 0, i 1, eq_ix2 i⟩
  obtain rfl : J = j := Fin.ext hi1
  subst h2 h3 h4 h5
  rw [pay3_apply, Gmsg_ix2]
  have e0 : (fun k => x0 (ix2 r k)) = rowAt (n := 800000) A0 R := funext fun k => h0 r k R hi0
  have e1 : (fun k => x1 (ix2 r k)) = rowAt (n := 800000) A1 R := funext fun k => h1 r k R hi0
  rw [e0, e1]

/-- What point `t` writes back is the body's result on the six blocks at `t`: the body stores one whole block. -/
theorem flushed3_body (c : Dev nD) (t : Fin cfg3.N) :
    (dat3 (F := Ideal) V c).flushed 6 t
      = (cfg3.win 6).cut (grid3.coords t) (k3_pay1 (F := Ideal) (iblk3 (F := Ideal) V c 0 t) (iblk3 (F := Ideal) V c 1 t) (iblk3 (F := Ideal) V c 2 t) (iblk3 (F := Ideal) V c 3 t) (iblk3 (F := Ideal) V c 4 t) (iblk3 (F := Ideal) V c 5 t)) := by
  show (cfg3.win 6).cut (grid3.coords t) ((dat3 (F := Ideal) V c).after 6 t) = _
  rw [after3_6]
  unfold out3_6
  rw [View.canon_unit_zero zero_offsets3]
  simp only [View.ld_unit_zero (S := S4000x128) zero_offsets3, View.ld_unit_zero (S := S256x128) zero_offsets3,
    View.ld_unit_zero (S := S1x128) zero_offsets3, View.ld_unit_zero (S := S128x128) zero_offsets3]

/-- What point `t` writes back is block `t` of the message function of the six operands as the launch finds them. -/
theorem flushed3_eq (c : Dev nD) (t : Fin cfg3.N) :
    (dat3 (F := Ideal) V c).flushed 6 t
      = ((cfg3.win 6).blk t).view.read (Elt Ideal) (Gmsg (V c (Pipeline.arrRef spec3 0)) (V c (Pipeline.arrRef spec3 1)) (V c (Pipeline.arrRef spec3 2)) (V c (Pipeline.arrRef spec3 3)) (V c (Pipeline.arrRef spec3 4)) (V c (Pipeline.arrRef spec3 5))) := by
  rw [flushed3_body V c t]
  obtain ⟨-, -, -, -, -, -, -, -, -, -, -, -, e0, e1⟩ := index_facts3 t
  funext y
  show k3_pay1 (F := Ideal) (iblk3 (F := Ideal) V c 0 t) (iblk3 (F := Ideal) V c 1 t) (iblk3 (F := Ideal) V c 2 t) (iblk3 (F := Ideal) V c 3 t) (iblk3 (F := Ideal) V c 4 t) (iblk3 (F := Ideal) V c 5 t) y
      = (Gmsg (V c (Pipeline.arrRef spec3 0)) (V c (Pipeline.arrRef spec3 1)) (V c (Pipeline.arrRef spec3 2)) (V c (Pipeline.arrRef spec3 3)) (V c (Pipeline.arrRef spec3 4)) (V c (Pipeline.arrRef spec3 5))) (((cfg3.win 6).blk t).view.emb y)
  refine point3 (V c (Pipeline.arrRef spec3 0)) (V c (Pipeline.arrRef spec3 1)) (V c (Pipeline.arrRef spec3 2)) (V c (Pipeline.arrRef spec3 3)) (V c (Pipeline.arrRef spec3 4)) (V c (Pipeline.arrRef spec3 5))
    (iblk3 (F := Ideal) V c 0 t) (iblk3 (F := Ideal) V c 1 t) (iblk3 (F := Ideal) V c 2 t) (iblk3 (F := Ideal) V c 3 t) (iblk3 (F := Ideal) V c 4 t) (iblk3 (F := Ideal) V c 5 t)
    t.val y (((cfg3.win 6).blk t).view.emb y) ?_ ?_ (rows3_0 V c t) (rows3_1 V c t)
    (whole3_2 V c t) (whole3_3 V c t) (whole3_4 V c t) (whole3_5 V c t)
  · show win3_6.index t (0 : Fin 2) * 4000 + 1 * (y 0).val = t.val * 4000 + (y 0).val; omega
  · show win3_6.index t (1 : Fin 2) * 128 + 1 * (y 1).val = (y 1).val; omega

/-- An index of the result array is in point `t`'s block iff, on each axis, it lies in the block's range. -/
theorem mem_block3 (t : Fin cfg3.N) (i : S800000x128.Idx) :
    i ∈ ((cfg3.win 6).blk t).view.set ↔ ∀ a : Fin 2, win3_6.index t a * S4000x128.size a ≤ (i a).val
      ∧ (i a).val < win3_6.index t a * S4000x128.size a + S4000x128.size a := by
  show i ∈ ((View.whole main_v52).slice (win3_6.rect t)).set ↔ _
  rw [View.set_slice_whole, Rect.mem_set_unit]
  exact Iff.rfl

/-- The 200 blocks tile the array: row `R` lies in block `R / 4000`. -/
theorem cover3 (i : S800000x128.Idx) :
    ∃ t : Fin cfg3.N, (cfg3.win 6).flush t = true ∧ i ∈ ((cfg3.win 6).blk t).view.set := by
  have hi0 : (i 0).val < 800000 := (i 0).isLt
  have hi1 : (i 1).val < 128 := (i 1).isLt
  have hN : cfg3.N = 200 := N_3
  obtain ⟨t, ht⟩ : ∃ t : Fin cfg3.N, t.val = (i 0).val / 4000 := ⟨⟨(i 0).val / 4000, by rw [hN]; omega⟩, rfl⟩
  obtain ⟨-, -, -, -, -, -, -, -, -, -, -, -, e0, e1⟩ := index_facts3 t
  refine ⟨t, flush3_6 t, ?_⟩
  rw [mem_block3]
  intro a
  match a with
  | ⟨0, _⟩ =>
    show win3_6.index t (0 : Fin 2) * 4000 ≤ (i 0).val ∧ (i 0).val < win3_6.index t (0 : Fin 2) * 4000 + 4000
    omega
  | ⟨1, _⟩ =>
    show win3_6.index t (1 : Fin 2) * 128 ≤ (i 1).val ∧ (i 1).val < win3_6.index t (1 : Fin 2) * 128 + 128
    omega

/-- After the second message launch its result array holds the message network of every edge's two gathered rows. -/
theorem final3 (V : (c : Dev nD) → (b : Ref sig .tc) → Buf (Elt Ideal) ((c : Thread nD τ).loc b)) (c : Dev nD) :
    (dat3 (F := Ideal) V c).arrAt 6 cfg3.N = Gmsg (V c (Pipeline.arrRef spec3 0)) (V c (Pipeline.arrRef spec3 1)) (V c (Pipeline.arrRef spec3 2)) (V c (Pipeline.arrRef spec3 3)) (V c (Pipeline.arrRef spec3 4)) (V c (Pipeline.arrRef spec3 5)) :=
  (dat3 (F := Ideal) V c).arrAt_eq_of_cover 6 (Gmsg (V c (Pipeline.arrRef spec3 0)) (V c (Pipeline.arrRef spec3 1)) (V c (Pipeline.arrRef spec3 2)) (V c (Pipeline.arrRef spec3 3)) (V c (Pipeline.arrRef spec3 4)) (V c (Pipeline.arrRef spec3 5)))
    (fun t _ => flushed3_eq V c t) cover3

end Cert.Bridge.K

end
-- ==== Proof.KFin4.lean ====
/-
  The second node-update call, from blocks to the whole array.

  The call walks the 50000 rows in 10 blocks of 5000: at grid point `t` the two row-indexed operands and the result are
  at block `t` along the rows, and the four weight operands (256 x 128 and three 1 x 128) are whole, at block 0. The
  body stores one value over its whole result block, and entry `(r, j)` of that value is `updRow` of row `r` of the two
  input blocks — which are rows `5000 t + r` of the arrays. So what point `t` writes back is block `t` of the one
  whole-array function `Gupd` of the operand arrays; the ten blocks tile the 50000 rows (row `r` lies in block
  `r / 5000`), hence the array ends holding `Gupd`.
-/
import proofs.«429507_j9285719294448_1_alg».proof.Proof.Gen.KernelIdeal.Frame
import proofs.«429507_j9285719294448_1_alg».proof.Proof.Spec
import proofs.«429507_j9285719294448_1_alg».proof.Proof.KUpd
import Idealize.ShloMosaic.Lib.Pipeline.Value

set_option maxRecDepth 16384

noncomputable section

namespace Cert.Bridge.K.Upd

open Cert.KernelIdeal Cert.KernelIdeal.Gen Idealize.ShloMosaic Idealize.ShloMosaic.TcCoe Idealize.SL.Sem Idealize.ShloMosaic.ValueIdx Cert.Bridge
open Idealize.ShloMosaic.Pipeline (Dat)

/-- The body reads and writes its buffers from their corner. -/
theorem corner4 : (![0, 0] : Fin 2 → Nat) = fun _ => 0 := funext fun a => by fin_cases a <;> rfl

/-- Where each operand's block sits at grid point `t`: the row-indexed operands and the result at block `t` along the
    rows, the weight operands at block 0. -/
theorem blocks4 : ∀ t : Fin cfg4.N,
    win4_0.index t (0 : Fin 2) = t.val ∧ win4_0.index t (1 : Fin 2) = 0
    ∧ win4_1.index t (0 : Fin 2) = t.val ∧ win4_1.index t (1 : Fin 2) = 0
    ∧ win4_2.index t (0 : Fin 2) = 0 ∧ win4_2.index t (1 : Fin 2) = 0
    ∧ win4_3.index t (0 : Fin 2) = 0 ∧ win4_3.index t (1 : Fin 2) = 0
    ∧ win4_4.index t (0 : Fin 2) = 0 ∧ win4_4.index t (1 : Fin 2) = 0
    ∧ win4_5.index t (0 : Fin 2) = 0 ∧ win4_5.index t (1 : Fin 2) = 0
    ∧ win4_6.index t (0 : Fin 2) = t.val ∧ win4_6.index t (1 : Fin 2) = 0 :=
  (by decide +kernel : ∀ t : Fin grid4.N, _)

/-- One entry of the body's value is `Gupd` at the array index under it: when the two row blocks are rows
    `5000 n + ·` of the arrays `A0`, `A1` and the weight blocks are the weight arrays, entry `y` of the body is `Gupd` at
    `(5000 n + y 0, y 1)`. -/
theorem body_entry4 (A0 A1 : FVec Ideal S50000x128 .f32) (W : FVec Ideal S256x128 .f32) (b g be : FVec Ideal S1x128 .f32)
    (x0 x1 : Vec Ideal S5000x128 .f32) (x2 : Vec Ideal S256x128 .f32) (x3 x4 x5 : Vec Ideal S1x128 .f32)
    (n : Nat) (y : S5000x128.Idx) (i : S50000x128.Idx)
    (hi0 : (i 0).val = n * 5000 + (y 0).val) (hi1 : (i 1).val = (y 1).val)
    (h0 : ∀ (z : S5000x128.Idx) (k : S50000x128.Idx), (k 0).val = n * 5000 + (z 0).val → (k 1).val = (z 1).val → x0 z = A0 k)
    (h1 : ∀ (z : S5000x128.Idx) (k : S50000x128.Idx), (k 0).val = n * 5000 + (z 0).val → (k 1).val = (z 1).val → x1 z = A1 k)
    (h2 : ∀ z, x2 z = W z) (h3 : ∀ z, x3 z = b z) (h4 : ∀ z, x4 z = g z) (h5 : ∀ z, x5 z = be z) :
    k4_pay1 (F := Ideal) x0 x1 x2 x3 x4 x5 y = Gupd A0 A1 W b g be i := by
  obtain rfl : x2 = W := funext h2
  obtain rfl : x3 = b := funext h3
  obtain rfl : x4 = g := funext h4
  obtain rfl : x5 = be := funext h5
  obtain ⟨r, j, rfl⟩ : ∃ (r : Fin 5000) (j : Fin 128), y = ix2 r j := ⟨y 0, y 1, eq_ix2 y⟩
  obtain ⟨R, J, rfl⟩ : ∃ (R : Fin 50000) (J : Fin 128), i = ix2 R J := ⟨i 0, i 1, eq_ix2 i⟩
  obtain rfl : J = j := Fin.ext hi1
  rw [pay4_apply, Gupd_ix2]
  have e0 : (fun k => x0 (ix2 r k)) = rowAt (n := 50000) A0 R := funext fun k => h0 (ix2 r k) (ix2 R k) hi0 rfl
  have e1 : (fun k => x1 (ix2 r k)) = rowAt (n := 50000) A1 R := funext fun k => h1 (ix2 r k) (ix2 R k) hi0 rfl
  rw [e0, e1]

variable (V : (c : Dev nD) → (b : Ref sig .tc) → Buf (Elt Ideal) ((c : Thread nD τ).loc b))

/-! ## Each operand's block, read off its array -/

/-- Block `t` of the node features: entry `z` of the block is the array at row `5000 t + z 0`, column `z 1`. -/
theorem rows4_0 (c : Dev nD) (t : Fin cfg4.N) (z : S5000x128.Idx) (k : S50000x128.Idx)
    (hk0 : (k 0).val = t.val * 5000 + (z 0).val) (hk1 : (k 1).val = (z 1).val) :
    (iblk4 V c 0 t : Vec Ideal S5000x128 .f32) z = (V c (Pipeline.arrRef spec4 0) : FVec Ideal S50000x128 .f32) k := by
  obtain ⟨f00, f01, f10, f11, -⟩ := blocks4 t
  unfold iblk4
  rw [View.read_apply]
  show V c (Pipeline.arrRef spec4 0) _ = V c (Pipeline.arrRef spec4 0) _
  congr 1
  funext a
  apply Fin.ext
  match a with
  | ⟨0, _⟩ => show win4_0.index t (0 : Fin 2) * 5000 + 1 * (z 0).val = (k 0).val; omega
  | ⟨1, _⟩ => show win4_0.index t (1 : Fin 2) * 128 + 1 * (z 1).val = (k 1).val; omega

/-- Block `t` of the aggregated messages: entry `z` of the block is the array at row `5000 t + z 0`, column `z 1`. -/
theorem rows4_1 (c : Dev nD) (t : Fin cfg4.N) (z : S5000x128.Idx) (k : S50000x128.Idx)
    (hk0 : (k 0).val = t.val * 5000 + (z 0).val) (hk1 : (k 1).val = (z 1).val) :
    (iblk4 V c 1 t : Vec Ideal S5000x128 .f32) z = (V c (Pipeline.arrRef spec4 1) : FVec Ideal S50000x128 .f32) k := by
  obtain ⟨f00, f01, f10, f11, -⟩ := blocks4 t
  unfold iblk4
  rw [View.read_apply]
  show V c (Pipeline.arrRef spec4 1) _ = V c (Pipeline.arrRef spec4 1) _
  congr 1
  funext a
  apply Fin.ext
  match a with
  | ⟨0, _⟩ => show win4_1.index t (0 : Fin 2) * 5000 + 1 * (z 0).val = (k 0).val; omega
  | ⟨1, _⟩ => show win4_1.index t (1 : Fin 2) * 128 + 1 * (z 1).val = (k 1).val; omega

/-- The 256 x 128 weight is one block, the whole array, at every grid point. -/
theorem whole4_2 (c : Dev nD) (t : Fin cfg4.N) (z : S256x128.Idx) :
    (iblk4 V c 2 t : Vec Ideal S256x128 .f32) z = (V c (Pipeline.arrRef spec4 2) : FVec Ideal S256x128 .f32) z := by
  obtain ⟨-, -, -, -, f20, f21, f30, f31, f40, f41, f50, f51, -⟩ := blocks4 t
  unfold iblk4
  rw [View.read_apply]
  show V c (Pipeline.arrRef spec4 2) _ = V c (Pipeline.arrRef spec4 2) _
  congr 1
  funext a
  apply Fin.ext
  match a with
  | ⟨0, _⟩ => show win4_2.index t (0 : Fin 2) * 256 + 1 * (z 0).val = (z 0).val; omega
  | ⟨1, _⟩ => show win4_2.index t (1 : Fin 2) * 128 + 1 * (z 1).val = (z 1).val; omega

/-- The bias is one block, the whole array, at every grid point. -/
theorem whole4_3 (c : Dev nD) (t : Fin cfg4.N) (z : S1x128.Idx) :
    (iblk4 V c 3 t : Vec Ideal S1x128 .f32) z = (V c (Pipeline.arrRef spec4 3) : FVec Ideal S1x128 .f32) z := by
  obtain ⟨-, -, -, -, f20, f21, f30, f31, f40, f41, f50, f51, -⟩ := blocks4 t
  unfold iblk4
  rw [View.read_apply]
  show V c (Pipeline.arrRef spec4 3) _ = V c (Pipeline.arrRef spec4 3) _
  congr 1
  funext a
  apply Fin.ext
  match a with
  | ⟨0, _⟩ => show win4_3.index t (0 : Fin 2) * 1 + 1 * (z 0).val = (z 0).val; omega
  | ⟨1, _⟩ => show win4_3.index t (1 : Fin 2) * 128 + 1 * (z 1).val = (z 1).val; omega

/-- The normalisation scale is one block, the whole array, at every grid point. -/
theorem whole4_4 (c : Dev nD) (t : Fin cfg4.N) (z : S1x128.Idx) :
    (iblk4 V c 4 t : Vec Ideal S1x128 .f32) z = (V c (Pipeline.arrRef spec4 4) : FVec Ideal S1x128 .f32) z := by
  obtain ⟨-, -, -, -, f20, f21, f30, f31, f40, f41, f50, f51, -⟩ := blocks4 t
  unfold iblk4
  rw [View.read_apply]
  show V c (Pipeline.arrRef spec4 4) _ = V c (Pipeline.arrRef spec4 4) _
  congr 1
  funext a
  apply Fin.ext
  match a with
  | ⟨0, _⟩ => show win4_4.index t (0 : Fin 2) * 1 + 1 * (z 0).val = (z 0).val; omega
  | ⟨1, _⟩ => show win4_4.index t (1 : Fin 2) * 128 + 1 * (z 1).val = (z 1).val; omega

/-- The normalisation shift is one block, the whole array, at every grid point. -/
theorem whole4_5 (c : Dev nD) (t : Fin cfg4.N) (z : S1x128.Idx) :
    (iblk4 V c 5 t : Vec Ideal S1x128 .f32) z = (V c (Pipeline.arrRef spec4 5) : FVec Ideal S1x128 .f32) z := by
  obtain ⟨-, -, -, -, f20, f21, f30, f31, f40, f41, f50, f51, -⟩ := blocks4 t
  unfold iblk4
  rw [View.read_apply]
  show V c (Pipeline.arrRef spec4 5) _ = V c (Pipeline.arrRef spec4 5) _
  congr 1
  funext a
  apply Fin.ext
  match a with
  | ⟨0, _⟩ => show win4_5.index t (0 : Fin 2) * 1 + 1 * (z 0).val = (z 0).val; omega
  | ⟨1, _⟩ => show win4_5.index t (1 : Fin 2) * 128 + 1 * (z 1).val = (z 1).val; omega

/-! ## What a grid point writes back, and the whole array -/

/-- What grid point `t` writes back is the body's one stored value, over the operands' blocks at `t`. -/
theorem stored4 (c : Dev nD) (t : Fin cfg4.N) :
    (dat4 (F := Ideal) V c).flushed 6 t
      = k4_pay1 (F := Ideal) (iblk4 V c 0 t) (iblk4 V c 1 t) (iblk4 V c 2 t) (iblk4 V c 3 t) (iblk4 V c 4 t) (iblk4 V c 5 t) := by
  show (cfg4.win 6).cut (grid4.coords t) ((dat4 V c).after 6 t) = _
  rw [after4_6]
  unfold out4_6
  rw [View.canon_unit_zero corner4]
  simp only [View.ld_unit_zero (S := S5000x128) corner4, View.ld_unit_zero (S := S256x128) corner4, View.ld_unit_zero (S := S1x128) corner4]
  rfl

/-- So it is block `t` of `Gupd` of the operand arrays as the call finds them. -/
theorem writeback4 (c : Dev nD) (t : Fin cfg4.N) :
    (dat4 (F := Ideal) V c).flushed 6 t = ((cfg4.win 6).blk t).view.read (Elt Ideal) (Gupd (V c (Pipeline.arrRef spec4 0)) (V c (Pipeline.arrRef spec4 1)) (V c (Pipeline.arrRef spec4 2)) (V c (Pipeline.arrRef spec4 3)) (V c (Pipeline.arrRef spec4 4)) (V c (Pipeline.arrRef spec4 5))) := by
  rw [stored4]
  have f := blocks4 t
  funext y
  refine body_entry4 _ _ _ _ _ _ _ _ _ _ _ _ t.val y (((cfg4.win 6).blk t).view.emb y) ?_ ?_
    (rows4_0 V c t) (rows4_1 V c t) (whole4_2 V c t) (whole4_3 V c t) (whole4_4 V c t) (whole4_5 V c t)
  · show win4_6.index t (0 : Fin 2) * 5000 + 1 * (y 0).val = t.val * 5000 + (y 0).val; omega
  · show win4_6.index t (1 : Fin 2) * 128 + 1 * (y 1).val = (y 1).val; omega

/-- An index of the result array lies in point `t`'s block iff each coordinate lies in the block's range. -/
theorem mem_block4 (t : Fin cfg4.N) (i : S50000x128.Idx) :
    i ∈ ((cfg4.win 6).blk t).view.set ↔ ∀ a : Fin 2, win4_6.index t a * S5000x128.size a ≤ (i a).val ∧ (i a).val < win4_6.index t a * S5000x128.size a + S5000x128.size a := by
  show i ∈ ((View.whole main_v68).slice (win4_6.rect t)).set ↔ _
  rw [View.set_slice_whole, Rect.mem_set_unit]
  exact Iff.rfl

/-- The ten blocks tile the rows: row `r` lies in block `r / 5000`. -/
theorem tiles4 (i : S50000x128.Idx) :
    ∃ t : Fin cfg4.N, (cfg4.win 6).flush t = true ∧ i ∈ ((cfg4.win 6).blk t).view.set := by
  have hi0 : (i 0).val < 50000 := (i 0).isLt
  have hi1 : (i 1).val < 128 := (i 1).isLt
  have ht : (i 0).val / 5000 < 10 := by omega
  obtain ⟨-, -, -, -, -, -, -, -, -, -, -, -, f60, f61⟩ := blocks4 ⟨(i 0).val / 5000, ht⟩
  have f60' : win4_6.index ⟨(i 0).val / 5000, ht⟩ (0 : Fin 2) = (i 0).val / 5000 := f60
  refine ⟨⟨(i 0).val / 5000, ht⟩, flush4_6 _, ?_⟩
  rw [mem_block4]
  intro a
  match a with
  | ⟨0, _⟩ =>
    show win4_6.index ⟨(i 0).val / 5000, ht⟩ (0 : Fin 2) * 5000 ≤ (i 0).val ∧ (i 0).val < win4_6.index ⟨(i 0).val / 5000, ht⟩ (0 : Fin 2) * 5000 + 5000
    omega
  | ⟨1, _⟩ =>
    show win4_6.index ⟨(i 0).val / 5000, ht⟩ (1 : Fin 2) * 128 ≤ (i 1).val ∧ (i 1).val < win4_6.index ⟨(i 0).val / 5000, ht⟩ (1 : Fin 2) * 128 + 128
    omega

end Cert.Bridge.K.Upd

namespace Cert.Bridge.K

open Cert.KernelIdeal Cert.KernelIdeal.Gen Idealize.ShloMosaic Idealize.ShloMosaic.TcCoe Idealize.SL.Sem Idealize.ShloMosaic.ValueIdx Cert.Bridge

/-- THE RESULT ARRAY after the call: `Gupd` of the operand arrays as the call finds them. -/
theorem final4 (V : (c : Dev nD) → (b : Ref sig .tc) → Buf (Elt Ideal) ((c : Thread nD τ).loc b)) (c : Dev nD) :
    (dat4 (F := Ideal) V c).arrAt 6 cfg4.N = Gupd (V c (Pipeline.arrRef spec4 0)) (V c (Pipeline.arrRef spec4 1)) (V c (Pipeline.arrRef spec4 2)) (V c (Pipeline.arrRef spec4 3)) (V c (Pipeline.arrRef spec4 4)) (V c (Pipeline.arrRef spec4 5)) :=
  (dat4 (F := Ideal) V c).arrAt_eq_of_cover 6 (Gupd (V c (Pipeline.arrRef spec4 0)) (V c (Pipeline.arrRef spec4 1)) (V c (Pipeline.arrRef spec4 2)) (V c (Pipeline.arrRef spec4 3)) (V c (Pipeline.arrRef spec4 4)) (V c (Pipeline.arrRef spec4 5))) (fun t _ => Upd.writeback4 V c t) Upd.tiles4

end Cert.Bridge.K

end
-- ==== Proof.KFin5.lean ====
/-
  The last linear layer, `x · Wt + b` on all 50000 nodes, as its pallas_call leaves it in memory.

  Its pallas_call has the shape of the first one's: 10 grid points; point `t` reads rows 5000 t … 5000 t + 4999 of its
  node array, the whole 128 x 128 weight and the whole 1 x 128 bias, and writes the same rows of its result array. Each
  entry the body stores is `linRow` of the node row it belongs to (KLin), so what point `t` writes back is block `t`
  of `Glin` of the three arrays as the region finds them; the ten blocks tile the result array; hence the array ends
  holding `Glin`.
-/
import proofs.«429507_j9285719294448_1_alg».proof.Proof.Gen.KernelIdeal.Frame
import proofs.«429507_j9285719294448_1_alg».proof.Proof.Spec
import proofs.«429507_j9285719294448_1_alg».proof.Proof.KLin
import Idealize.ShloMosaic.Lib.Pipeline.Value

set_option maxRecDepth 16384

noncomputable section

open scoped BigOperators

namespace Cert.Bridge.K

open Cert.KernelIdeal Cert.KernelIdeal.Gen Idealize.ShloMosaic Idealize.ShloMosaic.TcCoe Idealize.SL.Sem Idealize.ShloMosaic.ValueIdx Cert.Bridge
open Idealize.ShloMosaic.Pipeline (Dat)

variable (V : (c : Dev nD) → (b : Ref sig .tc) → Buf (Elt Ideal) ((c : Thread nD τ).loc b))

/-- The body's loads and its store are at offsets zero. -/
theorem zeroOff5 : (![0, 0] : Fin 2 → Nat) = fun _ => 0 := funext fun a => by fin_cases a <;> rfl

/-- Where each window's block sits at grid point `t` (of 10): the node rows and the result rows are block `t` along
    the rows and block 0 along the features; the weight and the bias are their one block. -/
theorem blockIdx5 : ∀ t : Fin cfg5.N, t.val < 10
    ∧ win5_0.index t (0 : Fin 2) = t.val ∧ win5_0.index t (1 : Fin 2) = 0
    ∧ win5_1.index t (0 : Fin 2) = 0 ∧ win5_1.index t (1 : Fin 2) = 0
    ∧ win5_2.index t (0 : Fin 2) = 0 ∧ win5_2.index t (1 : Fin 2) = 0
    ∧ win5_3.index t (0 : Fin 2) = t.val ∧ win5_3.index t (1 : Fin 2) = 0 :=
  (by decide +kernel : ∀ t : Fin grid5.N, _)

/-- An entry of the node block at point `t` is the entry of the node array 5000 t rows further down. -/
theorem rows5_apply (c : Dev nD) (t : Fin cfg5.N) (x : S5000x128.Idx) (k : S50000x128.Idx)
    (hk0 : (k 0).val = t.val * 5000 + (x 0).val) (hk1 : (k 1).val = (x 1).val) :
    (iblk5 (F := Ideal) V c 0 t : FVec Ideal S5000x128 .f32) x = (V c (Pipeline.arrRef spec5 0) : FVec Ideal S50000x128 .f32) k := by
  obtain ⟨-, e00, e01, -⟩ := blockIdx5 t
  unfold iblk5
  show (V c (Pipeline.arrRef spec5 0) : FVec Ideal S50000x128 .f32) (((cfg5.win 0).blk t).view.emb x) = _
  congr 1
  funext a
  apply Fin.ext
  match a with
  | ⟨0, _⟩ => show win5_0.index t (0 : Fin 2) * 5000 + 1 * (x 0).val = (k 0).val; rw [e00, hk0]; omega
  | ⟨1, _⟩ => show win5_0.index t (1 : Fin 2) * 128 + 1 * (x 1).val = (k 1).val; rw [e01, hk1]; omega

/-- The weight block at every point is the whole weight array. -/
theorem weight5_eq (c : Dev nD) (t : Fin cfg5.N) :
    (iblk5 (F := Ideal) V c 1 t : FVec Ideal S128x128 .f32) = (V c (Pipeline.arrRef spec5 1) : FVec Ideal S128x128 .f32) := by
  obtain ⟨-, -, -, e10, e11, -⟩ := blockIdx5 t
  unfold iblk5
  funext x
  show (V c (Pipeline.arrRef spec5 1) : FVec Ideal S128x128 .f32) (((cfg5.win 1).blk t).view.emb x) = _
  congr 1
  funext a
  apply Fin.ext
  match a with
  | ⟨0, _⟩ => show win5_1.index t (0 : Fin 2) * 128 + 1 * (x 0).val = (x 0).val; rw [e10]; omega
  | ⟨1, _⟩ => show win5_1.index t (1 : Fin 2) * 128 + 1 * (x 1).val = (x 1).val; rw [e11]; omega

/-- The bias block at every point is the whole bias row. -/
theorem bias5_eq (c : Dev nD) (t : Fin cfg5.N) :
    (iblk5 (F := Ideal) V c 2 t : FVec Ideal S1x128 .f32) = (V c (Pipeline.arrRef spec5 2) : FVec Ideal S1x128 .f32) := by
  obtain ⟨-, -, -, -, -, e20, e21, -⟩ := blockIdx5 t
  unfold iblk5
  funext x
  show (V c (Pipeline.arrRef spec5 2) : FVec Ideal S1x128 .f32) (((cfg5.win 2).blk t).view.emb x) = _
  congr 1
  funext a
  apply Fin.ext
  match a with
  | ⟨0, _⟩ => show win5_2.index t (0 : Fin 2) * 1 + 1 * (x 0).val = (x 0).val; rw [e20]; omega
  | ⟨1, _⟩ => show win5_2.index t (1 : Fin 2) * 128 + 1 * (x 1).val = (x 1).val; rw [e21]; omega

/-- The body's block at entry `y` is the linear layer of the node array at entry `i`, when the block's row `y 0` is the
    array's row `i 0`, the two feature coordinates agree, and the weight and bias blocks are the whole operands. -/
theorem linBlock5_apply (X : FVec Ideal S50000x128 .f32) (W : FVec Ideal S128x128 .f32) (b : FVec Ideal S1x128 .f32)
    (x0 : FVec Ideal S5000x128 .f32) (x1 : FVec Ideal S128x128 .f32) (x2 : FVec Ideal S1x128 .f32)
    (y : S5000x128.Idx) (i : S50000x128.Idx)
    (hx0 : ∀ k : Fin 128, x0 (ix2 (y 0) k) = X (ix2 (i 0) k)) (hx1 : x1 = W) (hx2 : x2 = b) (hi : (i 1).val = (y 1).val) :
    k5_pay1 (F := Ideal) x0 x1 x2 y = Glin X W b i := by
  subst hx1 hx2
  obtain ⟨p, q, rfl⟩ : ∃ (p : Fin 5000) (q : Fin 128), y = ix2 p q := ⟨y 0, y 1, eq_ix2 y⟩
  obtain ⟨r, j, rfl⟩ : ∃ (r : Fin 50000) (j : Fin 128), i = ix2 r j := ⟨i 0, i 1, eq_ix2 i⟩
  obtain rfl : j = q := Fin.ext hi
  rw [pay5_apply, Glin_ix2]
  exact congrArg (fun x => linRow x x1 x2 j) (funext hx0)

/-- Where an entry of the result block at point `t` sits in the result array. -/
theorem outAt5 (t : Fin cfg5.N) (y : ((cfg5.win 3).xblock (cfg5.grid.coords t)).Idx) :
    ((((cfg5.win 3).blk t).view.emb y) 0).val = t.val * 5000 + (y 0).val
    ∧ ((((cfg5.win 3).blk t).view.emb y) 1).val = (y 1).val := by
  obtain ⟨-, -, -, -, -, -, -, e30, e31⟩ := blockIdx5 t
  constructor
  · show win5_3.index t (0 : Fin 2) * 5000 + 1 * (y 0).val = _; rw [e30]; omega
  · show win5_3.index t (1 : Fin 2) * 128 + 1 * (y 1).val = _; rw [e31]; omega

/-- What point `t` writes back is block `t` of the linear layer of the arrays the region finds. -/
theorem flushed5_eq (c : Dev nD) (t : Fin cfg5.N) :
    (dat5 (F := Ideal) V c).flushed 3 t = ((cfg5.win 3).blk t).view.read (Elt Ideal)
      (Glin (V c (Pipeline.arrRef spec5 0)) (V c (Pipeline.arrRef spec5 1)) (V c (Pipeline.arrRef spec5 2))) := by
  show (cfg5.win 3).cut (grid5.coords t) ((dat5 (F := Ideal) V c).after 3 t) = _
  rw [after5_3]
  unfold out5_3
  rw [View.canon_unit_zero zeroOff5]
  simp only [View.ld_unit_zero (S := S5000x128) zeroOff5, View.ld_unit_zero (S := S128x128) zeroOff5, View.ld_unit_zero (S := S1x128) zeroOff5]
  funext y
  obtain ⟨o0, o1⟩ := outAt5 t y
  show k5_pay1 (F := Ideal) (iblk5 V c 0 t) (iblk5 V c 1 t) (iblk5 V c 2 t) ((cfg5.win 3).xinj (grid5.coords t) y)
    = Glin (V c (Pipeline.arrRef spec5 0)) (V c (Pipeline.arrRef spec5 1)) (V c (Pipeline.arrRef spec5 2)) (((cfg5.win 3).blk t).view.emb y)
  exact linBlock5_apply (V c (Pipeline.arrRef spec5 0)) (V c (Pipeline.arrRef spec5 1)) (V c (Pipeline.arrRef spec5 2))
    (iblk5 V c 0 t) (iblk5 V c 1 t) (iblk5 V c 2 t)
    ((cfg5.win 3).xinj (grid5.coords t) y) (((cfg5.win 3).blk t).view.emb y)
    (fun k => rows5_apply V c t _ _ o0 rfl) (weight5_eq V c t) (bias5_eq V c t) o1

/-- An entry of the result array is in point `t`'s block iff each coordinate is in the block's range. -/
theorem mem_block5 (t : Fin cfg5.N) (i : S50000x128.Idx) :
    i ∈ ((cfg5.win 3).blk t).view.set ↔ ∀ a : Fin 2, win5_3.index t a * S5000x128.size a ≤ (i a).val ∧ (i a).val < win5_3.index t a * S5000x128.size a + S5000x128.size a := by
  show i ∈ ((View.whole main_v71).slice (win5_3.rect t)).set ↔ _
  rw [View.set_slice_whole, Rect.mem_set_unit]
  exact Iff.rfl

/-- The ten blocks tile the result array: row `r` is in the block of point `r / 5000`. -/
theorem cover5 (i : S50000x128.Idx) :
    ∃ t : Fin cfg5.N, (cfg5.win 3).flush t = true ∧ i ∈ ((cfg5.win 3).blk t).view.set := by
  have hi0 : (i 0).val < 50000 := (i 0).isLt
  have hi1 : (i 1).val < 128 := (i 1).isLt
  have hN : cfg5.N = 10 := N_5
  obtain ⟨t, ht⟩ : ∃ t : Fin cfg5.N, t.val = (i 0).val / 5000 := ⟨⟨(i 0).val / 5000, by omega⟩, rfl⟩
  obtain ⟨-, -, -, -, -, -, -, e30, e31⟩ := blockIdx5 t
  refine ⟨t, flush5_3 t, ?_⟩
  rw [mem_block5]
  intro a
  match a with
  | ⟨0, _⟩ => show win5_3.index t (0 : Fin 2) * 5000 ≤ (i 0).val ∧ (i 0).val < win5_3.index t (0 : Fin 2) * 5000 + 5000; rw [e30, ht]; omega
  | ⟨1, _⟩ => show win5_3.index t (1 : Fin 2) * 128 ≤ (i 1).val ∧ (i 1).val < win5_3.index t (1 : Fin 2) * 128 + 128; rw [e31]; omega

/-- After the run the result array holds the linear layer of the arrays the region found. -/
theorem final5 (c : Dev nD) :
    (dat5 (F := Ideal) V c).arrAt 3 cfg5.N = Glin (V c (Pipeline.arrRef spec5 0)) (V c (Pipeline.arrRef spec5 1)) (V c (Pipeline.arrRef spec5 2)) :=
  (dat5 (F := Ideal) V c).arrAt_eq_of_cover 3
    (Glin (V c (Pipeline.arrRef spec5 0)) (V c (Pipeline.arrRef spec5 1)) (V c (Pipeline.arrRef spec5 2)))
    (fun t _ => flushed5_eq V c t) cover5

end Cert.Bridge.K

end
-- ==== Proof.KHostA.lean ====
/-
  What each of the first three kernel launches finds in its operand arrays. Between the launches the program runs
  plain array operations: it cuts the two index rows out of the edge list, transposes and reshapes weights, gathers
  node rows per edge (in fill mode), and adds edge messages into node rows. Each operand array is read back here,
  through those operations and across the earlier launches (which leave every array that is not theirs untouched),
  to a pure function of the launch arguments and of the earlier launches' results.
-/
import proofs.«429507_j9285719294448_1_alg».proof.Proof.Gen.KernelIdeal.Frame
import proofs.«429507_j9285719294448_1_alg».proof.Proof.KOps
import Idealize.ShloMosaic.Lib.StableHlo.Run
import Idealize.ShloMosaic.PureOps.Ideal

set_option maxRecDepth 16384

noncomputable section

namespace Cert.Bridge.K

open Cert.KernelIdeal Cert.KernelIdeal.Gen Idealize.ShloMosaic Idealize.ShloMosaic.TcCoe Idealize.SL.Sem Cert.Bridge

/-- A buffer that no operation of a stretch writes holds after the stretch what it held before. -/
local macro "skip_host " ops:ident : tactic => `(tactic|
  exact StableHlo.after_of_forall_not_mem _ _ (List.forall_iff_forall_mem.mp (by
    simp only [$ops:ident, List.flatten_cons, List.flatten_nil, List.append_nil, List.cons_append,
      List.nil_append, List.Forall, StableHlo.nullary_writes, StableHlo.unary_writes, StableHlo.binary_writes,
      StableHlo.ternary_writes, StableHlo.quaternary_writes, StableHlo.reshape_writes, StableHlo.binaryIndexed_writes,
      Finset.mem_singleton]
    repeat' apply And.intro
    all_goals exact StableHlo.devRef_ne_of_ne (by decide))))

/-! ## One stretch of array operations at a time: what it leaves in a buffer it writes, over any contents it starts from -/

section Reads

variable {F : FTy → Type} [FloatOps F] (V : Valuation τ sig (Elt F))

theorem rd0_v1 : StableHlo.after hostOps0 V (Proc.devRef .tc main_v1) = rowK (V (Proc.devRef .tc main_arg1)) := by
  after_results
  rfl
theorem rd0_v3 : StableHlo.after hostOps0 V (Proc.devRef .tc main_v3) = colK (V (Proc.devRef .tc main_arg1)) := by
  after_results
  rfl
theorem rd0_v4 : StableHlo.after hostOps0 V (Proc.devRef .tc main_v4) = matT (V (Proc.devRef .tc main_arg2)) := by
  after_results
  rfl
theorem rd0_v5 : StableHlo.after hostOps0 V (Proc.devRef .tc main_v5) = vec2 (V (Proc.devRef .tc main_arg3)) := by
  after_results
  rfl

theorem rd1_2_v17 : StableHlo.after hostOps1_2 V (Proc.devRef .tc main_v17) = wide0 (V (Proc.devRef .tc main_arg4)) := by
  after_results
  rfl
theorem rd1_2_v19 : StableHlo.after hostOps1_2 V (Proc.devRef .tc main_v19) = vec2 (row0 (V (Proc.devRef .tc main_arg5))) := by
  after_results
  rfl
theorem rd1_2_v18 : StableHlo.after hostOps1_2 V (Proc.devRef .tc main_v18) = sq0 (V (Proc.devRef .tc main_arg6)) := by
  after_results
  rfl
theorem rd1_2_v20 : StableHlo.after hostOps1_2 V (Proc.devRef .tc main_v20) = vec2 (row0 (V (Proc.devRef .tc main_arg7))) := by
  after_results
  rfl

theorem rd2_v24 : StableHlo.after hostOps2 V (Proc.devRef .tc main_v24) = scatK (V (Proc.devRef .tc main_v3)) (V (Proc.devRef .tc main_v21)) := by
  after_results
  rfl
theorem rd2_v33 : StableHlo.after hostOps2 V (Proc.devRef .tc main_v33) = wide0 (V (Proc.devRef .tc main_arg8)) := by
  after_results
  rfl
theorem rd2_v34 : StableHlo.after hostOps2 V (Proc.devRef .tc main_v34) = vec2 (row0 (V (Proc.devRef .tc main_arg9))) := by
  after_results
  rfl
theorem rd2_v35 : StableHlo.after hostOps2 V (Proc.devRef .tc main_v35) = vec2 (row0 (V (Proc.devRef .tc main_arg10))) := by
  after_results
  rfl
theorem rd2_v36 : StableHlo.after hostOps2 V (Proc.devRef .tc main_v36) = vec2 (row0 (V (Proc.devRef .tc main_arg11))) := by
  after_results
  rfl

end Reads

/-! ## The two fill-mode gathers, each a chain of 23 operations, read in two halves: up to the gathered rows and
    the bounds test, then the choice between row and fill word -/

section Takes

variable {F : FTy → Type} [FloatOps F] (V : Valuation τ sig (Elt F))

/-- Running two stretches one after the other is running their concatenation. -/
theorem after_append (l₁ l₂ : List (HloOp τ sig (Elt F))) (V : Valuation τ sig (Elt F)) :
    StableHlo.after (l₁ ++ l₂) V = StableHlo.after l₂ (StableHlo.after l₁ V) := by
  induction l₁ generalizing V with
  | nil => rfl
  | cons op l ih => exact ih _

theorem tk0_lo12 : StableHlo.after ((hostOps1 : List (HloOp τ sig (Elt F))).take 19) V (Proc.devRef .tc main_call0_v12) = inboundsK (V (Proc.devRef .tc main_v1)) := by
  simp only [hostOps1, List.take_succ_cons, List.take_zero]
  after_results_simp
  simp only [StableHlo.TRef.ofBuf, StableHlo.TRef.toBuf, cast_eq, inboundsK, wrapK]

theorem tk0_lo13 : StableHlo.after ((hostOps1 : List (HloOp τ sig (Elt F))).take 19) V (Proc.devRef .tc main_call0_v13) = gatherK (V (Proc.devRef .tc main_v6)) (V (Proc.devRef .tc main_v1)) := by
  simp only [hostOps1, List.take_succ_cons, List.take_zero]
  after_results_simp
  simp only [StableHlo.TRef.ofBuf, StableHlo.TRef.toBuf, cast_eq, gatherK, wrapK]

theorem tk0_hi : StableHlo.after ((hostOps1 : List (HloOp τ sig (Elt F))).drop 19) V (Proc.devRef .tc main_v7)
    = select (broadcastInDim S800000x128 ![0] bcast_S800000_S800000x128_0 (V (Proc.devRef .tc main_call0_v12))) (V (Proc.devRef .tc main_call0_v13))
        (broadcastInDim S800000x128 ![] bcast_S_S800000x128 (constant S_ .f32 0x7FC00000#32)) := by
  simp only [hostOps1, List.drop_succ_cons, List.drop_zero]
  after_results_simp
  simp only [StableHlo.TRef.ofBuf, StableHlo.TRef.toBuf, cast_eq]

/-- The fill-mode gather of the encoded rows at the source row of the edge list. -/
theorem rd1_v7 : StableHlo.after hostOps1 V (Proc.devRef .tc main_v7) = takeK (V (Proc.devRef .tc main_v6)) (V (Proc.devRef .tc main_v1)) := by
  rw [show (hostOps1 : List (HloOp τ sig (Elt F))) = hostOps1.take 19 ++ hostOps1.drop 19 from (List.take_append_drop 19 _).symm,
    after_append, tk0_hi, tk0_lo12, tk0_lo13]
  rfl

theorem tk1_lo12 : StableHlo.after ((hostOps1_1 : List (HloOp τ sig (Elt F))).take 19) V (Proc.devRef .tc main_call1_v12) = inboundsK (V (Proc.devRef .tc main_v3)) := by
  simp only [hostOps1_1, List.take_succ_cons, List.take_zero]
  after_results_simp
  simp only [StableHlo.TRef.ofBuf, StableHlo.TRef.toBuf, cast_eq, inboundsK, wrapK]

theorem tk1_lo13 : StableHlo.after ((hostOps1_1 : List (HloOp τ sig (Elt F))).take 19) V (Proc.devRef .tc main_call1_v13) = gatherK (V (Proc.devRef .tc main_v6)) (V (Proc.devRef .tc main_v3)) := by
  simp only [hostOps1_1, List.take_succ_cons, List.take_zero]
  after_results_simp
  simp only [StableHlo.TRef.ofBuf, StableHlo.TRef.toBuf, cast_eq, gatherK, wrapK]

theorem tk1_hi : StableHlo.after ((hostOps1_1 : List (HloOp τ sig (Elt F))).drop 19) V (Proc.devRef .tc main_v8)
    = select (broadcastInDim S800000x128 ![0] bcast_S800000_S800000x128_0 (V (Proc.devRef .tc main_call1_v12))) (V (Proc.devRef .tc main_call1_v13))
        (broadcastInDim S800000x128 ![] bcast_S_S800000x128 (constant S_ .f32 0x7FC00000#32)) := by
  simp only [hostOps1_1, List.drop_succ_cons, List.drop_zero]
  after_results_simp
  simp only [StableHlo.TRef.ofBuf, StableHlo.TRef.toBuf, cast_eq]

/-- The same gather at the destination row. -/
theorem rd1_1_v8 : StableHlo.after hostOps1_1 V (Proc.devRef .tc main_v8) = takeK (V (Proc.devRef .tc main_v6)) (V (Proc.devRef .tc main_v3)) := by
  rw [show (hostOps1_1 : List (HloOp τ sig (Elt F))) = hostOps1_1.take 19 ++ hostOps1_1.drop 19 from (List.take_append_drop 19 _).symm,
    after_append, tk1_hi, tk1_lo12, tk1_lo13]
  rfl

end Takes

/-! ## Buffers carried unchanged: the launch arguments, the two index rows, the encoder's result -/

variable (m : (ℓ : Loc nD τ sig) → Buf (Elt Ideal) ℓ) (ρ : Dev nD → PrngReg) (c : Dev nD)

theorem W4_main_arg4 : W4 m ρ c (Proc.devRef .tc main_arg4) = m ((c.tc : Thread nD τ).loc main_arg4) :=
  calc W4 m ρ c (Proc.devRef .tc main_arg4)
    _ = W3 m ρ c (Proc.devRef .tc main_arg4) := by skip_host hostOps1_1
    _ = W2 m ρ c (Proc.devRef .tc main_arg4) := by skip_host hostOps1
    _ = W1 m ρ c (Proc.devRef .tc main_arg4) := W2_of_ne m ρ c main_arg4 (by decide)
    _ = W0 m ρ c (Proc.devRef .tc main_arg4) := by skip_host hostOps0
    _ = m ((c.tc : Thread nD τ).loc main_arg4) := rfl

theorem W4_main_arg5 : W4 m ρ c (Proc.devRef .tc main_arg5) = m ((c.tc : Thread nD τ).loc main_arg5) :=
  calc W4 m ρ c (Proc.devRef .tc main_arg5)
    _ = W3 m ρ c (Proc.devRef .tc main_arg5) := by skip_host hostOps1_1
    _ = W2 m ρ c (Proc.devRef .tc main_arg5) := by skip_host hostOps1
    _ = W1 m ρ c (Proc.devRef .tc main_arg5) := W2_of_ne m ρ c main_arg5 (by decide)
    _ = W0 m ρ c (Proc.devRef .tc main_arg5) := by skip_host hostOps0
    _ = m ((c.tc : Thread nD τ).loc main_arg5) := rfl

theorem W4_main_arg6 : W4 m ρ c (Proc.devRef .tc main_arg6) = m ((c.tc : Thread nD τ).loc main_arg6) :=
  calc W4 m ρ c (Proc.devRef .tc main_arg6)
    _ = W3 m ρ c (Proc.devRef .tc main_arg6) := by skip_host hostOps1_1
    _ = W2 m ρ c (Proc.devRef .tc main_arg6) := by skip_host hostOps1
    _ = W1 m ρ c (Proc.devRef .tc main_arg6) := W2_of_ne m ρ c main_arg6 (by decide)
    _ = W0 m ρ c (Proc.devRef .tc main_arg6) := by skip_host hostOps0
    _ = m ((c.tc : Thread nD τ).loc main_arg6) := rfl

theorem W4_main_arg7 : W4 m ρ c (Proc.devRef .tc main_arg7) = m ((c.tc : Thread nD τ).loc main_arg7) :=
  calc W4 m ρ c (Proc.devRef .tc main_arg7)
    _ = W3 m ρ c (Proc.devRef .tc main_arg7) := by skip_host hostOps1_1
    _ = W2 m ρ c (Proc.devRef .tc main_arg7) := by skip_host hostOps1
    _ = W1 m ρ c (Proc.devRef .tc main_arg7) := W2_of_ne m ρ c main_arg7 (by decide)
    _ = W0 m ρ c (Proc.devRef .tc main_arg7) := by skip_host hostOps0
    _ = m ((c.tc : Thread nD τ).loc main_arg7) := rfl

theorem W4_main_arg8 : W4 m ρ c (Proc.devRef .tc main_arg8) = m ((c.tc : Thread nD τ).loc main_arg8) :=
  calc W4 m ρ c (Proc.devRef .tc main_arg8)
    _ = W3 m ρ c (Proc.devRef .tc main_arg8) := by skip_host hostOps1_1
    _ = W2 m ρ c (Proc.devRef .tc main_arg8) := by skip_host hostOps1
    _ = W1 m ρ c (Proc.devRef .tc main_arg8) := W2_of_ne m ρ c main_arg8 (by decide)
    _ = W0 m ρ c (Proc.devRef .tc main_arg8) := by skip_host hostOps0
    _ = m ((c.tc : Thread nD τ).loc main_arg8) := rfl

theorem W4_main_arg9 : W4 m ρ c (Proc.devRef .tc main_arg9) = m ((c.tc : Thread nD τ).loc main_arg9) :=
  calc W4 m ρ c (Proc.devRef .tc main_arg9)
    _ = W3 m ρ c (Proc.devRef .tc main_arg9) := by skip_host hostOps1_1
    _ = W2 m ρ c (Proc.devRef .tc main_arg9) := by skip_host hostOps1
    _ = W1 m ρ c (Proc.devRef .tc main_arg9) := W2_of_ne m ρ c main_arg9 (by decide)
    _ = W0 m ρ c (Proc.devRef .tc main_arg9) := by skip_host hostOps0
    _ = m ((c.tc : Thread nD τ).loc main_arg9) := rfl

theorem W4_main_arg10 : W4 m ρ c (Proc.devRef .tc main_arg10) = m ((c.tc : Thread nD τ).loc main_arg10) :=
  calc W4 m ρ c (Proc.devRef .tc main_arg10)
    _ = W3 m ρ c (Proc.devRef .tc main_arg10) := by skip_host hostOps1_1
    _ = W2 m ρ c (Proc.devRef .tc main_arg10) := by skip_host hostOps1
    _ = W1 m ρ c (Proc.devRef .tc main_arg10) := W2_of_ne m ρ c main_arg10 (by decide)
    _ = W0 m ρ c (Proc.devRef .tc main_arg10) := by skip_host hostOps0
    _ = m ((c.tc : Thread nD τ).loc main_arg10) := rfl

theorem W4_main_arg11 : W4 m ρ c (Proc.devRef .tc main_arg11) = m ((c.tc : Thread nD τ).loc main_arg11) :=
  calc W4 m ρ c (Proc.devRef .tc main_arg11)
    _ = W3 m ρ c (Proc.devRef .tc main_arg11) := by skip_host hostOps1_1
    _ = W2 m ρ c (Proc.devRef .tc main_arg11) := by skip_host hostOps1
    _ = W1 m ρ c (Proc.devRef .tc main_arg11) := W2_of_ne m ρ c main_arg11 (by decide)
    _ = W0 m ρ c (Proc.devRef .tc main_arg11) := by skip_host hostOps0
    _ = m ((c.tc : Thread nD τ).loc main_arg11) := rfl

theorem W6_main_arg8 : W6 m ρ c (Proc.devRef .tc main_arg8) = m ((c.tc : Thread nD τ).loc main_arg8) :=
  calc W6 m ρ c (Proc.devRef .tc main_arg8)
    _ = W5 m ρ c (Proc.devRef .tc main_arg8) := W6_of_ne m ρ c main_arg8 (by decide)
    _ = W4 m ρ c (Proc.devRef .tc main_arg8) := by skip_host hostOps1_2
    _ = m ((c.tc : Thread nD τ).loc main_arg8) := W4_main_arg8 m ρ c

theorem W6_main_arg9 : W6 m ρ c (Proc.devRef .tc main_arg9) = m ((c.tc : Thread nD τ).loc main_arg9) :=
  calc W6 m ρ c (Proc.devRef .tc main_arg9)
    _ = W5 m ρ c (Proc.devRef .tc main_arg9) := W6_of_ne m ρ c main_arg9 (by decide)
    _ = W4 m ρ c (Proc.devRef .tc main_arg9) := by skip_host hostOps1_2
    _ = m ((c.tc : Thread nD τ).loc main_arg9) := W4_main_arg9 m ρ c

theorem W6_main_arg10 : W6 m ρ c (Proc.devRef .tc main_arg10) = m ((c.tc : Thread nD τ).loc main_arg10) :=
  calc W6 m ρ c (Proc.devRef .tc main_arg10)
    _ = W5 m ρ c (Proc.devRef .tc main_arg10) := W6_of_ne m ρ c main_arg10 (by decide)
    _ = W4 m ρ c (Proc.devRef .tc main_arg10) := by skip_host hostOps1_2
    _ = m ((c.tc : Thread nD τ).loc main_arg10) := W4_main_arg10 m ρ c

theorem W6_main_arg11 : W6 m ρ c (Proc.devRef .tc main_arg11) = m ((c.tc : Thread nD τ).loc main_arg11) :=
  calc W6 m ρ c (Proc.devRef .tc main_arg11)
    _ = W5 m ρ c (Proc.devRef .tc main_arg11) := W6_of_ne m ρ c main_arg11 (by decide)
    _ = W4 m ρ c (Proc.devRef .tc main_arg11) := by skip_host hostOps1_2
    _ = m ((c.tc : Thread nD τ).loc main_arg11) := W4_main_arg11 m ρ c

/-- The source row of the edge list, as the first launch leaves it. -/
theorem W2_v1 : W2 m ρ c (Proc.devRef .tc main_v1) = rowK (m ((c.tc : Thread nD τ).loc main_arg1)) :=
  calc W2 m ρ c (Proc.devRef .tc main_v1)
    _ = W1 m ρ c (Proc.devRef .tc main_v1) := W2_of_ne m ρ c main_v1 (by decide)
    _ = rowK (W0 m ρ c (Proc.devRef .tc main_arg1)) := rd0_v1 (W0 m ρ c)
    _ = rowK (m ((c.tc : Thread nD τ).loc main_arg1)) := rfl

/-- The destination row of the edge list, as the first launch leaves it. -/
theorem W2_v3 : W2 m ρ c (Proc.devRef .tc main_v3) = colK (m ((c.tc : Thread nD τ).loc main_arg1)) :=
  calc W2 m ρ c (Proc.devRef .tc main_v3)
    _ = W1 m ρ c (Proc.devRef .tc main_v3) := W2_of_ne m ρ c main_v3 (by decide)
    _ = colK (W0 m ρ c (Proc.devRef .tc main_arg1)) := rd0_v3 (W0 m ρ c)
    _ = colK (m ((c.tc : Thread nD τ).loc main_arg1)) := rfl

theorem W3_v3 : W3 m ρ c (Proc.devRef .tc main_v3) = colK (m ((c.tc : Thread nD τ).loc main_arg1)) :=
  calc W3 m ρ c (Proc.devRef .tc main_v3)
    _ = W2 m ρ c (Proc.devRef .tc main_v3) := by skip_host hostOps1
    _ = colK (m ((c.tc : Thread nD τ).loc main_arg1)) := W2_v3 m ρ c

theorem W3_v6 : W3 m ρ c (Proc.devRef .tc main_v6) = W2 m ρ c (Proc.devRef .tc main_v6) := by skip_host hostOps1

theorem W6_v3 : W6 m ρ c (Proc.devRef .tc main_v3) = colK (m ((c.tc : Thread nD τ).loc main_arg1)) :=
  calc W6 m ρ c (Proc.devRef .tc main_v3)
    _ = W5 m ρ c (Proc.devRef .tc main_v3) := W6_of_ne m ρ c main_v3 (by decide)
    _ = W4 m ρ c (Proc.devRef .tc main_v3) := by skip_host hostOps1_2
    _ = W3 m ρ c (Proc.devRef .tc main_v3) := by skip_host hostOps1_1
    _ = colK (m ((c.tc : Thread nD τ).loc main_arg1)) := W3_v3 m ρ c

theorem W6_v6 : W6 m ρ c (Proc.devRef .tc main_v6) = W2 m ρ c (Proc.devRef .tc main_v6) :=
  calc W6 m ρ c (Proc.devRef .tc main_v6)
    _ = W5 m ρ c (Proc.devRef .tc main_v6) := W6_of_ne m ρ c main_v6 (by decide)
    _ = W4 m ρ c (Proc.devRef .tc main_v6) := by skip_host hostOps1_2
    _ = W3 m ρ c (Proc.devRef .tc main_v6) := by skip_host hostOps1_1
    _ = W2 m ρ c (Proc.devRef .tc main_v6) := W3_v6 m ρ c

/-! ## The first launch: the node features as given, the encoder's weight transposed, its bias as a row -/

theorem e0_0 : V1 m ρ c (Pipeline.arrRef spec0 0) = m ((c.tc : Thread nD τ).loc main_arg0) := by
  show StableHlo.after hostOps0 (W0 m ρ c) (Proc.devRef .tc main_arg0) = _
  calc StableHlo.after hostOps0 (W0 m ρ c) (Proc.devRef .tc main_arg0)
    _ = W0 m ρ c (Proc.devRef .tc main_arg0) := by skip_host hostOps0
    _ = _ := rfl

theorem e0_1 : V1 m ρ c (Pipeline.arrRef spec0 1) = matT (F := Ideal) (m ((c.tc : Thread nD τ).loc main_arg2)) := by
  show StableHlo.after hostOps0 (W0 m ρ c) (Proc.devRef .tc main_v4) = _
  exact rd0_v4 (W0 m ρ c)

theorem e0_2 : V1 m ρ c (Pipeline.arrRef spec0 2) = vec2 (F := Ideal) (m ((c.tc : Thread nD τ).loc main_arg3)) := by
  show StableHlo.after hostOps0 (W0 m ρ c) (Proc.devRef .tc main_v5) = _
  exact rd0_v5 (W0 m ρ c)

/-! ## The second launch: the encoded rows gathered at each edge's two ends, and layer 0's message weights -/

theorem e1_0 : V5 m ρ c (Pipeline.arrRef spec1 0) = takeK (F := Ideal) (W2 m ρ c (Proc.devRef .tc main_v6)) (rowK (m ((c.tc : Thread nD τ).loc main_arg1))) := by
  show W5 m ρ c (Proc.devRef .tc main_v7) = _
  calc W5 m ρ c (Proc.devRef .tc main_v7)
    _ = W4 m ρ c (Proc.devRef .tc main_v7) := by skip_host hostOps1_2
    _ = W3 m ρ c (Proc.devRef .tc main_v7) := by skip_host hostOps1_1
    _ = takeK (F := Ideal) (W2 m ρ c (Proc.devRef .tc main_v6)) (W2 m ρ c (Proc.devRef .tc main_v1)) := rd1_v7 (W2 m ρ c)
    _ = _ := by rw [W2_v1 m ρ c]

theorem e1_1 : V5 m ρ c (Pipeline.arrRef spec1 1) = takeK (F := Ideal) (W2 m ρ c (Proc.devRef .tc main_v6)) (colK (m ((c.tc : Thread nD τ).loc main_arg1))) := by
  show W5 m ρ c (Proc.devRef .tc main_v8) = _
  calc W5 m ρ c (Proc.devRef .tc main_v8)
    _ = W4 m ρ c (Proc.devRef .tc main_v8) := by skip_host hostOps1_2
    _ = takeK (F := Ideal) (W3 m ρ c (Proc.devRef .tc main_v6)) (W3 m ρ c (Proc.devRef .tc main_v3)) := rd1_1_v8 (W3 m ρ c)
    _ = _ := by rw [W3_v6 m ρ c, W3_v3 m ρ c]

theorem e1_2 : V5 m ρ c (Pipeline.arrRef spec1 2) = wide0 (F := Ideal) (m ((c.tc : Thread nD τ).loc main_arg4)) := by
  show StableHlo.after hostOps1_2 (W4 m ρ c) (Proc.devRef .tc main_v17) = _
  rw [rd1_2_v17 (W4 m ρ c), W4_main_arg4 m ρ c]

theorem e1_3 : V5 m ρ c (Pipeline.arrRef spec1 3) = vec2 (F := Ideal) (row0 (m ((c.tc : Thread nD τ).loc main_arg5))) := by
  show StableHlo.after hostOps1_2 (W4 m ρ c) (Proc.devRef .tc main_v19) = _
  rw [rd1_2_v19 (W4 m ρ c), W4_main_arg5 m ρ c]

theorem e1_4 : V5 m ρ c (Pipeline.arrRef spec1 4) = sq0 (F := Ideal) (m ((c.tc : Thread nD τ).loc main_arg6)) := by
  show StableHlo.after hostOps1_2 (W4 m ρ c) (Proc.devRef .tc main_v18) = _
  rw [rd1_2_v18 (W4 m ρ c), W4_main_arg6 m ρ c]

theorem e1_5 : V5 m ρ c (Pipeline.arrRef spec1 5) = vec2 (F := Ideal) (row0 (m ((c.tc : Thread nD τ).loc main_arg7))) := by
  show StableHlo.after hostOps1_2 (W4 m ρ c) (Proc.devRef .tc main_v20) = _
  rw [rd1_2_v20 (W4 m ρ c), W4_main_arg7 m ρ c]

/-! ## The third launch: the encoded rows again, the messages summed into their destination rows, layer 0's update weights -/

theorem e2_0 : V7 m ρ c (Pipeline.arrRef spec2 0) = W2 m ρ c (Proc.devRef .tc main_v6) := by
  show W7 m ρ c (Proc.devRef .tc main_v6) = _
  calc W7 m ρ c (Proc.devRef .tc main_v6)
    _ = W6 m ρ c (Proc.devRef .tc main_v6) := by skip_host hostOps2
    _ = _ := W6_v6 m ρ c

theorem e2_1 : V7 m ρ c (Pipeline.arrRef spec2 1) = scatK (F := Ideal) (colK (m ((c.tc : Thread nD τ).loc main_arg1))) (W6 m ρ c (Proc.devRef .tc main_v21)) := by
  show StableHlo.after hostOps2 (W6 m ρ c) (Proc.devRef .tc main_v24) = _
  rw [rd2_v24 (W6 m ρ c), W6_v3 m ρ c]

theorem e2_2 : V7 m ρ c (Pipeline.arrRef spec2 2) = wide0 (F := Ideal) (m ((c.tc : Thread nD τ).loc main_arg8)) := by
  show StableHlo.after hostOps2 (W6 m ρ c) (Proc.devRef .tc main_v33) = _
  rw [rd2_v33 (W6 m ρ c), W6_main_arg8 m ρ c]

theorem e2_3 : V7 m ρ c (Pipeline.arrRef spec2 3) = vec2 (F := Ideal) (row0 (m ((c.tc : Thread nD τ).loc main_arg9))) := by
  show StableHlo.after hostOps2 (W6 m ρ c) (Proc.devRef .tc main_v34) = _
  rw [rd2_v34 (W6 m ρ c), W6_main_arg9 m ρ c]

theorem e2_4 : V7 m ρ c (Pipeline.arrRef spec2 4) = vec2 (F := Ideal) (row0 (m ((c.tc : Thread nD τ).loc main_arg10))) := by
  show StableHlo.after hostOps2 (W6 m ρ c) (Proc.devRef .tc main_v35) = _
  rw [rd2_v35 (W6 m ρ c), W6_main_arg10 m ρ c]

theorem e2_5 : V7 m ρ c (Pipeline.arrRef spec2 5) = vec2 (F := Ideal) (row0 (m ((c.tc : Thread nD τ).loc main_arg11))) := by
  show StableHlo.after hostOps2 (W6 m ρ c) (Proc.devRef .tc main_v36) = _
  rw [rd2_v36 (W6 m ρ c), W6_main_arg11 m ρ c]

end Cert.Bridge.K

end
-- ==== Proof.KHostB.lean ====
/-
  What the last three kernels of the program find in their operand arrays. Between two kernels the program applies
  plain array operations (slices, reshapes, transposes, the fill-mode row gather, the scatter-add); each such stretch
  rewrites only its own result buffers. So a kernel's operand is read back in two moves: where a stretch produced the
  buffer, the stretch's operations are composed into one function of the buffers it read; where a stretch or a kernel
  did not touch the buffer, its contents are carried across unchanged. Carried far enough, every operand is a function
  of the launch arguments and of the node features an earlier kernel left.
-/
import proofs.«429507_j9285719294448_1_alg».proof.Proof.Gen.KernelIdeal.Frame
import proofs.«429507_j9285719294448_1_alg».proof.Proof.KOps
import Idealize.ShloMosaic.Lib.StableHlo.Run
import Idealize.ShloMosaic.PureOps.Ideal

set_option maxRecDepth 16384

noncomputable section

namespace Cert.Bridge.K

open Cert.KernelIdeal Cert.KernelIdeal.Gen Idealize.ShloMosaic Idealize.ShloMosaic.TcCoe Idealize.SL.Sem Cert.Bridge

/-! ## The result buffers of each stretch of array operations -/

abbrev wr1 : List (Ref sig .tc) := [main_call0_c, main_call0_v0, main_call0_v1, main_call0_c_0, main_call0_v2, main_call0_v3, main_call0_v4, main_call0_v5, main_call0_c_1, main_call0_c_2, main_call0_v6, main_call0_v7, main_call0_v8, main_call0_v9, main_call0_v10, main_call0_v11, main_call0_c_3, main_call0_v12, main_call0_v13, main_call0_v14, main_call0_cst, main_call0_v15, main_v7]
abbrev wr1_1 : List (Ref sig .tc) := [main_call1_c, main_call1_v0, main_call1_v1, main_call1_c_0, main_call1_v2, main_call1_v3, main_call1_v4, main_call1_v5, main_call1_c_1, main_call1_c_2, main_call1_v6, main_call1_v7, main_call1_v8, main_call1_v9, main_call1_v10, main_call1_v11, main_call1_c_3, main_call1_v12, main_call1_v13, main_call1_v14, main_call1_cst, main_call1_v15, main_v8]
abbrev wr1_2 : List (Ref sig .tc) := [main_v9, main_v10, main_v11, main_v12, main_v13, main_v14, main_v15, main_v16, main_v17, main_v18, main_v19, main_v20]
abbrev wr2 : List (Ref sig .tc) := [main_cst, main_v22, main_v23, main_v24, main_v25, main_v26, main_v27, main_v28, main_v29, main_v30, main_v31, main_v32, main_v33, main_v34, main_v35, main_v36]
abbrev wr3 : List (Ref sig .tc) := [main_call2_c, main_call2_v0, main_call2_v1, main_call2_c_0, main_call2_v2, main_call2_v3, main_call2_v4, main_call2_v5, main_call2_c_1, main_call2_c_2, main_call2_v6, main_call2_v7, main_call2_v8, main_call2_v9, main_call2_v10, main_call2_v11, main_call2_c_3, main_call2_v12, main_call2_v13, main_call2_v14, main_call2_cst, main_call2_v15, main_v38]
abbrev wr3_1 : List (Ref sig .tc) := [main_call3_c, main_call3_v0, main_call3_v1, main_call3_c_0, main_call3_v2, main_call3_v3, main_call3_v4, main_call3_v5, main_call3_c_1, main_call3_c_2, main_call3_v6, main_call3_v7, main_call3_v8, main_call3_v9, main_call3_v10, main_call3_v11, main_call3_c_3, main_call3_v12, main_call3_v13, main_call3_v14, main_call3_cst, main_call3_v15, main_v39]
abbrev wr3_2 : List (Ref sig .tc) := [main_v40, main_v41, main_v42, main_v43, main_v44, main_v45, main_v46, main_v47, main_v48, main_v49, main_v50, main_v51]
abbrev wr4 : List (Ref sig .tc) := [main_cst_0, main_v53, main_v54, main_v55, main_v56, main_v57, main_v58, main_v59, main_v60, main_v61, main_v62, main_v63, main_v64, main_v65, main_v66, main_v67]
abbrev wr5 : List (Ref sig .tc) := [main_v69, main_v70]

section Stretch

variable {F : FTy → Type} [FloatOps F] (V : Valuation τ sig (Elt F))

/-! ## A stretch leaves every buffer that is none of its results as it found it -/

theorem keep1 (b : Ref sig .tc) (hb : ∀ y ∈ wr1, b ≠ y) :
    StableHlo.after (hostOps1 (F := F)) V (Proc.devRef .tc b) = V (Proc.devRef .tc b) :=
  StableHlo.after_of_forall_not_mem (b := Proc.devRef .tc b) _ _ (List.forall_iff_forall_mem.mp (by
    simp only [hostOps1, List.flatten_cons, List.flatten_nil, List.append_nil, List.cons_append,
      List.nil_append, List.Forall, StableHlo.nullary_writes, StableHlo.unary_writes, StableHlo.binary_writes,
      StableHlo.ternary_writes, StableHlo.quaternary_writes, StableHlo.reshape_writes, StableHlo.binaryIndexed_writes,
      Finset.mem_singleton]
    repeat' apply And.intro
    all_goals exact StableHlo.devRef_ne_of_ne (hb _ (by decide))))
theorem keep1_1 (b : Ref sig .tc) (hb : ∀ y ∈ wr1_1, b ≠ y) :
    StableHlo.after (hostOps1_1 (F := F)) V (Proc.devRef .tc b) = V (Proc.devRef .tc b) :=
  StableHlo.after_of_forall_not_mem (b := Proc.devRef .tc b) _ _ (List.forall_iff_forall_mem.mp (by
    simp only [hostOps1_1, List.flatten_cons, List.flatten_nil, List.append_nil, List.cons_append,
      List.nil_append, List.Forall, StableHlo.nullary_writes, StableHlo.unary_writes, StableHlo.binary_writes,
      StableHlo.ternary_writes, StableHlo.quaternary_writes, StableHlo.reshape_writes, StableHlo.binaryIndexed_writes,
      Finset.mem_singleton]
    repeat' apply And.intro
    all_goals exact StableHlo.devRef_ne_of_ne (hb _ (by decide))))
theorem keep1_2 (b : Ref sig .tc) (hb : ∀ y ∈ wr1_2, b ≠ y) :
    StableHlo.after (hostOps1_2 (F := F)) V (Proc.devRef .tc b) = V (Proc.devRef .tc b) :=
  StableHlo.after_of_forall_not_mem (b := Proc.devRef .tc b) _ _ (List.forall_iff_forall_mem.mp (by
    simp only [hostOps1_2, List.flatten_cons, List.flatten_nil, List.append_nil, List.cons_append,
      List.nil_append, List.Forall, StableHlo.nullary_writes, StableHlo.unary_writes, StableHlo.binary_writes,
      StableHlo.ternary_writes, StableHlo.quaternary_writes, StableHlo.reshape_writes, StableHlo.binaryIndexed_writes,
      Finset.mem_singleton]
    repeat' apply And.intro
    all_goals exact StableHlo.devRef_ne_of_ne (hb _ (by decide))))
theorem keep2 (b : Ref sig .tc) (hb : ∀ y ∈ wr2, b ≠ y) :
    StableHlo.after (hostOps2 (F := F)) V (Proc.devRef .tc b) = V (Proc.devRef .tc b) :=
  StableHlo.after_of_forall_not_mem (b := Proc.devRef .tc b) _ _ (List.forall_iff_forall_mem.mp (by
    simp only [hostOps2, List.flatten_cons, List.flatten_nil, List.append_nil, List.cons_append,
      List.nil_append, List.Forall, StableHlo.nullary_writes, StableHlo.unary_writes, StableHlo.binary_writes,
      StableHlo.ternary_writes, StableHlo.quaternary_writes, StableHlo.reshape_writes, StableHlo.binaryIndexed_writes,
      Finset.mem_singleton]
    repeat' apply And.intro
    all_goals exact StableHlo.devRef_ne_of_ne (hb _ (by decide))))
theorem keep3 (b : Ref sig .tc) (hb : ∀ y ∈ wr3, b ≠ y) :
    StableHlo.after (hostOps3 (F := F)) V (Proc.devRef .tc b) = V (Proc.devRef .tc b) :=
  StableHlo.after_of_forall_not_mem (b := Proc.devRef .tc b) _ _ (List.forall_iff_forall_mem.mp (by
    simp only [hostOps3, List.flatten_cons, List.flatten_nil, List.append_nil, List.cons_append,
      List.nil_append, List.Forall, StableHlo.nullary_writes, StableHlo.unary_writes, StableHlo.binary_writes,
      StableHlo.ternary_writes, StableHlo.quaternary_writes, StableHlo.reshape_writes, StableHlo.binaryIndexed_writes,
      Finset.mem_singleton]
    repeat' apply And.intro
    all_goals exact StableHlo.devRef_ne_of_ne (hb _ (by decide))))
theorem keep3_1 (b : Ref sig .tc) (hb : ∀ y ∈ wr3_1, b ≠ y) :
    StableHlo.after (hostOps3_1 (F := F)) V (Proc.devRef .tc b) = V (Proc.devRef .tc b) :=
  StableHlo.after_of_forall_not_mem (b := Proc.devRef .tc b) _ _ (List.forall_iff_forall_mem.mp (by
    simp only [hostOps3_1, List.flatten_cons, List.flatten_nil, List.append_nil, List.cons_append,
      List.nil_append, List.Forall, StableHlo.nullary_writes, StableHlo.unary_writes, StableHlo.binary_writes,
      StableHlo.ternary_writes, StableHlo.quaternary_writes, StableHlo.reshape_writes, StableHlo.binaryIndexed_writes,
      Finset.mem_singleton]
    repeat' apply And.intro
    all_goals exact StableHlo.devRef_ne_of_ne (hb _ (by decide))))
theorem keep3_2 (b : Ref sig .tc) (hb : ∀ y ∈ wr3_2, b ≠ y) :
    StableHlo.after (hostOps3_2 (F := F)) V (Proc.devRef .tc b) = V (Proc.devRef .tc b) :=
  StableHlo.after_of_forall_not_mem (b := Proc.devRef .tc b) _ _ (List.forall_iff_forall_mem.mp (by
    simp only [hostOps3_2, List.flatten_cons, List.flatten_nil, List.append_nil, List.cons_append,
      List.nil_append, List.Forall, StableHlo.nullary_writes, StableHlo.unary_writes, StableHlo.binary_writes,
      StableHlo.ternary_writes, StableHlo.quaternary_writes, StableHlo.reshape_writes, StableHlo.binaryIndexed_writes,
      Finset.mem_singleton]
    repeat' apply And.intro
    all_goals exact StableHlo.devRef_ne_of_ne (hb _ (by decide))))
theorem keep4 (b : Ref sig .tc) (hb : ∀ y ∈ wr4, b ≠ y) :
    StableHlo.after (hostOps4 (F := F)) V (Proc.devRef .tc b) = V (Proc.devRef .tc b) :=
  StableHlo.after_of_forall_not_mem (b := Proc.devRef .tc b) _ _ (List.forall_iff_forall_mem.mp (by
    simp only [hostOps4, List.flatten_cons, List.flatten_nil, List.append_nil, List.cons_append,
      List.nil_append, List.Forall, StableHlo.nullary_writes, StableHlo.unary_writes, StableHlo.binary_writes,
      StableHlo.ternary_writes, StableHlo.quaternary_writes, StableHlo.reshape_writes, StableHlo.binaryIndexed_writes,
      Finset.mem_singleton]
    repeat' apply And.intro
    all_goals exact StableHlo.devRef_ne_of_ne (hb _ (by decide))))
theorem keep5 (b : Ref sig .tc) (hb : ∀ y ∈ wr5, b ≠ y) :
    StableHlo.after (hostOps5 (F := F)) V (Proc.devRef .tc b) = V (Proc.devRef .tc b) :=
  StableHlo.after_of_forall_not_mem (b := Proc.devRef .tc b) _ _ (List.forall_iff_forall_mem.mp (by
    simp only [hostOps5, List.flatten_cons, List.flatten_nil, List.append_nil, List.cons_append,
      List.nil_append, List.Forall, StableHlo.nullary_writes, StableHlo.unary_writes, StableHlo.binary_writes,
      StableHlo.ternary_writes, StableHlo.quaternary_writes, StableHlo.reshape_writes, StableHlo.binaryIndexed_writes,
      Finset.mem_singleton]
    repeat' apply And.intro
    all_goals exact StableHlo.devRef_ne_of_ne (hb _ (by decide))))

/-! ## What a stretch leaves in a result buffer, as a function of the buffers it read -/

/-- Reading a value out of a typed buffer it was just put into gives the value back. -/
theorem ofBuf_toBuf_of {T : BufTy} (r : Ref sig .tc) (h1 h1' : r.ty = T) (h2 h2' : r.space ≠ .host)
    (h3 h3' : r.isScoped = false) (v : T.Contents (Elt F)) :
    (StableHlo.TRef.of r h1 h2 h3).ofBuf ((StableHlo.TRef.of r h1' h2' h3').toBuf v) = v := by
  subst h1; rfl
/-- At a buffer's own type the two transports are the identity. -/
theorem toBuf_id (r : Ref sig .tc) (h1 : r.ty = r.ty) (h2 : r.space ≠ .host) (h3 : r.isScoped = false)
    (v : r.ty.Contents (Elt F)) : (StableHlo.TRef.of (T := r.ty) r h1 h2 h3).toBuf v = v := rfl
theorem ofBuf_id (r : Ref sig .tc) (h1 : r.ty = r.ty) (h2 : r.space ≠ .host) (h3 : r.isScoped = false)
    (v : r.ty.Contents (Elt F)) : (StableHlo.TRef.of (T := r.ty) r h1 h2 h3).ofBuf v = v := rfl

/-- The first stretch cuts the two rows out of the edge list. -/
theorem read0_row : StableHlo.after (hostOps0 (F := F)) V (Proc.devRef .tc main_v1) = rowK (V (Proc.devRef .tc main_arg1)) := by
  after_results; rfl
theorem read0_col : StableHlo.after (hostOps0 (F := F)) V (Proc.devRef .tc main_v3) = colK (V (Proc.devRef .tc main_arg1)) := by
  after_results; rfl

set_option maxHeartbeats 2000000 in
/-- The fill-mode gather before the second message kernel, at the source row: the node rows of layer 0 at the source
    of every edge. -/
theorem read3 : StableHlo.after (hostOps3 (F := F)) V (Proc.devRef .tc main_v38)
    = takeK (F := F) (V (Proc.devRef .tc main_v37)) (V (Proc.devRef .tc main_v1)) := by
  after_results
  repeat rw [ofBuf_toBuf_of]
  rw [toBuf_id main_v38, ofBuf_id main_v1, ofBuf_id main_v37]
  unfold takeK gatherK inboundsK wrapK
  rfl
set_option maxHeartbeats 2000000 in
/-- The same at the destination row. -/
theorem read3_1 : StableHlo.after (hostOps3_1 (F := F)) V (Proc.devRef .tc main_v39)
    = takeK (F := F) (V (Proc.devRef .tc main_v37)) (V (Proc.devRef .tc main_v3)) := by
  after_results
  repeat rw [ofBuf_toBuf_of]
  rw [toBuf_id main_v39, ofBuf_id main_v3, ofBuf_id main_v37]
  unfold takeK gatherK inboundsK wrapK
  rfl

/-- Layer 1 of the stacked message weights. -/
theorem read3_2a : StableHlo.after (hostOps3_2 (F := F)) V (Proc.devRef .tc main_v48) = wide1 (F := F) (V (Proc.devRef .tc main_arg4)) := by
  after_results; rfl
theorem read3_2b : StableHlo.after (hostOps3_2 (F := F)) V (Proc.devRef .tc main_v50) = vec2 (F := F) (row1 (V (Proc.devRef .tc main_arg5))) := by
  after_results; rfl
theorem read3_2c : StableHlo.after (hostOps3_2 (F := F)) V (Proc.devRef .tc main_v49) = sq1 (F := F) (V (Proc.devRef .tc main_arg6)) := by
  after_results; rfl
theorem read3_2d : StableHlo.after (hostOps3_2 (F := F)) V (Proc.devRef .tc main_v51) = vec2 (F := F) (row1 (V (Proc.devRef .tc main_arg7))) := by
  after_results; rfl

/-- The scatter-add of the edge messages into node rows, and layer 1 of the stacked update weights. -/
theorem read4a : StableHlo.after (hostOps4 (F := F)) V (Proc.devRef .tc main_v55)
    = scatK (F := F) (V (Proc.devRef .tc main_v3)) (V (Proc.devRef .tc main_v52)) := by
  after_results; rfl
theorem read4b : StableHlo.after (hostOps4 (F := F)) V (Proc.devRef .tc main_v64) = wide1 (F := F) (V (Proc.devRef .tc main_arg8)) := by
  after_results; rfl
theorem read4c : StableHlo.after (hostOps4 (F := F)) V (Proc.devRef .tc main_v65) = vec2 (F := F) (row1 (V (Proc.devRef .tc main_arg9))) := by
  after_results; rfl
theorem read4d : StableHlo.after (hostOps4 (F := F)) V (Proc.devRef .tc main_v66) = vec2 (F := F) (row1 (V (Proc.devRef .tc main_arg10))) := by
  after_results; rfl
theorem read4e : StableHlo.after (hostOps4 (F := F)) V (Proc.devRef .tc main_v67) = vec2 (F := F) (row1 (V (Proc.devRef .tc main_arg11))) := by
  after_results; rfl

/-- The output layer's weight, transposed, and its bias as a row. -/
theorem read5a : StableHlo.after (hostOps5 (F := F)) V (Proc.devRef .tc main_v69) = matT (F := F) (V (Proc.devRef .tc main_arg12)) := by
  after_results; rfl
theorem read5b : StableHlo.after (hostOps5 (F := F)) V (Proc.devRef .tc main_v70) = vec2 (F := F) (V (Proc.devRef .tc main_arg13)) := by
  after_results; rfl

end Stretch

section Run

variable (m : (ℓ : Loc nD τ sig) → Buf (Elt Ideal) ℓ) (ρ : Dev nD → PrngReg) (c : Dev nD)

/-! ## The two index rows, carried from the first stretch to the third kernel's exit -/

theorem W1_row : W1 m ρ c (Proc.devRef .tc main_v1) = rowK (m ((c.tc : Thread nD τ).loc main_arg1)) := read0_row (W0 m ρ c)
theorem W1_col : W1 m ρ c (Proc.devRef .tc main_v3) = colK (m ((c.tc : Thread nD τ).loc main_arg1)) := read0_col (W0 m ρ c)

theorem W8_row : W8 m ρ c (Proc.devRef .tc main_v1) = rowK (m ((c.tc : Thread nD τ).loc main_arg1)) :=
  calc W8 m ρ c (Proc.devRef .tc main_v1)
    _ = W7 m ρ c (Proc.devRef .tc main_v1) := W8_of_ne m ρ c main_v1 (by decide)
    _ = W6 m ρ c (Proc.devRef .tc main_v1) := keep2 (W6 m ρ c) main_v1 (by decide)
    _ = W5 m ρ c (Proc.devRef .tc main_v1) := W6_of_ne m ρ c main_v1 (by decide)
    _ = W4 m ρ c (Proc.devRef .tc main_v1) := keep1_2 (W4 m ρ c) main_v1 (by decide)
    _ = W3 m ρ c (Proc.devRef .tc main_v1) := keep1_1 (W3 m ρ c) main_v1 (by decide)
    _ = W2 m ρ c (Proc.devRef .tc main_v1) := keep1 (W2 m ρ c) main_v1 (by decide)
    _ = W1 m ρ c (Proc.devRef .tc main_v1) := W2_of_ne m ρ c main_v1 (by decide)
    _ = rowK (m ((c.tc : Thread nD τ).loc main_arg1)) := W1_row m ρ c
theorem W8_col : W8 m ρ c (Proc.devRef .tc main_v3) = colK (m ((c.tc : Thread nD τ).loc main_arg1)) :=
  calc W8 m ρ c (Proc.devRef .tc main_v3)
    _ = W7 m ρ c (Proc.devRef .tc main_v3) := W8_of_ne m ρ c main_v3 (by decide)
    _ = W6 m ρ c (Proc.devRef .tc main_v3) := keep2 (W6 m ρ c) main_v3 (by decide)
    _ = W5 m ρ c (Proc.devRef .tc main_v3) := W6_of_ne m ρ c main_v3 (by decide)
    _ = W4 m ρ c (Proc.devRef .tc main_v3) := keep1_2 (W4 m ρ c) main_v3 (by decide)
    _ = W3 m ρ c (Proc.devRef .tc main_v3) := keep1_1 (W3 m ρ c) main_v3 (by decide)
    _ = W2 m ρ c (Proc.devRef .tc main_v3) := keep1 (W2 m ρ c) main_v3 (by decide)
    _ = W1 m ρ c (Proc.devRef .tc main_v3) := W2_of_ne m ρ c main_v3 (by decide)
    _ = colK (m ((c.tc : Thread nD τ).loc main_arg1)) := W1_col m ρ c

/-- The destination row and the node features of layer 0, one stretch further. -/
theorem W9_col : W9 m ρ c (Proc.devRef .tc main_v3) = colK (m ((c.tc : Thread nD τ).loc main_arg1)) :=
  (keep3 (W8 m ρ c) main_v3 (by decide)).trans (W8_col m ρ c)
theorem W9_h : W9 m ρ c (Proc.devRef .tc main_v37) = W8 m ρ c (Proc.devRef .tc main_v37) := keep3 (W8 m ρ c) main_v37 (by decide)
theorem W10_h : W10 m ρ c (Proc.devRef .tc main_v37) = W8 m ρ c (Proc.devRef .tc main_v37) :=
  (keep3_1 (W9 m ρ c) main_v37 (by decide)).trans (W9_h m ρ c)
theorem W12_col : W12 m ρ c (Proc.devRef .tc main_v3) = colK (m ((c.tc : Thread nD τ).loc main_arg1)) :=
  calc W12 m ρ c (Proc.devRef .tc main_v3)
    _ = W11 m ρ c (Proc.devRef .tc main_v3) := W12_of_ne m ρ c main_v3 (by decide)
    _ = W10 m ρ c (Proc.devRef .tc main_v3) := keep3_2 (W10 m ρ c) main_v3 (by decide)
    _ = W9 m ρ c (Proc.devRef .tc main_v3) := keep3_1 (W9 m ρ c) main_v3 (by decide)
    _ = colK (m ((c.tc : Thread nD τ).loc main_arg1)) := W9_col m ρ c

/-! ## A buffer nothing later touches holds at an earlier boundary what it holds at the end -/

theorem W14_eq_W16 (b : Ref sig .tc) (h5 : ∀ w, Pipeline.arrRef spec5 w ≠ b) (k5 : ∀ y ∈ wr5, b ≠ y) :
    W14 m ρ c (Proc.devRef .tc b) = W16 m ρ c (Proc.devRef .tc b) :=
  ((W16_of_ne m ρ c b h5).trans (keep5 (W14 m ρ c) b k5)).symm
theorem W12_eq_W14 (b : Ref sig .tc) (h4 : ∀ w, Pipeline.arrRef spec4 w ≠ b) (k4 : ∀ y ∈ wr4, b ≠ y) :
    W12 m ρ c (Proc.devRef .tc b) = W14 m ρ c (Proc.devRef .tc b) :=
  ((W14_of_ne m ρ c b h4).trans (keep4 (W12 m ρ c) b k4)).symm
theorem W10_eq_W12 (b : Ref sig .tc) (h3 : ∀ w, Pipeline.arrRef spec3 w ≠ b) (k3 : ∀ y ∈ wr3_2, b ≠ y) :
    W10 m ρ c (Proc.devRef .tc b) = W12 m ρ c (Proc.devRef .tc b) :=
  ((W12_of_ne m ρ c b h3).trans (keep3_2 (W10 m ρ c) b k3)).symm

theorem W14_arg12 : W14 m ρ c (Proc.devRef .tc main_arg12) = (m ((c.tc : Thread nD τ).loc main_arg12)) :=
  (W14_eq_W16 m ρ c main_arg12 (by decide) (by decide)).trans (W16_main_arg12 m ρ c)
theorem W14_arg13 : W14 m ρ c (Proc.devRef .tc main_arg13) = (m ((c.tc : Thread nD τ).loc main_arg13)) :=
  (W14_eq_W16 m ρ c main_arg13 (by decide) (by decide)).trans (W16_main_arg13 m ρ c)
theorem W12_arg8 : W12 m ρ c (Proc.devRef .tc main_arg8) = (m ((c.tc : Thread nD τ).loc main_arg8)) :=
  (W12_eq_W14 m ρ c main_arg8 (by decide) (by decide)).trans
    ((W14_eq_W16 m ρ c main_arg8 (by decide) (by decide)).trans (W16_main_arg8 m ρ c))
theorem W12_arg9 : W12 m ρ c (Proc.devRef .tc main_arg9) = (m ((c.tc : Thread nD τ).loc main_arg9)) :=
  (W12_eq_W14 m ρ c main_arg9 (by decide) (by decide)).trans
    ((W14_eq_W16 m ρ c main_arg9 (by decide) (by decide)).trans (W16_main_arg9 m ρ c))
theorem W12_arg10 : W12 m ρ c (Proc.devRef .tc main_arg10) = (m ((c.tc : Thread nD τ).loc main_arg10)) :=
  (W12_eq_W14 m ρ c main_arg10 (by decide) (by decide)).trans
    ((W14_eq_W16 m ρ c main_arg10 (by decide) (by decide)).trans (W16_main_arg10 m ρ c))
theorem W12_arg11 : W12 m ρ c (Proc.devRef .tc main_arg11) = (m ((c.tc : Thread nD τ).loc main_arg11)) :=
  (W12_eq_W14 m ρ c main_arg11 (by decide) (by decide)).trans
    ((W14_eq_W16 m ρ c main_arg11 (by decide) (by decide)).trans (W16_main_arg11 m ρ c))
theorem W10_arg4 : W10 m ρ c (Proc.devRef .tc main_arg4) = (m ((c.tc : Thread nD τ).loc main_arg4)) :=
  (W10_eq_W12 m ρ c main_arg4 (by decide) (by decide)).trans
    ((W12_eq_W14 m ρ c main_arg4 (by decide) (by decide)).trans
      ((W14_eq_W16 m ρ c main_arg4 (by decide) (by decide)).trans (W16_main_arg4 m ρ c)))
theorem W10_arg5 : W10 m ρ c (Proc.devRef .tc main_arg5) = (m ((c.tc : Thread nD τ).loc main_arg5)) :=
  (W10_eq_W12 m ρ c main_arg5 (by decide) (by decide)).trans
    ((W12_eq_W14 m ρ c main_arg5 (by decide) (by decide)).trans
      ((W14_eq_W16 m ρ c main_arg5 (by decide) (by decide)).trans (W16_main_arg5 m ρ c)))
theorem W10_arg6 : W10 m ρ c (Proc.devRef .tc main_arg6) = (m ((c.tc : Thread nD τ).loc main_arg6)) :=
  (W10_eq_W12 m ρ c main_arg6 (by decide) (by decide)).trans
    ((W12_eq_W14 m ρ c main_arg6 (by decide) (by decide)).trans
      ((W14_eq_W16 m ρ c main_arg6 (by decide) (by decide)).trans (W16_main_arg6 m ρ c)))
theorem W10_arg7 : W10 m ρ c (Proc.devRef .tc main_arg7) = (m ((c.tc : Thread nD τ).loc main_arg7)) :=
  (W10_eq_W12 m ρ c main_arg7 (by decide) (by decide)).trans
    ((W12_eq_W14 m ρ c main_arg7 (by decide) (by decide)).trans
      ((W14_eq_W16 m ρ c main_arg7 (by decide) (by decide)).trans (W16_main_arg7 m ρ c)))

/-! ## The second message kernel's operands -/

theorem e3_0 : V11 m ρ c (Pipeline.arrRef spec3 0)
    = takeK (F := Ideal) (W8 m ρ c (Proc.devRef .tc main_v37)) (rowK (m ((c.tc : Thread nD τ).loc main_arg1))) :=
  calc V11 m ρ c (Pipeline.arrRef spec3 0)
    _ = W11 m ρ c (Proc.devRef .tc main_v38) := rfl
    _ = W10 m ρ c (Proc.devRef .tc main_v38) := keep3_2 (W10 m ρ c) main_v38 (by decide)
    _ = W9 m ρ c (Proc.devRef .tc main_v38) := keep3_1 (W9 m ρ c) main_v38 (by decide)
    _ = takeK (F := Ideal) (W8 m ρ c (Proc.devRef .tc main_v37)) (W8 m ρ c (Proc.devRef .tc main_v1)) := read3 (W8 m ρ c)
    _ = _ := congrArg (takeK (F := Ideal) (W8 m ρ c (Proc.devRef .tc main_v37))) (W8_row m ρ c)
theorem e3_1 : V11 m ρ c (Pipeline.arrRef spec3 1)
    = takeK (F := Ideal) (W8 m ρ c (Proc.devRef .tc main_v37)) (colK (m ((c.tc : Thread nD τ).loc main_arg1))) :=
  calc V11 m ρ c (Pipeline.arrRef spec3 1)
    _ = W11 m ρ c (Proc.devRef .tc main_v39) := rfl
    _ = W10 m ρ c (Proc.devRef .tc main_v39) := keep3_2 (W10 m ρ c) main_v39 (by decide)
    _ = takeK (F := Ideal) (W9 m ρ c (Proc.devRef .tc main_v37)) (W9 m ρ c (Proc.devRef .tc main_v3)) := read3_1 (W9 m ρ c)
    _ = _ := congrArg₂ (takeK (F := Ideal)) (W9_h m ρ c) (W9_col m ρ c)
theorem e3_2 : V11 m ρ c (Pipeline.arrRef spec3 2) = wide1 (F := Ideal) (m ((c.tc : Thread nD τ).loc main_arg4)) :=
  calc V11 m ρ c (Pipeline.arrRef spec3 2)
    _ = W11 m ρ c (Proc.devRef .tc main_v48) := rfl
    _ = wide1 (F := Ideal) (W10 m ρ c (Proc.devRef .tc main_arg4)) := read3_2a (W10 m ρ c)
    _ = _ := congrArg (fun x => wide1 (F := Ideal) x) (W10_arg4 m ρ c)
theorem e3_3 : V11 m ρ c (Pipeline.arrRef spec3 3) = vec2 (F := Ideal) (row1 (m ((c.tc : Thread nD τ).loc main_arg5))) :=
  calc V11 m ρ c (Pipeline.arrRef spec3 3)
    _ = W11 m ρ c (Proc.devRef .tc main_v50) := rfl
    _ = vec2 (F := Ideal) (row1 (W10 m ρ c (Proc.devRef .tc main_arg5))) := read3_2b (W10 m ρ c)
    _ = _ := congrArg (fun x => vec2 (F := Ideal) (row1 x)) (W10_arg5 m ρ c)
theorem e3_4 : V11 m ρ c (Pipeline.arrRef spec3 4) = sq1 (F := Ideal) (m ((c.tc : Thread nD τ).loc main_arg6)) :=
  calc V11 m ρ c (Pipeline.arrRef spec3 4)
    _ = W11 m ρ c (Proc.devRef .tc main_v49) := rfl
    _ = sq1 (F := Ideal) (W10 m ρ c (Proc.devRef .tc main_arg6)) := read3_2c (W10 m ρ c)
    _ = _ := congrArg (fun x => sq1 (F := Ideal) x) (W10_arg6 m ρ c)
theorem e3_5 : V11 m ρ c (Pipeline.arrRef spec3 5) = vec2 (F := Ideal) (row1 (m ((c.tc : Thread nD τ).loc main_arg7))) :=
  calc V11 m ρ c (Pipeline.arrRef spec3 5)
    _ = W11 m ρ c (Proc.devRef .tc main_v51) := rfl
    _ = vec2 (F := Ideal) (row1 (W10 m ρ c (Proc.devRef .tc main_arg7))) := read3_2d (W10 m ρ c)
    _ = _ := congrArg (fun x => vec2 (F := Ideal) (row1 x)) (W10_arg7 m ρ c)

/-! ## The second update kernel's operands -/

theorem e4_0 : V13 m ρ c (Pipeline.arrRef spec4 0) = W8 m ρ c (Proc.devRef .tc main_v37) :=
  calc V13 m ρ c (Pipeline.arrRef spec4 0)
    _ = W13 m ρ c (Proc.devRef .tc main_v37) := rfl
    _ = W12 m ρ c (Proc.devRef .tc main_v37) := keep4 (W12 m ρ c) main_v37 (by decide)
    _ = W11 m ρ c (Proc.devRef .tc main_v37) := W12_of_ne m ρ c main_v37 (by decide)
    _ = W10 m ρ c (Proc.devRef .tc main_v37) := keep3_2 (W10 m ρ c) main_v37 (by decide)
    _ = W8 m ρ c (Proc.devRef .tc main_v37) := W10_h m ρ c
theorem e4_1 : V13 m ρ c (Pipeline.arrRef spec4 1)
    = scatK (F := Ideal) (colK (m ((c.tc : Thread nD τ).loc main_arg1))) (W12 m ρ c (Proc.devRef .tc main_v52)) :=
  calc V13 m ρ c (Pipeline.arrRef spec4 1)
    _ = W13 m ρ c (Proc.devRef .tc main_v55) := rfl
    _ = scatK (F := Ideal) (W12 m ρ c (Proc.devRef .tc main_v3)) (W12 m ρ c (Proc.devRef .tc main_v52)) := read4a (W12 m ρ c)
    _ = _ := congrArg (fun x => scatK (F := Ideal) x (W12 m ρ c (Proc.devRef .tc main_v52))) (W12_col m ρ c)
theorem e4_2 : V13 m ρ c (Pipeline.arrRef spec4 2) = wide1 (F := Ideal) (m ((c.tc : Thread nD τ).loc main_arg8)) :=
  calc V13 m ρ c (Pipeline.arrRef spec4 2)
    _ = W13 m ρ c (Proc.devRef .tc main_v64) := rfl
    _ = wide1 (F := Ideal) (W12 m ρ c (Proc.devRef .tc main_arg8)) := read4b (W12 m ρ c)
    _ = _ := congrArg (fun x => wide1 (F := Ideal) x) (W12_arg8 m ρ c)
theorem e4_3 : V13 m ρ c (Pipeline.arrRef spec4 3) = vec2 (F := Ideal) (row1 (m ((c.tc : Thread nD τ).loc main_arg9))) :=
  calc V13 m ρ c (Pipeline.arrRef spec4 3)
    _ = W13 m ρ c (Proc.devRef .tc main_v65) := rfl
    _ = vec2 (F := Ideal) (row1 (W12 m ρ c (Proc.devRef .tc main_arg9))) := read4c (W12 m ρ c)
    _ = _ := congrArg (fun x => vec2 (F := Ideal) (row1 x)) (W12_arg9 m ρ c)
theorem e4_4 : V13 m ρ c (Pipeline.arrRef spec4 4) = vec2 (F := Ideal) (row1 (m ((c.tc : Thread nD τ).loc main_arg10))) :=
  calc V13 m ρ c (Pipeline.arrRef spec4 4)
    _ = W13 m ρ c (Proc.devRef .tc main_v66) := rfl
    _ = vec2 (F := Ideal) (row1 (W12 m ρ c (Proc.devRef .tc main_arg10))) := read4d (W12 m ρ c)
    _ = _ := congrArg (fun x => vec2 (F := Ideal) (row1 x)) (W12_arg10 m ρ c)
theorem e4_5 : V13 m ρ c (Pipeline.arrRef spec4 5) = vec2 (F := Ideal) (row1 (m ((c.tc : Thread nD τ).loc main_arg11))) :=
  calc V13 m ρ c (Pipeline.arrRef spec4 5)
    _ = W13 m ρ c (Proc.devRef .tc main_v67) := rfl
    _ = vec2 (F := Ideal) (row1 (W12 m ρ c (Proc.devRef .tc main_arg11))) := read4e (W12 m ρ c)
    _ = _ := congrArg (fun x => vec2 (F := Ideal) (row1 x)) (W12_arg11 m ρ c)

/-! ## The output kernel's operands -/

theorem e5_0 : V15 m ρ c (Pipeline.arrRef spec5 0) = W14 m ρ c (Proc.devRef .tc main_v68) :=
  calc V15 m ρ c (Pipeline.arrRef spec5 0)
    _ = W15 m ρ c (Proc.devRef .tc main_v68) := rfl
    _ = W14 m ρ c (Proc.devRef .tc main_v68) := keep5 (W14 m ρ c) main_v68 (by decide)
theorem e5_1 : V15 m ρ c (Pipeline.arrRef spec5 1) = matT (F := Ideal) (m ((c.tc : Thread nD τ).loc main_arg12)) :=
  calc V15 m ρ c (Pipeline.arrRef spec5 1)
    _ = W15 m ρ c (Proc.devRef .tc main_v69) := rfl
    _ = matT (F := Ideal) (W14 m ρ c (Proc.devRef .tc main_arg12)) := read5a (W14 m ρ c)
    _ = _ := congrArg (matT (F := Ideal)) (W14_arg12 m ρ c)
theorem e5_2 : V15 m ρ c (Pipeline.arrRef spec5 2) = vec2 (F := Ideal) (m ((c.tc : Thread nD τ).loc main_arg13)) :=
  calc V15 m ρ c (Pipeline.arrRef spec5 2)
    _ = W15 m ρ c (Proc.devRef .tc main_v70) := rfl
    _ = vec2 (F := Ideal) (W14 m ρ c (Proc.devRef .tc main_arg13)) := read5b (W14 m ρ c)
    _ = _ := congrArg (vec2 (F := Ideal)) (W14_arg13 m ρ c)

end Run

end Cert.Bridge.K

end
-- ==== Proof.Take.lean ====
/-
  On an index vector whose entries all name a node, the fill-mode row gather is the plain gather. No entry is negative,
  so the wrap leaves each index as it is; hence every wrapped index lies in [0, 49999], the in-bounds bit of every edge
  is 1 (an "and" over the single unit coordinate, started from 1, of two true comparisons), and the select keeps the
  gathered row at every position.
-/
import proofs.«429507_j9285719294448_1_alg».proof.Proof.KOps
import Idealize.ShloMosaic.Lib.ValueIdx
import Idealize.ShloMosaic.Lib.Affine
import Idealize.ShloMosaic.PureOps.Reduce

namespace Cert.Bridge

open Idealize.ShloMosaic Idealize.ShloMosaic.TcCoe Cert.KernelIdeal Cert.KernelIdeal.Gen

/-- A left fold by "and" over one-bit words that are all 1, started from 1, is 1. -/
theorem foldl_andi_all_one {ι : Type} (f : ι → BitVec 1) (hf : ∀ n, f n = 1#1) :
    ∀ l : List ι, l.foldl (fun r n => IntOp.andi r (f n)) 1#1 = 1#1
  | [] => rfl
  | a :: l => by
    have h1 : IntOp.andi 1#1 1#1 = 1#1 := by decide
    rw [List.foldl_cons, hf a, h1]
    exact foldl_andi_all_one f hf l

/-- Selecting on "x is negative" between a shifted word and x itself gives x when x is not negative. -/
theorem select_neg_of_nonneg (x y : BitVec 32) (h0 : 0 ≤ x.toInt) :
    Scalar.select (IntOp.cmpi .slt x 0#32) y x = x := by
  have hc : IntOp.cmpi .slt x 0#32 = 0#1 := ValueIdx.eq_zero_of_ne_one (fun h => by
    have h1 := IntOp.cmpi_slt.1 h
    have h2 : (0#32 : BitVec 32).toInt = 0 := by decide
    omega)
  rw [hc, ValueIdx.select_zero]

/-- Each wrapped index is one of the entries of the index vector, when no entry is negative. -/
theorem wrapK_mem (idx : IVec S800000 32) (hin : InR idx) (i : S800000x1.Idx) : ∃ e, wrapK idx i = idx e := by
  unfold wrapK broadcastInDim
  exact ⟨_, select_neg_of_nonneg _ _ (hin _).1⟩

/-- Every edge's in-bounds bit is 1. -/
theorem inboundsK_one (idx : IVec S800000 32) (hin : InR idx) (e : S800000.Idx) : inboundsK idx e = 1#1 := by
  unfold inboundsK
  rw [Host.reduce_eq_foldl]
  refine foldl_andi_all_one _ (fun i => ?_) _
  show IntOp.andi (IntOp.cmpi .sge (wrapK idx i) 0#32) (IntOp.cmpi .sle (wrapK idx i) 49999#32) = 1#1
  obtain ⟨e', he⟩ := wrapK_mem idx hin i
  rw [he, IntOp.andi_eq_one, IntOp.cmpi_sge, IntOp.cmpi_sle]
  have h0 : (0#32 : BitVec 32).toInt = 0 := by decide
  have h1 : (49999#32 : BitVec 32).toInt = 49999 := by decide
  have := hin e'
  omega

/-- The fill-mode gather equals the plain gather on in-range indices. -/
theorem take_eq {F : FTy → Type} [FloatOps F] (h : FVec F Cert.KernelIdeal.S50000x128 .f32)
    (idx : IVec Cert.KernelIdeal.S800000 32) (hin : InR idx) : takeK h idx = gatherK h idx := by
  funext j
  unfold takeK
  rw [ValueIdx.select_apply]
  have hb : broadcastInDim S800000x128 ![0] bcast_S800000_S800000x128_0 (inboundsK idx) j = 1#1 := by
    unfold broadcastInDim
    exact inboundsK_one idx hin _
  rw [hb, ValueIdx.select_one]

end Cert.Bridge
-- ==== Proof.RefLinMsg.lean ====
/-
  The reference program's two dense stages, read index by index on the extended reals.

  A linear layer of the reference is a contraction of the rows of an array with a 128 x 128 matrix, plus a bias that is
  first made a 1 x 128 array and then repeated down every row. Read at the entry (r, j) this is the sum over k of
  X (r, k) * Wt (k, j), plus b (j): the row function linRow of the specification, applied to row r.

  The message network joins two 128-feature rows into one of 256 features, contracts it with a 256 x 128 matrix, adds a
  bias, takes the larger of the result and zero, contracts with a 128 x 128 matrix and adds a second bias: msgRow.
-/
import proofs.«429507_j9285719294448_1_alg».proof.Proof.RefRead
import proofs.«429507_j9285719294448_1_alg».proof.Proof.Spec
import proofs.«429507_j9285719294448_1_alg».proof.Proof.KOps
import Idealize.ShloMosaic.PureOps.Ideal.Laws
import Idealize.ShloMosaic.Lib.ValueIdx
import Idealize.ShloMosaic.Lib.Pipeline.Value
import Idealize.ShloMosaic.Lib.ValueLayout

noncomputable section

open scoped BigOperators

namespace Cert.Bridge

open Idealize.ShloMosaic Idealize.ShloMosaic.TcCoe Idealize.ShloMosaic.ValueIdx Cert.ReferenceIdeal Cert.ReferenceIdeal.Gen

/-! ## The bias: a vector made a one-row array, then repeated down the rows -/

/-- A vector of 128 made a 1 x 128 array reads, at (0, j), the vector at j — and so does the shape cast of the vector. -/
theorem biasRow_apply (b : FVec Ideal S128 .f32) (j : Fin 128) :
    broadcastInDim S1x128 ![1] bcast_S128_S1x128_1 b (ix2 (0 : Fin 1) j) = vec2 b (ix2 (0 : Fin 1) j) := by
  rw [broadcastInDim_apply _ bcast_S128_S1x128_1 b (ix2 (0 : Fin 1) j) (ix1 j) (fun a => match a with
    | ⟨0, _⟩ => by show j.val = if (128 : Nat) = 1 then 0 else j.val; rw [if_neg (by decide)])]
  unfold vec2
  exact (shapeCast_a_1a_apply b _ (0 : Fin 1) j).symm

/-- The bias repeated down 50000 rows reads, at (r, j), the one-row bias at (0, j). -/
theorem bias50000_apply (b : FVec Ideal S128 .f32) (r : Fin 50000) (j : Fin 128) :
    broadcastInDim S50000x128 ![0, 1] bcast_S1x128_S50000x128_0_1 (broadcastInDim S1x128 ![1] bcast_S128_S1x128_1 b) (ix2 r j)
      = vec2 b (ix2 (0 : Fin 1) j) := by
  rw [broadcastInDim_apply _ bcast_S1x128_S50000x128_0_1 _ (ix2 r j) (ix2 (0 : Fin 1) j) (fun a => match a with
    | ⟨0, _⟩ => by show 0 = if (1 : Nat) = 1 then 0 else r.val; rw [if_pos rfl]
    | ⟨1, _⟩ => by show j.val = if (128 : Nat) = 1 then 0 else j.val; rw [if_neg (by decide)])]
  exact biasRow_apply b j

/-! ## The linear layer -/

/-- The contraction of a 50000 x 128 array with a 128 x 128 matrix, at the entry (r, j). -/
theorem dotLin_apply (X : FVec Ideal S50000x128 .f32) (W : FVec Ideal S128x128 .f32) (r : Fin 50000) (j : Fin 128) :
    Host.dotGeneral (F := Ideal) dot_S50000x128_S128x128_S50000x128_1_0_0_1_n_n none X W (ix2 r j)
      = ∑ k : Fin 128, X (ix2 r k) * W (ix2 k j) := by
  simp only [Host.dotGeneral]
  rw [Ideal.dotGeneral_apply, ← Equiv.sum_comp (contrEquiv1 dot_S50000x128_S128x128_S50000x128_1_0_0_1_n_n 128 rfl rfl).symm]
  refine Finset.sum_congr rfl fun k _ => ?_
  have hk := contrEquiv1_symm_val dot_S50000x128_S128x128_S50000x128_1_0_0_1_n_n 128 rfl rfl k
  have el : dot_S50000x128_S128x128_S50000x128_1_0_0_1_n_n.lhsIdx (ix2 r j) ((contrEquiv1 dot_S50000x128_S128x128_S50000x128_1_0_0_1_n_n 128 rfl rfl).symm k) = ix2 r k := funext fun a => Fin.ext (by
    match a with
    | ⟨0, _⟩ => exact ReadP.lhs_main_v5_0 _ _
    | ⟨1, _⟩ => exact (ReadP.lhs_main_v5_1 _ _).trans hk)
  have er : dot_S50000x128_S128x128_S50000x128_1_0_0_1_n_n.rhsIdx (ix2 r j) ((contrEquiv1 dot_S50000x128_S128x128_S50000x128_1_0_0_1_n_n 128 rfl rfl).symm k) = ix2 k j := funext fun a => Fin.ext (by
    match a with
    | ⟨0, _⟩ => exact (ReadP.rhs_main_v5_0 _ _).trans hk
    | ⟨1, _⟩ => exact ReadP.rhs_main_v5_1 _ _)
  rw [el, er]

/-- the reference's linear layer over generic operands -/
def refLin (X : FVec Ideal S50000x128 .f32) (Wt : FVec Ideal S128x128 .f32) (b : FVec Ideal S128 .f32) : FVec Ideal S50000x128 .f32 :=
  addf (Host.dotGeneral (F := Ideal) dot_S50000x128_S128x128_S50000x128_1_0_0_1_n_n none X Wt)
    (broadcastInDim S50000x128 ![0, 1] bcast_S1x128_S50000x128_0_1 (broadcastInDim S1x128 ![1] bcast_S128_S1x128_1 b))

theorem lin_math (X : FVec Ideal S50000x128 .f32) (Wt : FVec Ideal S128x128 .f32) (b : FVec Ideal S128 .f32) :
    refLin X Wt b = Glin X Wt (vec2 b) := by
  funext i
  obtain ⟨r, j, rfl⟩ : ∃ (r : Fin 50000) (j : Fin 128), i = ix2 r j := ⟨i 0, i 1, eq_ix2 i⟩
  rw [Glin_ix2]
  unfold refLin
  rw [addf_apply, dotLin_apply, bias50000_apply]
  rfl

theorem val8_eq (x0 : FVec Ideal S50000x128 .f32) (x2 : FVec Ideal S128x128 .f32) (x3 : FVec Ideal S128 .f32) :
    ReadP.val_main_v8 (F := Ideal) x0 x2 x3 = refLin x0 (ReadP.val_main_v4 (F := Ideal) x2) x3 := rfl

theorem val165_eq (x0 : FVec Ideal S50000x128 .f32) (x1 : IVec S2x800000 32) (x2 : FVec Ideal S128x128 .f32) (x3 : FVec Ideal S128 .f32)
    (x4 : FVec Ideal S2x128x256 .f32) (x5 : FVec Ideal S2x128 .f32) (x6 : FVec Ideal S2x128x128 .f32) (x7 : FVec Ideal S2x128 .f32)
    (x8 : FVec Ideal S2x128x256 .f32) (x9 x10 x11 : FVec Ideal S2x128 .f32) (x12 : FVec Ideal S128x128 .f32) (x13 : FVec Ideal S128 .f32) :
    ReadP.val_main_v165 (F := Ideal) x0 x1 x2 x3 x4 x5 x6 x7 x8 x9 x10 x11 x12 x13
      = refLin (ReadP.val_main_v160 (F := Ideal) x0 x1 x2 x3 x4 x5 x6 x7 x8 x9 x10 x11) (ReadP.val_main_v161 (F := Ideal) x12) x13 := rfl

/-! ## The message network -/

/-- The bias repeated down 800000 rows reads, at (r, j), the one-row bias at (0, j). -/
theorem bias800000_apply (b : FVec Ideal S128 .f32) (r : Fin 800000) (j : Fin 128) :
    broadcastInDim S800000x128 ![0, 1] bcast_S1x128_S800000x128_0_1 (broadcastInDim S1x128 ![1] bcast_S128_S1x128_1 b) (ix2 r j)
      = vec2 b (ix2 (0 : Fin 1) j) := by
  rw [broadcastInDim_apply _ bcast_S1x128_S800000x128_0_1 _ (ix2 r j) (ix2 (0 : Fin 1) j) (fun a => match a with
    | ⟨0, _⟩ => by show 0 = if (1 : Nat) = 1 then 0 else r.val; rw [if_pos rfl]
    | ⟨1, _⟩ => by show j.val = if (128 : Nat) = 1 then 0 else j.val; rw [if_neg (by decide)])]
  exact biasRow_apply b j

/-- Two arrays of 128 columns joined along the columns read, at (r, q), the first at (r, q) when q is below 128 and the
    second at (r, q - 128) otherwise: the joined row of the two rows r. -/
theorem cat_apply (hr hc : FVec Ideal S800000x128 .f32) (r : Fin 800000) (q : Fin 256) :
    concatenate S800000x256 1 [⟨S800000x128, hr⟩, ⟨S800000x128, hc⟩] concatenates_S800000x128_S800000x128_S800000x256_d1 (ix2 r q)
      = catRow (rowAt (n := 800000) hr r) (rowAt (n := 800000) hc r) q := by
  unfold catRow
  by_cases h : q.val < 128
  · rw [dif_pos h]
    exact concatenate_pair_apply_left 1 hr hc concatenates_S800000x128_S800000x128_S800000x256_d1 (ix2 r q) rfl (ix2 r ⟨q.val, h⟩)
      (fun b => match b with | ⟨0, _⟩ => rfl | ⟨1, _⟩ => rfl)
  · rw [dif_neg h]
    exact concatenate_pair_apply_right 1 hr hc concatenates_S800000x128_S800000x128_S800000x256_d1 (ix2 r q) rfl rfl
      (ix2 r ⟨q.val - 128, by have := q.isLt; omega⟩)
      (fun b => match b with | ⟨0, _⟩ => fun _ => rfl | ⟨1, _⟩ => fun hb => absurd rfl hb)
      (by show q.val - 128 + 128 = q.val; omega)

/-- The contraction of an 800000 x 256 array with a 256 x 128 matrix, at the entry (r, k). -/
theorem dotMsg1_apply (C : FVec Ideal S800000x256 .f32) (W : FVec Ideal S256x128 .f32) (r : Fin 800000) (k : Fin 128) :
    Host.dotGeneral (F := Ideal) dot_S800000x256_S256x128_S800000x128_1_0_0_1_n_n none C W (ix2 r k)
      = ∑ q : Fin 256, C (ix2 r q) * W (ix2 q k) := by
  simp only [Host.dotGeneral]
  rw [Ideal.dotGeneral_apply, ← Equiv.sum_comp (contrEquiv1 dot_S800000x256_S256x128_S800000x128_1_0_0_1_n_n 256 rfl rfl).symm]
  refine Finset.sum_congr rfl fun q _ => ?_
  have hq := contrEquiv1_symm_val dot_S800000x256_S256x128_S800000x128_1_0_0_1_n_n 256 rfl rfl q
  have el : dot_S800000x256_S256x128_S800000x128_1_0_0_1_n_n.lhsIdx (ix2 r k) ((contrEquiv1 dot_S800000x256_S256x128_S800000x128_1_0_0_1_n_n 256 rfl rfl).symm q) = ix2 r q := funext fun a => Fin.ext (by
    match a with
    | ⟨0, _⟩ => exact ReadP.lhs_main_v27_0 _ _
    | ⟨1, _⟩ => exact (ReadP.lhs_main_v27_1 _ _).trans hq)
  have er : dot_S800000x256_S256x128_S800000x128_1_0_0_1_n_n.rhsIdx (ix2 r k) ((contrEquiv1 dot_S800000x256_S256x128_S800000x128_1_0_0_1_n_n 256 rfl rfl).symm q) = ix2 q k := funext fun a => Fin.ext (by
    match a with
    | ⟨0, _⟩ => exact (ReadP.rhs_main_v27_0 _ _).trans hq
    | ⟨1, _⟩ => exact ReadP.rhs_main_v27_1 _ _)
  rw [el, er]

/-- The contraction of an 800000 x 128 array with a 128 x 128 matrix, at the entry (r, j). -/
theorem dotMsg2_apply (H : FVec Ideal S800000x128 .f32) (W : FVec Ideal S128x128 .f32) (r : Fin 800000) (j : Fin 128) :
    Host.dotGeneral (F := Ideal) dot_S800000x128_S128x128_S800000x128_1_0_0_1_n_n none H W (ix2 r j)
      = ∑ k : Fin 128, H (ix2 r k) * W (ix2 k j) := by
  simp only [Host.dotGeneral]
  rw [Ideal.dotGeneral_apply, ← Equiv.sum_comp (contrEquiv1 dot_S800000x128_S128x128_S800000x128_1_0_0_1_n_n 128 rfl rfl).symm]
  refine Finset.sum_congr rfl fun k _ => ?_
  have hk := contrEquiv1_symm_val dot_S800000x128_S128x128_S800000x128_1_0_0_1_n_n 128 rfl rfl k
  have el : dot_S800000x128_S128x128_S800000x128_1_0_0_1_n_n.lhsIdx (ix2 r j) ((contrEquiv1 dot_S800000x128_S128x128_S800000x128_1_0_0_1_n_n 128 rfl rfl).symm k) = ix2 r k := funext fun a => Fin.ext (by
    match a with
    | ⟨0, _⟩ => exact ReadP.lhs_main_v37_0 _ _
    | ⟨1, _⟩ => exact (ReadP.lhs_main_v37_1 _ _).trans hk)
  have er : dot_S800000x128_S128x128_S800000x128_1_0_0_1_n_n.rhsIdx (ix2 r j) ((contrEquiv1 dot_S800000x128_S128x128_S800000x128_1_0_0_1_n_n 128 rfl rfl).symm k) = ix2 k j := funext fun a => Fin.ext (by
    match a with
    | ⟨0, _⟩ => exact (ReadP.rhs_main_v37_0 _ _).trans hk
    | ⟨1, _⟩ => exact ReadP.rhs_main_v37_1 _ _)
  rw [el, er]

/-- The zero array the positive part is taken against reads zero everywhere. -/
theorem reluZero_apply (i : S800000x128.Idx) : ReadP.val_main_call0_v0 (F := Ideal) i = 0 := by
  rw [ReadP.val_main_call0_v0_apply]
  show Ideal.ofBits .f32 0x00000000#32 = 0
  exact Ideal.ofBits_zero_f32

/-- the reference's message network over generic operands -/
def refMsg (hr hc : FVec Ideal S800000x128 .f32) (W1t : FVec Ideal S256x128 .f32) (b1 : FVec Ideal S128 .f32)
    (W2t : FVec Ideal S128x128 .f32) (b2 : FVec Ideal S128 .f32) : FVec Ideal S800000x128 .f32 :=
  addf
    (Host.dotGeneral (F := Ideal) dot_S800000x128_S128x128_S800000x128_1_0_0_1_n_n none
      (maximumf
        (addf
          (Host.dotGeneral (F := Ideal) dot_S800000x256_S256x128_S800000x128_1_0_0_1_n_n none
            (concatenate S800000x256 1 [⟨S800000x128, hr⟩, ⟨S800000x128, hc⟩] concatenates_S800000x128_S800000x128_S800000x256_d1)
            W1t)
          (broadcastInDim S800000x128 ![0, 1] bcast_S1x128_S800000x128_0_1 (broadcastInDim S1x128 ![1] bcast_S128_S1x128_1 b1)))
        (ReadP.val_main_call0_v0 (F := Ideal)))
      W2t)
    (broadcastInDim S800000x128 ![0, 1] bcast_S1x128_S800000x128_0_1 (broadcastInDim S1x128 ![1] bcast_S128_S1x128_1 b2))

theorem msg_math (hr hc : FVec Ideal S800000x128 .f32) (W1t : FVec Ideal S256x128 .f32) (b1 : FVec Ideal S128 .f32)
    (W2t : FVec Ideal S128x128 .f32) (b2 : FVec Ideal S128 .f32) :
    refMsg hr hc W1t b1 W2t b2 = Gmsg hr hc W1t (vec2 b1) W2t (vec2 b2) := by
  funext i
  obtain ⟨r, j, rfl⟩ : ∃ (r : Fin 800000) (j : Fin 128), i = ix2 r j := ⟨i 0, i 1, eq_ix2 i⟩
  rw [Gmsg_ix2]
  unfold refMsg msgRow
  rw [addf_apply, dotMsg2_apply, bias800000_apply]
  refine congrArg (· + vec2 b2 (ix2 (0 : Fin 1) j)) (Finset.sum_congr rfl fun k _ => ?_)
  rw [maximumf_apply, addf_apply, dotMsg1_apply, bias800000_apply, reluZero_apply]
  simp only [cat_apply]

theorem val42_eq (x0 : FVec Ideal S50000x128 .f32) (x1 : IVec S2x800000 32) (x2 : FVec Ideal S128x128 .f32) (x3 : FVec Ideal S128 .f32)
    (x4 : FVec Ideal S2x128x256 .f32) (x5 : FVec Ideal S2x128 .f32) (x6 : FVec Ideal S2x128x128 .f32) (x7 : FVec Ideal S2x128 .f32) :
    ReadP.val_main_v42 (F := Ideal) x0 x1 x2 x3 x4 x5 x6 x7
      = refMsg (ReadP.val_main_v15 (F := Ideal) x0 x1 x2 x3) (ReadP.val_main_v22 (F := Ideal) x0 x1 x2 x3) (ReadP.val_main_v26 (F := Ideal) x4)
          (ReadP.val_main_v29 (F := Ideal) x5) (ReadP.val_main_v36 (F := Ideal) x6) (ReadP.val_main_v39 (F := Ideal) x7) := rfl

theorem val118_eq (x0 : FVec Ideal S50000x128 .f32) (x1 : IVec S2x800000 32) (x2 : FVec Ideal S128x128 .f32) (x3 : FVec Ideal S128 .f32)
    (x4 : FVec Ideal S2x128x256 .f32) (x5 : FVec Ideal S2x128 .f32) (x6 : FVec Ideal S2x128x128 .f32) (x7 : FVec Ideal S2x128 .f32)
    (x8 : FVec Ideal S2x128x256 .f32) (x9 x10 x11 : FVec Ideal S2x128 .f32) :
    ReadP.val_main_v118 (F := Ideal) x0 x1 x2 x3 x4 x5 x6 x7 x8 x9 x10 x11
      = refMsg (ReadP.val_main_v91 (F := Ideal) x0 x1 x2 x3 x4 x5 x6 x7 x8 x9 x10 x11) (ReadP.val_main_v98 (F := Ideal) x0 x1 x2 x3 x4 x5 x6 x7 x8 x9 x10 x11)
          (ReadP.val_main_v102 (F := Ideal) x4) (ReadP.val_main_v105 (F := Ideal) x5) (ReadP.val_main_v112 (F := Ideal) x6) (ReadP.val_main_v115 (F := Ideal) x7) := rfl

end Cert.Bridge

end
-- ==== Proof.RefUpd.lean ====
/-
  The reference's node update, read index by index on the extended reals.

  One layer's update is a fixed chain of whole-array operations: the node rows and the aggregated messages are
  joined along the feature axis, multiplied by a 256 x 128 weight, a bias row is added, the node rows are added
  back (a residual), and the result is normalised row by row: the row mean is subtracted, the mean of the squared
  deviations gives the variance, and the deviations are scaled by the reciprocal square root of the variance plus a
  small offset, then by a gain row, and shifted by an offset row.  Here that chain is written once over arbitrary
  operands, each operation is read at an index (row r, feature j), and the value found there is the row
  specification's: every sum is a sum over the features of row r only.
-/
import proofs.«429507_j9285719294448_1_alg».proof.Proof.RefRead
import proofs.«429507_j9285719294448_1_alg».proof.Proof.Spec
import proofs.«429507_j9285719294448_1_alg».proof.Proof.KOps
import Idealize.ShloMosaic.PureOps.Ideal.Laws
import Idealize.ShloMosaic.Lib.ValueIdx
import Idealize.ShloMosaic.Lib.Pipeline.Value
import Idealize.ShloMosaic.Lib.ValueLayout

noncomputable section

open scoped BigOperators

namespace Cert.Bridge

open Idealize.ShloMosaic Idealize.ShloMosaic.TcCoe Idealize.ShloMosaic.ValueIdx Cert.ReferenceIdeal Cert.ReferenceIdeal.Gen

/-! ## Each operation of the chain at an index, over arbitrary operands -/

/-- Two arrays of 128 features joined along the feature axis: the first 128 features of a row come from the first
    array, the others from the second. -/
theorem catNode_apply (a b : FVec Ideal S50000x128 .f32) (r : Fin 50000) (q : Fin 256) :
    concatenate S50000x256 1 [⟨S50000x128, a⟩, ⟨S50000x128, b⟩] concatenates_S50000x128_S50000x128_S50000x256_d1 (ix2 r q)
      = catRow (rowAt (n := 50000) a r) (rowAt (n := 50000) b r) q := by
  unfold catRow
  by_cases hq : q.val < 128
  · rw [dif_pos hq]
    exact concatenate_pair_apply_left 1 a b concatenates_S50000x128_S50000x128_S50000x256_d1 (ix2 r q) rfl
      (ix2 r ⟨q.val, hq⟩) (fun c => match c with
        | ⟨0, _⟩ => rfl
        | ⟨1, _⟩ => rfl)
  · rw [dif_neg hq]
    exact concatenate_pair_apply_right 1 a b concatenates_S50000x128_S50000x128_S50000x256_d1 (ix2 r q) rfl rfl
      (ix2 r ⟨q.val - 128, by have := q.isLt; omega⟩) (fun c => match c with
        | ⟨0, _⟩ => fun _ => rfl
        | ⟨1, _⟩ => fun hc => absurd rfl hc)
      (by show (q.val - 128) + 128 = q.val; omega)

/-- The product with the 256 x 128 weight: entry (r, j) is the sum over the 256 joined features. -/
theorem dot256_apply (A : FVec Ideal S50000x256 .f32) (W : FVec Ideal S256x128 .f32) (r : Fin 50000) (j : Fin 128) :
    Host.dotGeneral (F := Ideal) dot_S50000x256_S256x128_S50000x128_1_0_0_1_n_n none A W (ix2 r j) = ∑ q : Fin 256, A (ix2 r q) * W (ix2 q j) := by
  simp only [Host.dotGeneral]
  rw [Ideal.dotGeneral_apply, ← Equiv.sum_comp (ValueIdx.contrEquiv1 dot_S50000x256_S256x128_S50000x128_1_0_0_1_n_n 256 rfl rfl).symm]
  refine Finset.sum_congr rfl fun k _ => ?_
  have hk := ValueIdx.contrEquiv1_symm_val dot_S50000x256_S256x128_S50000x128_1_0_0_1_n_n 256 rfl rfl k
  have el : dot_S50000x256_S256x128_S50000x128_1_0_0_1_n_n.lhsIdx (ix2 r j) ((ValueIdx.contrEquiv1 dot_S50000x256_S256x128_S50000x128_1_0_0_1_n_n 256 rfl rfl).symm k) = (ix2 r k : S50000x256.Idx) := funext fun a => Fin.ext (by
    match a with
    | ⟨0, _⟩ => exact ReadP.lhs_main_v50_0 _ _
    | ⟨1, _⟩ => exact (ReadP.lhs_main_v50_1 _ _).trans hk)
  have er : dot_S50000x256_S256x128_S50000x128_1_0_0_1_n_n.rhsIdx (ix2 r j) ((ValueIdx.contrEquiv1 dot_S50000x256_S256x128_S50000x128_1_0_0_1_n_n 256 rfl rfl).symm k) = (ix2 k j : S256x128.Idx) := funext fun a => Fin.ext (by
    match a with
    | ⟨0, _⟩ => exact (ReadP.rhs_main_v50_0 _ _).trans hk
    | ⟨1, _⟩ => exact ReadP.rhs_main_v50_1 _ _)
  rw [el, er]

/-- A vector of 128 as a 1 x 128 row, entry by entry. -/
theorem vec2_apply (b : FVec Ideal S128 .f32) (j : Fin 128) : vec2 b (ix2 0 j) = b (ix1 j) := by
  unfold vec2
  exact shapeCast_apply b _ (ix2 0 j) (ix1 j)
    (by rewrite [Shape.rowMajor_val_two, Shape.rowMajor_val_one]; show j.val = 0 * 128 + j.val; omega)

/-- A vector of 128 features spread over every row: entry (r, j) is feature j, the same as the 1 x 128 row's. -/
theorem bias_apply (b : FVec Ideal S128 .f32) (r : Fin 50000) (j : Fin 128) :
    broadcastInDim S50000x128 ![0, 1] bcast_S1x128_S50000x128_0_1 (broadcastInDim S1x128 ![1] bcast_S128_S1x128_1 b) (ix2 r j)
      = vec2 b (ix2 0 j) := by
  rw [vec2_apply]
  generalize hy : broadcastInDim S1x128 ![1] bcast_S128_S1x128_1 b = y
  have h1 : broadcastInDim S50000x128 ![0, 1] bcast_S1x128_S50000x128_0_1 y (ix2 r j) = y (ix2 0 j) :=
    broadcastInDim_apply _ bcast_S1x128_S50000x128_0_1 y (ix2 r j) (ix2 0 j) (fun a => match a with
      | ⟨0, _⟩ => by show 0 = if (1 : Nat) = 1 then 0 else r.val; rw [if_pos rfl]
      | ⟨1, _⟩ => by show j.val = if (128 : Nat) = 1 then 0 else j.val; rw [if_neg (by decide)])
  rw [h1, ← hy]
  exact broadcastInDim_apply _ bcast_S128_S1x128_1 b (ix2 0 j) (ix1 j) (fun a => match a with
    | ⟨0, _⟩ => by show j.val = if (128 : Nat) = 1 then 0 else j.val; rw [if_neg (by decide)])

/-- The sum of a row's 128 features, started from the zero word. -/
theorem rsum_apply (x : FVec Ideal S50000x128 .f32) (r : Fin 50000) :
    Host.reduceAdd (F := Ideal) x (constant (F := Ideal) S_ .f32 0x00000000#32) reducesTo_S50000x128_S50000_d1 h_S_ (ix1 r)
      = ∑ k : Fin 128, x (ix2 r k) := by
  simp only [Host.reduceAdd, Ideal.hostReduceAdd_def]
  rw [Ideal.hostReduceAdd_single reducesTo_S50000x128_S50000_d1 (by decide)]
  rw [constant_apply, Ideal.ofBits_zero_f32, zero_add]
  refine Finset.sum_congr rfl fun k _ => ?_
  exact congrArg x (funext fun a => Fin.ext (by match a with | ⟨0, _⟩ => rfl | ⟨1, _⟩ => rfl))

/-- A vector with one entry per row as a column. -/
theorem col_apply (v : FVec Ideal S50000 .f32) (r : Fin 50000) :
    broadcastInDim S50000x1 ![0] bcast_S50000_S50000x1_0 v (ix2 r 0) = v (ix1 r) :=
  broadcastInDim_apply _ bcast_S50000_S50000x1_0 v (ix2 r 0) (ix1 r) (fun a => match a with
    | ⟨0, _⟩ => by show r.val = if (50000 : Nat) = 1 then 0 else r.val; rw [if_neg (by decide)])

/-- A column spread over the 128 features of every row. -/
theorem spread_apply (c : FVec Ideal S50000x1 .f32) (r : Fin 50000) (j : Fin 128) :
    broadcastInDim S50000x128 ![0, 1] bcast_S50000x1_S50000x128_0_1 c (ix2 r j) = c (ix2 r 0) :=
  broadcastInDim_apply _ bcast_S50000x1_S50000x128_0_1 c (ix2 r j) (ix2 r 0) (fun a => match a with
    | ⟨0, _⟩ => by show r.val = if (50000 : Nat) = 1 then 0 else r.val; rw [if_neg (by decide)]
    | ⟨1, _⟩ => by show 0 = if (1 : Nat) = 1 then 0 else j.val; rw [if_pos rfl])

/-- A scalar word as a column: every entry is the number the word encodes. -/
theorem word_apply (w : BitVec 32) (r : Fin 50000) :
    broadcastInDim S50000x1 ![] bcast_S_S50000x1 (constant (F := Ideal) S_ .f32 w) (ix2 r 0) = Ideal.ofBits .f32 w :=
  broadcastInDim_apply _ bcast_S_S50000x1 (constant (F := Ideal) S_ .f32 w) (ix2 r 0) (fun a => a.elim0) (fun a => a.elim0)

/-! ## The chain -/

/-- The residual update before normalisation: the node rows plus (joined rows times the weight, plus the bias). -/
def refHH (h agg : FVec Ideal S50000x128 .f32) (Wut : FVec Ideal S256x128 .f32) (bu : FVec Ideal S128 .f32) :
    FVec Ideal S50000x128 .f32 :=
  addf h (addf
    (Host.dotGeneral dot_S50000x256_S256x128_S50000x128_1_0_0_1_n_n none
      (concatenate S50000x256 1 [⟨S50000x128, h⟩, ⟨S50000x128, agg⟩] concatenates_S50000x128_S50000x128_S50000x256_d1) Wut)
    (broadcastInDim S50000x128 ![0, 1] bcast_S1x128_S50000x128_0_1 (broadcastInDim S1x128 ![1] bcast_S128_S1x128_1 bu)))

/-- The column of row means: each row's sum divided by 128. -/
def refMean (hh : FVec Ideal S50000x128 .f32) : FVec Ideal S50000x1 .f32 :=
  Host.divf
    (broadcastInDim S50000x1 ![0] bcast_S50000_S50000x1_0
      (Host.reduceAdd hh (constant S_ .f32 0x00000000#32) reducesTo_S50000x128_S50000_d1 h_S_))
    (broadcastInDim S50000x1 ![] bcast_S_S50000x1 (constant S_ .f32 0x43000000#32))

/-- The deviations from the row means. -/
def refDev (hh : FVec Ideal S50000x128 .f32) : FVec Ideal S50000x128 .f32 :=
  subf hh (broadcastInDim S50000x128 ![0, 1] bcast_S50000x1_S50000x128_0_1 (refMean hh))

/-- The column of row variances: each row's sum of squared deviations divided by 128. -/
def refVar (hh : FVec Ideal S50000x128 .f32) : FVec Ideal S50000x1 .f32 :=
  Host.divf
    (broadcastInDim S50000x1 ![0] bcast_S50000_S50000x1_0
      (Host.reduceAdd (mulf (refDev hh) (refDev hh)) (constant S_ .f32 0x00000000#32) reducesTo_S50000x128_S50000_d1 h_S_))
    (broadcastInDim S50000x1 ![] bcast_S_S50000x1 (constant S_ .f32 0x43000000#32))

/-- Layer normalisation of every row, with gain `g` and offset `be`. -/
def refLN (hh : FVec Ideal S50000x128 .f32) (g be : FVec Ideal S128 .f32) : FVec Ideal S50000x128 .f32 :=
  addf
    (mulf
      (mulf (refDev hh)
        (broadcastInDim S50000x128 ![0, 1] bcast_S50000x1_S50000x128_0_1
          (Host.rsqrt (addf (refVar hh) (broadcastInDim S50000x1 ![] bcast_S_S50000x1 (constant S_ .f32 0x3727C5AC#32))))))
      (broadcastInDim S50000x128 ![0, 1] bcast_S1x128_S50000x128_0_1 (broadcastInDim S1x128 ![1] bcast_S128_S1x128_1 g)))
    (broadcastInDim S50000x128 ![0, 1] bcast_S1x128_S50000x128_0_1 (broadcastInDim S1x128 ![1] bcast_S128_S1x128_1 be))

/-- the reference's node update with layer normalisation over generic operands -/
def refUpd (h agg : FVec Ideal S50000x128 .f32) (Wut : FVec Ideal S256x128 .f32) (bu g be : FVec Ideal S128 .f32) :
    FVec Ideal S50000x128 .f32 :=
  refLN (refHH h agg Wut bu) g be

/-! ## The chain at an index -/

theorem refHH_apply (h agg : FVec Ideal S50000x128 .f32) (Wut : FVec Ideal S256x128 .f32) (bu : FVec Ideal S128 .f32)
    (r : Fin 50000) (j : Fin 128) :
    refHH h agg Wut bu (ix2 r j) = hhRow (rowAt (n := 50000) h r) (rowAt (n := 50000) agg r) Wut (vec2 bu) j := by
  unfold refHH hhRow
  rw [addf_apply, addf_apply, dot256_apply, bias_apply]
  simp only [catNode_apply]

theorem refMean_apply (hh : FVec Ideal S50000x128 .f32) (r : Fin 50000) :
    refMean hh (ix2 r 0) = Ideal.div (∑ k : Fin 128, hh (ix2 r k)) c128 := by
  unfold refMean
  show FloatOps.hostDivf _ _ = _
  rw [Ideal.hostDivf_def, col_apply, rsum_apply, word_apply]

theorem refDev_apply (hh : FVec Ideal S50000x128 .f32) (r : Fin 50000) (j : Fin 128) :
    refDev hh (ix2 r j) = hh (ix2 r j) - Ideal.div (∑ k : Fin 128, hh (ix2 r k)) c128 := by
  unfold refDev
  rw [subf_apply, spread_apply, refMean_apply]

theorem refVar_apply (hh : FVec Ideal S50000x128 .f32) (r : Fin 50000) :
    refVar hh (ix2 r 0) = Ideal.div (∑ k : Fin 128, (hh (ix2 r k) - Ideal.div (∑ k : Fin 128, hh (ix2 r k)) c128)
      * (hh (ix2 r k) - Ideal.div (∑ k : Fin 128, hh (ix2 r k)) c128)) c128 := by
  unfold refVar
  show FloatOps.hostDivf _ _ = _
  rw [Ideal.hostDivf_def, col_apply, rsum_apply, word_apply]
  simp only [mulf_apply, refDev_apply]

theorem refLN_apply (hh : FVec Ideal S50000x128 .f32) (g be : FVec Ideal S128 .f32) (r : Fin 50000) (j : Fin 128) :
    refLN hh g be (ix2 r j)
      = (hh (ix2 r j) - Ideal.div (∑ k : Fin 128, hh (ix2 r k)) c128)
          * Ideal.rsqrt (Ideal.div (∑ k : Fin 128, (hh (ix2 r k) - Ideal.div (∑ k : Fin 128, hh (ix2 r k)) c128)
              * (hh (ix2 r k) - Ideal.div (∑ k : Fin 128, hh (ix2 r k)) c128)) c128 + cEps)
          * vec2 g (ix2 0 j) + vec2 be (ix2 0 j) := by
  unfold refLN
  rw [addf_apply, mulf_apply, mulf_apply, bias_apply, bias_apply, refDev_apply, spread_apply]
  show _ * FloatOps.hostUnary .rsqrt _ * _ + _ = _
  rw [Ideal.hostUnary_rsqrt_def, addf_apply, refVar_apply, word_apply]

/-- The reference's update is the row specification applied to every row. -/
theorem upd_math (h agg : FVec Ideal S50000x128 .f32) (Wut : FVec Ideal S256x128 .f32) (bu g be : FVec Ideal S128 .f32) :
    refUpd h agg Wut bu g be = Gupd h agg Wut (vec2 bu) (vec2 g) (vec2 be) := by
  funext i
  obtain ⟨r, j, rfl⟩ : ∃ (r : Fin 50000) (j : Fin 128), i = ix2 r j := ⟨i 0, i 1, eq_ix2 i⟩
  rw [Gupd_ix2]
  unfold refUpd
  rw [refLN_apply]
  simp only [refHH_apply]
  rfl

/-! ## The reference's two layers are this chain -/

theorem val84_eq (x0 : FVec Ideal S50000x128 .f32) (x1 : IVec S2x800000 32) (x2 : FVec Ideal S128x128 .f32) (x3 : FVec Ideal S128 .f32)
    (x4 : FVec Ideal S2x128x256 .f32) (x5 : FVec Ideal S2x128 .f32) (x6 : FVec Ideal S2x128x128 .f32) (x7 : FVec Ideal S2x128 .f32)
    (x8 : FVec Ideal S2x128x256 .f32) (x9 x10 x11 : FVec Ideal S2x128 .f32) :
    ReadP.val_main_v84 (F := Ideal) x0 x1 x2 x3 x4 x5 x6 x7 x8 x9 x10 x11
      = refUpd (ReadP.val_main_v8 (F := Ideal) x0 x2 x3) (ReadP.val_main_v45 (F := Ideal) x0 x1 x2 x3 x4 x5 x6 x7) (ReadP.val_main_v49 (F := Ideal) x8)
          (ReadP.val_main_v52 (F := Ideal) x9) (ReadP.val_main_v58 (F := Ideal) x10) (ReadP.val_main_v60 (F := Ideal) x11) := rfl

theorem val160_eq (x0 : FVec Ideal S50000x128 .f32) (x1 : IVec S2x800000 32) (x2 : FVec Ideal S128x128 .f32) (x3 : FVec Ideal S128 .f32)
    (x4 : FVec Ideal S2x128x256 .f32) (x5 : FVec Ideal S2x128 .f32) (x6 : FVec Ideal S2x128x128 .f32) (x7 : FVec Ideal S2x128 .f32)
    (x8 : FVec Ideal S2x128x256 .f32) (x9 x10 x11 : FVec Ideal S2x128 .f32) :
    ReadP.val_main_v160 (F := Ideal) x0 x1 x2 x3 x4 x5 x6 x7 x8 x9 x10 x11
      = refUpd (ReadP.val_main_v84 (F := Ideal) x0 x1 x2 x3 x4 x5 x6 x7 x8 x9 x10 x11) (ReadP.val_main_v121 (F := Ideal) x0 x1 x2 x3 x4 x5 x6 x7 x8 x9 x10 x11)
          (ReadP.val_main_v125 (F := Ideal) x8) (ReadP.val_main_v128 (F := Ideal) x9) (ReadP.val_main_v134 (F := Ideal) x10) (ReadP.val_main_v136 (F := Ideal) x11) := rfl

end Cert.Bridge

end
-- ==== Proof.KVal.lean ====
/-
  The idealized kernel program's result array, followed through its six pallas_calls and the host operations between
  them, is the reference program's composed term of the arguments — under the precondition that every entry of
  `edge_index` is a node number.

  The chain, with `x_k` the argument arrays:
  * the first linear layer leaves `h0 = x0 · W_enc.T + b_enc`, the reference's `h`;
  * per layer, the kernel gathers `h[row]` and `h[col]` with `jnp.take` in fill mode, which on in-range indices is the
    reference's wrapped gather; the message network on the concatenated rows is the reference's two linear layers around
    the positive part; the messages are scatter-added at `col` by the same operation on both sides; the update network
    with its layer normalisation is the reference's chain of host operations, row by row;
  * the output projection is the last linear layer.
  Each link is: the region's exit array is what its pipeline leaves (the frame's fold), which is the kernel's whole-array
  function of the region's operands (the blocks tile the array), the operands are what the host operations before the
  region wrote, and that function of those operands is the reference's stage (index by index, the same sums).
-/
import proofs.«429507_j9285719294448_1_alg».proof.Proof.Gen.KernelIdeal.Frame
import proofs.«429507_j9285719294448_1_alg».proof.Proof.RefRead
import proofs.«429507_j9285719294448_1_alg».proof.Proof.Spec
import proofs.«429507_j9285719294448_1_alg».proof.Proof.KOps
import proofs.«429507_j9285719294448_1_alg».proof.Proof.KFin0
import proofs.«429507_j9285719294448_1_alg».proof.Proof.KFin1
import proofs.«429507_j9285719294448_1_alg».proof.Proof.KFin2
import proofs.«429507_j9285719294448_1_alg».proof.Proof.KFin3
import proofs.«429507_j9285719294448_1_alg».proof.Proof.KFin4
import proofs.«429507_j9285719294448_1_alg».proof.Proof.KFin5
import proofs.«429507_j9285719294448_1_alg».proof.Proof.KHostA
import proofs.«429507_j9285719294448_1_alg».proof.Proof.KHostB
import proofs.«429507_j9285719294448_1_alg».proof.Proof.Take
import proofs.«429507_j9285719294448_1_alg».proof.Proof.RefLinMsg
import proofs.«429507_j9285719294448_1_alg».proof.Proof.RefUpd

set_option maxRecDepth 16384

noncomputable section

/-! # The kernel program's result, stage by stage -/
namespace Cert.Bridge.K
open Cert.KernelIdeal Cert.KernelIdeal.Gen Idealize.ShloMosaic Idealize.ShloMosaic.TcCoe Idealize.SL.Sem Idealize.ShloMosaic.ValueIdx Cert.Bridge

theorem congr3' {α₁ α₂ α₃ β : Sort _} (f : α₁ → α₂ → α₃ → β) {a₁ a₁' : α₁} {a₂ a₂' : α₂} {a₃ a₃' : α₃}
    (h₁ : a₁ = a₁') (h₂ : a₂ = a₂') (h₃ : a₃ = a₃') : f a₁ a₂ a₃ = f a₁' a₂' a₃' := by subst h₁ h₂ h₃; rfl
theorem congr6' {α₁ α₂ α₃ α₄ α₅ α₆ β : Sort _} (f : α₁ → α₂ → α₃ → α₄ → α₅ → α₆ → β) {a₁ a₁' : α₁} {a₂ a₂' : α₂} {a₃ a₃' : α₃}
    {a₄ a₄' : α₄} {a₅ a₅' : α₅} {a₆ a₆' : α₆} (h₁ : a₁ = a₁') (h₂ : a₂ = a₂') (h₃ : a₃ = a₃') (h₄ : a₄ = a₄') (h₅ : a₅ = a₅') (h₆ : a₆ = a₆') :
    f a₁ a₂ a₃ a₄ a₅ a₆ = f a₁' a₂' a₃' a₄' a₅' a₆' := by subst h₁ h₂ h₃ h₄ h₅ h₆; rfl

section chain
variable (m : (ℓ : Loc nD τ sig) → Buf (Elt Ideal) ℓ) (ρ : Dev nD → PrngReg) (c : Dev nD)
variable (hrow : InR (rowK (m ((c.tc : Thread nD τ).loc main_arg1)))) (hcol : InR (colK (m ((c.tc : Thread nD τ).loc main_arg1))))

theorem ops0 : Glin (V1 m ρ c (Pipeline.arrRef spec0 0)) (V1 m ρ c (Pipeline.arrRef spec0 1)) (V1 m ρ c (Pipeline.arrRef spec0 2)) = Glin (m ((c.tc : Thread nD τ).loc main_arg0)) (matT (F := Ideal) (m ((c.tc : Thread nD τ).loc main_arg2))) (vec2 (F := Ideal) (m ((c.tc : Thread nD τ).loc main_arg3))) :=
  congr3' Glin (e0_0 m ρ c) (e0_1 m ρ c) (e0_2 m ρ c)

/-- After the first linear layer the node features are the reference's. -/
theorem H0_eq : W2 m ρ c (Proc.devRef .tc main_v6) = (Cert.ReferenceIdeal.ReadP.val_main_v8 (F := Ideal) (m ((c.tc : Thread nD τ).loc main_arg0)) (m ((c.tc : Thread nD τ).loc main_arg2)) (m ((c.tc : Thread nD τ).loc main_arg3))) :=
  calc W2 m ρ c (Proc.devRef .tc main_v6)
    _ = (dat0 (V1 m ρ) c).arrAt 3 cfg0.N := W2_arr m ρ c 3
    _ = Glin (V1 m ρ c (Pipeline.arrRef spec0 0)) (V1 m ρ c (Pipeline.arrRef spec0 1)) (V1 m ρ c (Pipeline.arrRef spec0 2)) := final0 (V1 m ρ) c
    _ = Glin (m ((c.tc : Thread nD τ).loc main_arg0)) (matT (F := Ideal) (m ((c.tc : Thread nD τ).loc main_arg2))) (vec2 (F := Ideal) (m ((c.tc : Thread nD τ).loc main_arg3))) := ops0 m ρ c
    _ = refLin (m ((c.tc : Thread nD τ).loc main_arg0)) (matT (F := Ideal) (m ((c.tc : Thread nD τ).loc main_arg2))) (m ((c.tc : Thread nD τ).loc main_arg3)) := (lin_math _ _ _).symm
    _ = (Cert.ReferenceIdeal.ReadP.val_main_v8 (F := Ideal) (m ((c.tc : Thread nD τ).loc main_arg0)) (m ((c.tc : Thread nD τ).loc main_arg2)) (m ((c.tc : Thread nD τ).loc main_arg3))) := (val8_eq _ _ _).symm

include hrow hcol in
theorem ops1 : Gmsg (V5 m ρ c (Pipeline.arrRef spec1 0)) (V5 m ρ c (Pipeline.arrRef spec1 1)) (V5 m ρ c (Pipeline.arrRef spec1 2)) (V5 m ρ c (Pipeline.arrRef spec1 3)) (V5 m ρ c (Pipeline.arrRef spec1 4)) (V5 m ρ c (Pipeline.arrRef spec1 5)) = Gmsg (gatherK (F := Ideal) (Cert.ReferenceIdeal.ReadP.val_main_v8 (F := Ideal) (m ((c.tc : Thread nD τ).loc main_arg0)) (m ((c.tc : Thread nD τ).loc main_arg2)) (m ((c.tc : Thread nD τ).loc main_arg3))) (rowK (m ((c.tc : Thread nD τ).loc main_arg1)))) (gatherK (F := Ideal) (Cert.ReferenceIdeal.ReadP.val_main_v8 (F := Ideal) (m ((c.tc : Thread nD τ).loc main_arg0)) (m ((c.tc : Thread nD τ).loc main_arg2)) (m ((c.tc : Thread nD τ).loc main_arg3))) (colK (m ((c.tc : Thread nD τ).loc main_arg1)))) (wide0 (F := Ideal) (m ((c.tc : Thread nD τ).loc main_arg4))) (vec2 (F := Ideal) (row0 (F := Ideal) (m ((c.tc : Thread nD τ).loc main_arg5)))) (sq0 (F := Ideal) (m ((c.tc : Thread nD τ).loc main_arg6))) (vec2 (F := Ideal) (row0 (F := Ideal) (m ((c.tc : Thread nD τ).loc main_arg7)))) :=
  congr6' Gmsg
          ((e1_0 m ρ c).trans ((take_eq _ _ hrow).trans (congrArg (fun h : FVec Ideal S50000x128 .f32 => gatherK (F := Ideal) h (rowK (m ((c.tc : Thread nD τ).loc main_arg1)))) (H0_eq m ρ c))))
          ((e1_1 m ρ c).trans ((take_eq _ _ hcol).trans (congrArg (fun h : FVec Ideal S50000x128 .f32 => gatherK (F := Ideal) h (colK (m ((c.tc : Thread nD τ).loc main_arg1)))) (H0_eq m ρ c))))
          (e1_2 m ρ c) (e1_3 m ρ c) (e1_4 m ρ c) (e1_5 m ρ c)

include hrow hcol in
/-- Layer 0's edge messages are the reference's. -/
theorem M0_eq : W6 m ρ c (Proc.devRef .tc main_v21) = (Cert.ReferenceIdeal.ReadP.val_main_v42 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7))) :=
  calc W6 m ρ c (Proc.devRef .tc main_v21)
    _ = (dat1 (V5 m ρ) c).arrAt 6 cfg1.N := W6_arr m ρ c 6
    _ = Gmsg (V5 m ρ c (Pipeline.arrRef spec1 0)) (V5 m ρ c (Pipeline.arrRef spec1 1)) (V5 m ρ c (Pipeline.arrRef spec1 2)) (V5 m ρ c (Pipeline.arrRef spec1 3)) (V5 m ρ c (Pipeline.arrRef spec1 4)) (V5 m ρ c (Pipeline.arrRef spec1 5)) := final1 (V5 m ρ) c
    _ = Gmsg (gatherK (F := Ideal) (Cert.ReferenceIdeal.ReadP.val_main_v8 (F := Ideal) (m ((c.tc : Thread nD τ).loc main_arg0)) (m ((c.tc : Thread nD τ).loc main_arg2)) (m ((c.tc : Thread nD τ).loc main_arg3))) (rowK (m ((c.tc : Thread nD τ).loc main_arg1)))) (gatherK (F := Ideal) (Cert.ReferenceIdeal.ReadP.val_main_v8 (F := Ideal) (m ((c.tc : Thread nD τ).loc main_arg0)) (m ((c.tc : Thread nD τ).loc main_arg2)) (m ((c.tc : Thread nD τ).loc main_arg3))) (colK (m ((c.tc : Thread nD τ).loc main_arg1)))) (wide0 (F := Ideal) (m ((c.tc : Thread nD τ).loc main_arg4))) (vec2 (F := Ideal) (row0 (F := Ideal) (m ((c.tc : Thread nD τ).loc main_arg5)))) (sq0 (F := Ideal) (m ((c.tc : Thread nD τ).loc main_arg6))) (vec2 (F := Ideal) (row0 (F := Ideal) (m ((c.tc : Thread nD τ).loc main_arg7)))) := ops1 m ρ c hrow hcol
    _ = refMsg (gatherK (F := Ideal) (Cert.ReferenceIdeal.ReadP.val_main_v8 (F := Ideal) (m ((c.tc : Thread nD τ).loc main_arg0)) (m ((c.tc : Thread nD τ).loc main_arg2)) (m ((c.tc : Thread nD τ).loc main_arg3))) (rowK (m ((c.tc : Thread nD τ).loc main_arg1)))) (gatherK (F := Ideal) (Cert.ReferenceIdeal.ReadP.val_main_v8 (F := Ideal) (m ((c.tc : Thread nD τ).loc main_arg0)) (m ((c.tc : Thread nD τ).loc main_arg2)) (m ((c.tc : Thread nD τ).loc main_arg3))) (colK (m ((c.tc : Thread nD τ).loc main_arg1)))) (wide0 (F := Ideal) (m ((c.tc : Thread nD τ).loc main_arg4))) (row0 (F := Ideal) (m ((c.tc : Thread nD τ).loc main_arg5))) (sq0 (F := Ideal) (m ((c.tc : Thread nD τ).loc main_arg6))) (row0 (F := Ideal) (m ((c.tc : Thread nD τ).loc main_arg7))) := (msg_math _ _ _ _ _ _).symm
    _ = (Cert.ReferenceIdeal.ReadP.val_main_v42 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7))) := (val42_eq _ _ _ _ _ _ _ _).symm

include hrow hcol in
theorem ops2 : Gupd (V7 m ρ c (Pipeline.arrRef spec2 0)) (V7 m ρ c (Pipeline.arrRef spec2 1)) (V7 m ρ c (Pipeline.arrRef spec2 2)) (V7 m ρ c (Pipeline.arrRef spec2 3)) (V7 m ρ c (Pipeline.arrRef spec2 4)) (V7 m ρ c (Pipeline.arrRef spec2 5)) = Gupd (Cert.ReferenceIdeal.ReadP.val_main_v8 (F := Ideal) (m ((c.tc : Thread nD τ).loc main_arg0)) (m ((c.tc : Thread nD τ).loc main_arg2)) (m ((c.tc : Thread nD τ).loc main_arg3))) (scatK (F := Ideal) (colK (m ((c.tc : Thread nD τ).loc main_arg1))) (Cert.ReferenceIdeal.ReadP.val_main_v42 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)))) (wide0 (F := Ideal) (m ((c.tc : Thread nD τ).loc main_arg8))) (vec2 (F := Ideal) (row0 (F := Ideal) (m ((c.tc : Thread nD τ).loc main_arg9)))) (vec2 (F := Ideal) (row0 (F := Ideal) (m ((c.tc : Thread nD τ).loc main_arg10)))) (vec2 (F := Ideal) (row0 (F := Ideal) (m ((c.tc : Thread nD τ).loc main_arg11)))) :=
  congr6' Gupd ((e2_0 m ρ c).trans (H0_eq m ρ c)) ((e2_1 m ρ c).trans (congrArg (scatK (F := Ideal) (colK (m ((c.tc : Thread nD τ).loc main_arg1)))) (M0_eq m ρ c hrow hcol)))
          (e2_2 m ρ c) (e2_3 m ρ c) (e2_4 m ρ c) (e2_5 m ρ c)

include hrow hcol in
/-- Layer 0's node update is the reference's: the aggregated messages are the scatter-add of the same messages at the
    same destinations, and the update network with its normalisation is the same row function. -/
theorem H1_eq : W8 m ρ c (Proc.devRef .tc main_v37) = (Cert.ReferenceIdeal.ReadP.val_main_v84 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11))) :=
  calc W8 m ρ c (Proc.devRef .tc main_v37)
    _ = (dat2 (V7 m ρ) c).arrAt 6 cfg2.N := W8_arr m ρ c 6
    _ = Gupd (V7 m ρ c (Pipeline.arrRef spec2 0)) (V7 m ρ c (Pipeline.arrRef spec2 1)) (V7 m ρ c (Pipeline.arrRef spec2 2)) (V7 m ρ c (Pipeline.arrRef spec2 3)) (V7 m ρ c (Pipeline.arrRef spec2 4)) (V7 m ρ c (Pipeline.arrRef spec2 5)) := final2 (V7 m ρ) c
    _ = Gupd (Cert.ReferenceIdeal.ReadP.val_main_v8 (F := Ideal) (m ((c.tc : Thread nD τ).loc main_arg0)) (m ((c.tc : Thread nD τ).loc main_arg2)) (m ((c.tc : Thread nD τ).loc main_arg3))) (scatK (F := Ideal) (colK (m ((c.tc : Thread nD τ).loc main_arg1))) (Cert.ReferenceIdeal.ReadP.val_main_v42 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)))) (wide0 (F := Ideal) (m ((c.tc : Thread nD τ).loc main_arg8))) (vec2 (F := Ideal) (row0 (F := Ideal) (m ((c.tc : Thread nD τ).loc main_arg9)))) (vec2 (F := Ideal) (row0 (F := Ideal) (m ((c.tc : Thread nD τ).loc main_arg10)))) (vec2 (F := Ideal) (row0 (F := Ideal) (m ((c.tc : Thread nD τ).loc main_arg11)))) := ops2 m ρ c hrow hcol
    _ = refUpd (Cert.ReferenceIdeal.ReadP.val_main_v8 (F := Ideal) (m ((c.tc : Thread nD τ).loc main_arg0)) (m ((c.tc : Thread nD τ).loc main_arg2)) (m ((c.tc : Thread nD τ).loc main_arg3))) (scatK (F := Ideal) (colK (m ((c.tc : Thread nD τ).loc main_arg1))) (Cert.ReferenceIdeal.ReadP.val_main_v42 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)))) (wide0 (F := Ideal) (m ((c.tc : Thread nD τ).loc main_arg8))) (row0 (F := Ideal) (m ((c.tc : Thread nD τ).loc main_arg9))) (row0 (F := Ideal) (m ((c.tc : Thread nD τ).loc main_arg10))) (row0 (F := Ideal) (m ((c.tc : Thread nD τ).loc main_arg11))) := (upd_math _ _ _ _ _ _).symm
    _ = (Cert.ReferenceIdeal.ReadP.val_main_v84 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11))) := (val84_eq _ _ _ _ _ _ _ _ _ _ _ _).symm

include hrow hcol in
theorem ops3 : Gmsg (V11 m ρ c (Pipeline.arrRef spec3 0)) (V11 m ρ c (Pipeline.arrRef spec3 1)) (V11 m ρ c (Pipeline.arrRef spec3 2)) (V11 m ρ c (Pipeline.arrRef spec3 3)) (V11 m ρ c (Pipeline.arrRef spec3 4)) (V11 m ρ c (Pipeline.arrRef spec3 5)) = Gmsg (gatherK (F := Ideal) (Cert.ReferenceIdeal.ReadP.val_main_v84 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11))) (rowK (m ((c.tc : Thread nD τ).loc main_arg1)))) (gatherK (F := Ideal) (Cert.ReferenceIdeal.ReadP.val_main_v84 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11))) (colK (m ((c.tc : Thread nD τ).loc main_arg1)))) (wide1 (F := Ideal) (m ((c.tc : Thread nD τ).loc main_arg4))) (vec2 (F := Ideal) (row1 (F := Ideal) (m ((c.tc : Thread nD τ).loc main_arg5)))) (sq1 (F := Ideal) (m ((c.tc : Thread nD τ).loc main_arg6))) (vec2 (F := Ideal) (row1 (F := Ideal) (m ((c.tc : Thread nD τ).loc main_arg7)))) :=
  congr6' Gmsg
          ((e3_0 m ρ c).trans ((take_eq _ _ hrow).trans (congrArg (fun h : FVec Ideal S50000x128 .f32 => gatherK (F := Ideal) h (rowK (m ((c.tc : Thread nD τ).loc main_arg1)))) (H1_eq m ρ c hrow hcol))))
          ((e3_1 m ρ c).trans ((take_eq _ _ hcol).trans (congrArg (fun h : FVec Ideal S50000x128 .f32 => gatherK (F := Ideal) h (colK (m ((c.tc : Thread nD τ).loc main_arg1)))) (H1_eq m ρ c hrow hcol))))
          (e3_2 m ρ c) (e3_3 m ρ c) (e3_4 m ρ c) (e3_5 m ρ c)

include hrow hcol in
/-- Layer 1's edge messages. -/
theorem M1_eq : W12 m ρ c (Proc.devRef .tc main_v52) = (Cert.ReferenceIdeal.ReadP.val_main_v118 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11))) :=
  calc W12 m ρ c (Proc.devRef .tc main_v52)
    _ = (dat3 (V11 m ρ) c).arrAt 6 cfg3.N := W12_arr m ρ c 6
    _ = Gmsg (V11 m ρ c (Pipeline.arrRef spec3 0)) (V11 m ρ c (Pipeline.arrRef spec3 1)) (V11 m ρ c (Pipeline.arrRef spec3 2)) (V11 m ρ c (Pipeline.arrRef spec3 3)) (V11 m ρ c (Pipeline.arrRef spec3 4)) (V11 m ρ c (Pipeline.arrRef spec3 5)) := final3 (V11 m ρ) c
    _ = Gmsg (gatherK (F := Ideal) (Cert.ReferenceIdeal.ReadP.val_main_v84 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11))) (rowK (m ((c.tc : Thread nD τ).loc main_arg1)))) (gatherK (F := Ideal) (Cert.ReferenceIdeal.ReadP.val_main_v84 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11))) (colK (m ((c.tc : Thread nD τ).loc main_arg1)))) (wide1 (F := Ideal) (m ((c.tc : Thread nD τ).loc main_arg4))) (vec2 (F := Ideal) (row1 (F := Ideal) (m ((c.tc : Thread nD τ).loc main_arg5)))) (sq1 (F := Ideal) (m ((c.tc : Thread nD τ).loc main_arg6))) (vec2 (F := Ideal) (row1 (F := Ideal) (m ((c.tc : Thread nD τ).loc main_arg7)))) := ops3 m ρ c hrow hcol
    _ = refMsg (gatherK (F := Ideal) (Cert.ReferenceIdeal.ReadP.val_main_v84 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11))) (rowK (m ((c.tc : Thread nD τ).loc main_arg1)))) (gatherK (F := Ideal) (Cert.ReferenceIdeal.ReadP.val_main_v84 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11))) (colK (m ((c.tc : Thread nD τ).loc main_arg1)))) (wide1 (F := Ideal) (m ((c.tc : Thread nD τ).loc main_arg4))) (row1 (F := Ideal) (m ((c.tc : Thread nD τ).loc main_arg5))) (sq1 (F := Ideal) (m ((c.tc : Thread nD τ).loc main_arg6))) (row1 (F := Ideal) (m ((c.tc : Thread nD τ).loc main_arg7))) := (msg_math _ _ _ _ _ _).symm
    _ = (Cert.ReferenceIdeal.ReadP.val_main_v118 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11))) := (val118_eq _ _ _ _ _ _ _ _ _ _ _ _).symm

include hrow hcol in
theorem ops4 : Gupd (V13 m ρ c (Pipeline.arrRef spec4 0)) (V13 m ρ c (Pipeline.arrRef spec4 1)) (V13 m ρ c (Pipeline.arrRef spec4 2)) (V13 m ρ c (Pipeline.arrRef spec4 3)) (V13 m ρ c (Pipeline.arrRef spec4 4)) (V13 m ρ c (Pipeline.arrRef spec4 5)) = Gupd (Cert.ReferenceIdeal.ReadP.val_main_v84 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11))) (scatK (F := Ideal) (colK (m ((c.tc : Thread nD τ).loc main_arg1))) (Cert.ReferenceIdeal.ReadP.val_main_v118 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)))) (wide1 (F := Ideal) (m ((c.tc : Thread nD τ).loc main_arg8))) (vec2 (F := Ideal) (row1 (F := Ideal) (m ((c.tc : Thread nD τ).loc main_arg9)))) (vec2 (F := Ideal) (row1 (F := Ideal) (m ((c.tc : Thread nD τ).loc main_arg10)))) (vec2 (F := Ideal) (row1 (F := Ideal) (m ((c.tc : Thread nD τ).loc main_arg11)))) :=
  congr6' Gupd ((e4_0 m ρ c).trans (H1_eq m ρ c hrow hcol)) ((e4_1 m ρ c).trans (congrArg (scatK (F := Ideal) (colK (m ((c.tc : Thread nD τ).loc main_arg1)))) (M1_eq m ρ c hrow hcol)))
          (e4_2 m ρ c) (e4_3 m ρ c) (e4_4 m ρ c) (e4_5 m ρ c)

include hrow hcol in
/-- Layer 1's node update. -/
theorem H2_eq : W14 m ρ c (Proc.devRef .tc main_v68) = (Cert.ReferenceIdeal.ReadP.val_main_v160 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11))) :=
  calc W14 m ρ c (Proc.devRef .tc main_v68)
    _ = (dat4 (V13 m ρ) c).arrAt 6 cfg4.N := W14_arr m ρ c 6
    _ = Gupd (V13 m ρ c (Pipeline.arrRef spec4 0)) (V13 m ρ c (Pipeline.arrRef spec4 1)) (V13 m ρ c (Pipeline.arrRef spec4 2)) (V13 m ρ c (Pipeline.arrRef spec4 3)) (V13 m ρ c (Pipeline.arrRef spec4 4)) (V13 m ρ c (Pipeline.arrRef spec4 5)) := final4 (V13 m ρ) c
    _ = Gupd (Cert.ReferenceIdeal.ReadP.val_main_v84 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11))) (scatK (F := Ideal) (colK (m ((c.tc : Thread nD τ).loc main_arg1))) (Cert.ReferenceIdeal.ReadP.val_main_v118 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)))) (wide1 (F := Ideal) (m ((c.tc : Thread nD τ).loc main_arg8))) (vec2 (F := Ideal) (row1 (F := Ideal) (m ((c.tc : Thread nD τ).loc main_arg9)))) (vec2 (F := Ideal) (row1 (F := Ideal) (m ((c.tc : Thread nD τ).loc main_arg10)))) (vec2 (F := Ideal) (row1 (F := Ideal) (m ((c.tc : Thread nD τ).loc main_arg11)))) := ops4 m ρ c hrow hcol
    _ = refUpd (Cert.ReferenceIdeal.ReadP.val_main_v84 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11))) (scatK (F := Ideal) (colK (m ((c.tc : Thread nD τ).loc main_arg1))) (Cert.ReferenceIdeal.ReadP.val_main_v118 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)))) (wide1 (F := Ideal) (m ((c.tc : Thread nD τ).loc main_arg8))) (row1 (F := Ideal) (m ((c.tc : Thread nD τ).loc main_arg9))) (row1 (F := Ideal) (m ((c.tc : Thread nD τ).loc main_arg10))) (row1 (F := Ideal) (m ((c.tc : Thread nD τ).loc main_arg11))) := (upd_math _ _ _ _ _ _).symm
    _ = (Cert.ReferenceIdeal.ReadP.val_main_v160 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11))) := (val160_eq _ _ _ _ _ _ _ _ _ _ _ _).symm

include hrow hcol in
theorem ops5 : Glin (V15 m ρ c (Pipeline.arrRef spec5 0)) (V15 m ρ c (Pipeline.arrRef spec5 1)) (V15 m ρ c (Pipeline.arrRef spec5 2)) = Glin (Cert.ReferenceIdeal.ReadP.val_main_v160 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11))) (matT (F := Ideal) (m ((c.tc : Thread nD τ).loc main_arg12))) (vec2 (F := Ideal) (m ((c.tc : Thread nD τ).loc main_arg13))) :=
  congr3' Glin ((e5_0 m ρ c).trans (H2_eq m ρ c hrow hcol)) (e5_1 m ρ c) (e5_2 m ρ c)

include hrow hcol in
/-- The output projection: the program's result array is the reference's composed term of the arguments. -/
theorem out_eq : W16 m ρ c (Proc.devRef .tc main_v71) = (Cert.ReferenceIdeal.ReadP.val_main_v165 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13))) :=
  calc W16 m ρ c (Proc.devRef .tc main_v71)
    _ = (dat5 (V15 m ρ) c).arrAt 3 cfg5.N := W16_arr m ρ c 3
    _ = Glin (V15 m ρ c (Pipeline.arrRef spec5 0)) (V15 m ρ c (Pipeline.arrRef spec5 1)) (V15 m ρ c (Pipeline.arrRef spec5 2)) := final5 (V15 m ρ) c
    _ = Glin (Cert.ReferenceIdeal.ReadP.val_main_v160 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11))) (matT (F := Ideal) (m ((c.tc : Thread nD τ).loc main_arg12))) (vec2 (F := Ideal) (m ((c.tc : Thread nD τ).loc main_arg13))) := ops5 m ρ c hrow hcol
    _ = refLin (Cert.ReferenceIdeal.ReadP.val_main_v160 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11))) (matT (F := Ideal) (m ((c.tc : Thread nD τ).loc main_arg12))) (m ((c.tc : Thread nD τ).loc main_arg13)) := (lin_math _ _ _).symm
    _ = (Cert.ReferenceIdeal.ReadP.val_main_v165 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13))) := (val165_eq _ _ _ _ _ _ _ _ _ _ _ _ _ _).symm

end chain
end Cert.Bridge.K

end
-- ==== Proof.PreIdx.lean ====
/-
  The precondition's last two conjuncts say that every entry of the edge array, read as a signed word, is at least 0
  and below 50000. Each is an "all" over the whole 2 x 800000 array of one comparison against a broadcast constant, and
  the two sit outermost in the precondition's chain of "and"s, so splitting that chain twice reaches them. Both index rows
  are cut out of the edge array by a slice and a reshape, which only re-index: each entry of a row is some entry of
  the array, so the bound on all entries of the array gives the bound on both rows.
-/
import proofs.«429507_j9285719294448_1_alg».proof.Proof.KOps
import proofs.«429507_j9285719294448_1_alg».proof.Proof.Gen.Pre_finite_inputs
import proofs.«429507_j9285719294448_1_alg».proof.Defs
import Idealize.ShloMosaic.Lib.ValueIdx
import Idealize.ShloMosaic.Lib.Affine
import Idealize.ShloMosaic.Lib.ReduceAll

namespace Cert.Bridge

open Idealize.ShloMosaic Idealize.ShloMosaic.TcCoe

/-- The scalar shape has a single index. -/
instance : Subsingleton Cert.Pre_finite_inputs.S_.Idx := ⟨fun a b => funext fun d => d.elim0⟩

/-- When the precondition's function is all ones, every entry of its second argument lies in [0, 50000). -/
theorem fn_entries {F : FTy → Type} [FloatOps F]
    (a0 : FVec F Cert.Pre_finite_inputs.S50000x128 .f32) (a1 : IVec Cert.Pre_finite_inputs.S2x800000 32)
    (a2 : FVec F Cert.Pre_finite_inputs.S128x128 .f32) (a3 : FVec F Cert.Pre_finite_inputs.S128 .f32)
    (a4 : FVec F Cert.Pre_finite_inputs.S2x128x256 .f32) (a5 : FVec F Cert.Pre_finite_inputs.S2x128 .f32)
    (a6 : FVec F Cert.Pre_finite_inputs.S2x128x128 .f32) (a7 : FVec F Cert.Pre_finite_inputs.S2x128 .f32)
    (a8 : FVec F Cert.Pre_finite_inputs.S2x128x256 .f32) (a9 : FVec F Cert.Pre_finite_inputs.S2x128 .f32)
    (a10 : FVec F Cert.Pre_finite_inputs.S2x128 .f32) (a11 : FVec F Cert.Pre_finite_inputs.S2x128 .f32)
    (a12 : FVec F Cert.Pre_finite_inputs.S128x128 .f32) (a13 : FVec F Cert.Pre_finite_inputs.S128 .f32)
    (h : Cert.Pre_finite_inputs.fn (F := F) a0 a1 a2 a3 a4 a5 a6 a7 a8 a9 a10 a11 a12 a13 = fun _ => 1#1)
    (i : Cert.Pre_finite_inputs.S2x800000.Idx) : 0 ≤ (a1 i).toInt ∧ (a1 i).toInt < 50000 := by
  have h0 := congrFun h ValueIdx.ix0
  dsimp only [Cert.Pre_finite_inputs.fn, Cert.Pre_finite_inputs.fn_part1, Cert.Pre_finite_inputs.fn_part2,
    Cert.Pre_finite_inputs.fn_part3, Cert.Pre_finite_inputs.fn_part4] at h0
  obtain ⟨h1, hlt⟩ := IntOp.andi_eq_one.1 h0
  obtain ⟨_, hge⟩ := IntOp.andi_eq_one.1 h1
  have hge' : IntOp.cmpi .sge (a1 i) 0#32 = 1#1 := Host.reduce_andi_all _ _ _ _ _ hge i
  have hlt' : IntOp.cmpi .slt (a1 i) 50000#32 = 1#1 := Host.reduce_andi_all _ _ _ _ _ hlt i
  have e0 : (0#32 : BitVec 32).toInt = 0 := by decide
  have e1 : (50000#32 : BitVec 32).toInt = 50000 := by decide
  have g := IntOp.cmpi_sge.1 hge'
  have l := IntOp.cmpi_slt.1 hlt'
  omega

/-- Each entry of the first index row is an entry of the edge array. -/
theorem rowK_mem (ei : IVec Cert.KernelIdeal.S2x800000 32) (e : Cert.KernelIdeal.S800000.Idx) : ∃ i, rowK ei e = ei i := by
  unfold rowK shapeCast extractStridedSlice
  exact ⟨_, rfl⟩

/-- Each entry of the second index row is an entry of the edge array. -/
theorem colK_mem (ei : IVec Cert.KernelIdeal.S2x800000 32) (e : Cert.KernelIdeal.S800000.Idx) : ∃ i, colK ei e = ei i := by
  unfold colK shapeCast extractStridedSlice
  exact ⟨_, rfl⟩

/-- Under the precondition both index rows stay inside the node range, on every device. -/
theorem pre_inr (m : (ℓ : Loc Cert.KernelIdeal.nD Cert.KernelIdeal.τ Cert.KernelIdeal.sig) → Buf (Elt Ideal) ℓ)
    (hpre : Cert.Pre_KernelIdeal m) (c : Dev Cert.KernelIdeal.nD) :
    InR (rowK (m ((c.tc : Thread Cert.KernelIdeal.nD Cert.KernelIdeal.τ).loc Cert.KernelIdeal.main_arg1)))
      ∧ InR (colK (m ((c.tc : Thread Cert.KernelIdeal.nD Cert.KernelIdeal.τ).loc Cert.KernelIdeal.main_arg1))) := by
  have hall := fn_entries _ _ _ _ _ _ _ _ _ _ _ _ _ _ (hpre c)
  unfold InR
  refine ⟨fun e => ?_, fun e => ?_⟩
  · obtain ⟨i, hi⟩ := rowK_mem (m ((c.tc : Thread Cert.KernelIdeal.nD Cert.KernelIdeal.τ).loc Cert.KernelIdeal.main_arg1)) e
    rw [hi]
    exact hall i
  · obtain ⟨i, hi⟩ := colK_mem (m ((c.tc : Thread Cert.KernelIdeal.nD Cert.KernelIdeal.τ).loc Cert.KernelIdeal.main_arg1)) e
    rw [hi]
    exact hall i

end Cert.Bridge
-- ==== Proof.RefRun.lean ====
/-
  The run of the reference program, read back stage by stage.

  The reference's @main is a straight line of 190 tensor operations. The value of each operation, as a function of
  the fourteen arguments, is a stage: the operation applied to the stages of its operands. The line is cut into
  fourteen stretches, at the values that are read more than once and before each concatenation. The first stretch
  ends with the two reshaped rows of the second argument and the first sum (values 1, 3 and 8). The same six cuts
  then fall twice (over values 9 to 84, and again over values 85 to 160): after each of the two gathers, after the
  scatter-add, after the sum that follows the second concatenation, after the quotient of a sum-reduction by a
  broadcast constant (kept together with two reshaped argument rows that the next stretch reads), and after the
  last sum. The last stretch is the closing matrix product and sum (value 165).

  At each cut an invariant states what the buffers still read later hold — each its stage — and that every
  argument is as given. A stretch carries one cut's invariant to the next: a buffer it does not write keeps its
  contents, and a buffer it writes holds the composite of the stretch's operations over the stretch's inputs,
  which is its stage by unfolding the stages of that stretch alone. The fourteen steps composed give the result
  buffer at its last stage and the arguments unchanged; the composite of the whole line is never formed.
-/
import proofs.«429507_j9285719294448_1_alg».proof.Proof.RefOps
import proofs.«429507_j9285719294448_1_alg».proof.Proof.RefRead

noncomputable section

namespace Cert.Bridge.R

open Cert.ReferenceIdeal Cert.ReferenceIdeal.Gen Idealize.ShloMosaic Idealize.ShloMosaic.TcCoe Idealize.SL.Sem Idealize.ShloMosaic.StableHlo

variable {F : FTy → Type} [FloatOps F]

/-- An operation whose only written buffer is `y`, with `y` in the list `W`: what it writes lies in `W`. -/
theorem writes_sub_of {W : List (Ref sig .tc)} {op : HloOp τ sig (Elt F)} (y : Ref sig .tc)
    (hw : op.writes = {Proc.devRef .tc y}) (hy : y ∈ W) :
    op.writes ⊆ (W.map (Proc.devRef (τ := τ) .tc)).toFinset := by
  rw [hw, Finset.singleton_subset_iff, List.mem_toFinset]
  exact List.mem_map.2 ⟨y, hy, rfl⟩

/-- What the buffers hold at cut 0: every argument as given, and each value still read later at its stage. -/
def Inv0 (V : Valuation τ sig (Elt F)) (x0 : (⟨S50000x128, .f32⟩ : BufTy).Contents (Elt F)) (x1 : (⟨S2x800000, .i32⟩ : BufTy).Contents (Elt F)) (x2 : (⟨S128x128, .f32⟩ : BufTy).Contents (Elt F)) (x3 : (⟨S128, .f32⟩ : BufTy).Contents (Elt F)) (x4 : (⟨S2x128x256, .f32⟩ : BufTy).Contents (Elt F)) (x5 : (⟨S2x128, .f32⟩ : BufTy).Contents (Elt F)) (x6 : (⟨S2x128x128, .f32⟩ : BufTy).Contents (Elt F)) (x7 : (⟨S2x128, .f32⟩ : BufTy).Contents (Elt F)) (x8 : (⟨S2x128x256, .f32⟩ : BufTy).Contents (Elt F)) (x9 : (⟨S2x128, .f32⟩ : BufTy).Contents (Elt F)) (x10 : (⟨S2x128, .f32⟩ : BufTy).Contents (Elt F)) (x11 : (⟨S2x128, .f32⟩ : BufTy).Contents (Elt F)) (x12 : (⟨S128x128, .f32⟩ : BufTy).Contents (Elt F)) (x13 : (⟨S128, .f32⟩ : BufTy).Contents (Elt F)) : Prop :=
  V (Proc.devRef (τ := τ) .tc main_arg0) = x0 ∧
  V (Proc.devRef (τ := τ) .tc main_arg1) = x1 ∧
  V (Proc.devRef (τ := τ) .tc main_arg2) = x2 ∧
  V (Proc.devRef (τ := τ) .tc main_arg3) = x3 ∧
  V (Proc.devRef (τ := τ) .tc main_arg4) = x4 ∧
  V (Proc.devRef (τ := τ) .tc main_arg5) = x5 ∧
  V (Proc.devRef (τ := τ) .tc main_arg6) = x6 ∧
  V (Proc.devRef (τ := τ) .tc main_arg7) = x7 ∧
  V (Proc.devRef (τ := τ) .tc main_arg8) = x8 ∧
  V (Proc.devRef (τ := τ) .tc main_arg9) = x9 ∧
  V (Proc.devRef (τ := τ) .tc main_arg10) = x10 ∧
  V (Proc.devRef (τ := τ) .tc main_arg11) = x11 ∧
  V (Proc.devRef (τ := τ) .tc main_arg12) = x12 ∧
  V (Proc.devRef (τ := τ) .tc main_arg13) = x13

/-- Operations 0 to 8 of @main. -/
abbrev s1 : List (HloOp τ sig (Elt F)) :=
  [
    unary main_arg1 main_v0 ((extractStridedSlice S1x800000 ![0, 0] · slices_S2x800000_S1x800000_0_0) : (⟨S2x800000, .i32⟩ : BufTy).Contents (Elt F) → (⟨S1x800000, .i32⟩ : BufTy).Contents (Elt F)),
    reshape main_v0 main_v1 rfl shapeCasts_S1x800000_S800000,
    unary main_arg1 main_v2 ((extractStridedSlice S1x800000 ![1, 0] · slices_S2x800000_S1x800000_1_0) : (⟨S2x800000, .i32⟩ : BufTy).Contents (Elt F) → (⟨S1x800000, .i32⟩ : BufTy).Contents (Elt F)),
    reshape main_v2 main_v3 rfl shapeCasts_S1x800000_S800000,
    unary main_arg2 main_v4 ((transpose S128x128 [1, 0] · transposes_S128x128_S128x128_1_0) : (⟨S128x128, .f32⟩ : BufTy).Contents (Elt F) → (⟨S128x128, .f32⟩ : BufTy).Contents (Elt F)),
    binary main_arg0 main_v4 main_v5 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    unary main_arg3 main_v6 (broadcastInDim S1x128 ![1] bcast_S128_S1x128_1 : (⟨S128, .f32⟩ : BufTy).Contents (Elt F) → (⟨S1x128, .f32⟩ : BufTy).Contents (Elt F)),
    unary main_v6 main_v7 (broadcastInDim S50000x128 ![0, 1] bcast_S1x128_S50000x128_0_1 : (⟨S1x128, .f32⟩ : BufTy).Contents (Elt F) → (⟨S50000x128, .f32⟩ : BufTy).Contents (Elt F)),
    binary main_v5 main_v7 main_v8 (addf : (⟨S50000x128, .f32⟩ : BufTy).Contents (Elt F) → (⟨S50000x128, .f32⟩ : BufTy).Contents (Elt F) → (⟨S50000x128, .f32⟩ : BufTy).Contents (Elt F)) ]

/-- The buffers stretch 1 writes. -/
abbrev W1 : List (Ref sig .tc) := [main_v0, main_v1, main_v2, main_v3, main_v4, main_v5, main_v6, main_v7, main_v8]
theorem writes1 : (s1 : List (HloOp τ sig (Elt F))).Forall fun op => op.writes ⊆ (W1.map (Proc.devRef (τ := τ) .tc)).toFinset :=
  ⟨writes_sub_of main_v0 rfl (by decide),
   writes_sub_of main_v1 rfl (by decide),
   writes_sub_of main_v2 rfl (by decide),
   writes_sub_of main_v3 rfl (by decide),
   writes_sub_of main_v4 rfl (by decide),
   writes_sub_of main_v5 rfl (by decide),
   writes_sub_of main_v6 rfl (by decide),
   writes_sub_of main_v7 rfl (by decide),
   writes_sub_of main_v8 rfl (by decide)⟩
/-- A buffer stretch 1 does not write keeps its contents over it. -/
theorem frame1 (V : Valuation τ sig (Elt F)) {r : Ref sig .tc} (hr : r ∉ W1) :
    after s1 V (Proc.devRef .tc r) = V (Proc.devRef .tc r) :=
  after_of_writes_sub s1 V writes1 hr

/-- What the buffers hold at cut 1: every argument as given, and each value still read later at its stage. -/
def Inv1 (V : Valuation τ sig (Elt F)) (x0 : (⟨S50000x128, .f32⟩ : BufTy).Contents (Elt F)) (x1 : (⟨S2x800000, .i32⟩ : BufTy).Contents (Elt F)) (x2 : (⟨S128x128, .f32⟩ : BufTy).Contents (Elt F)) (x3 : (⟨S128, .f32⟩ : BufTy).Contents (Elt F)) (x4 : (⟨S2x128x256, .f32⟩ : BufTy).Contents (Elt F)) (x5 : (⟨S2x128, .f32⟩ : BufTy).Contents (Elt F)) (x6 : (⟨S2x128x128, .f32⟩ : BufTy).Contents (Elt F)) (x7 : (⟨S2x128, .f32⟩ : BufTy).Contents (Elt F)) (x8 : (⟨S2x128x256, .f32⟩ : BufTy).Contents (Elt F)) (x9 : (⟨S2x128, .f32⟩ : BufTy).Contents (Elt F)) (x10 : (⟨S2x128, .f32⟩ : BufTy).Contents (Elt F)) (x11 : (⟨S2x128, .f32⟩ : BufTy).Contents (Elt F)) (x12 : (⟨S128x128, .f32⟩ : BufTy).Contents (Elt F)) (x13 : (⟨S128, .f32⟩ : BufTy).Contents (Elt F)) : Prop :=
  V (Proc.devRef (τ := τ) .tc main_arg0) = x0 ∧
  V (Proc.devRef (τ := τ) .tc main_arg1) = x1 ∧
  V (Proc.devRef (τ := τ) .tc main_arg2) = x2 ∧
  V (Proc.devRef (τ := τ) .tc main_arg3) = x3 ∧
  V (Proc.devRef (τ := τ) .tc main_arg4) = x4 ∧
  V (Proc.devRef (τ := τ) .tc main_arg5) = x5 ∧
  V (Proc.devRef (τ := τ) .tc main_arg6) = x6 ∧
  V (Proc.devRef (τ := τ) .tc main_arg7) = x7 ∧
  V (Proc.devRef (τ := τ) .tc main_arg8) = x8 ∧
  V (Proc.devRef (τ := τ) .tc main_arg9) = x9 ∧
  V (Proc.devRef (τ := τ) .tc main_arg10) = x10 ∧
  V (Proc.devRef (τ := τ) .tc main_arg11) = x11 ∧
  V (Proc.devRef (τ := τ) .tc main_arg12) = x12 ∧
  V (Proc.devRef (τ := τ) .tc main_arg13) = x13 ∧
  V (Proc.devRef (τ := τ) .tc main_v1) = ReadP.val_main_v1 (F := F) x1 ∧
  V (Proc.devRef (τ := τ) .tc main_v3) = ReadP.val_main_v3 (F := F) x1 ∧
  V (Proc.devRef (τ := τ) .tc main_v8) = ReadP.val_main_v8 (F := F) x0 x2 x3

set_option maxHeartbeats 1000000 in
/-- Stretch 1 (operations 0–8) carries the invariant of cut 0 to that of cut 1. -/
theorem step1 {V : Valuation τ sig (Elt F)} {x0 : (⟨S50000x128, .f32⟩ : BufTy).Contents (Elt F)} {x1 : (⟨S2x800000, .i32⟩ : BufTy).Contents (Elt F)} {x2 : (⟨S128x128, .f32⟩ : BufTy).Contents (Elt F)} {x3 : (⟨S128, .f32⟩ : BufTy).Contents (Elt F)} {x4 : (⟨S2x128x256, .f32⟩ : BufTy).Contents (Elt F)} {x5 : (⟨S2x128, .f32⟩ : BufTy).Contents (Elt F)} {x6 : (⟨S2x128x128, .f32⟩ : BufTy).Contents (Elt F)} {x7 : (⟨S2x128, .f32⟩ : BufTy).Contents (Elt F)} {x8 : (⟨S2x128x256, .f32⟩ : BufTy).Contents (Elt F)} {x9 : (⟨S2x128, .f32⟩ : BufTy).Contents (Elt F)} {x10 : (⟨S2x128, .f32⟩ : BufTy).Contents (Elt F)} {x11 : (⟨S2x128, .f32⟩ : BufTy).Contents (Elt F)} {x12 : (⟨S128x128, .f32⟩ : BufTy).Contents (Elt F)} {x13 : (⟨S128, .f32⟩ : BufTy).Contents (Elt F)}
    (h : Inv0 V x0 x1 x2 x3 x4 x5 x6 x7 x8 x9 x10 x11 x12 x13) : Inv1 (after s1 V) x0 x1 x2 x3 x4 x5 x6 x7 x8 x9 x10 x11 x12 x13 := by
  unfold Inv0 at h
  obtain ⟨a0, a1, a2, a3, a4, a5, a6, a7, a8, a9, a10, a11, a12, a13⟩ := h
  unfold Inv1
  refine ⟨?_, ?_, ?_, ?_, ?_, ?_, ?_, ?_, ?_, ?_, ?_, ?_, ?_, ?_, ?_, ?_, ?_⟩
  · exact (frame1 V (by decide)).trans a0
  · exact (frame1 V (by decide)).trans a1
  · exact (frame1 V (by decide)).trans a2
  · exact (frame1 V (by decide)).trans a3
  · exact (frame1 V (by decide)).trans a4
  · exact (frame1 V (by decide)).trans a5
  · exact (frame1 V (by decide)).trans a6
  · exact (frame1 V (by decide)).trans a7
  · exact (frame1 V (by decide)).trans a8
  · exact (frame1 V (by decide)).trans a9
  · exact (frame1 V (by decide)).trans a10
  · exact (frame1 V (by decide)).trans a11
  · exact (frame1 V (by decide)).trans a12
  · exact (frame1 V (by decide)).trans a13
  · after_results
    rw [a1]
    rfl
  · after_results
    rw [a1]
    rfl
  · after_results
    rw [a0, a2, a3]
    rfl

/-- Operations 9 to 17 of @main. -/
abbrev s2 : List (HloOp τ sig (Elt F)) :=
  [
    nullary main_c (constantI S_ 32 0#32),
    unary main_c main_v9 (broadcastInDim S800000 ![] bcast_S_S800000 : (⟨S_, .i32⟩ : BufTy).Contents (Elt F) → (⟨S800000, .i32⟩ : BufTy).Contents (Elt F)),
    binary main_v1 main_v9 main_v10 (cmpi .slt : (⟨S800000, .i32⟩ : BufTy).Contents (Elt F) → (⟨S800000, .i32⟩ : BufTy).Contents (Elt F) → (⟨S800000, .i1⟩ : BufTy).Contents (Elt F)),
    nullary main_c_0 (constantI S_ 32 50000#32),
    unary main_c_0 main_v11 (broadcastInDim S800000 ![] bcast_S_S800000 : (⟨S_, .i32⟩ : BufTy).Contents (Elt F) → (⟨S800000, .i32⟩ : BufTy).Contents (Elt F)),
    binary main_v1 main_v11 main_v12 (addi : (⟨S800000, .i32⟩ : BufTy).Contents (Elt F) → (⟨S800000, .i32⟩ : BufTy).Contents (Elt F) → (⟨S800000, .i32⟩ : BufTy).Contents (Elt F)),
    ternary main_v10 main_v12 main_v1 main_v13 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    unary main_v13 main_v14 (broadcastInDim S800000x1 ![0] bcast_S800000_S800000x1_0 : (⟨S800000, .i32⟩ : BufTy).Contents (Elt F) → (⟨S800000x1, .i32⟩ : BufTy).Contents (Elt F)),
    binary main_v8 main_v14 main_v15 ((fun x i => Host.gather gather_S50000x128_S800000x1_S800000x128_1_0_n_n_0_1_1128 x i) : (⟨S50000x128, .f32⟩ : BufTy).Contents (Elt F) → (⟨S800000x1, .i32⟩ : BufTy).Contents (Elt F) → (⟨S800000x128, .f32⟩ : BufTy).Contents (Elt F)) ]

/-- The buffers stretch 2 writes. -/
abbrev W2 : List (Ref sig .tc) := [main_c, main_v9, main_v10, main_c_0, main_v11, main_v12, main_v13, main_v14, main_v15]
theorem writes2 : (s2 : List (HloOp τ sig (Elt F))).Forall fun op => op.writes ⊆ (W2.map (Proc.devRef (τ := τ) .tc)).toFinset :=
  ⟨writes_sub_of main_c rfl (by decide),
   writes_sub_of main_v9 rfl (by decide),
   writes_sub_of main_v10 rfl (by decide),
   writes_sub_of main_c_0 rfl (by decide),
   writes_sub_of main_v11 rfl (by decide),
   writes_sub_of main_v12 rfl (by decide),
   writes_sub_of main_v13 rfl (by decide),
   writes_sub_of main_v14 rfl (by decide),
   writes_sub_of main_v15 rfl (by decide)⟩
/-- A buffer stretch 2 does not write keeps its contents over it. -/
theorem frame2 (V : Valuation τ sig (Elt F)) {r : Ref sig .tc} (hr : r ∉ W2) :
    after s2 V (Proc.devRef .tc r) = V (Proc.devRef .tc r) :=
  after_of_writes_sub s2 V writes2 hr

/-- What the buffers hold at cut 2: every argument as given, and each value still read later at its stage. -/
def Inv2 (V : Valuation τ sig (Elt F)) (x0 : (⟨S50000x128, .f32⟩ : BufTy).Contents (Elt F)) (x1 : (⟨S2x800000, .i32⟩ : BufTy).Contents (Elt F)) (x2 : (⟨S128x128, .f32⟩ : BufTy).Contents (Elt F)) (x3 : (⟨S128, .f32⟩ : BufTy).Contents (Elt F)) (x4 : (⟨S2x128x256, .f32⟩ : BufTy).Contents (Elt F)) (x5 : (⟨S2x128, .f32⟩ : BufTy).Contents (Elt F)) (x6 : (⟨S2x128x128, .f32⟩ : BufTy).Contents (Elt F)) (x7 : (⟨S2x128, .f32⟩ : BufTy).Contents (Elt F)) (x8 : (⟨S2x128x256, .f32⟩ : BufTy).Contents (Elt F)) (x9 : (⟨S2x128, .f32⟩ : BufTy).Contents (Elt F)) (x10 : (⟨S2x128, .f32⟩ : BufTy).Contents (Elt F)) (x11 : (⟨S2x128, .f32⟩ : BufTy).Contents (Elt F)) (x12 : (⟨S128x128, .f32⟩ : BufTy).Contents (Elt F)) (x13 : (⟨S128, .f32⟩ : BufTy).Contents (Elt F)) : Prop :=
  V (Proc.devRef (τ := τ) .tc main_arg0) = x0 ∧
  V (Proc.devRef (τ := τ) .tc main_arg1) = x1 ∧
  V (Proc.devRef (τ := τ) .tc main_arg2) = x2 ∧
  V (Proc.devRef (τ := τ) .tc main_arg3) = x3 ∧
  V (Proc.devRef (τ := τ) .tc main_arg4) = x4 ∧
  V (Proc.devRef (τ := τ) .tc main_arg5) = x5 ∧
  V (Proc.devRef (τ := τ) .tc main_arg6) = x6 ∧
  V (Proc.devRef (τ := τ) .tc main_arg7) = x7 ∧
  V (Proc.devRef (τ := τ) .tc main_arg8) = x8 ∧
  V (Proc.devRef (τ := τ) .tc main_arg9) = x9 ∧
  V (Proc.devRef (τ := τ) .tc main_arg10) = x10 ∧
  V (Proc.devRef (τ := τ) .tc main_arg11) = x11 ∧
  V (Proc.devRef (τ := τ) .tc main_arg12) = x12 ∧
  V (Proc.devRef (τ := τ) .tc main_arg13) = x13 ∧
  V (Proc.devRef (τ := τ) .tc main_v1) = ReadP.val_main_v1 (F := F) x1 ∧
  V (Proc.devRef (τ := τ) .tc main_v3) = ReadP.val_main_v3 (F := F) x1 ∧
  V (Proc.devRef (τ := τ) .tc main_v8) = ReadP.val_main_v8 (F := F) x0 x2 x3 ∧
  V (Proc.devRef (τ := τ) .tc main_v15) = ReadP.val_main_v15 (F := F) x0 x1 x2 x3

set_option maxHeartbeats 1000000 in
/-- Stretch 2 (operations 9–17) carries the invariant of cut 1 to that of cut 2. -/
theorem step2 {V : Valuation τ sig (Elt F)} {x0 : (⟨S50000x128, .f32⟩ : BufTy).Contents (Elt F)} {x1 : (⟨S2x800000, .i32⟩ : BufTy).Contents (Elt F)} {x2 : (⟨S128x128, .f32⟩ : BufTy).Contents (Elt F)} {x3 : (⟨S128, .f32⟩ : BufTy).Contents (Elt F)} {x4 : (⟨S2x128x256, .f32⟩ : BufTy).Contents (Elt F)} {x5 : (⟨S2x128, .f32⟩ : BufTy).Contents (Elt F)} {x6 : (⟨S2x128x128, .f32⟩ : BufTy).Contents (Elt F)} {x7 : (⟨S2x128, .f32⟩ : BufTy).Contents (Elt F)} {x8 : (⟨S2x128x256, .f32⟩ : BufTy).Contents (Elt F)} {x9 : (⟨S2x128, .f32⟩ : BufTy).Contents (Elt F)} {x10 : (⟨S2x128, .f32⟩ : BufTy).Contents (Elt F)} {x11 : (⟨S2x128, .f32⟩ : BufTy).Contents (Elt F)} {x12 : (⟨S128x128, .f32⟩ : BufTy).Contents (Elt F)} {x13 : (⟨S128, .f32⟩ : BufTy).Contents (Elt F)}
    (h : Inv1 V x0 x1 x2 x3 x4 x5 x6 x7 x8 x9 x10 x11 x12 x13) : Inv2 (after s2 V) x0 x1 x2 x3 x4 x5 x6 x7 x8 x9 x10 x11 x12 x13 := by
  unfold Inv1 at h
  obtain ⟨a0, a1, a2, a3, a4, a5, a6, a7, a8, a9, a10, a11, a12, a13, h_v1, h_v3, h_v8⟩ := h
  unfold Inv2
  refine ⟨?_, ?_, ?_, ?_, ?_, ?_, ?_, ?_, ?_, ?_, ?_, ?_, ?_, ?_, ?_, ?_, ?_, ?_⟩
  · exact (frame2 V (by decide)).trans a0
  · exact (frame2 V (by decide)).trans a1
  · exact (frame2 V (by decide)).trans a2
  · exact (frame2 V (by decide)).trans a3
  · exact (frame2 V (by decide)).trans a4
  · exact (frame2 V (by decide)).trans a5
  · exact (frame2 V (by decide)).trans a6
  · exact (frame2 V (by decide)).trans a7
  · exact (frame2 V (by decide)).trans a8
  · exact (frame2 V (by decide)).trans a9
  · exact (frame2 V (by decide)).trans a10
  · exact (frame2 V (by decide)).trans a11
  · exact (frame2 V (by decide)).trans a12
  · exact (frame2 V (by decide)).trans a13
  · exact (frame2 V (by decide)).trans h_v1
  · exact (frame2 V (by decide)).trans h_v3
  · exact (frame2 V (by decide)).trans h_v8
  · after_results
    rw [h_v8, h_v1]
    rfl

/-- Operations 18 to 26 of @main. -/
abbrev s3 : List (HloOp τ sig (Elt F)) :=
  [
    nullary main_c_1 (constantI S_ 32 0#32),
    unary main_c_1 main_v16 (broadcastInDim S800000 ![] bcast_S_S800000 : (⟨S_, .i32⟩ : BufTy).Contents (Elt F) → (⟨S800000, .i32⟩ : BufTy).Contents (Elt F)),
    binary main_v3 main_v16 main_v17 (cmpi .slt : (⟨S800000, .i32⟩ : BufTy).Contents (Elt F) → (⟨S800000, .i32⟩ : BufTy).Contents (Elt F) → (⟨S800000, .i1⟩ : BufTy).Contents (Elt F)),
    nullary main_c_2 (constantI S_ 32 50000#32),
    unary main_c_2 main_v18 (broadcastInDim S800000 ![] bcast_S_S800000 : (⟨S_, .i32⟩ : BufTy).Contents (Elt F) → (⟨S800000, .i32⟩ : BufTy).Contents (Elt F)),
    binary main_v3 main_v18 main_v19 (addi : (⟨S800000, .i32⟩ : BufTy).Contents (Elt F) → (⟨S800000, .i32⟩ : BufTy).Contents (Elt F) → (⟨S800000, .i32⟩ : BufTy).Contents (Elt F)),
    ternary main_v17 main_v19 main_v3 main_v20 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    unary main_v20 main_v21 (broadcastInDim S800000x1 ![0] bcast_S800000_S800000x1_0 : (⟨S800000, .i32⟩ : BufTy).Contents (Elt F) → (⟨S800000x1, .i32⟩ : BufTy).Contents (Elt F)),
    binary main_v8 main_v21 main_v22 ((fun x i => Host.gather gather_S50000x128_S800000x1_S800000x128_1_0_n_n_0_1_1128 x i) : (⟨S50000x128, .f32⟩ : BufTy).Contents (Elt F) → (⟨S800000x1, .i32⟩ : BufTy).Contents (Elt F) → (⟨S800000x128, .f32⟩ : BufTy).Contents (Elt F)) ]

/-- The buffers stretch 3 writes. -/
abbrev W3 : List (Ref sig .tc) := [main_c_1, main_v16, main_v17, main_c_2, main_v18, main_v19, main_v20, main_v21, main_v22]
theorem writes3 : (s3 : List (HloOp τ sig (Elt F))).Forall fun op => op.writes ⊆ (W3.map (Proc.devRef (τ := τ) .tc)).toFinset :=
  ⟨writes_sub_of main_c_1 rfl (by decide),
   writes_sub_of main_v16 rfl (by decide),
   writes_sub_of main_v17 rfl (by decide),
   writes_sub_of main_c_2 rfl (by decide),
   writes_sub_of main_v18 rfl (by decide),
   writes_sub_of main_v19 rfl (by decide),
   writes_sub_of main_v20 rfl (by decide),
   writes_sub_of main_v21 rfl (by decide),
   writes_sub_of main_v22 rfl (by decide)⟩
/-- A buffer stretch 3 does not write keeps its contents over it. -/
theorem frame3 (V : Valuation τ sig (Elt F)) {r : Ref sig .tc} (hr : r ∉ W3) :
    after s3 V (Proc.devRef .tc r) = V (Proc.devRef .tc r) :=
  after_of_writes_sub s3 V writes3 hr

/-- What the buffers hold at cut 3: every argument as given, and each value still read later at its stage. -/
def Inv3 (V : Valuation τ sig (Elt F)) (x0 : (⟨S50000x128, .f32⟩ : BufTy).Contents (Elt F)) (x1 : (⟨S2x800000, .i32⟩ : BufTy).Contents (Elt F)) (x2 : (⟨S128x128, .f32⟩ : BufTy).Contents (Elt F)) (x3 : (⟨S128, .f32⟩ : BufTy).Contents (Elt F)) (x4 : (⟨S2x128x256, .f32⟩ : BufTy).Contents (Elt F)) (x5 : (⟨S2x128, .f32⟩ : BufTy).Contents (Elt F)) (x6 : (⟨S2x128x128, .f32⟩ : BufTy).Contents (Elt F)) (x7 : (⟨S2x128, .f32⟩ : BufTy).Contents (Elt F)) (x8 : (⟨S2x128x256, .f32⟩ : BufTy).Contents (Elt F)) (x9 : (⟨S2x128, .f32⟩ : BufTy).Contents (Elt F)) (x10 : (⟨S2x128, .f32⟩ : BufTy).Contents (Elt F)) (x11 : (⟨S2x128, .f32⟩ : BufTy).Contents (Elt F)) (x12 : (⟨S128x128, .f32⟩ : BufTy).Contents (Elt F)) (x13 : (⟨S128, .f32⟩ : BufTy).Contents (Elt F)) : Prop :=
  V (Proc.devRef (τ := τ) .tc main_arg0) = x0 ∧
  V (Proc.devRef (τ := τ) .tc main_arg1) = x1 ∧
  V (Proc.devRef (τ := τ) .tc main_arg2) = x2 ∧
  V (Proc.devRef (τ := τ) .tc main_arg3) = x3 ∧
  V (Proc.devRef (τ := τ) .tc main_arg4) = x4 ∧
  V (Proc.devRef (τ := τ) .tc main_arg5) = x5 ∧
  V (Proc.devRef (τ := τ) .tc main_arg6) = x6 ∧
  V (Proc.devRef (τ := τ) .tc main_arg7) = x7 ∧
  V (Proc.devRef (τ := τ) .tc main_arg8) = x8 ∧
  V (Proc.devRef (τ := τ) .tc main_arg9) = x9 ∧
  V (Proc.devRef (τ := τ) .tc main_arg10) = x10 ∧
  V (Proc.devRef (τ := τ) .tc main_arg11) = x11 ∧
  V (Proc.devRef (τ := τ) .tc main_arg12) = x12 ∧
  V (Proc.devRef (τ := τ) .tc main_arg13) = x13 ∧
  V (Proc.devRef (τ := τ) .tc main_v1) = ReadP.val_main_v1 (F := F) x1 ∧
  V (Proc.devRef (τ := τ) .tc main_v3) = ReadP.val_main_v3 (F := F) x1 ∧
  V (Proc.devRef (τ := τ) .tc main_v8) = ReadP.val_main_v8 (F := F) x0 x2 x3 ∧
  V (Proc.devRef (τ := τ) .tc main_v15) = ReadP.val_main_v15 (F := F) x0 x1 x2 x3 ∧
  V (Proc.devRef (τ := τ) .tc main_v22) = ReadP.val_main_v22 (F := F) x0 x1 x2 x3

set_option maxHeartbeats 1000000 in
/-- Stretch 3 (operations 18–26) carries the invariant of cut 2 to that of cut 3. -/
theorem step3 {V : Valuation τ sig (Elt F)} {x0 : (⟨S50000x128, .f32⟩ : BufTy).Contents (Elt F)} {x1 : (⟨S2x800000, .i32⟩ : BufTy).Contents (Elt F)} {x2 : (⟨S128x128, .f32⟩ : BufTy).Contents (Elt F)} {x3 : (⟨S128, .f32⟩ : BufTy).Contents (Elt F)} {x4 : (⟨S2x128x256, .f32⟩ : BufTy).Contents (Elt F)} {x5 : (⟨S2x128, .f32⟩ : BufTy).Contents (Elt F)} {x6 : (⟨S2x128x128, .f32⟩ : BufTy).Contents (Elt F)} {x7 : (⟨S2x128, .f32⟩ : BufTy).Contents (Elt F)} {x8 : (⟨S2x128x256, .f32⟩ : BufTy).Contents (Elt F)} {x9 : (⟨S2x128, .f32⟩ : BufTy).Contents (Elt F)} {x10 : (⟨S2x128, .f32⟩ : BufTy).Contents (Elt F)} {x11 : (⟨S2x128, .f32⟩ : BufTy).Contents (Elt F)} {x12 : (⟨S128x128, .f32⟩ : BufTy).Contents (Elt F)} {x13 : (⟨S128, .f32⟩ : BufTy).Contents (Elt F)}
    (h : Inv2 V x0 x1 x2 x3 x4 x5 x6 x7 x8 x9 x10 x11 x12 x13) : Inv3 (after s3 V) x0 x1 x2 x3 x4 x5 x6 x7 x8 x9 x10 x11 x12 x13 := by
  unfold Inv2 at h
  obtain ⟨a0, a1, a2, a3, a4, a5, a6, a7, a8, a9, a10, a11, a12, a13, h_v1, h_v3, h_v8, h_v15⟩ := h
  unfold Inv3
  refine ⟨?_, ?_, ?_, ?_, ?_, ?_, ?_, ?_, ?_, ?_, ?_, ?_, ?_, ?_, ?_, ?_, ?_, ?_, ?_⟩
  · exact (frame3 V (by decide)).trans a0
  · exact (frame3 V (by decide)).trans a1
  · exact (frame3 V (by decide)).trans a2
  · exact (frame3 V (by decide)).trans a3
  · exact (frame3 V (by decide)).trans a4
  · exact (frame3 V (by decide)).trans a5
  · exact (frame3 V (by decide)).trans a6
  · exact (frame3 V (by decide)).trans a7
  · exact (frame3 V (by decide)).trans a8
  · exact (frame3 V (by decide)).trans a9
  · exact (frame3 V (by decide)).trans a10
  · exact (frame3 V (by decide)).trans a11
  · exact (frame3 V (by decide)).trans a12
  · exact (frame3 V (by decide)).trans a13
  · exact (frame3 V (by decide)).trans h_v1
  · exact (frame3 V (by decide)).trans h_v3
  · exact (frame3 V (by decide)).trans h_v8
  · exact (frame3 V (by decide)).trans h_v15
  · after_results
    rw [h_v8, h_v3]
    rfl

/-- Operations 27 to 52 of @main. -/
abbrev s4 : List (HloOp τ sig (Elt F)) :=
  [
    binary main_v15 main_v22 main_v23 ((fun a b => concatenate S800000x256 1 [⟨S800000x128, a⟩, ⟨S800000x128, b⟩] concatenates_S800000x128_S800000x128_S800000x256_d1) : (⟨S800000x128, .f32⟩ : BufTy).Contents (Elt F) → (⟨S800000x128, .f32⟩ : BufTy).Contents (Elt F) → (⟨S800000x256, .f32⟩ : BufTy).Contents (Elt F)),
    unary main_arg4 main_v24 ((extractStridedSlice S1x128x256 ![0, 0, 0] · slices_S2x128x256_S1x128x256_0_0_0) : (⟨S2x128x256, .f32⟩ : BufTy).Contents (Elt F) → (⟨S1x128x256, .f32⟩ : BufTy).Contents (Elt F)),
    reshape main_v24 main_v25 rfl shapeCasts_S1x128x256_S128x256,
    unary main_v25 main_v26 ((transpose S256x128 [1, 0] · transposes_S128x256_S256x128_1_0) : (⟨S128x256, .f32⟩ : BufTy).Contents (Elt F) → (⟨S256x128, .f32⟩ : BufTy).Contents (Elt F)),
    binary main_v23 main_v26 main_v27 ((fun l r => Host.dotGeneral dot_S800000x256_S256x128_S800000x128_1_0_0_1_n_n none l r) : (⟨S800000x256, .f32⟩ : BufTy).Contents (Elt F) → (⟨S256x128, .f32⟩ : BufTy).Contents (Elt F) → (⟨S800000x128, .f32⟩ : BufTy).Contents (Elt F)),
    unary main_arg5 main_v28 ((extractStridedSlice S1x128 ![0, 0] · slices_S2x128_S1x128_0_0) : (⟨S2x128, .f32⟩ : BufTy).Contents (Elt F) → (⟨S1x128, .f32⟩ : BufTy).Contents (Elt F)),
    reshape main_v28 main_v29 rfl shapeCasts_S1x128_S128,
    unary main_v29 main_v30 (broadcastInDim S1x128 ![1] bcast_S128_S1x128_1 : (⟨S128, .f32⟩ : BufTy).Contents (Elt F) → (⟨S1x128, .f32⟩ : BufTy).Contents (Elt F)),
    unary main_v30 main_v31 (broadcastInDim S800000x128 ![0, 1] bcast_S1x128_S800000x128_0_1 : (⟨S1x128, .f32⟩ : BufTy).Contents (Elt F) → (⟨S800000x128, .f32⟩ : BufTy).Contents (Elt F)),
    binary main_v27 main_v31 main_v32 (addf : (⟨S800000x128, .f32⟩ : BufTy).Contents (Elt F) → (⟨S800000x128, .f32⟩ : BufTy).Contents (Elt F) → (⟨S800000x128, .f32⟩ : BufTy).Contents (Elt F)),
    TRef.nullary (TRef.of (T := ⟨S_, .f32⟩) main_call0_cst) (constant S_ .f32 0x00000000#32),
    TRef.unary (TRef.of (T := ⟨S_, .f32⟩) main_call0_cst) (TRef.of (T := ⟨S800000x128, .f32⟩) main_call0_v0) (broadcastInDim S800000x128 ![] bcast_S_S800000x128),
    TRef.binary (TRef.of (T := ⟨S800000x128, .f32⟩) main_v32) (TRef.of (T := ⟨S800000x128, .f32⟩) main_call0_v0) (TRef.of (T := ⟨S800000x128, .f32⟩) main_v33) maximumf,
    unary main_arg6 main_v34 ((extractStridedSlice S1x128x128 ![0, 0, 0] · slices_S2x128x128_S1x128x128_0_0_0) : (⟨S2x128x128, .f32⟩ : BufTy).Contents (Elt F) → (⟨S1x128x128, .f32⟩ : BufTy).Contents (Elt F)),
    reshape main_v34 main_v35 rfl shapeCasts_S1x128x128_S128x128,
    unary main_v35 main_v36 ((transpose S128x128 [1, 0] · transposes_S128x128_S128x128_1_0) : (⟨S128x128, .f32⟩ : BufTy).Contents (Elt F) → (⟨S128x128, .f32⟩ : BufTy).Contents (Elt F)),
    binary main_v33 main_v36 main_v37 ((fun l r => Host.dotGeneral dot_S800000x128_S128x128_S800000x128_1_0_0_1_n_n none l r) : (⟨S800000x128, .f32⟩ : BufTy).Contents (Elt F) → (⟨S128x128, .f32⟩ : BufTy).Contents (Elt F) → (⟨S800000x128, .f32⟩ : BufTy).Contents (Elt F)),
    unary main_arg7 main_v38 ((extractStridedSlice S1x128 ![0, 0] · slices_S2x128_S1x128_0_0) : (⟨S2x128, .f32⟩ : BufTy).Contents (Elt F) → (⟨S1x128, .f32⟩ : BufTy).Contents (Elt F)),
    reshape main_v38 main_v39 rfl shapeCasts_S1x128_S128,
    unary main_v39 main_v40 (broadcastInDim S1x128 ![1] bcast_S128_S1x128_1 : (⟨S128, .f32⟩ : BufTy).Contents (Elt F) → (⟨S1x128, .f32⟩ : BufTy).Contents (Elt F)),
    unary main_v40 main_v41 (broadcastInDim S800000x128 ![0, 1] bcast_S1x128_S800000x128_0_1 : (⟨S1x128, .f32⟩ : BufTy).Contents (Elt F) → (⟨S800000x128, .f32⟩ : BufTy).Contents (Elt F)),
    binary main_v37 main_v41 main_v42 (addf : (⟨S800000x128, .f32⟩ : BufTy).Contents (Elt F) → (⟨S800000x128, .f32⟩ : BufTy).Contents (Elt F) → (⟨S800000x128, .f32⟩ : BufTy).Contents (Elt F)),
    nullary main_cst (constant S_ .f32 0x00000000#32),
    unary main_cst main_v43 (broadcastInDim S50000x128 ![] bcast_S_S50000x128 : (⟨S_, .f32⟩ : BufTy).Contents (Elt F) → (⟨S50000x128, .f32⟩ : BufTy).Contents (Elt F)),
    unary main_v3 main_v44 (broadcastInDim S800000x1 ![0] bcast_S800000_S800000x1_0 : (⟨S800000, .i32⟩ : BufTy).Contents (Elt F) → (⟨S800000x1, .i32⟩ : BufTy).Contents (Elt F)),
    ternary main_v43 main_v44 main_v42 main_v45 ((fun x i u => Host.scatterAdd scatter_S50000x128_S800000x1_S800000x128_1_0_0_1 x i u) : (⟨S50000x128, .f32⟩ : BufTy).Contents (Elt F) → (⟨S800000x1, .i32⟩ : BufTy).Contents (Elt F) → (⟨S800000x128, .f32⟩ : BufTy).Contents (Elt F) → (⟨S50000x128, .f32⟩ : BufTy).Contents (Elt F)) ]

/-- The buffers stretch 4 writes. -/
abbrev W4 : List (Ref sig .tc) := [main_v23, main_v24, main_v25, main_v26, main_v27, main_v28, main_v29, main_v30, main_v31, main_v32, main_call0_cst, main_call0_v0, main_v33, main_v34, main_v35, main_v36, main_v37, main_v38, main_v39, main_v40, main_v41, main_v42, main_cst, main_v43, main_v44, main_v45]
theorem writes4 : (s4 : List (HloOp τ sig (Elt F))).Forall fun op => op.writes ⊆ (W4.map (Proc.devRef (τ := τ) .tc)).toFinset :=
  ⟨writes_sub_of main_v23 rfl (by decide),
   writes_sub_of main_v24 rfl (by decide),
   writes_sub_of main_v25 rfl (by decide),
   writes_sub_of main_v26 rfl (by decide),
   writes_sub_of main_v27 rfl (by decide),
   writes_sub_of main_v28 rfl (by decide),
   writes_sub_of main_v29 rfl (by decide),
   writes_sub_of main_v30 rfl (by decide),
   writes_sub_of main_v31 rfl (by decide),
   writes_sub_of main_v32 rfl (by decide),
   writes_sub_of main_call0_cst rfl (by decide),
   writes_sub_of main_call0_v0 rfl (by decide),
   writes_sub_of main_v33 rfl (by decide),
   writes_sub_of main_v34 rfl (by decide),
   writes_sub_of main_v35 rfl (by decide),
   writes_sub_of main_v36 rfl (by decide),
   writes_sub_of main_v37 rfl (by decide),
   writes_sub_of main_v38 rfl (by decide),
   writes_sub_of main_v39 rfl (by decide),
   writes_sub_of main_v40 rfl (by decide),
   writes_sub_of main_v41 rfl (by decide),
   writes_sub_of main_v42 rfl (by decide),
   writes_sub_of main_cst rfl (by decide),
   writes_sub_of main_v43 rfl (by decide),
   writes_sub_of main_v44 rfl (by decide),
   writes_sub_of main_v45 rfl (by decide)⟩
/-- A buffer stretch 4 does not write keeps its contents over it. -/
theorem frame4 (V : Valuation τ sig (Elt F)) {r : Ref sig .tc} (hr : r ∉ W4) :
    after s4 V (Proc.devRef .tc r) = V (Proc.devRef .tc r) :=
  after_of_writes_sub s4 V writes4 hr

/-- What the buffers hold at cut 4: every argument as given, and each value still read later at its stage. -/
def Inv4 (V : Valuation τ sig (Elt F)) (x0 : (⟨S50000x128, .f32⟩ : BufTy).Contents (Elt F)) (x1 : (⟨S2x800000, .i32⟩ : BufTy).Contents (Elt F)) (x2 : (⟨S128x128, .f32⟩ : BufTy).Contents (Elt F)) (x3 : (⟨S128, .f32⟩ : BufTy).Contents (Elt F)) (x4 : (⟨S2x128x256, .f32⟩ : BufTy).Contents (Elt F)) (x5 : (⟨S2x128, .f32⟩ : BufTy).Contents (Elt F)) (x6 : (⟨S2x128x128, .f32⟩ : BufTy).Contents (Elt F)) (x7 : (⟨S2x128, .f32⟩ : BufTy).Contents (Elt F)) (x8 : (⟨S2x128x256, .f32⟩ : BufTy).Contents (Elt F)) (x9 : (⟨S2x128, .f32⟩ : BufTy).Contents (Elt F)) (x10 : (⟨S2x128, .f32⟩ : BufTy).Contents (Elt F)) (x11 : (⟨S2x128, .f32⟩ : BufTy).Contents (Elt F)) (x12 : (⟨S128x128, .f32⟩ : BufTy).Contents (Elt F)) (x13 : (⟨S128, .f32⟩ : BufTy).Contents (Elt F)) : Prop :=
  V (Proc.devRef (τ := τ) .tc main_arg0) = x0 ∧
  V (Proc.devRef (τ := τ) .tc main_arg1) = x1 ∧
  V (Proc.devRef (τ := τ) .tc main_arg2) = x2 ∧
  V (Proc.devRef (τ := τ) .tc main_arg3) = x3 ∧
  V (Proc.devRef (τ := τ) .tc main_arg4) = x4 ∧
  V (Proc.devRef (τ := τ) .tc main_arg5) = x5 ∧
  V (Proc.devRef (τ := τ) .tc main_arg6) = x6 ∧
  V (Proc.devRef (τ := τ) .tc main_arg7) = x7 ∧
  V (Proc.devRef (τ := τ) .tc main_arg8) = x8 ∧
  V (Proc.devRef (τ := τ) .tc main_arg9) = x9 ∧
  V (Proc.devRef (τ := τ) .tc main_arg10) = x10 ∧
  V (Proc.devRef (τ := τ) .tc main_arg11) = x11 ∧
  V (Proc.devRef (τ := τ) .tc main_arg12) = x12 ∧
  V (Proc.devRef (τ := τ) .tc main_arg13) = x13 ∧
  V (Proc.devRef (τ := τ) .tc main_v1) = ReadP.val_main_v1 (F := F) x1 ∧
  V (Proc.devRef (τ := τ) .tc main_v3) = ReadP.val_main_v3 (F := F) x1 ∧
  V (Proc.devRef (τ := τ) .tc main_v8) = ReadP.val_main_v8 (F := F) x0 x2 x3 ∧
  V (Proc.devRef (τ := τ) .tc main_v45) = ReadP.val_main_v45 (F := F) x0 x1 x2 x3 x4 x5 x6 x7

set_option maxHeartbeats 1000000 in
/-- Stretch 4 (operations 27–52) carries the invariant of cut 3 to that of cut 4. -/
theorem step4 {V : Valuation τ sig (Elt F)} {x0 : (⟨S50000x128, .f32⟩ : BufTy).Contents (Elt F)} {x1 : (⟨S2x800000, .i32⟩ : BufTy).Contents (Elt F)} {x2 : (⟨S128x128, .f32⟩ : BufTy).Contents (Elt F)} {x3 : (⟨S128, .f32⟩ : BufTy).Contents (Elt F)} {x4 : (⟨S2x128x256, .f32⟩ : BufTy).Contents (Elt F)} {x5 : (⟨S2x128, .f32⟩ : BufTy).Contents (Elt F)} {x6 : (⟨S2x128x128, .f32⟩ : BufTy).Contents (Elt F)} {x7 : (⟨S2x128, .f32⟩ : BufTy).Contents (Elt F)} {x8 : (⟨S2x128x256, .f32⟩ : BufTy).Contents (Elt F)} {x9 : (⟨S2x128, .f32⟩ : BufTy).Contents (Elt F)} {x10 : (⟨S2x128, .f32⟩ : BufTy).Contents (Elt F)} {x11 : (⟨S2x128, .f32⟩ : BufTy).Contents (Elt F)} {x12 : (⟨S128x128, .f32⟩ : BufTy).Contents (Elt F)} {x13 : (⟨S128, .f32⟩ : BufTy).Contents (Elt F)}
    (h : Inv3 V x0 x1 x2 x3 x4 x5 x6 x7 x8 x9 x10 x11 x12 x13) : Inv4 (after s4 V) x0 x1 x2 x3 x4 x5 x6 x7 x8 x9 x10 x11 x12 x13 := by
  unfold Inv3 at h
  obtain ⟨a0, a1, a2, a3, a4, a5, a6, a7, a8, a9, a10, a11, a12, a13, h_v1, h_v3, h_v8, h_v15, h_v22⟩ := h
  unfold Inv4
  refine ⟨?_, ?_, ?_, ?_, ?_, ?_, ?_, ?_, ?_, ?_, ?_, ?_, ?_, ?_, ?_, ?_, ?_, ?_⟩
  · exact (frame4 V (by decide)).trans a0
  · exact (frame4 V (by decide)).trans a1
  · exact (frame4 V (by decide)).trans a2
  · exact (frame4 V (by decide)).trans a3
  · exact (frame4 V (by decide)).trans a4
  · exact (frame4 V (by decide)).trans a5
  · exact (frame4 V (by decide)).trans a6
  · exact (frame4 V (by decide)).trans a7
  · exact (frame4 V (by decide)).trans a8
  · exact (frame4 V (by decide)).trans a9
  · exact (frame4 V (by decide)).trans a10
  · exact (frame4 V (by decide)).trans a11
  · exact (frame4 V (by decide)).trans a12
  · exact (frame4 V (by decide)).trans a13
  · exact (frame4 V (by decide)).trans h_v1
  · exact (frame4 V (by decide)).trans h_v3
  · exact (frame4 V (by decide)).trans h_v8
  · after_results
    rw [h_v3, h_v15, h_v22, a4, a5, a6, a7]
    try simp only [TRef.ofBuf, TRef.toBuf, cast_eq]
    rfl

/-- Operations 53 to 63 of @main. -/
abbrev s5 : List (HloOp τ sig (Elt F)) :=
  [
    binary main_v8 main_v45 main_v46 ((fun a b => concatenate S50000x256 1 [⟨S50000x128, a⟩, ⟨S50000x128, b⟩] concatenates_S50000x128_S50000x128_S50000x256_d1) : (⟨S50000x128, .f32⟩ : BufTy).Contents (Elt F) → (⟨S50000x128, .f32⟩ : BufTy).Contents (Elt F) → (⟨S50000x256, .f32⟩ : BufTy).Contents (Elt F)),
    unary main_arg8 main_v47 ((extractStridedSlice S1x128x256 ![0, 0, 0] · slices_S2x128x256_S1x128x256_0_0_0) : (⟨S2x128x256, .f32⟩ : BufTy).Contents (Elt F) → (⟨S1x128x256, .f32⟩ : BufTy).Contents (Elt F)),
    reshape main_v47 main_v48 rfl shapeCasts_S1x128x256_S128x256,
    unary main_v48 main_v49 ((transpose S256x128 [1, 0] · transposes_S128x256_S256x128_1_0) : (⟨S128x256, .f32⟩ : BufTy).Contents (Elt F) → (⟨S256x128, .f32⟩ : BufTy).Contents (Elt F)),
    binary main_v46 main_v49 main_v50 ((fun l r => Host.dotGeneral dot_S50000x256_S256x128_S50000x128_1_0_0_1_n_n none l r) : (⟨S50000x256, .f32⟩ : BufTy).Contents (Elt F) → (⟨S256x128, .f32⟩ : BufTy).Contents (Elt F) → (⟨S50000x128, .f32⟩ : BufTy).Contents (Elt F)),
    unary main_arg9 main_v51 ((extractStridedSlice S1x128 ![0, 0] · slices_S2x128_S1x128_0_0) : (⟨S2x128, .f32⟩ : BufTy).Contents (Elt F) → (⟨S1x128, .f32⟩ : BufTy).Contents (Elt F)),
    reshape main_v51 main_v52 rfl shapeCasts_S1x128_S128,
    unary main_v52 main_v53 (broadcastInDim S1x128 ![1] bcast_S128_S1x128_1 : (⟨S128, .f32⟩ : BufTy).Contents (Elt F) → (⟨S1x128, .f32⟩ : BufTy).Contents (Elt F)),
    unary main_v53 main_v54 (broadcastInDim S50000x128 ![0, 1] bcast_S1x128_S50000x128_0_1 : (⟨S1x128, .f32⟩ : BufTy).Contents (Elt F) → (⟨S50000x128, .f32⟩ : BufTy).Contents (Elt F)),
    binary main_v50 main_v54 main_v55 (addf : (⟨S50000x128, .f32⟩ : BufTy).Contents (Elt F) → (⟨S50000x128, .f32⟩ : BufTy).Contents (Elt F) → (⟨S50000x128, .f32⟩ : BufTy).Contents (Elt F)),
    binary main_v8 main_v55 main_v56 (addf : (⟨S50000x128, .f32⟩ : BufTy).Contents (Elt F) → (⟨S50000x128, .f32⟩ : BufTy).Contents (Elt F) → (⟨S50000x128, .f32⟩ : BufTy).Contents (Elt F)) ]

/-- The buffers stretch 5 writes. -/
abbrev W5 : List (Ref sig .tc) := [main_v46, main_v47, main_v48, main_v49, main_v50, main_v51, main_v52, main_v53, main_v54, main_v55, main_v56]
theorem writes5 : (s5 : List (HloOp τ sig (Elt F))).Forall fun op => op.writes ⊆ (W5.map (Proc.devRef (τ := τ) .tc)).toFinset :=
  ⟨writes_sub_of main_v46 rfl (by decide),
   writes_sub_of main_v47 rfl (by decide),
   writes_sub_of main_v48 rfl (by decide),
   writes_sub_of main_v49 rfl (by decide),
   writes_sub_of main_v50 rfl (by decide),
   writes_sub_of main_v51 rfl (by decide),
   writes_sub_of main_v52 rfl (by decide),
   writes_sub_of main_v53 rfl (by decide),
   writes_sub_of main_v54 rfl (by decide),
   writes_sub_of main_v55 rfl (by decide),
   writes_sub_of main_v56 rfl (by decide)⟩
/-- A buffer stretch 5 does not write keeps its contents over it. -/
theorem frame5 (V : Valuation τ sig (Elt F)) {r : Ref sig .tc} (hr : r ∉ W5) :
    after s5 V (Proc.devRef .tc r) = V (Proc.devRef .tc r) :=
  after_of_writes_sub s5 V writes5 hr

/-- What the buffers hold at cut 5: every argument as given, and each value still read later at its stage. -/
def Inv5 (V : Valuation τ sig (Elt F)) (x0 : (⟨S50000x128, .f32⟩ : BufTy).Contents (Elt F)) (x1 : (⟨S2x800000, .i32⟩ : BufTy).Contents (Elt F)) (x2 : (⟨S128x128, .f32⟩ : BufTy).Contents (Elt F)) (x3 : (⟨S128, .f32⟩ : BufTy).Contents (Elt F)) (x4 : (⟨S2x128x256, .f32⟩ : BufTy).Contents (Elt F)) (x5 : (⟨S2x128, .f32⟩ : BufTy).Contents (Elt F)) (x6 : (⟨S2x128x128, .f32⟩ : BufTy).Contents (Elt F)) (x7 : (⟨S2x128, .f32⟩ : BufTy).Contents (Elt F)) (x8 : (⟨S2x128x256, .f32⟩ : BufTy).Contents (Elt F)) (x9 : (⟨S2x128, .f32⟩ : BufTy).Contents (Elt F)) (x10 : (⟨S2x128, .f32⟩ : BufTy).Contents (Elt F)) (x11 : (⟨S2x128, .f32⟩ : BufTy).Contents (Elt F)) (x12 : (⟨S128x128, .f32⟩ : BufTy).Contents (Elt F)) (x13 : (⟨S128, .f32⟩ : BufTy).Contents (Elt F)) : Prop :=
  V (Proc.devRef (τ := τ) .tc main_arg0) = x0 ∧
  V (Proc.devRef (τ := τ) .tc main_arg1) = x1 ∧
  V (Proc.devRef (τ := τ) .tc main_arg2) = x2 ∧
  V (Proc.devRef (τ := τ) .tc main_arg3) = x3 ∧
  V (Proc.devRef (τ := τ) .tc main_arg4) = x4 ∧
  V (Proc.devRef (τ := τ) .tc main_arg5) = x5 ∧
  V (Proc.devRef (τ := τ) .tc main_arg6) = x6 ∧
  V (Proc.devRef (τ := τ) .tc main_arg7) = x7 ∧
  V (Proc.devRef (τ := τ) .tc main_arg8) = x8 ∧
  V (Proc.devRef (τ := τ) .tc main_arg9) = x9 ∧
  V (Proc.devRef (τ := τ) .tc main_arg10) = x10 ∧
  V (Proc.devRef (τ := τ) .tc main_arg11) = x11 ∧
  V (Proc.devRef (τ := τ) .tc main_arg12) = x12 ∧
  V (Proc.devRef (τ := τ) .tc main_arg13) = x13 ∧
  V (Proc.devRef (τ := τ) .tc main_v1) = ReadP.val_main_v1 (F := F) x1 ∧
  V (Proc.devRef (τ := τ) .tc main_v3) = ReadP.val_main_v3 (F := F) x1 ∧
  V (Proc.devRef (τ := τ) .tc main_v56) = ReadP.val_main_v56 (F := F) x0 x1 x2 x3 x4 x5 x6 x7 x8 x9

set_option maxHeartbeats 1000000 in
/-- Stretch 5 (operations 53–63) carries the invariant of cut 4 to that of cut 5. -/
theorem step5 {V : Valuation τ sig (Elt F)} {x0 : (⟨S50000x128, .f32⟩ : BufTy).Contents (Elt F)} {x1 : (⟨S2x800000, .i32⟩ : BufTy).Contents (Elt F)} {x2 : (⟨S128x128, .f32⟩ : BufTy).Contents (Elt F)} {x3 : (⟨S128, .f32⟩ : BufTy).Contents (Elt F)} {x4 : (⟨S2x128x256, .f32⟩ : BufTy).Contents (Elt F)} {x5 : (⟨S2x128, .f32⟩ : BufTy).Contents (Elt F)} {x6 : (⟨S2x128x128, .f32⟩ : BufTy).Contents (Elt F)} {x7 : (⟨S2x128, .f32⟩ : BufTy).Contents (Elt F)} {x8 : (⟨S2x128x256, .f32⟩ : BufTy).Contents (Elt F)} {x9 : (⟨S2x128, .f32⟩ : BufTy).Contents (Elt F)} {x10 : (⟨S2x128, .f32⟩ : BufTy).Contents (Elt F)} {x11 : (⟨S2x128, .f32⟩ : BufTy).Contents (Elt F)} {x12 : (⟨S128x128, .f32⟩ : BufTy).Contents (Elt F)} {x13 : (⟨S128, .f32⟩ : BufTy).Contents (Elt F)}
    (h : Inv4 V x0 x1 x2 x3 x4 x5 x6 x7 x8 x9 x10 x11 x12 x13) : Inv5 (after s5 V) x0 x1 x2 x3 x4 x5 x6 x7 x8 x9 x10 x11 x12 x13 := by
  unfold Inv4 at h
  obtain ⟨a0, a1, a2, a3, a4, a5, a6, a7, a8, a9, a10, a11, a12, a13, h_v1, h_v3, h_v8, h_v45⟩ := h
  unfold Inv5
  refine ⟨?_, ?_, ?_, ?_, ?_, ?_, ?_, ?_, ?_, ?_, ?_, ?_, ?_, ?_, ?_, ?_, ?_⟩
  · exact (frame5 V (by decide)).trans a0
  · exact (frame5 V (by decide)).trans a1
  · exact (frame5 V (by decide)).trans a2
  · exact (frame5 V (by decide)).trans a3
  · exact (frame5 V (by decide)).trans a4
  · exact (frame5 V (by decide)).trans a5
  · exact (frame5 V (by decide)).trans a6
  · exact (frame5 V (by decide)).trans a7
  · exact (frame5 V (by decide)).trans a8
  · exact (frame5 V (by decide)).trans a9
  · exact (frame5 V (by decide)).trans a10
  · exact (frame5 V (by decide)).trans a11
  · exact (frame5 V (by decide)).trans a12
  · exact (frame5 V (by decide)).trans a13
  · exact (frame5 V (by decide)).trans h_v1
  · exact (frame5 V (by decide)).trans h_v3
  · after_results
    rw [h_v8, h_v45, a8, a9]
    rfl

/-- Operations 64 to 73 of @main. -/
abbrev s6 : List (HloOp τ sig (Elt F)) :=
  [
    unary main_arg10 main_v57 ((extractStridedSlice S1x128 ![0, 0] · slices_S2x128_S1x128_0_0) : (⟨S2x128, .f32⟩ : BufTy).Contents (Elt F) → (⟨S1x128, .f32⟩ : BufTy).Contents (Elt F)),
    reshape main_v57 main_v58 rfl shapeCasts_S1x128_S128,
    unary main_arg11 main_v59 ((extractStridedSlice S1x128 ![0, 0] · slices_S2x128_S1x128_0_0) : (⟨S2x128, .f32⟩ : BufTy).Contents (Elt F) → (⟨S1x128, .f32⟩ : BufTy).Contents (Elt F)),
    reshape main_v59 main_v60 rfl shapeCasts_S1x128_S128,
    nullary main_cst_3 (constant S_ .f32 0x00000000#32),
    binary main_v56 main_cst_3 main_v61 ((fun x v => Host.reduceAdd x v reducesTo_S50000x128_S50000_d1 h_S_) : (⟨S50000x128, .f32⟩ : BufTy).Contents (Elt F) → (⟨S_, .f32⟩ : BufTy).Contents (Elt F) → (⟨S50000, .f32⟩ : BufTy).Contents (Elt F)),
    unary main_v61 main_v62 (broadcastInDim S50000x1 ![0] bcast_S50000_S50000x1_0 : (⟨S50000, .f32⟩ : BufTy).Contents (Elt F) → (⟨S50000x1, .f32⟩ : BufTy).Contents (Elt F)),
    nullary main_cst_4 (constant S_ .f32 0x43000000#32),
    unary main_cst_4 main_v63 (broadcastInDim S50000x1 ![] bcast_S_S50000x1 : (⟨S_, .f32⟩ : BufTy).Contents (Elt F) → (⟨S50000x1, .f32⟩ : BufTy).Contents (Elt F)),
    binary main_v62 main_v63 main_v64 (Host.divf : (⟨S50000x1, .f32⟩ : BufTy).Contents (Elt F) → (⟨S50000x1, .f32⟩ : BufTy).Contents (Elt F) → (⟨S50000x1, .f32⟩ : BufTy).Contents (Elt F)) ]

/-- The buffers stretch 6 writes. -/
abbrev W6 : List (Ref sig .tc) := [main_v57, main_v58, main_v59, main_v60, main_cst_3, main_v61, main_v62, main_cst_4, main_v63, main_v64]
theorem writes6 : (s6 : List (HloOp τ sig (Elt F))).Forall fun op => op.writes ⊆ (W6.map (Proc.devRef (τ := τ) .tc)).toFinset :=
  ⟨writes_sub_of main_v57 rfl (by decide),
   writes_sub_of main_v58 rfl (by decide),
   writes_sub_of main_v59 rfl (by decide),
   writes_sub_of main_v60 rfl (by decide),
   writes_sub_of main_cst_3 rfl (by decide),
   writes_sub_of main_v61 rfl (by decide),
   writes_sub_of main_v62 rfl (by decide),
   writes_sub_of main_cst_4 rfl (by decide),
   writes_sub_of main_v63 rfl (by decide),
   writes_sub_of main_v64 rfl (by decide)⟩
/-- A buffer stretch 6 does not write keeps its contents over it. -/
theorem frame6 (V : Valuation τ sig (Elt F)) {r : Ref sig .tc} (hr : r ∉ W6) :
    after s6 V (Proc.devRef .tc r) = V (Proc.devRef .tc r) :=
  after_of_writes_sub s6 V writes6 hr

/-- What the buffers hold at cut 6: every argument as given, and each value still read later at its stage. -/
def Inv6 (V : Valuation τ sig (Elt F)) (x0 : (⟨S50000x128, .f32⟩ : BufTy).Contents (Elt F)) (x1 : (⟨S2x800000, .i32⟩ : BufTy).Contents (Elt F)) (x2 : (⟨S128x128, .f32⟩ : BufTy).Contents (Elt F)) (x3 : (⟨S128, .f32⟩ : BufTy).Contents (Elt F)) (x4 : (⟨S2x128x256, .f32⟩ : BufTy).Contents (Elt F)) (x5 : (⟨S2x128, .f32⟩ : BufTy).Contents (Elt F)) (x6 : (⟨S2x128x128, .f32⟩ : BufTy).Contents (Elt F)) (x7 : (⟨S2x128, .f32⟩ : BufTy).Contents (Elt F)) (x8 : (⟨S2x128x256, .f32⟩ : BufTy).Contents (Elt F)) (x9 : (⟨S2x128, .f32⟩ : BufTy).Contents (Elt F)) (x10 : (⟨S2x128, .f32⟩ : BufTy).Contents (Elt F)) (x11 : (⟨S2x128, .f32⟩ : BufTy).Contents (Elt F)) (x12 : (⟨S128x128, .f32⟩ : BufTy).Contents (Elt F)) (x13 : (⟨S128, .f32⟩ : BufTy).Contents (Elt F)) : Prop :=
  V (Proc.devRef (τ := τ) .tc main_arg0) = x0 ∧
  V (Proc.devRef (τ := τ) .tc main_arg1) = x1 ∧
  V (Proc.devRef (τ := τ) .tc main_arg2) = x2 ∧
  V (Proc.devRef (τ := τ) .tc main_arg3) = x3 ∧
  V (Proc.devRef (τ := τ) .tc main_arg4) = x4 ∧
  V (Proc.devRef (τ := τ) .tc main_arg5) = x5 ∧
  V (Proc.devRef (τ := τ) .tc main_arg6) = x6 ∧
  V (Proc.devRef (τ := τ) .tc main_arg7) = x7 ∧
  V (Proc.devRef (τ := τ) .tc main_arg8) = x8 ∧
  V (Proc.devRef (τ := τ) .tc main_arg9) = x9 ∧
  V (Proc.devRef (τ := τ) .tc main_arg10) = x10 ∧
  V (Proc.devRef (τ := τ) .tc main_arg11) = x11 ∧
  V (Proc.devRef (τ := τ) .tc main_arg12) = x12 ∧
  V (Proc.devRef (τ := τ) .tc main_arg13) = x13 ∧
  V (Proc.devRef (τ := τ) .tc main_v1) = ReadP.val_main_v1 (F := F) x1 ∧
  V (Proc.devRef (τ := τ) .tc main_v3) = ReadP.val_main_v3 (F := F) x1 ∧
  V (Proc.devRef (τ := τ) .tc main_v56) = ReadP.val_main_v56 (F := F) x0 x1 x2 x3 x4 x5 x6 x7 x8 x9 ∧
  V (Proc.devRef (τ := τ) .tc main_v58) = ReadP.val_main_v58 (F := F) x10 ∧
  V (Proc.devRef (τ := τ) .tc main_v60) = ReadP.val_main_v60 (F := F) x11 ∧
  V (Proc.devRef (τ := τ) .tc main_v64) = ReadP.val_main_v64 (F := F) x0 x1 x2 x3 x4 x5 x6 x7 x8 x9

set_option maxHeartbeats 1000000 in
/-- Stretch 6 (operations 64–73) carries the invariant of cut 5 to that of cut 6. -/
theorem step6 {V : Valuation τ sig (Elt F)} {x0 : (⟨S50000x128, .f32⟩ : BufTy).Contents (Elt F)} {x1 : (⟨S2x800000, .i32⟩ : BufTy).Contents (Elt F)} {x2 : (⟨S128x128, .f32⟩ : BufTy).Contents (Elt F)} {x3 : (⟨S128, .f32⟩ : BufTy).Contents (Elt F)} {x4 : (⟨S2x128x256, .f32⟩ : BufTy).Contents (Elt F)} {x5 : (⟨S2x128, .f32⟩ : BufTy).Contents (Elt F)} {x6 : (⟨S2x128x128, .f32⟩ : BufTy).Contents (Elt F)} {x7 : (⟨S2x128, .f32⟩ : BufTy).Contents (Elt F)} {x8 : (⟨S2x128x256, .f32⟩ : BufTy).Contents (Elt F)} {x9 : (⟨S2x128, .f32⟩ : BufTy).Contents (Elt F)} {x10 : (⟨S2x128, .f32⟩ : BufTy).Contents (Elt F)} {x11 : (⟨S2x128, .f32⟩ : BufTy).Contents (Elt F)} {x12 : (⟨S128x128, .f32⟩ : BufTy).Contents (Elt F)} {x13 : (⟨S128, .f32⟩ : BufTy).Contents (Elt F)}
    (h : Inv5 V x0 x1 x2 x3 x4 x5 x6 x7 x8 x9 x10 x11 x12 x13) : Inv6 (after s6 V) x0 x1 x2 x3 x4 x5 x6 x7 x8 x9 x10 x11 x12 x13 := by
  unfold Inv5 at h
  obtain ⟨a0, a1, a2, a3, a4, a5, a6, a7, a8, a9, a10, a11, a12, a13, h_v1, h_v3, h_v56⟩ := h
  unfold Inv6
  refine ⟨?_, ?_, ?_, ?_, ?_, ?_, ?_, ?_, ?_, ?_, ?_, ?_, ?_, ?_, ?_, ?_, ?_, ?_, ?_, ?_⟩
  · exact (frame6 V (by decide)).trans a0
  · exact (frame6 V (by decide)).trans a1
  · exact (frame6 V (by decide)).trans a2
  · exact (frame6 V (by decide)).trans a3
  · exact (frame6 V (by decide)).trans a4
  · exact (frame6 V (by decide)).trans a5
  · exact (frame6 V (by decide)).trans a6
  · exact (frame6 V (by decide)).trans a7
  · exact (frame6 V (by decide)).trans a8
  · exact (frame6 V (by decide)).trans a9
  · exact (frame6 V (by decide)).trans a10
  · exact (frame6 V (by decide)).trans a11
  · exact (frame6 V (by decide)).trans a12
  · exact (frame6 V (by decide)).trans a13
  · exact (frame6 V (by decide)).trans h_v1
  · exact (frame6 V (by decide)).trans h_v3
  · exact (frame6 V (by decide)).trans h_v56
  · after_results
    rw [a10]
    rfl
  · after_results
    rw [a11]
    rfl
  · after_results
    rw [h_v56]
    rfl

/-- Operations 74 to 96 of @main. -/
abbrev s7 : List (HloOp τ sig (Elt F)) :=
  [
    unary main_v64 main_v65 (broadcastInDim S50000x128 ![0, 1] bcast_S50000x1_S50000x128_0_1 : (⟨S50000x1, .f32⟩ : BufTy).Contents (Elt F) → (⟨S50000x128, .f32⟩ : BufTy).Contents (Elt F)),
    binary main_v56 main_v65 main_v66 (subf : (⟨S50000x128, .f32⟩ : BufTy).Contents (Elt F) → (⟨S50000x128, .f32⟩ : BufTy).Contents (Elt F) → (⟨S50000x128, .f32⟩ : BufTy).Contents (Elt F)),
    binary main_v66 main_v66 main_v67 (mulf : (⟨S50000x128, .f32⟩ : BufTy).Contents (Elt F) → (⟨S50000x128, .f32⟩ : BufTy).Contents (Elt F) → (⟨S50000x128, .f32⟩ : BufTy).Contents (Elt F)),
    nullary main_cst_5 (constant S_ .f32 0x00000000#32),
    binary main_v67 main_cst_5 main_v68 ((fun x v => Host.reduceAdd x v reducesTo_S50000x128_S50000_d1 h_S_) : (⟨S50000x128, .f32⟩ : BufTy).Contents (Elt F) → (⟨S_, .f32⟩ : BufTy).Contents (Elt F) → (⟨S50000, .f32⟩ : BufTy).Contents (Elt F)),
    unary main_v68 main_v69 (broadcastInDim S50000x1 ![0] bcast_S50000_S50000x1_0 : (⟨S50000, .f32⟩ : BufTy).Contents (Elt F) → (⟨S50000x1, .f32⟩ : BufTy).Contents (Elt F)),
    nullary main_cst_6 (constant S_ .f32 0x43000000#32),
    unary main_cst_6 main_v70 (broadcastInDim S50000x1 ![] bcast_S_S50000x1 : (⟨S_, .f32⟩ : BufTy).Contents (Elt F) → (⟨S50000x1, .f32⟩ : BufTy).Contents (Elt F)),
    binary main_v69 main_v70 main_v71 (Host.divf : (⟨S50000x1, .f32⟩ : BufTy).Contents (Elt F) → (⟨S50000x1, .f32⟩ : BufTy).Contents (Elt F) → (⟨S50000x1, .f32⟩ : BufTy).Contents (Elt F)),
    unary main_v64 main_v72 (broadcastInDim S50000x128 ![0, 1] bcast_S50000x1_S50000x128_0_1 : (⟨S50000x1, .f32⟩ : BufTy).Contents (Elt F) → (⟨S50000x128, .f32⟩ : BufTy).Contents (Elt F)),
    binary main_v56 main_v72 main_v73 (subf : (⟨S50000x128, .f32⟩ : BufTy).Contents (Elt F) → (⟨S50000x128, .f32⟩ : BufTy).Contents (Elt F) → (⟨S50000x128, .f32⟩ : BufTy).Contents (Elt F)),
    nullary main_cst_7 (constant S_ .f32 0x3727C5AC#32),
    unary main_cst_7 main_v74 (broadcastInDim S50000x1 ![] bcast_S_S50000x1 : (⟨S_, .f32⟩ : BufTy).Contents (Elt F) → (⟨S50000x1, .f32⟩ : BufTy).Contents (Elt F)),
    binary main_v71 main_v74 main_v75 (addf : (⟨S50000x1, .f32⟩ : BufTy).Contents (Elt F) → (⟨S50000x1, .f32⟩ : BufTy).Contents (Elt F) → (⟨S50000x1, .f32⟩ : BufTy).Contents (Elt F)),
    unary main_v75 main_v76 (Host.rsqrt : (⟨S50000x1, .f32⟩ : BufTy).Contents (Elt F) → (⟨S50000x1, .f32⟩ : BufTy).Contents (Elt F)),
    unary main_v76 main_v77 (broadcastInDim S50000x128 ![0, 1] bcast_S50000x1_S50000x128_0_1 : (⟨S50000x1, .f32⟩ : BufTy).Contents (Elt F) → (⟨S50000x128, .f32⟩ : BufTy).Contents (Elt F)),
    binary main_v73 main_v77 main_v78 (mulf : (⟨S50000x128, .f32⟩ : BufTy).Contents (Elt F) → (⟨S50000x128, .f32⟩ : BufTy).Contents (Elt F) → (⟨S50000x128, .f32⟩ : BufTy).Contents (Elt F)),
    unary main_v58 main_v79 (broadcastInDim S1x128 ![1] bcast_S128_S1x128_1 : (⟨S128, .f32⟩ : BufTy).Contents (Elt F) → (⟨S1x128, .f32⟩ : BufTy).Contents (Elt F)),
    unary main_v79 main_v80 (broadcastInDim S50000x128 ![0, 1] bcast_S1x128_S50000x128_0_1 : (⟨S1x128, .f32⟩ : BufTy).Contents (Elt F) → (⟨S50000x128, .f32⟩ : BufTy).Contents (Elt F)),
    binary main_v78 main_v80 main_v81 (mulf : (⟨S50000x128, .f32⟩ : BufTy).Contents (Elt F) → (⟨S50000x128, .f32⟩ : BufTy).Contents (Elt F) → (⟨S50000x128, .f32⟩ : BufTy).Contents (Elt F)),
    unary main_v60 main_v82 (broadcastInDim S1x128 ![1] bcast_S128_S1x128_1 : (⟨S128, .f32⟩ : BufTy).Contents (Elt F) → (⟨S1x128, .f32⟩ : BufTy).Contents (Elt F)),
    unary main_v82 main_v83 (broadcastInDim S50000x128 ![0, 1] bcast_S1x128_S50000x128_0_1 : (⟨S1x128, .f32⟩ : BufTy).Contents (Elt F) → (⟨S50000x128, .f32⟩ : BufTy).Contents (Elt F)),
    binary main_v81 main_v83 main_v84 (addf : (⟨S50000x128, .f32⟩ : BufTy).Contents (Elt F) → (⟨S50000x128, .f32⟩ : BufTy).Contents (Elt F) → (⟨S50000x128, .f32⟩ : BufTy).Contents (Elt F)) ]

/-- The buffers stretch 7 writes. -/
abbrev W7 : List (Ref sig .tc) := [main_v65, main_v66, main_v67, main_cst_5, main_v68, main_v69, main_cst_6, main_v70, main_v71, main_v72, main_v73, main_cst_7, main_v74, main_v75, main_v76, main_v77, main_v78, main_v79, main_v80, main_v81, main_v82, main_v83, main_v84]
theorem writes7 : (s7 : List (HloOp τ sig (Elt F))).Forall fun op => op.writes ⊆ (W7.map (Proc.devRef (τ := τ) .tc)).toFinset :=
  ⟨writes_sub_of main_v65 rfl (by decide),
   writes_sub_of main_v66 rfl (by decide),
   writes_sub_of main_v67 rfl (by decide),
   writes_sub_of main_cst_5 rfl (by decide),
   writes_sub_of main_v68 rfl (by decide),
   writes_sub_of main_v69 rfl (by decide),
   writes_sub_of main_cst_6 rfl (by decide),
   writes_sub_of main_v70 rfl (by decide),
   writes_sub_of main_v71 rfl (by decide),
   writes_sub_of main_v72 rfl (by decide),
   writes_sub_of main_v73 rfl (by decide),
   writes_sub_of main_cst_7 rfl (by decide),
   writes_sub_of main_v74 rfl (by decide),
   writes_sub_of main_v75 rfl (by decide),
   writes_sub_of main_v76 rfl (by decide),
   writes_sub_of main_v77 rfl (by decide),
   writes_sub_of main_v78 rfl (by decide),
   writes_sub_of main_v79 rfl (by decide),
   writes_sub_of main_v80 rfl (by decide),
   writes_sub_of main_v81 rfl (by decide),
   writes_sub_of main_v82 rfl (by decide),
   writes_sub_of main_v83 rfl (by decide),
   writes_sub_of main_v84 rfl (by decide)⟩
/-- A buffer stretch 7 does not write keeps its contents over it. -/
theorem frame7 (V : Valuation τ sig (Elt F)) {r : Ref sig .tc} (hr : r ∉ W7) :
    after s7 V (Proc.devRef .tc r) = V (Proc.devRef .tc r) :=
  after_of_writes_sub s7 V writes7 hr

/-- What the buffers hold at cut 7: every argument as given, and each value still read later at its stage. -/
def Inv7 (V : Valuation τ sig (Elt F)) (x0 : (⟨S50000x128, .f32⟩ : BufTy).Contents (Elt F)) (x1 : (⟨S2x800000, .i32⟩ : BufTy).Contents (Elt F)) (x2 : (⟨S128x128, .f32⟩ : BufTy).Contents (Elt F)) (x3 : (⟨S128, .f32⟩ : BufTy).Contents (Elt F)) (x4 : (⟨S2x128x256, .f32⟩ : BufTy).Contents (Elt F)) (x5 : (⟨S2x128, .f32⟩ : BufTy).Contents (Elt F)) (x6 : (⟨S2x128x128, .f32⟩ : BufTy).Contents (Elt F)) (x7 : (⟨S2x128, .f32⟩ : BufTy).Contents (Elt F)) (x8 : (⟨S2x128x256, .f32⟩ : BufTy).Contents (Elt F)) (x9 : (⟨S2x128, .f32⟩ : BufTy).Contents (Elt F)) (x10 : (⟨S2x128, .f32⟩ : BufTy).Contents (Elt F)) (x11 : (⟨S2x128, .f32⟩ : BufTy).Contents (Elt F)) (x12 : (⟨S128x128, .f32⟩ : BufTy).Contents (Elt F)) (x13 : (⟨S128, .f32⟩ : BufTy).Contents (Elt F)) : Prop :=
  V (Proc.devRef (τ := τ) .tc main_arg0) = x0 ∧
  V (Proc.devRef (τ := τ) .tc main_arg1) = x1 ∧
  V (Proc.devRef (τ := τ) .tc main_arg2) = x2 ∧
  V (Proc.devRef (τ := τ) .tc main_arg3) = x3 ∧
  V (Proc.devRef (τ := τ) .tc main_arg4) = x4 ∧
  V (Proc.devRef (τ := τ) .tc main_arg5) = x5 ∧
  V (Proc.devRef (τ := τ) .tc main_arg6) = x6 ∧
  V (Proc.devRef (τ := τ) .tc main_arg7) = x7 ∧
  V (Proc.devRef (τ := τ) .tc main_arg8) = x8 ∧
  V (Proc.devRef (τ := τ) .tc main_arg9) = x9 ∧
  V (Proc.devRef (τ := τ) .tc main_arg10) = x10 ∧
  V (Proc.devRef (τ := τ) .tc main_arg11) = x11 ∧
  V (Proc.devRef (τ := τ) .tc main_arg12) = x12 ∧
  V (Proc.devRef (τ := τ) .tc main_arg13) = x13 ∧
  V (Proc.devRef (τ := τ) .tc main_v1) = ReadP.val_main_v1 (F := F) x1 ∧
  V (Proc.devRef (τ := τ) .tc main_v3) = ReadP.val_main_v3 (F := F) x1 ∧
  V (Proc.devRef (τ := τ) .tc main_v84) = ReadP.val_main_v84 (F := F) x0 x1 x2 x3 x4 x5 x6 x7 x8 x9 x10 x11

set_option maxHeartbeats 1000000 in
/-- Stretch 7 (operations 74–96) carries the invariant of cut 6 to that of cut 7. -/
theorem step7 {V : Valuation τ sig (Elt F)} {x0 : (⟨S50000x128, .f32⟩ : BufTy).Contents (Elt F)} {x1 : (⟨S2x800000, .i32⟩ : BufTy).Contents (Elt F)} {x2 : (⟨S128x128, .f32⟩ : BufTy).Contents (Elt F)} {x3 : (⟨S128, .f32⟩ : BufTy).Contents (Elt F)} {x4 : (⟨S2x128x256, .f32⟩ : BufTy).Contents (Elt F)} {x5 : (⟨S2x128, .f32⟩ : BufTy).Contents (Elt F)} {x6 : (⟨S2x128x128, .f32⟩ : BufTy).Contents (Elt F)} {x7 : (⟨S2x128, .f32⟩ : BufTy).Contents (Elt F)} {x8 : (⟨S2x128x256, .f32⟩ : BufTy).Contents (Elt F)} {x9 : (⟨S2x128, .f32⟩ : BufTy).Contents (Elt F)} {x10 : (⟨S2x128, .f32⟩ : BufTy).Contents (Elt F)} {x11 : (⟨S2x128, .f32⟩ : BufTy).Contents (Elt F)} {x12 : (⟨S128x128, .f32⟩ : BufTy).Contents (Elt F)} {x13 : (⟨S128, .f32⟩ : BufTy).Contents (Elt F)}
    (h : Inv6 V x0 x1 x2 x3 x4 x5 x6 x7 x8 x9 x10 x11 x12 x13) : Inv7 (after s7 V) x0 x1 x2 x3 x4 x5 x6 x7 x8 x9 x10 x11 x12 x13 := by
  unfold Inv6 at h
  obtain ⟨a0, a1, a2, a3, a4, a5, a6, a7, a8, a9, a10, a11, a12, a13, h_v1, h_v3, h_v56, h_v58, h_v60, h_v64⟩ := h
  unfold Inv7
  refine ⟨?_, ?_, ?_, ?_, ?_, ?_, ?_, ?_, ?_, ?_, ?_, ?_, ?_, ?_, ?_, ?_, ?_⟩
  · exact (frame7 V (by decide)).trans a0
  · exact (frame7 V (by decide)).trans a1
  · exact (frame7 V (by decide)).trans a2
  · exact (frame7 V (by decide)).trans a3
  · exact (frame7 V (by decide)).trans a4
  · exact (frame7 V (by decide)).trans a5
  · exact (frame7 V (by decide)).trans a6
  · exact (frame7 V (by decide)).trans a7
  · exact (frame7 V (by decide)).trans a8
  · exact (frame7 V (by decide)).trans a9
  · exact (frame7 V (by decide)).trans a10
  · exact (frame7 V (by decide)).trans a11
  · exact (frame7 V (by decide)).trans a12
  · exact (frame7 V (by decide)).trans a13
  · exact (frame7 V (by decide)).trans h_v1
  · exact (frame7 V (by decide)).trans h_v3
  · after_results
    rw [h_v56, h_v64, h_v58, h_v60]
    rfl

/-- Operations 97 to 105 of @main. -/
abbrev s8 : List (HloOp τ sig (Elt F)) :=
  [
    nullary main_c_8 (constantI S_ 32 0#32),
    unary main_c_8 main_v85 (broadcastInDim S800000 ![] bcast_S_S800000 : (⟨S_, .i32⟩ : BufTy).Contents (Elt F) → (⟨S800000, .i32⟩ : BufTy).Contents (Elt F)),
    binary main_v1 main_v85 main_v86 (cmpi .slt : (⟨S800000, .i32⟩ : BufTy).Contents (Elt F) → (⟨S800000, .i32⟩ : BufTy).Contents (Elt F) → (⟨S800000, .i1⟩ : BufTy).Contents (Elt F)),
    nullary main_c_9 (constantI S_ 32 50000#32),
    unary main_c_9 main_v87 (broadcastInDim S800000 ![] bcast_S_S800000 : (⟨S_, .i32⟩ : BufTy).Contents (Elt F) → (⟨S800000, .i32⟩ : BufTy).Contents (Elt F)),
    binary main_v1 main_v87 main_v88 (addi : (⟨S800000, .i32⟩ : BufTy).Contents (Elt F) → (⟨S800000, .i32⟩ : BufTy).Contents (Elt F) → (⟨S800000, .i32⟩ : BufTy).Contents (Elt F)),
    ternary main_v86 main_v88 main_v1 main_v89 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    unary main_v89 main_v90 (broadcastInDim S800000x1 ![0] bcast_S800000_S800000x1_0 : (⟨S800000, .i32⟩ : BufTy).Contents (Elt F) → (⟨S800000x1, .i32⟩ : BufTy).Contents (Elt F)),
    binary main_v84 main_v90 main_v91 ((fun x i => Host.gather gather_S50000x128_S800000x1_S800000x128_1_0_n_n_0_1_1128 x i) : (⟨S50000x128, .f32⟩ : BufTy).Contents (Elt F) → (⟨S800000x1, .i32⟩ : BufTy).Contents (Elt F) → (⟨S800000x128, .f32⟩ : BufTy).Contents (Elt F)) ]

/-- The buffers stretch 8 writes. -/
abbrev W8 : List (Ref sig .tc) := [main_c_8, main_v85, main_v86, main_c_9, main_v87, main_v88, main_v89, main_v90, main_v91]
theorem writes8 : (s8 : List (HloOp τ sig (Elt F))).Forall fun op => op.writes ⊆ (W8.map (Proc.devRef (τ := τ) .tc)).toFinset :=
  ⟨writes_sub_of main_c_8 rfl (by decide),
   writes_sub_of main_v85 rfl (by decide),
   writes_sub_of main_v86 rfl (by decide),
   writes_sub_of main_c_9 rfl (by decide),
   writes_sub_of main_v87 rfl (by decide),
   writes_sub_of main_v88 rfl (by decide),
   writes_sub_of main_v89 rfl (by decide),
   writes_sub_of main_v90 rfl (by decide),
   writes_sub_of main_v91 rfl (by decide)⟩
/-- A buffer stretch 8 does not write keeps its contents over it. -/
theorem frame8 (V : Valuation τ sig (Elt F)) {r : Ref sig .tc} (hr : r ∉ W8) :
    after s8 V (Proc.devRef .tc r) = V (Proc.devRef .tc r) :=
  after_of_writes_sub s8 V writes8 hr

/-- What the buffers hold at cut 8: every argument as given, and each value still read later at its stage. -/
def Inv8 (V : Valuation τ sig (Elt F)) (x0 : (⟨S50000x128, .f32⟩ : BufTy).Contents (Elt F)) (x1 : (⟨S2x800000, .i32⟩ : BufTy).Contents (Elt F)) (x2 : (⟨S128x128, .f32⟩ : BufTy).Contents (Elt F)) (x3 : (⟨S128, .f32⟩ : BufTy).Contents (Elt F)) (x4 : (⟨S2x128x256, .f32⟩ : BufTy).Contents (Elt F)) (x5 : (⟨S2x128, .f32⟩ : BufTy).Contents (Elt F)) (x6 : (⟨S2x128x128, .f32⟩ : BufTy).Contents (Elt F)) (x7 : (⟨S2x128, .f32⟩ : BufTy).Contents (Elt F)) (x8 : (⟨S2x128x256, .f32⟩ : BufTy).Contents (Elt F)) (x9 : (⟨S2x128, .f32⟩ : BufTy).Contents (Elt F)) (x10 : (⟨S2x128, .f32⟩ : BufTy).Contents (Elt F)) (x11 : (⟨S2x128, .f32⟩ : BufTy).Contents (Elt F)) (x12 : (⟨S128x128, .f32⟩ : BufTy).Contents (Elt F)) (x13 : (⟨S128, .f32⟩ : BufTy).Contents (Elt F)) : Prop :=
  V (Proc.devRef (τ := τ) .tc main_arg0) = x0 ∧
  V (Proc.devRef (τ := τ) .tc main_arg1) = x1 ∧
  V (Proc.devRef (τ := τ) .tc main_arg2) = x2 ∧
  V (Proc.devRef (τ := τ) .tc main_arg3) = x3 ∧
  V (Proc.devRef (τ := τ) .tc main_arg4) = x4 ∧
  V (Proc.devRef (τ := τ) .tc main_arg5) = x5 ∧
  V (Proc.devRef (τ := τ) .tc main_arg6) = x6 ∧
  V (Proc.devRef (τ := τ) .tc main_arg7) = x7 ∧
  V (Proc.devRef (τ := τ) .tc main_arg8) = x8 ∧
  V (Proc.devRef (τ := τ) .tc main_arg9) = x9 ∧
  V (Proc.devRef (τ := τ) .tc main_arg10) = x10 ∧
  V (Proc.devRef (τ := τ) .tc main_arg11) = x11 ∧
  V (Proc.devRef (τ := τ) .tc main_arg12) = x12 ∧
  V (Proc.devRef (τ := τ) .tc main_arg13) = x13 ∧
  V (Proc.devRef (τ := τ) .tc main_v3) = ReadP.val_main_v3 (F := F) x1 ∧
  V (Proc.devRef (τ := τ) .tc main_v84) = ReadP.val_main_v84 (F := F) x0 x1 x2 x3 x4 x5 x6 x7 x8 x9 x10 x11 ∧
  V (Proc.devRef (τ := τ) .tc main_v91) = ReadP.val_main_v91 (F := F) x0 x1 x2 x3 x4 x5 x6 x7 x8 x9 x10 x11

set_option maxHeartbeats 1000000 in
/-- Stretch 8 (operations 97–105) carries the invariant of cut 7 to that of cut 8. -/
theorem step8 {V : Valuation τ sig (Elt F)} {x0 : (⟨S50000x128, .f32⟩ : BufTy).Contents (Elt F)} {x1 : (⟨S2x800000, .i32⟩ : BufTy).Contents (Elt F)} {x2 : (⟨S128x128, .f32⟩ : BufTy).Contents (Elt F)} {x3 : (⟨S128, .f32⟩ : BufTy).Contents (Elt F)} {x4 : (⟨S2x128x256, .f32⟩ : BufTy).Contents (Elt F)} {x5 : (⟨S2x128, .f32⟩ : BufTy).Contents (Elt F)} {x6 : (⟨S2x128x128, .f32⟩ : BufTy).Contents (Elt F)} {x7 : (⟨S2x128, .f32⟩ : BufTy).Contents (Elt F)} {x8 : (⟨S2x128x256, .f32⟩ : BufTy).Contents (Elt F)} {x9 : (⟨S2x128, .f32⟩ : BufTy).Contents (Elt F)} {x10 : (⟨S2x128, .f32⟩ : BufTy).Contents (Elt F)} {x11 : (⟨S2x128, .f32⟩ : BufTy).Contents (Elt F)} {x12 : (⟨S128x128, .f32⟩ : BufTy).Contents (Elt F)} {x13 : (⟨S128, .f32⟩ : BufTy).Contents (Elt F)}
    (h : Inv7 V x0 x1 x2 x3 x4 x5 x6 x7 x8 x9 x10 x11 x12 x13) : Inv8 (after s8 V) x0 x1 x2 x3 x4 x5 x6 x7 x8 x9 x10 x11 x12 x13 := by
  unfold Inv7 at h
  obtain ⟨a0, a1, a2, a3, a4, a5, a6, a7, a8, a9, a10, a11, a12, a13, h_v1, h_v3, h_v84⟩ := h
  unfold Inv8
  refine ⟨?_, ?_, ?_, ?_, ?_, ?_, ?_, ?_, ?_, ?_, ?_, ?_, ?_, ?_, ?_, ?_, ?_⟩
  · exact (frame8 V (by decide)).trans a0
  · exact (frame8 V (by decide)).trans a1
  · exact (frame8 V (by decide)).trans a2
  · exact (frame8 V (by decide)).trans a3
  · exact (frame8 V (by decide)).trans a4
  · exact (frame8 V (by decide)).trans a5
  · exact (frame8 V (by decide)).trans a6
  · exact (frame8 V (by decide)).trans a7
  · exact (frame8 V (by decide)).trans a8
  · exact (frame8 V (by decide)).trans a9
  · exact (frame8 V (by decide)).trans a10
  · exact (frame8 V (by decide)).trans a11
  · exact (frame8 V (by decide)).trans a12
  · exact (frame8 V (by decide)).trans a13
  · exact (frame8 V (by decide)).trans h_v3
  · exact (frame8 V (by decide)).trans h_v84
  · after_results
    rw [h_v84, h_v1]
    rfl

/-- Operations 106 to 114 of @main. -/
abbrev s9 : List (HloOp τ sig (Elt F)) :=
  [
    nullary main_c_10 (constantI S_ 32 0#32),
    unary main_c_10 main_v92 (broadcastInDim S800000 ![] bcast_S_S800000 : (⟨S_, .i32⟩ : BufTy).Contents (Elt F) → (⟨S800000, .i32⟩ : BufTy).Contents (Elt F)),
    binary main_v3 main_v92 main_v93 (cmpi .slt : (⟨S800000, .i32⟩ : BufTy).Contents (Elt F) → (⟨S800000, .i32⟩ : BufTy).Contents (Elt F) → (⟨S800000, .i1⟩ : BufTy).Contents (Elt F)),
    nullary main_c_11 (constantI S_ 32 50000#32),
    unary main_c_11 main_v94 (broadcastInDim S800000 ![] bcast_S_S800000 : (⟨S_, .i32⟩ : BufTy).Contents (Elt F) → (⟨S800000, .i32⟩ : BufTy).Contents (Elt F)),
    binary main_v3 main_v94 main_v95 (addi : (⟨S800000, .i32⟩ : BufTy).Contents (Elt F) → (⟨S800000, .i32⟩ : BufTy).Contents (Elt F) → (⟨S800000, .i32⟩ : BufTy).Contents (Elt F)),
    ternary main_v93 main_v95 main_v3 main_v96 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    unary main_v96 main_v97 (broadcastInDim S800000x1 ![0] bcast_S800000_S800000x1_0 : (⟨S800000, .i32⟩ : BufTy).Contents (Elt F) → (⟨S800000x1, .i32⟩ : BufTy).Contents (Elt F)),
    binary main_v84 main_v97 main_v98 ((fun x i => Host.gather gather_S50000x128_S800000x1_S800000x128_1_0_n_n_0_1_1128 x i) : (⟨S50000x128, .f32⟩ : BufTy).Contents (Elt F) → (⟨S800000x1, .i32⟩ : BufTy).Contents (Elt F) → (⟨S800000x128, .f32⟩ : BufTy).Contents (Elt F)) ]

/-- The buffers stretch 9 writes. -/
abbrev W9 : List (Ref sig .tc) := [main_c_10, main_v92, main_v93, main_c_11, main_v94, main_v95, main_v96, main_v97, main_v98]
theorem writes9 : (s9 : List (HloOp τ sig (Elt F))).Forall fun op => op.writes ⊆ (W9.map (Proc.devRef (τ := τ) .tc)).toFinset :=
  ⟨writes_sub_of main_c_10 rfl (by decide),
   writes_sub_of main_v92 rfl (by decide),
   writes_sub_of main_v93 rfl (by decide),
   writes_sub_of main_c_11 rfl (by decide),
   writes_sub_of main_v94 rfl (by decide),
   writes_sub_of main_v95 rfl (by decide),
   writes_sub_of main_v96 rfl (by decide),
   writes_sub_of main_v97 rfl (by decide),
   writes_sub_of main_v98 rfl (by decide)⟩
/-- A buffer stretch 9 does not write keeps its contents over it. -/
theorem frame9 (V : Valuation τ sig (Elt F)) {r : Ref sig .tc} (hr : r ∉ W9) :
    after s9 V (Proc.devRef .tc r) = V (Proc.devRef .tc r) :=
  after_of_writes_sub s9 V writes9 hr

/-- What the buffers hold at cut 9: every argument as given, and each value still read later at its stage. -/
def Inv9 (V : Valuation τ sig (Elt F)) (x0 : (⟨S50000x128, .f32⟩ : BufTy).Contents (Elt F)) (x1 : (⟨S2x800000, .i32⟩ : BufTy).Contents (Elt F)) (x2 : (⟨S128x128, .f32⟩ : BufTy).Contents (Elt F)) (x3 : (⟨S128, .f32⟩ : BufTy).Contents (Elt F)) (x4 : (⟨S2x128x256, .f32⟩ : BufTy).Contents (Elt F)) (x5 : (⟨S2x128, .f32⟩ : BufTy).Contents (Elt F)) (x6 : (⟨S2x128x128, .f32⟩ : BufTy).Contents (Elt F)) (x7 : (⟨S2x128, .f32⟩ : BufTy).Contents (Elt F)) (x8 : (⟨S2x128x256, .f32⟩ : BufTy).Contents (Elt F)) (x9 : (⟨S2x128, .f32⟩ : BufTy).Contents (Elt F)) (x10 : (⟨S2x128, .f32⟩ : BufTy).Contents (Elt F)) (x11 : (⟨S2x128, .f32⟩ : BufTy).Contents (Elt F)) (x12 : (⟨S128x128, .f32⟩ : BufTy).Contents (Elt F)) (x13 : (⟨S128, .f32⟩ : BufTy).Contents (Elt F)) : Prop :=
  V (Proc.devRef (τ := τ) .tc main_arg0) = x0 ∧
  V (Proc.devRef (τ := τ) .tc main_arg1) = x1 ∧
  V (Proc.devRef (τ := τ) .tc main_arg2) = x2 ∧
  V (Proc.devRef (τ := τ) .tc main_arg3) = x3 ∧
  V (Proc.devRef (τ := τ) .tc main_arg4) = x4 ∧
  V (Proc.devRef (τ := τ) .tc main_arg5) = x5 ∧
  V (Proc.devRef (τ := τ) .tc main_arg6) = x6 ∧
  V (Proc.devRef (τ := τ) .tc main_arg7) = x7 ∧
  V (Proc.devRef (τ := τ) .tc main_arg8) = x8 ∧
  V (Proc.devRef (τ := τ) .tc main_arg9) = x9 ∧
  V (Proc.devRef (τ := τ) .tc main_arg10) = x10 ∧
  V (Proc.devRef (τ := τ) .tc main_arg11) = x11 ∧
  V (Proc.devRef (τ := τ) .tc main_arg12) = x12 ∧
  V (Proc.devRef (τ := τ) .tc main_arg13) = x13 ∧
  V (Proc.devRef (τ := τ) .tc main_v3) = ReadP.val_main_v3 (F := F) x1 ∧
  V (Proc.devRef (τ := τ) .tc main_v84) = ReadP.val_main_v84 (F := F) x0 x1 x2 x3 x4 x5 x6 x7 x8 x9 x10 x11 ∧
  V (Proc.devRef (τ := τ) .tc main_v91) = ReadP.val_main_v91 (F := F) x0 x1 x2 x3 x4 x5 x6 x7 x8 x9 x10 x11 ∧
  V (Proc.devRef (τ := τ) .tc main_v98) = ReadP.val_main_v98 (F := F) x0 x1 x2 x3 x4 x5 x6 x7 x8 x9 x10 x11

set_option maxHeartbeats 1000000 in
/-- Stretch 9 (operations 106–114) carries the invariant of cut 8 to that of cut 9. -/
theorem step9 {V : Valuation τ sig (Elt F)} {x0 : (⟨S50000x128, .f32⟩ : BufTy).Contents (Elt F)} {x1 : (⟨S2x800000, .i32⟩ : BufTy).Contents (Elt F)} {x2 : (⟨S128x128, .f32⟩ : BufTy).Contents (Elt F)} {x3 : (⟨S128, .f32⟩ : BufTy).Contents (Elt F)} {x4 : (⟨S2x128x256, .f32⟩ : BufTy).Contents (Elt F)} {x5 : (⟨S2x128, .f32⟩ : BufTy).Contents (Elt F)} {x6 : (⟨S2x128x128, .f32⟩ : BufTy).Contents (Elt F)} {x7 : (⟨S2x128, .f32⟩ : BufTy).Contents (Elt F)} {x8 : (⟨S2x128x256, .f32⟩ : BufTy).Contents (Elt F)} {x9 : (⟨S2x128, .f32⟩ : BufTy).Contents (Elt F)} {x10 : (⟨S2x128, .f32⟩ : BufTy).Contents (Elt F)} {x11 : (⟨S2x128, .f32⟩ : BufTy).Contents (Elt F)} {x12 : (⟨S128x128, .f32⟩ : BufTy).Contents (Elt F)} {x13 : (⟨S128, .f32⟩ : BufTy).Contents (Elt F)}
    (h : Inv8 V x0 x1 x2 x3 x4 x5 x6 x7 x8 x9 x10 x11 x12 x13) : Inv9 (after s9 V) x0 x1 x2 x3 x4 x5 x6 x7 x8 x9 x10 x11 x12 x13 := by
  unfold Inv8 at h
  obtain ⟨a0, a1, a2, a3, a4, a5, a6, a7, a8, a9, a10, a11, a12, a13, h_v3, h_v84, h_v91⟩ := h
  unfold Inv9
  refine ⟨?_, ?_, ?_, ?_, ?_, ?_, ?_, ?_, ?_, ?_, ?_, ?_, ?_, ?_, ?_, ?_, ?_, ?_⟩
  · exact (frame9 V (by decide)).trans a0
  · exact (frame9 V (by decide)).trans a1
  · exact (frame9 V (by decide)).trans a2
  · exact (frame9 V (by decide)).trans a3
  · exact (frame9 V (by decide)).trans a4
  · exact (frame9 V (by decide)).trans a5
  · exact (frame9 V (by decide)).trans a6
  · exact (frame9 V (by decide)).trans a7
  · exact (frame9 V (by decide)).trans a8
  · exact (frame9 V (by decide)).trans a9
  · exact (frame9 V (by decide)).trans a10
  · exact (frame9 V (by decide)).trans a11
  · exact (frame9 V (by decide)).trans a12
  · exact (frame9 V (by decide)).trans a13
  · exact (frame9 V (by decide)).trans h_v3
  · exact (frame9 V (by decide)).trans h_v84
  · exact (frame9 V (by decide)).trans h_v91
  · after_results
    rw [h_v84, h_v3]
    rfl

/-- Operations 115 to 140 of @main. -/
abbrev s10 : List (HloOp τ sig (Elt F)) :=
  [
    binary main_v91 main_v98 main_v99 ((fun a b => concatenate S800000x256 1 [⟨S800000x128, a⟩, ⟨S800000x128, b⟩] concatenates_S800000x128_S800000x128_S800000x256_d1) : (⟨S800000x128, .f32⟩ : BufTy).Contents (Elt F) → (⟨S800000x128, .f32⟩ : BufTy).Contents (Elt F) → (⟨S800000x256, .f32⟩ : BufTy).Contents (Elt F)),
    unary main_arg4 main_v100 ((extractStridedSlice S1x128x256 ![1, 0, 0] · slices_S2x128x256_S1x128x256_1_0_0) : (⟨S2x128x256, .f32⟩ : BufTy).Contents (Elt F) → (⟨S1x128x256, .f32⟩ : BufTy).Contents (Elt F)),
    reshape main_v100 main_v101 rfl shapeCasts_S1x128x256_S128x256,
    unary main_v101 main_v102 ((transpose S256x128 [1, 0] · transposes_S128x256_S256x128_1_0) : (⟨S128x256, .f32⟩ : BufTy).Contents (Elt F) → (⟨S256x128, .f32⟩ : BufTy).Contents (Elt F)),
    binary main_v99 main_v102 main_v103 ((fun l r => Host.dotGeneral dot_S800000x256_S256x128_S800000x128_1_0_0_1_n_n none l r) : (⟨S800000x256, .f32⟩ : BufTy).Contents (Elt F) → (⟨S256x128, .f32⟩ : BufTy).Contents (Elt F) → (⟨S800000x128, .f32⟩ : BufTy).Contents (Elt F)),
    unary main_arg5 main_v104 ((extractStridedSlice S1x128 ![1, 0] · slices_S2x128_S1x128_1_0) : (⟨S2x128, .f32⟩ : BufTy).Contents (Elt F) → (⟨S1x128, .f32⟩ : BufTy).Contents (Elt F)),
    reshape main_v104 main_v105 rfl shapeCasts_S1x128_S128,
    unary main_v105 main_v106 (broadcastInDim S1x128 ![1] bcast_S128_S1x128_1 : (⟨S128, .f32⟩ : BufTy).Contents (Elt F) → (⟨S1x128, .f32⟩ : BufTy).Contents (Elt F)),
    unary main_v106 main_v107 (broadcastInDim S800000x128 ![0, 1] bcast_S1x128_S800000x128_0_1 : (⟨S1x128, .f32⟩ : BufTy).Contents (Elt F) → (⟨S800000x128, .f32⟩ : BufTy).Contents (Elt F)),
    binary main_v103 main_v107 main_v108 (addf : (⟨S800000x128, .f32⟩ : BufTy).Contents (Elt F) → (⟨S800000x128, .f32⟩ : BufTy).Contents (Elt F) → (⟨S800000x128, .f32⟩ : BufTy).Contents (Elt F)),
    TRef.nullary (TRef.of (T := ⟨S_, .f32⟩) main_call1_cst) (constant S_ .f32 0x00000000#32),
    TRef.unary (TRef.of (T := ⟨S_, .f32⟩) main_call1_cst) (TRef.of (T := ⟨S800000x128, .f32⟩) main_call1_v0) (broadcastInDim S800000x128 ![] bcast_S_S800000x128),
    TRef.binary (TRef.of (T := ⟨S800000x128, .f32⟩) main_v108) (TRef.of (T := ⟨S800000x128, .f32⟩) main_call1_v0) (TRef.of (T := ⟨S800000x128, .f32⟩) main_v109) maximumf,
    unary main_arg6 main_v110 ((extractStridedSlice S1x128x128 ![1, 0, 0] · slices_S2x128x128_S1x128x128_1_0_0) : (⟨S2x128x128, .f32⟩ : BufTy).Contents (Elt F) → (⟨S1x128x128, .f32⟩ : BufTy).Contents (Elt F)),
    reshape main_v110 main_v111 rfl shapeCasts_S1x128x128_S128x128,
    unary main_v111 main_v112 ((transpose S128x128 [1, 0] · transposes_S128x128_S128x128_1_0) : (⟨S128x128, .f32⟩ : BufTy).Contents (Elt F) → (⟨S128x128, .f32⟩ : BufTy).Contents (Elt F)),
    binary main_v109 main_v112 main_v113 ((fun l r => Host.dotGeneral dot_S800000x128_S128x128_S800000x128_1_0_0_1_n_n none l r) : (⟨S800000x128, .f32⟩ : BufTy).Contents (Elt F) → (⟨S128x128, .f32⟩ : BufTy).Contents (Elt F) → (⟨S800000x128, .f32⟩ : BufTy).Contents (Elt F)),
    unary main_arg7 main_v114 ((extractStridedSlice S1x128 ![1, 0] · slices_S2x128_S1x128_1_0) : (⟨S2x128, .f32⟩ : BufTy).Contents (Elt F) → (⟨S1x128, .f32⟩ : BufTy).Contents (Elt F)),
    reshape main_v114 main_v115 rfl shapeCasts_S1x128_S128,
    unary main_v115 main_v116 (broadcastInDim S1x128 ![1] bcast_S128_S1x128_1 : (⟨S128, .f32⟩ : BufTy).Contents (Elt F) → (⟨S1x128, .f32⟩ : BufTy).Contents (Elt F)),
    unary main_v116 main_v117 (broadcastInDim S800000x128 ![0, 1] bcast_S1x128_S800000x128_0_1 : (⟨S1x128, .f32⟩ : BufTy).Contents (Elt F) → (⟨S800000x128, .f32⟩ : BufTy).Contents (Elt F)),
    binary main_v113 main_v117 main_v118 (addf : (⟨S800000x128, .f32⟩ : BufTy).Contents (Elt F) → (⟨S800000x128, .f32⟩ : BufTy).Contents (Elt F) → (⟨S800000x128, .f32⟩ : BufTy).Contents (Elt F)),
    nullary main_cst_12 (constant S_ .f32 0x00000000#32),
    unary main_cst_12 main_v119 (broadcastInDim S50000x128 ![] bcast_S_S50000x128 : (⟨S_, .f32⟩ : BufTy).Contents (Elt F) → (⟨S50000x128, .f32⟩ : BufTy).Contents (Elt F)),
    unary main_v3 main_v120 (broadcastInDim S800000x1 ![0] bcast_S800000_S800000x1_0 : (⟨S800000, .i32⟩ : BufTy).Contents (Elt F) → (⟨S800000x1, .i32⟩ : BufTy).Contents (Elt F)),
    ternary main_v119 main_v120 main_v118 main_v121 ((fun x i u => Host.scatterAdd scatter_S50000x128_S800000x1_S800000x128_1_0_0_1 x i u) : (⟨S50000x128, .f32⟩ : BufTy).Contents (Elt F) → (⟨S800000x1, .i32⟩ : BufTy).Contents (Elt F) → (⟨S800000x128, .f32⟩ : BufTy).Contents (Elt F) → (⟨S50000x128, .f32⟩ : BufTy).Contents (Elt F)) ]

/-- The buffers stretch 10 writes. -/
abbrev W10 : List (Ref sig .tc) := [main_v99, main_v100, main_v101, main_v102, main_v103, main_v104, main_v105, main_v106, main_v107, main_v108, main_call1_cst, main_call1_v0, main_v109, main_v110, main_v111, main_v112, main_v113, main_v114, main_v115, main_v116, main_v117, main_v118, main_cst_12, main_v119, main_v120, main_v121]
theorem writes10 : (s10 : List (HloOp τ sig (Elt F))).Forall fun op => op.writes ⊆ (W10.map (Proc.devRef (τ := τ) .tc)).toFinset :=
  ⟨writes_sub_of main_v99 rfl (by decide),
   writes_sub_of main_v100 rfl (by decide),
   writes_sub_of main_v101 rfl (by decide),
   writes_sub_of main_v102 rfl (by decide),
   writes_sub_of main_v103 rfl (by decide),
   writes_sub_of main_v104 rfl (by decide),
   writes_sub_of main_v105 rfl (by decide),
   writes_sub_of main_v106 rfl (by decide),
   writes_sub_of main_v107 rfl (by decide),
   writes_sub_of main_v108 rfl (by decide),
   writes_sub_of main_call1_cst rfl (by decide),
   writes_sub_of main_call1_v0 rfl (by decide),
   writes_sub_of main_v109 rfl (by decide),
   writes_sub_of main_v110 rfl (by decide),
   writes_sub_of main_v111 rfl (by decide),
   writes_sub_of main_v112 rfl (by decide),
   writes_sub_of main_v113 rfl (by decide),
   writes_sub_of main_v114 rfl (by decide),
   writes_sub_of main_v115 rfl (by decide),
   writes_sub_of main_v116 rfl (by decide),
   writes_sub_of main_v117 rfl (by decide),
   writes_sub_of main_v118 rfl (by decide),
   writes_sub_of main_cst_12 rfl (by decide),
   writes_sub_of main_v119 rfl (by decide),
   writes_sub_of main_v120 rfl (by decide),
   writes_sub_of main_v121 rfl (by decide)⟩
/-- A buffer stretch 10 does not write keeps its contents over it. -/
theorem frame10 (V : Valuation τ sig (Elt F)) {r : Ref sig .tc} (hr : r ∉ W10) :
    after s10 V (Proc.devRef .tc r) = V (Proc.devRef .tc r) :=
  after_of_writes_sub s10 V writes10 hr

/-- What the buffers hold at cut 10: every argument as given, and each value still read later at its stage. -/
def Inv10 (V : Valuation τ sig (Elt F)) (x0 : (⟨S50000x128, .f32⟩ : BufTy).Contents (Elt F)) (x1 : (⟨S2x800000, .i32⟩ : BufTy).Contents (Elt F)) (x2 : (⟨S128x128, .f32⟩ : BufTy).Contents (Elt F)) (x3 : (⟨S128, .f32⟩ : BufTy).Contents (Elt F)) (x4 : (⟨S2x128x256, .f32⟩ : BufTy).Contents (Elt F)) (x5 : (⟨S2x128, .f32⟩ : BufTy).Contents (Elt F)) (x6 : (⟨S2x128x128, .f32⟩ : BufTy).Contents (Elt F)) (x7 : (⟨S2x128, .f32⟩ : BufTy).Contents (Elt F)) (x8 : (⟨S2x128x256, .f32⟩ : BufTy).Contents (Elt F)) (x9 : (⟨S2x128, .f32⟩ : BufTy).Contents (Elt F)) (x10 : (⟨S2x128, .f32⟩ : BufTy).Contents (Elt F)) (x11 : (⟨S2x128, .f32⟩ : BufTy).Contents (Elt F)) (x12 : (⟨S128x128, .f32⟩ : BufTy).Contents (Elt F)) (x13 : (⟨S128, .f32⟩ : BufTy).Contents (Elt F)) : Prop :=
  V (Proc.devRef (τ := τ) .tc main_arg0) = x0 ∧
  V (Proc.devRef (τ := τ) .tc main_arg1) = x1 ∧
  V (Proc.devRef (τ := τ) .tc main_arg2) = x2 ∧
  V (Proc.devRef (τ := τ) .tc main_arg3) = x3 ∧
  V (Proc.devRef (τ := τ) .tc main_arg4) = x4 ∧
  V (Proc.devRef (τ := τ) .tc main_arg5) = x5 ∧
  V (Proc.devRef (τ := τ) .tc main_arg6) = x6 ∧
  V (Proc.devRef (τ := τ) .tc main_arg7) = x7 ∧
  V (Proc.devRef (τ := τ) .tc main_arg8) = x8 ∧
  V (Proc.devRef (τ := τ) .tc main_arg9) = x9 ∧
  V (Proc.devRef (τ := τ) .tc main_arg10) = x10 ∧
  V (Proc.devRef (τ := τ) .tc main_arg11) = x11 ∧
  V (Proc.devRef (τ := τ) .tc main_arg12) = x12 ∧
  V (Proc.devRef (τ := τ) .tc main_arg13) = x13 ∧
  V (Proc.devRef (τ := τ) .tc main_v84) = ReadP.val_main_v84 (F := F) x0 x1 x2 x3 x4 x5 x6 x7 x8 x9 x10 x11 ∧
  V (Proc.devRef (τ := τ) .tc main_v121) = ReadP.val_main_v121 (F := F) x0 x1 x2 x3 x4 x5 x6 x7 x8 x9 x10 x11

set_option maxHeartbeats 1000000 in
/-- Stretch 10 (operations 115–140) carries the invariant of cut 9 to that of cut 10. -/
theorem step10 {V : Valuation τ sig (Elt F)} {x0 : (⟨S50000x128, .f32⟩ : BufTy).Contents (Elt F)} {x1 : (⟨S2x800000, .i32⟩ : BufTy).Contents (Elt F)} {x2 : (⟨S128x128, .f32⟩ : BufTy).Contents (Elt F)} {x3 : (⟨S128, .f32⟩ : BufTy).Contents (Elt F)} {x4 : (⟨S2x128x256, .f32⟩ : BufTy).Contents (Elt F)} {x5 : (⟨S2x128, .f32⟩ : BufTy).Contents (Elt F)} {x6 : (⟨S2x128x128, .f32⟩ : BufTy).Contents (Elt F)} {x7 : (⟨S2x128, .f32⟩ : BufTy).Contents (Elt F)} {x8 : (⟨S2x128x256, .f32⟩ : BufTy).Contents (Elt F)} {x9 : (⟨S2x128, .f32⟩ : BufTy).Contents (Elt F)} {x10 : (⟨S2x128, .f32⟩ : BufTy).Contents (Elt F)} {x11 : (⟨S2x128, .f32⟩ : BufTy).Contents (Elt F)} {x12 : (⟨S128x128, .f32⟩ : BufTy).Contents (Elt F)} {x13 : (⟨S128, .f32⟩ : BufTy).Contents (Elt F)}
    (h : Inv9 V x0 x1 x2 x3 x4 x5 x6 x7 x8 x9 x10 x11 x12 x13) : Inv10 (after s10 V) x0 x1 x2 x3 x4 x5 x6 x7 x8 x9 x10 x11 x12 x13 := by
  unfold Inv9 at h
  obtain ⟨a0, a1, a2, a3, a4, a5, a6, a7, a8, a9, a10, a11, a12, a13, h_v3, h_v84, h_v91, h_v98⟩ := h
  unfold Inv10
  refine ⟨?_, ?_, ?_, ?_, ?_, ?_, ?_, ?_, ?_, ?_, ?_, ?_, ?_, ?_, ?_, ?_⟩
  · exact (frame10 V (by decide)).trans a0
  · exact (frame10 V (by decide)).trans a1
  · exact (frame10 V (by decide)).trans a2
  · exact (frame10 V (by decide)).trans a3
  · exact (frame10 V (by decide)).trans a4
  · exact (frame10 V (by decide)).trans a5
  · exact (frame10 V (by decide)).trans a6
  · exact (frame10 V (by decide)).trans a7
  · exact (frame10 V (by decide)).trans a8
  · exact (frame10 V (by decide)).trans a9
  · exact (frame10 V (by decide)).trans a10
  · exact (frame10 V (by decide)).trans a11
  · exact (frame10 V (by decide)).trans a12
  · exact (frame10 V (by decide)).trans a13
  · exact (frame10 V (by decide)).trans h_v84
  · after_results
    rw [h_v3, h_v91, h_v98, a4, a5, a6, a7]
    try simp only [TRef.ofBuf, TRef.toBuf, cast_eq]
    rfl

/-- Operations 141 to 151 of @main. -/
abbrev s11 : List (HloOp τ sig (Elt F)) :=
  [
    binary main_v84 main_v121 main_v122 ((fun a b => concatenate S50000x256 1 [⟨S50000x128, a⟩, ⟨S50000x128, b⟩] concatenates_S50000x128_S50000x128_S50000x256_d1) : (⟨S50000x128, .f32⟩ : BufTy).Contents (Elt F) → (⟨S50000x128, .f32⟩ : BufTy).Contents (Elt F) → (⟨S50000x256, .f32⟩ : BufTy).Contents (Elt F)),
    unary main_arg8 main_v123 ((extractStridedSlice S1x128x256 ![1, 0, 0] · slices_S2x128x256_S1x128x256_1_0_0) : (⟨S2x128x256, .f32⟩ : BufTy).Contents (Elt F) → (⟨S1x128x256, .f32⟩ : BufTy).Contents (Elt F)),
    reshape main_v123 main_v124 rfl shapeCasts_S1x128x256_S128x256,
    unary main_v124 main_v125 ((transpose S256x128 [1, 0] · transposes_S128x256_S256x128_1_0) : (⟨S128x256, .f32⟩ : BufTy).Contents (Elt F) → (⟨S256x128, .f32⟩ : BufTy).Contents (Elt F)),
    binary main_v122 main_v125 main_v126 ((fun l r => Host.dotGeneral dot_S50000x256_S256x128_S50000x128_1_0_0_1_n_n none l r) : (⟨S50000x256, .f32⟩ : BufTy).Contents (Elt F) → (⟨S256x128, .f32⟩ : BufTy).Contents (Elt F) → (⟨S50000x128, .f32⟩ : BufTy).Contents (Elt F)),
    unary main_arg9 main_v127 ((extractStridedSlice S1x128 ![1, 0] · slices_S2x128_S1x128_1_0) : (⟨S2x128, .f32⟩ : BufTy).Contents (Elt F) → (⟨S1x128, .f32⟩ : BufTy).Contents (Elt F)),
    reshape main_v127 main_v128 rfl shapeCasts_S1x128_S128,
    unary main_v128 main_v129 (broadcastInDim S1x128 ![1] bcast_S128_S1x128_1 : (⟨S128, .f32⟩ : BufTy).Contents (Elt F) → (⟨S1x128, .f32⟩ : BufTy).Contents (Elt F)),
    unary main_v129 main_v130 (broadcastInDim S50000x128 ![0, 1] bcast_S1x128_S50000x128_0_1 : (⟨S1x128, .f32⟩ : BufTy).Contents (Elt F) → (⟨S50000x128, .f32⟩ : BufTy).Contents (Elt F)),
    binary main_v126 main_v130 main_v131 (addf : (⟨S50000x128, .f32⟩ : BufTy).Contents (Elt F) → (⟨S50000x128, .f32⟩ : BufTy).Contents (Elt F) → (⟨S50000x128, .f32⟩ : BufTy).Contents (Elt F)),
    binary main_v84 main_v131 main_v132 (addf : (⟨S50000x128, .f32⟩ : BufTy).Contents (Elt F) → (⟨S50000x128, .f32⟩ : BufTy).Contents (Elt F) → (⟨S50000x128, .f32⟩ : BufTy).Contents (Elt F)) ]

/-- The buffers stretch 11 writes. -/
abbrev W11 : List (Ref sig .tc) := [main_v122, main_v123, main_v124, main_v125, main_v126, main_v127, main_v128, main_v129, main_v130, main_v131, main_v132]
theorem writes11 : (s11 : List (HloOp τ sig (Elt F))).Forall fun op => op.writes ⊆ (W11.map (Proc.devRef (τ := τ) .tc)).toFinset :=
  ⟨writes_sub_of main_v122 rfl (by decide),
   writes_sub_of main_v123 rfl (by decide),
   writes_sub_of main_v124 rfl (by decide),
   writes_sub_of main_v125 rfl (by decide),
   writes_sub_of main_v126 rfl (by decide),
   writes_sub_of main_v127 rfl (by decide),
   writes_sub_of main_v128 rfl (by decide),
   writes_sub_of main_v129 rfl (by decide),
   writes_sub_of main_v130 rfl (by decide),
   writes_sub_of main_v131 rfl (by decide),
   writes_sub_of main_v132 rfl (by decide)⟩
/-- A buffer stretch 11 does not write keeps its contents over it. -/
theorem frame11 (V : Valuation τ sig (Elt F)) {r : Ref sig .tc} (hr : r ∉ W11) :
    after s11 V (Proc.devRef .tc r) = V (Proc.devRef .tc r) :=
  after_of_writes_sub s11 V writes11 hr

/-- What the buffers hold at cut 11: every argument as given, and each value still read later at its stage. -/
def Inv11 (V : Valuation τ sig (Elt F)) (x0 : (⟨S50000x128, .f32⟩ : BufTy).Contents (Elt F)) (x1 : (⟨S2x800000, .i32⟩ : BufTy).Contents (Elt F)) (x2 : (⟨S128x128, .f32⟩ : BufTy).Contents (Elt F)) (x3 : (⟨S128, .f32⟩ : BufTy).Contents (Elt F)) (x4 : (⟨S2x128x256, .f32⟩ : BufTy).Contents (Elt F)) (x5 : (⟨S2x128, .f32⟩ : BufTy).Contents (Elt F)) (x6 : (⟨S2x128x128, .f32⟩ : BufTy).Contents (Elt F)) (x7 : (⟨S2x128, .f32⟩ : BufTy).Contents (Elt F)) (x8 : (⟨S2x128x256, .f32⟩ : BufTy).Contents (Elt F)) (x9 : (⟨S2x128, .f32⟩ : BufTy).Contents (Elt F)) (x10 : (⟨S2x128, .f32⟩ : BufTy).Contents (Elt F)) (x11 : (⟨S2x128, .f32⟩ : BufTy).Contents (Elt F)) (x12 : (⟨S128x128, .f32⟩ : BufTy).Contents (Elt F)) (x13 : (⟨S128, .f32⟩ : BufTy).Contents (Elt F)) : Prop :=
  V (Proc.devRef (τ := τ) .tc main_arg0) = x0 ∧
  V (Proc.devRef (τ := τ) .tc main_arg1) = x1 ∧
  V (Proc.devRef (τ := τ) .tc main_arg2) = x2 ∧
  V (Proc.devRef (τ := τ) .tc main_arg3) = x3 ∧
  V (Proc.devRef (τ := τ) .tc main_arg4) = x4 ∧
  V (Proc.devRef (τ := τ) .tc main_arg5) = x5 ∧
  V (Proc.devRef (τ := τ) .tc main_arg6) = x6 ∧
  V (Proc.devRef (τ := τ) .tc main_arg7) = x7 ∧
  V (Proc.devRef (τ := τ) .tc main_arg8) = x8 ∧
  V (Proc.devRef (τ := τ) .tc main_arg9) = x9 ∧
  V (Proc.devRef (τ := τ) .tc main_arg10) = x10 ∧
  V (Proc.devRef (τ := τ) .tc main_arg11) = x11 ∧
  V (Proc.devRef (τ := τ) .tc main_arg12) = x12 ∧
  V (Proc.devRef (τ := τ) .tc main_arg13) = x13 ∧
  V (Proc.devRef (τ := τ) .tc main_v132) = ReadP.val_main_v132 (F := F) x0 x1 x2 x3 x4 x5 x6 x7 x8 x9 x10 x11

set_option maxHeartbeats 1000000 in
/-- Stretch 11 (operations 141–151) carries the invariant of cut 10 to that of cut 11. -/
theorem step11 {V : Valuation τ sig (Elt F)} {x0 : (⟨S50000x128, .f32⟩ : BufTy).Contents (Elt F)} {x1 : (⟨S2x800000, .i32⟩ : BufTy).Contents (Elt F)} {x2 : (⟨S128x128, .f32⟩ : BufTy).Contents (Elt F)} {x3 : (⟨S128, .f32⟩ : BufTy).Contents (Elt F)} {x4 : (⟨S2x128x256, .f32⟩ : BufTy).Contents (Elt F)} {x5 : (⟨S2x128, .f32⟩ : BufTy).Contents (Elt F)} {x6 : (⟨S2x128x128, .f32⟩ : BufTy).Contents (Elt F)} {x7 : (⟨S2x128, .f32⟩ : BufTy).Contents (Elt F)} {x8 : (⟨S2x128x256, .f32⟩ : BufTy).Contents (Elt F)} {x9 : (⟨S2x128, .f32⟩ : BufTy).Contents (Elt F)} {x10 : (⟨S2x128, .f32⟩ : BufTy).Contents (Elt F)} {x11 : (⟨S2x128, .f32⟩ : BufTy).Contents (Elt F)} {x12 : (⟨S128x128, .f32⟩ : BufTy).Contents (Elt F)} {x13 : (⟨S128, .f32⟩ : BufTy).Contents (Elt F)}
    (h : Inv10 V x0 x1 x2 x3 x4 x5 x6 x7 x8 x9 x10 x11 x12 x13) : Inv11 (after s11 V) x0 x1 x2 x3 x4 x5 x6 x7 x8 x9 x10 x11 x12 x13 := by
  unfold Inv10 at h
  obtain ⟨a0, a1, a2, a3, a4, a5, a6, a7, a8, a9, a10, a11, a12, a13, h_v84, h_v121⟩ := h
  unfold Inv11
  refine ⟨?_, ?_, ?_, ?_, ?_, ?_, ?_, ?_, ?_, ?_, ?_, ?_, ?_, ?_, ?_⟩
  · exact (frame11 V (by decide)).trans a0
  · exact (frame11 V (by decide)).trans a1
  · exact (frame11 V (by decide)).trans a2
  · exact (frame11 V (by decide)).trans a3
  · exact (frame11 V (by decide)).trans a4
  · exact (frame11 V (by decide)).trans a5
  · exact (frame11 V (by decide)).trans a6
  · exact (frame11 V (by decide)).trans a7
  · exact (frame11 V (by decide)).trans a8
  · exact (frame11 V (by decide)).trans a9
  · exact (frame11 V (by decide)).trans a10
  · exact (frame11 V (by decide)).trans a11
  · exact (frame11 V (by decide)).trans a12
  · exact (frame11 V (by decide)).trans a13
  · after_results
    rw [h_v84, h_v121, a8, a9]
    rfl

/-- Operations 152 to 161 of @main. -/
abbrev s12 : List (HloOp τ sig (Elt F)) :=
  [
    unary main_arg10 main_v133 ((extractStridedSlice S1x128 ![1, 0] · slices_S2x128_S1x128_1_0) : (⟨S2x128, .f32⟩ : BufTy).Contents (Elt F) → (⟨S1x128, .f32⟩ : BufTy).Contents (Elt F)),
    reshape main_v133 main_v134 rfl shapeCasts_S1x128_S128,
    unary main_arg11 main_v135 ((extractStridedSlice S1x128 ![1, 0] · slices_S2x128_S1x128_1_0) : (⟨S2x128, .f32⟩ : BufTy).Contents (Elt F) → (⟨S1x128, .f32⟩ : BufTy).Contents (Elt F)),
    reshape main_v135 main_v136 rfl shapeCasts_S1x128_S128,
    nullary main_cst_13 (constant S_ .f32 0x00000000#32),
    binary main_v132 main_cst_13 main_v137 ((fun x v => Host.reduceAdd x v reducesTo_S50000x128_S50000_d1 h_S_) : (⟨S50000x128, .f32⟩ : BufTy).Contents (Elt F) → (⟨S_, .f32⟩ : BufTy).Contents (Elt F) → (⟨S50000, .f32⟩ : BufTy).Contents (Elt F)),
    unary main_v137 main_v138 (broadcastInDim S50000x1 ![0] bcast_S50000_S50000x1_0 : (⟨S50000, .f32⟩ : BufTy).Contents (Elt F) → (⟨S50000x1, .f32⟩ : BufTy).Contents (Elt F)),
    nullary main_cst_14 (constant S_ .f32 0x43000000#32),
    unary main_cst_14 main_v139 (broadcastInDim S50000x1 ![] bcast_S_S50000x1 : (⟨S_, .f32⟩ : BufTy).Contents (Elt F) → (⟨S50000x1, .f32⟩ : BufTy).Contents (Elt F)),
    binary main_v138 main_v139 main_v140 (Host.divf : (⟨S50000x1, .f32⟩ : BufTy).Contents (Elt F) → (⟨S50000x1, .f32⟩ : BufTy).Contents (Elt F) → (⟨S50000x1, .f32⟩ : BufTy).Contents (Elt F)) ]

/-- The buffers stretch 12 writes. -/
abbrev W12 : List (Ref sig .tc) := [main_v133, main_v134, main_v135, main_v136, main_cst_13, main_v137, main_v138, main_cst_14, main_v139, main_v140]
theorem writes12 : (s12 : List (HloOp τ sig (Elt F))).Forall fun op => op.writes ⊆ (W12.map (Proc.devRef (τ := τ) .tc)).toFinset :=
  ⟨writes_sub_of main_v133 rfl (by decide),
   writes_sub_of main_v134 rfl (by decide),
   writes_sub_of main_v135 rfl (by decide),
   writes_sub_of main_v136 rfl (by decide),
   writes_sub_of main_cst_13 rfl (by decide),
   writes_sub_of main_v137 rfl (by decide),
   writes_sub_of main_v138 rfl (by decide),
   writes_sub_of main_cst_14 rfl (by decide),
   writes_sub_of main_v139 rfl (by decide),
   writes_sub_of main_v140 rfl (by decide)⟩
/-- A buffer stretch 12 does not write keeps its contents over it. -/
theorem frame12 (V : Valuation τ sig (Elt F)) {r : Ref sig .tc} (hr : r ∉ W12) :
    after s12 V (Proc.devRef .tc r) = V (Proc.devRef .tc r) :=
  after_of_writes_sub s12 V writes12 hr

/-- What the buffers hold at cut 12: every argument as given, and each value still read later at its stage. -/
def Inv12 (V : Valuation τ sig (Elt F)) (x0 : (⟨S50000x128, .f32⟩ : BufTy).Contents (Elt F)) (x1 : (⟨S2x800000, .i32⟩ : BufTy).Contents (Elt F)) (x2 : (⟨S128x128, .f32⟩ : BufTy).Contents (Elt F)) (x3 : (⟨S128, .f32⟩ : BufTy).Contents (Elt F)) (x4 : (⟨S2x128x256, .f32⟩ : BufTy).Contents (Elt F)) (x5 : (⟨S2x128, .f32⟩ : BufTy).Contents (Elt F)) (x6 : (⟨S2x128x128, .f32⟩ : BufTy).Contents (Elt F)) (x7 : (⟨S2x128, .f32⟩ : BufTy).Contents (Elt F)) (x8 : (⟨S2x128x256, .f32⟩ : BufTy).Contents (Elt F)) (x9 : (⟨S2x128, .f32⟩ : BufTy).Contents (Elt F)) (x10 : (⟨S2x128, .f32⟩ : BufTy).Contents (Elt F)) (x11 : (⟨S2x128, .f32⟩ : BufTy).Contents (Elt F)) (x12 : (⟨S128x128, .f32⟩ : BufTy).Contents (Elt F)) (x13 : (⟨S128, .f32⟩ : BufTy).Contents (Elt F)) : Prop :=
  V (Proc.devRef (τ := τ) .tc main_arg0) = x0 ∧
  V (Proc.devRef (τ := τ) .tc main_arg1) = x1 ∧
  V (Proc.devRef (τ := τ) .tc main_arg2) = x2 ∧
  V (Proc.devRef (τ := τ) .tc main_arg3) = x3 ∧
  V (Proc.devRef (τ := τ) .tc main_arg4) = x4 ∧
  V (Proc.devRef (τ := τ) .tc main_arg5) = x5 ∧
  V (Proc.devRef (τ := τ) .tc main_arg6) = x6 ∧
  V (Proc.devRef (τ := τ) .tc main_arg7) = x7 ∧
  V (Proc.devRef (τ := τ) .tc main_arg8) = x8 ∧
  V (Proc.devRef (τ := τ) .tc main_arg9) = x9 ∧
  V (Proc.devRef (τ := τ) .tc main_arg10) = x10 ∧
  V (Proc.devRef (τ := τ) .tc main_arg11) = x11 ∧
  V (Proc.devRef (τ := τ) .tc main_arg12) = x12 ∧
  V (Proc.devRef (τ := τ) .tc main_arg13) = x13 ∧
  V (Proc.devRef (τ := τ) .tc main_v132) = ReadP.val_main_v132 (F := F) x0 x1 x2 x3 x4 x5 x6 x7 x8 x9 x10 x11 ∧
  V (Proc.devRef (τ := τ) .tc main_v134) = ReadP.val_main_v134 (F := F) x10 ∧
  V (Proc.devRef (τ := τ) .tc main_v136) = ReadP.val_main_v136 (F := F) x11 ∧
  V (Proc.devRef (τ := τ) .tc main_v140) = ReadP.val_main_v140 (F := F) x0 x1 x2 x3 x4 x5 x6 x7 x8 x9 x10 x11

set_option maxHeartbeats 1000000 in
/-- Stretch 12 (operations 152–161) carries the invariant of cut 11 to that of cut 12. -/
theorem step12 {V : Valuation τ sig (Elt F)} {x0 : (⟨S50000x128, .f32⟩ : BufTy).Contents (Elt F)} {x1 : (⟨S2x800000, .i32⟩ : BufTy).Contents (Elt F)} {x2 : (⟨S128x128, .f32⟩ : BufTy).Contents (Elt F)} {x3 : (⟨S128, .f32⟩ : BufTy).Contents (Elt F)} {x4 : (⟨S2x128x256, .f32⟩ : BufTy).Contents (Elt F)} {x5 : (⟨S2x128, .f32⟩ : BufTy).Contents (Elt F)} {x6 : (⟨S2x128x128, .f32⟩ : BufTy).Contents (Elt F)} {x7 : (⟨S2x128, .f32⟩ : BufTy).Contents (Elt F)} {x8 : (⟨S2x128x256, .f32⟩ : BufTy).Contents (Elt F)} {x9 : (⟨S2x128, .f32⟩ : BufTy).Contents (Elt F)} {x10 : (⟨S2x128, .f32⟩ : BufTy).Contents (Elt F)} {x11 : (⟨S2x128, .f32⟩ : BufTy).Contents (Elt F)} {x12 : (⟨S128x128, .f32⟩ : BufTy).Contents (Elt F)} {x13 : (⟨S128, .f32⟩ : BufTy).Contents (Elt F)}
    (h : Inv11 V x0 x1 x2 x3 x4 x5 x6 x7 x8 x9 x10 x11 x12 x13) : Inv12 (after s12 V) x0 x1 x2 x3 x4 x5 x6 x7 x8 x9 x10 x11 x12 x13 := by
  unfold Inv11 at h
  obtain ⟨a0, a1, a2, a3, a4, a5, a6, a7, a8, a9, a10, a11, a12, a13, h_v132⟩ := h
  unfold Inv12
  refine ⟨?_, ?_, ?_, ?_, ?_, ?_, ?_, ?_, ?_, ?_, ?_, ?_, ?_, ?_, ?_, ?_, ?_, ?_⟩
  · exact (frame12 V (by decide)).trans a0
  · exact (frame12 V (by decide)).trans a1
  · exact (frame12 V (by decide)).trans a2
  · exact (frame12 V (by decide)).trans a3
  · exact (frame12 V (by decide)).trans a4
  · exact (frame12 V (by decide)).trans a5
  · exact (frame12 V (by decide)).trans a6
  · exact (frame12 V (by decide)).trans a7
  · exact (frame12 V (by decide)).trans a8
  · exact (frame12 V (by decide)).trans a9
  · exact (frame12 V (by decide)).trans a10
  · exact (frame12 V (by decide)).trans a11
  · exact (frame12 V (by decide)).trans a12
  · exact (frame12 V (by decide)).trans a13
  · exact (frame12 V (by decide)).trans h_v132
  · after_results
    rw [a10]
    rfl
  · after_results
    rw [a11]
    rfl
  · after_results
    rw [h_v132]
    rfl

/-- Operations 162 to 184 of @main. -/
abbrev s13 : List (HloOp τ sig (Elt F)) :=
  [
    unary main_v140 main_v141 (broadcastInDim S50000x128 ![0, 1] bcast_S50000x1_S50000x128_0_1 : (⟨S50000x1, .f32⟩ : BufTy).Contents (Elt F) → (⟨S50000x128, .f32⟩ : BufTy).Contents (Elt F)),
    binary main_v132 main_v141 main_v142 (subf : (⟨S50000x128, .f32⟩ : BufTy).Contents (Elt F) → (⟨S50000x128, .f32⟩ : BufTy).Contents (Elt F) → (⟨S50000x128, .f32⟩ : BufTy).Contents (Elt F)),
    binary main_v142 main_v142 main_v143 (mulf : (⟨S50000x128, .f32⟩ : BufTy).Contents (Elt F) → (⟨S50000x128, .f32⟩ : BufTy).Contents (Elt F) → (⟨S50000x128, .f32⟩ : BufTy).Contents (Elt F)),
    nullary main_cst_15 (constant S_ .f32 0x00000000#32),
    binary main_v143 main_cst_15 main_v144 ((fun x v => Host.reduceAdd x v reducesTo_S50000x128_S50000_d1 h_S_) : (⟨S50000x128, .f32⟩ : BufTy).Contents (Elt F) → (⟨S_, .f32⟩ : BufTy).Contents (Elt F) → (⟨S50000, .f32⟩ : BufTy).Contents (Elt F)),
    unary main_v144 main_v145 (broadcastInDim S50000x1 ![0] bcast_S50000_S50000x1_0 : (⟨S50000, .f32⟩ : BufTy).Contents (Elt F) → (⟨S50000x1, .f32⟩ : BufTy).Contents (Elt F)),
    nullary main_cst_16 (constant S_ .f32 0x43000000#32),
    unary main_cst_16 main_v146 (broadcastInDim S50000x1 ![] bcast_S_S50000x1 : (⟨S_, .f32⟩ : BufTy).Contents (Elt F) → (⟨S50000x1, .f32⟩ : BufTy).Contents (Elt F)),
    binary main_v145 main_v146 main_v147 (Host.divf : (⟨S50000x1, .f32⟩ : BufTy).Contents (Elt F) → (⟨S50000x1, .f32⟩ : BufTy).Contents (Elt F) → (⟨S50000x1, .f32⟩ : BufTy).Contents (Elt F)),
    unary main_v140 main_v148 (broadcastInDim S50000x128 ![0, 1] bcast_S50000x1_S50000x128_0_1 : (⟨S50000x1, .f32⟩ : BufTy).Contents (Elt F) → (⟨S50000x128, .f32⟩ : BufTy).Contents (Elt F)),
    binary main_v132 main_v148 main_v149 (subf : (⟨S50000x128, .f32⟩ : BufTy).Contents (Elt F) → (⟨S50000x128, .f32⟩ : BufTy).Contents (Elt F) → (⟨S50000x128, .f32⟩ : BufTy).Contents (Elt F)),
    nullary main_cst_17 (constant S_ .f32 0x3727C5AC#32),
    unary main_cst_17 main_v150 (broadcastInDim S50000x1 ![] bcast_S_S50000x1 : (⟨S_, .f32⟩ : BufTy).Contents (Elt F) → (⟨S50000x1, .f32⟩ : BufTy).Contents (Elt F)),
    binary main_v147 main_v150 main_v151 (addf : (⟨S50000x1, .f32⟩ : BufTy).Contents (Elt F) → (⟨S50000x1, .f32⟩ : BufTy).Contents (Elt F) → (⟨S50000x1, .f32⟩ : BufTy).Contents (Elt F)),
    unary main_v151 main_v152 (Host.rsqrt : (⟨S50000x1, .f32⟩ : BufTy).Contents (Elt F) → (⟨S50000x1, .f32⟩ : BufTy).Contents (Elt F)),
    unary main_v152 main_v153 (broadcastInDim S50000x128 ![0, 1] bcast_S50000x1_S50000x128_0_1 : (⟨S50000x1, .f32⟩ : BufTy).Contents (Elt F) → (⟨S50000x128, .f32⟩ : BufTy).Contents (Elt F)),
    binary main_v149 main_v153 main_v154 (mulf : (⟨S50000x128, .f32⟩ : BufTy).Contents (Elt F) → (⟨S50000x128, .f32⟩ : BufTy).Contents (Elt F) → (⟨S50000x128, .f32⟩ : BufTy).Contents (Elt F)),
    unary main_v134 main_v155 (broadcastInDim S1x128 ![1] bcast_S128_S1x128_1 : (⟨S128, .f32⟩ : BufTy).Contents (Elt F) → (⟨S1x128, .f32⟩ : BufTy).Contents (Elt F)),
    unary main_v155 main_v156 (broadcastInDim S50000x128 ![0, 1] bcast_S1x128_S50000x128_0_1 : (⟨S1x128, .f32⟩ : BufTy).Contents (Elt F) → (⟨S50000x128, .f32⟩ : BufTy).Contents (Elt F)),
    binary main_v154 main_v156 main_v157 (mulf : (⟨S50000x128, .f32⟩ : BufTy).Contents (Elt F) → (⟨S50000x128, .f32⟩ : BufTy).Contents (Elt F) → (⟨S50000x128, .f32⟩ : BufTy).Contents (Elt F)),
    unary main_v136 main_v158 (broadcastInDim S1x128 ![1] bcast_S128_S1x128_1 : (⟨S128, .f32⟩ : BufTy).Contents (Elt F) → (⟨S1x128, .f32⟩ : BufTy).Contents (Elt F)),
    unary main_v158 main_v159 (broadcastInDim S50000x128 ![0, 1] bcast_S1x128_S50000x128_0_1 : (⟨S1x128, .f32⟩ : BufTy).Contents (Elt F) → (⟨S50000x128, .f32⟩ : BufTy).Contents (Elt F)),
    binary main_v157 main_v159 main_v160 (addf : (⟨S50000x128, .f32⟩ : BufTy).Contents (Elt F) → (⟨S50000x128, .f32⟩ : BufTy).Contents (Elt F) → (⟨S50000x128, .f32⟩ : BufTy).Contents (Elt F)) ]

/-- The buffers stretch 13 writes. -/
abbrev W13 : List (Ref sig .tc) := [main_v141, main_v142, main_v143, main_cst_15, main_v144, main_v145, main_cst_16, main_v146, main_v147, main_v148, main_v149, main_cst_17, main_v150, main_v151, main_v152, main_v153, main_v154, main_v155, main_v156, main_v157, main_v158, main_v159, main_v160]
theorem writes13 : (s13 : List (HloOp τ sig (Elt F))).Forall fun op => op.writes ⊆ (W13.map (Proc.devRef (τ := τ) .tc)).toFinset :=
  ⟨writes_sub_of main_v141 rfl (by decide),
   writes_sub_of main_v142 rfl (by decide),
   writes_sub_of main_v143 rfl (by decide),
   writes_sub_of main_cst_15 rfl (by decide),
   writes_sub_of main_v144 rfl (by decide),
   writes_sub_of main_v145 rfl (by decide),
   writes_sub_of main_cst_16 rfl (by decide),
   writes_sub_of main_v146 rfl (by decide),
   writes_sub_of main_v147 rfl (by decide),
   writes_sub_of main_v148 rfl (by decide),
   writes_sub_of main_v149 rfl (by decide),
   writes_sub_of main_cst_17 rfl (by decide),
   writes_sub_of main_v150 rfl (by decide),
   writes_sub_of main_v151 rfl (by decide),
   writes_sub_of main_v152 rfl (by decide),
   writes_sub_of main_v153 rfl (by decide),
   writes_sub_of main_v154 rfl (by decide),
   writes_sub_of main_v155 rfl (by decide),
   writes_sub_of main_v156 rfl (by decide),
   writes_sub_of main_v157 rfl (by decide),
   writes_sub_of main_v158 rfl (by decide),
   writes_sub_of main_v159 rfl (by decide),
   writes_sub_of main_v160 rfl (by decide)⟩
/-- A buffer stretch 13 does not write keeps its contents over it. -/
theorem frame13 (V : Valuation τ sig (Elt F)) {r : Ref sig .tc} (hr : r ∉ W13) :
    after s13 V (Proc.devRef .tc r) = V (Proc.devRef .tc r) :=
  after_of_writes_sub s13 V writes13 hr

/-- What the buffers hold at cut 13: every argument as given, and each value still read later at its stage. -/
def Inv13 (V : Valuation τ sig (Elt F)) (x0 : (⟨S50000x128, .f32⟩ : BufTy).Contents (Elt F)) (x1 : (⟨S2x800000, .i32⟩ : BufTy).Contents (Elt F)) (x2 : (⟨S128x128, .f32⟩ : BufTy).Contents (Elt F)) (x3 : (⟨S128, .f32⟩ : BufTy).Contents (Elt F)) (x4 : (⟨S2x128x256, .f32⟩ : BufTy).Contents (Elt F)) (x5 : (⟨S2x128, .f32⟩ : BufTy).Contents (Elt F)) (x6 : (⟨S2x128x128, .f32⟩ : BufTy).Contents (Elt F)) (x7 : (⟨S2x128, .f32⟩ : BufTy).Contents (Elt F)) (x8 : (⟨S2x128x256, .f32⟩ : BufTy).Contents (Elt F)) (x9 : (⟨S2x128, .f32⟩ : BufTy).Contents (Elt F)) (x10 : (⟨S2x128, .f32⟩ : BufTy).Contents (Elt F)) (x11 : (⟨S2x128, .f32⟩ : BufTy).Contents (Elt F)) (x12 : (⟨S128x128, .f32⟩ : BufTy).Contents (Elt F)) (x13 : (⟨S128, .f32⟩ : BufTy).Contents (Elt F)) : Prop :=
  V (Proc.devRef (τ := τ) .tc main_arg0) = x0 ∧
  V (Proc.devRef (τ := τ) .tc main_arg1) = x1 ∧
  V (Proc.devRef (τ := τ) .tc main_arg2) = x2 ∧
  V (Proc.devRef (τ := τ) .tc main_arg3) = x3 ∧
  V (Proc.devRef (τ := τ) .tc main_arg4) = x4 ∧
  V (Proc.devRef (τ := τ) .tc main_arg5) = x5 ∧
  V (Proc.devRef (τ := τ) .tc main_arg6) = x6 ∧
  V (Proc.devRef (τ := τ) .tc main_arg7) = x7 ∧
  V (Proc.devRef (τ := τ) .tc main_arg8) = x8 ∧
  V (Proc.devRef (τ := τ) .tc main_arg9) = x9 ∧
  V (Proc.devRef (τ := τ) .tc main_arg10) = x10 ∧
  V (Proc.devRef (τ := τ) .tc main_arg11) = x11 ∧
  V (Proc.devRef (τ := τ) .tc main_arg12) = x12 ∧
  V (Proc.devRef (τ := τ) .tc main_arg13) = x13 ∧
  V (Proc.devRef (τ := τ) .tc main_v160) = ReadP.val_main_v160 (F := F) x0 x1 x2 x3 x4 x5 x6 x7 x8 x9 x10 x11

set_option maxHeartbeats 1000000 in
/-- Stretch 13 (operations 162–184) carries the invariant of cut 12 to that of cut 13. -/
theorem step13 {V : Valuation τ sig (Elt F)} {x0 : (⟨S50000x128, .f32⟩ : BufTy).Contents (Elt F)} {x1 : (⟨S2x800000, .i32⟩ : BufTy).Contents (Elt F)} {x2 : (⟨S128x128, .f32⟩ : BufTy).Contents (Elt F)} {x3 : (⟨S128, .f32⟩ : BufTy).Contents (Elt F)} {x4 : (⟨S2x128x256, .f32⟩ : BufTy).Contents (Elt F)} {x5 : (⟨S2x128, .f32⟩ : BufTy).Contents (Elt F)} {x6 : (⟨S2x128x128, .f32⟩ : BufTy).Contents (Elt F)} {x7 : (⟨S2x128, .f32⟩ : BufTy).Contents (Elt F)} {x8 : (⟨S2x128x256, .f32⟩ : BufTy).Contents (Elt F)} {x9 : (⟨S2x128, .f32⟩ : BufTy).Contents (Elt F)} {x10 : (⟨S2x128, .f32⟩ : BufTy).Contents (Elt F)} {x11 : (⟨S2x128, .f32⟩ : BufTy).Contents (Elt F)} {x12 : (⟨S128x128, .f32⟩ : BufTy).Contents (Elt F)} {x13 : (⟨S128, .f32⟩ : BufTy).Contents (Elt F)}
    (h : Inv12 V x0 x1 x2 x3 x4 x5 x6 x7 x8 x9 x10 x11 x12 x13) : Inv13 (after s13 V) x0 x1 x2 x3 x4 x5 x6 x7 x8 x9 x10 x11 x12 x13 := by
  unfold Inv12 at h
  obtain ⟨a0, a1, a2, a3, a4, a5, a6, a7, a8, a9, a10, a11, a12, a13, h_v132, h_v134, h_v136, h_v140⟩ := h
  unfold Inv13
  refine ⟨?_, ?_, ?_, ?_, ?_, ?_, ?_, ?_, ?_, ?_, ?_, ?_, ?_, ?_, ?_⟩
  · exact (frame13 V (by decide)).trans a0
  · exact (frame13 V (by decide)).trans a1
  · exact (frame13 V (by decide)).trans a2
  · exact (frame13 V (by decide)).trans a3
  · exact (frame13 V (by decide)).trans a4
  · exact (frame13 V (by decide)).trans a5
  · exact (frame13 V (by decide)).trans a6
  · exact (frame13 V (by decide)).trans a7
  · exact (frame13 V (by decide)).trans a8
  · exact (frame13 V (by decide)).trans a9
  · exact (frame13 V (by decide)).trans a10
  · exact (frame13 V (by decide)).trans a11
  · exact (frame13 V (by decide)).trans a12
  · exact (frame13 V (by decide)).trans a13
  · after_results
    rw [h_v132, h_v140, h_v134, h_v136]
    rfl

/-- Operations 185 to 189 of @main. -/
abbrev s14 : List (HloOp τ sig (Elt F)) :=
  [
    unary main_arg12 main_v161 ((transpose S128x128 [1, 0] · transposes_S128x128_S128x128_1_0) : (⟨S128x128, .f32⟩ : BufTy).Contents (Elt F) → (⟨S128x128, .f32⟩ : BufTy).Contents (Elt F)),
    binary main_v160 main_v161 main_v162 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    unary main_arg13 main_v163 (broadcastInDim S1x128 ![1] bcast_S128_S1x128_1 : (⟨S128, .f32⟩ : BufTy).Contents (Elt F) → (⟨S1x128, .f32⟩ : BufTy).Contents (Elt F)),
    unary main_v163 main_v164 (broadcastInDim S50000x128 ![0, 1] bcast_S1x128_S50000x128_0_1 : (⟨S1x128, .f32⟩ : BufTy).Contents (Elt F) → (⟨S50000x128, .f32⟩ : BufTy).Contents (Elt F)),
    binary main_v162 main_v164 main_v165 (addf : (⟨S50000x128, .f32⟩ : BufTy).Contents (Elt F) → (⟨S50000x128, .f32⟩ : BufTy).Contents (Elt F) → (⟨S50000x128, .f32⟩ : BufTy).Contents (Elt F)) ]

/-- The buffers stretch 14 writes. -/
abbrev W14 : List (Ref sig .tc) := [main_v161, main_v162, main_v163, main_v164, main_v165]
theorem writes14 : (s14 : List (HloOp τ sig (Elt F))).Forall fun op => op.writes ⊆ (W14.map (Proc.devRef (τ := τ) .tc)).toFinset :=
  ⟨writes_sub_of main_v161 rfl (by decide),
   writes_sub_of main_v162 rfl (by decide),
   writes_sub_of main_v163 rfl (by decide),
   writes_sub_of main_v164 rfl (by decide),
   writes_sub_of main_v165 rfl (by decide)⟩
/-- A buffer stretch 14 does not write keeps its contents over it. -/
theorem frame14 (V : Valuation τ sig (Elt F)) {r : Ref sig .tc} (hr : r ∉ W14) :
    after s14 V (Proc.devRef .tc r) = V (Proc.devRef .tc r) :=
  after_of_writes_sub s14 V writes14 hr

/-- What the buffers hold at cut 14: every argument as given, and each value still read later at its stage. -/
def Inv14 (V : Valuation τ sig (Elt F)) (x0 : (⟨S50000x128, .f32⟩ : BufTy).Contents (Elt F)) (x1 : (⟨S2x800000, .i32⟩ : BufTy).Contents (Elt F)) (x2 : (⟨S128x128, .f32⟩ : BufTy).Contents (Elt F)) (x3 : (⟨S128, .f32⟩ : BufTy).Contents (Elt F)) (x4 : (⟨S2x128x256, .f32⟩ : BufTy).Contents (Elt F)) (x5 : (⟨S2x128, .f32⟩ : BufTy).Contents (Elt F)) (x6 : (⟨S2x128x128, .f32⟩ : BufTy).Contents (Elt F)) (x7 : (⟨S2x128, .f32⟩ : BufTy).Contents (Elt F)) (x8 : (⟨S2x128x256, .f32⟩ : BufTy).Contents (Elt F)) (x9 : (⟨S2x128, .f32⟩ : BufTy).Contents (Elt F)) (x10 : (⟨S2x128, .f32⟩ : BufTy).Contents (Elt F)) (x11 : (⟨S2x128, .f32⟩ : BufTy).Contents (Elt F)) (x12 : (⟨S128x128, .f32⟩ : BufTy).Contents (Elt F)) (x13 : (⟨S128, .f32⟩ : BufTy).Contents (Elt F)) : Prop :=
  V (Proc.devRef (τ := τ) .tc main_arg0) = x0 ∧
  V (Proc.devRef (τ := τ) .tc main_arg1) = x1 ∧
  V (Proc.devRef (τ := τ) .tc main_arg2) = x2 ∧
  V (Proc.devRef (τ := τ) .tc main_arg3) = x3 ∧
  V (Proc.devRef (τ := τ) .tc main_arg4) = x4 ∧
  V (Proc.devRef (τ := τ) .tc main_arg5) = x5 ∧
  V (Proc.devRef (τ := τ) .tc main_arg6) = x6 ∧
  V (Proc.devRef (τ := τ) .tc main_arg7) = x7 ∧
  V (Proc.devRef (τ := τ) .tc main_arg8) = x8 ∧
  V (Proc.devRef (τ := τ) .tc main_arg9) = x9 ∧
  V (Proc.devRef (τ := τ) .tc main_arg10) = x10 ∧
  V (Proc.devRef (τ := τ) .tc main_arg11) = x11 ∧
  V (Proc.devRef (τ := τ) .tc main_arg12) = x12 ∧
  V (Proc.devRef (τ := τ) .tc main_arg13) = x13 ∧
  V (Proc.devRef (τ := τ) .tc main_v165) = ReadP.val_main_v165 (F := F) x0 x1 x2 x3 x4 x5 x6 x7 x8 x9 x10 x11 x12 x13

set_option maxHeartbeats 1000000 in
/-- Stretch 14 (operations 185–189) carries the invariant of cut 13 to that of cut 14. -/
theorem step14 {V : Valuation τ sig (Elt F)} {x0 : (⟨S50000x128, .f32⟩ : BufTy).Contents (Elt F)} {x1 : (⟨S2x800000, .i32⟩ : BufTy).Contents (Elt F)} {x2 : (⟨S128x128, .f32⟩ : BufTy).Contents (Elt F)} {x3 : (⟨S128, .f32⟩ : BufTy).Contents (Elt F)} {x4 : (⟨S2x128x256, .f32⟩ : BufTy).Contents (Elt F)} {x5 : (⟨S2x128, .f32⟩ : BufTy).Contents (Elt F)} {x6 : (⟨S2x128x128, .f32⟩ : BufTy).Contents (Elt F)} {x7 : (⟨S2x128, .f32⟩ : BufTy).Contents (Elt F)} {x8 : (⟨S2x128x256, .f32⟩ : BufTy).Contents (Elt F)} {x9 : (⟨S2x128, .f32⟩ : BufTy).Contents (Elt F)} {x10 : (⟨S2x128, .f32⟩ : BufTy).Contents (Elt F)} {x11 : (⟨S2x128, .f32⟩ : BufTy).Contents (Elt F)} {x12 : (⟨S128x128, .f32⟩ : BufTy).Contents (Elt F)} {x13 : (⟨S128, .f32⟩ : BufTy).Contents (Elt F)}
    (h : Inv13 V x0 x1 x2 x3 x4 x5 x6 x7 x8 x9 x10 x11 x12 x13) : Inv14 (after s14 V) x0 x1 x2 x3 x4 x5 x6 x7 x8 x9 x10 x11 x12 x13 := by
  unfold Inv13 at h
  obtain ⟨a0, a1, a2, a3, a4, a5, a6, a7, a8, a9, a10, a11, a12, a13, h_v160⟩ := h
  unfold Inv14
  refine ⟨?_, ?_, ?_, ?_, ?_, ?_, ?_, ?_, ?_, ?_, ?_, ?_, ?_, ?_, ?_⟩
  · exact (frame14 V (by decide)).trans a0
  · exact (frame14 V (by decide)).trans a1
  · exact (frame14 V (by decide)).trans a2
  · exact (frame14 V (by decide)).trans a3
  · exact (frame14 V (by decide)).trans a4
  · exact (frame14 V (by decide)).trans a5
  · exact (frame14 V (by decide)).trans a6
  · exact (frame14 V (by decide)).trans a7
  · exact (frame14 V (by decide)).trans a8
  · exact (frame14 V (by decide)).trans a9
  · exact (frame14 V (by decide)).trans a10
  · exact (frame14 V (by decide)).trans a11
  · exact (frame14 V (by decide)).trans a12
  · exact (frame14 V (by decide)).trans a13
  · after_results
    rw [h_v160, a12, a13]
    rfl

/-- Running two lines one after the other is running their concatenation. -/
theorem after_app : ∀ (l₁ l₂ : List (HloOp τ sig (Elt F))) (V : Valuation τ sig (Elt F)),
    after (l₁ ++ l₂) V = after l₂ (after l₁ V)
  | [], _, _ => rfl
  | _ :: l₁, l₂, _ => after_app l₁ l₂ _

/-- @main's operation list is the 14 stretches in order. -/
theorem ops_split : (ValueP.ops : List (HloOp τ sig (Elt F))) = s1 ++ (s2 ++ (s3 ++ (s4 ++ (s5 ++ (s6 ++ (s7 ++ (s8 ++ (s9 ++ (s10 ++ (s11 ++ (s12 ++ (s13 ++ (s14))))))))))))) := rfl

theorem fresh1 : ∀ op ∈ (s1 : List (HloOp τ sig (Elt F))), op.fresh = ∅ := by
  intro _ h; (repeat (cases h with | head => rfl | tail _ h => ?_)); exact nomatch h
theorem fresh2 : ∀ op ∈ (s2 : List (HloOp τ sig (Elt F))), op.fresh = ∅ := by
  intro _ h; (repeat (cases h with | head => rfl | tail _ h => ?_)); exact nomatch h
theorem fresh3 : ∀ op ∈ (s3 : List (HloOp τ sig (Elt F))), op.fresh = ∅ := by
  intro _ h; (repeat (cases h with | head => rfl | tail _ h => ?_)); exact nomatch h
theorem fresh4 : ∀ op ∈ (s4 : List (HloOp τ sig (Elt F))), op.fresh = ∅ := by
  intro _ h; (repeat (cases h with | head => rfl | tail _ h => ?_)); exact nomatch h
theorem fresh5 : ∀ op ∈ (s5 : List (HloOp τ sig (Elt F))), op.fresh = ∅ := by
  intro _ h; (repeat (cases h with | head => rfl | tail _ h => ?_)); exact nomatch h
theorem fresh6 : ∀ op ∈ (s6 : List (HloOp τ sig (Elt F))), op.fresh = ∅ := by
  intro _ h; (repeat (cases h with | head => rfl | tail _ h => ?_)); exact nomatch h
theorem fresh7 : ∀ op ∈ (s7 : List (HloOp τ sig (Elt F))), op.fresh = ∅ := by
  intro _ h; (repeat (cases h with | head => rfl | tail _ h => ?_)); exact nomatch h
theorem fresh8 : ∀ op ∈ (s8 : List (HloOp τ sig (Elt F))), op.fresh = ∅ := by
  intro _ h; (repeat (cases h with | head => rfl | tail _ h => ?_)); exact nomatch h
theorem fresh9 : ∀ op ∈ (s9 : List (HloOp τ sig (Elt F))), op.fresh = ∅ := by
  intro _ h; (repeat (cases h with | head => rfl | tail _ h => ?_)); exact nomatch h
theorem fresh10 : ∀ op ∈ (s10 : List (HloOp τ sig (Elt F))), op.fresh = ∅ := by
  intro _ h; (repeat (cases h with | head => rfl | tail _ h => ?_)); exact nomatch h
theorem fresh11 : ∀ op ∈ (s11 : List (HloOp τ sig (Elt F))), op.fresh = ∅ := by
  intro _ h; (repeat (cases h with | head => rfl | tail _ h => ?_)); exact nomatch h
theorem fresh12 : ∀ op ∈ (s12 : List (HloOp τ sig (Elt F))), op.fresh = ∅ := by
  intro _ h; (repeat (cases h with | head => rfl | tail _ h => ?_)); exact nomatch h
theorem fresh13 : ∀ op ∈ (s13 : List (HloOp τ sig (Elt F))), op.fresh = ∅ := by
  intro _ h; (repeat (cases h with | head => rfl | tail _ h => ?_)); exact nomatch h
theorem fresh14 : ∀ op ∈ (s14 : List (HloOp τ sig (Elt F))), op.fresh = ∅ := by
  intro _ h; (repeat (cases h with | head => rfl | tail _ h => ?_)); exact nomatch h

/-- Every operation of @main determines its result. -/
theorem fresh_all : ∀ op ∈ (ValueP.ops : List (HloOp τ sig (Elt F))), op.fresh = ∅ := by
  rw [ops_split]
  intro op h
  rcases List.mem_append.1 h with h1 | h
  · exact fresh1 op h1
  rcases List.mem_append.1 h with h2 | h
  · exact fresh2 op h2
  rcases List.mem_append.1 h with h3 | h
  · exact fresh3 op h3
  rcases List.mem_append.1 h with h4 | h
  · exact fresh4 op h4
  rcases List.mem_append.1 h with h5 | h
  · exact fresh5 op h5
  rcases List.mem_append.1 h with h6 | h
  · exact fresh6 op h6
  rcases List.mem_append.1 h with h7 | h
  · exact fresh7 op h7
  rcases List.mem_append.1 h with h8 | h
  · exact fresh8 op h8
  rcases List.mem_append.1 h with h9 | h
  · exact fresh9 op h9
  rcases List.mem_append.1 h with h10 | h
  · exact fresh10 op h10
  rcases List.mem_append.1 h with h11 | h
  · exact fresh11 op h11
  rcases List.mem_append.1 h with h12 | h
  · exact fresh12 op h12
  rcases List.mem_append.1 h with h13 | h
  · exact fresh13 op h13
  exact fresh14 op h

/-- From buffers holding the arguments, the whole line ends with the last cut's invariant: the result at its
    last stage, each argument as given. -/
theorem inv_all {V : Valuation τ sig (Elt F)} {x0 : (⟨S50000x128, .f32⟩ : BufTy).Contents (Elt F)} {x1 : (⟨S2x800000, .i32⟩ : BufTy).Contents (Elt F)} {x2 : (⟨S128x128, .f32⟩ : BufTy).Contents (Elt F)} {x3 : (⟨S128, .f32⟩ : BufTy).Contents (Elt F)} {x4 : (⟨S2x128x256, .f32⟩ : BufTy).Contents (Elt F)} {x5 : (⟨S2x128, .f32⟩ : BufTy).Contents (Elt F)} {x6 : (⟨S2x128x128, .f32⟩ : BufTy).Contents (Elt F)} {x7 : (⟨S2x128, .f32⟩ : BufTy).Contents (Elt F)} {x8 : (⟨S2x128x256, .f32⟩ : BufTy).Contents (Elt F)} {x9 : (⟨S2x128, .f32⟩ : BufTy).Contents (Elt F)} {x10 : (⟨S2x128, .f32⟩ : BufTy).Contents (Elt F)} {x11 : (⟨S2x128, .f32⟩ : BufTy).Contents (Elt F)} {x12 : (⟨S128x128, .f32⟩ : BufTy).Contents (Elt F)} {x13 : (⟨S128, .f32⟩ : BufTy).Contents (Elt F)}
    (h : Inv0 V x0 x1 x2 x3 x4 x5 x6 x7 x8 x9 x10 x11 x12 x13) : Inv14 (after ValueP.ops V) x0 x1 x2 x3 x4 x5 x6 x7 x8 x9 x10 x11 x12 x13 := by
  rw [ops_split]
  simp only [after_app]
  exact step14 (step13 (step12 (step11 (step10 (step9 (step8 (step7 (step6 (step5 (step4 (step3 (step2 (step1 (h))))))))))))))

/-- On every device, from any memory with zero counters: every weakly fair execution of the reference's @main
    terminates with the result buffer at the last stage of the arguments' launch contents and the arguments unchanged. -/
theorem ref_run (m : (ℓ : Loc nD τ sig) → Buf (Elt F) ℓ) (ρ : Dev nD → PrngReg) :
    θ_run defs (onTc (τ := τ) (main (F := F))) ⟨m, fun _ => 0, ρ⟩ (fun r => ∀ c : Dev nD,
      r.2.mem ((c.tc : Thread nD τ).loc main_v165) = Cert.ReferenceIdeal.ReadP.val_main_v165 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13))
      ∧ r.2.mem ((c.tc : Thread nD τ).loc main_arg0) = m ((c.tc : Thread nD τ).loc main_arg0) ∧ r.2.mem ((c.tc : Thread nD τ).loc main_arg1) = m ((c.tc : Thread nD τ).loc main_arg1) ∧ r.2.mem ((c.tc : Thread nD τ).loc main_arg2) = m ((c.tc : Thread nD τ).loc main_arg2) ∧ r.2.mem ((c.tc : Thread nD τ).loc main_arg3) = m ((c.tc : Thread nD τ).loc main_arg3) ∧ r.2.mem ((c.tc : Thread nD τ).loc main_arg4) = m ((c.tc : Thread nD τ).loc main_arg4) ∧ r.2.mem ((c.tc : Thread nD τ).loc main_arg5) = m ((c.tc : Thread nD τ).loc main_arg5) ∧ r.2.mem ((c.tc : Thread nD τ).loc main_arg6) = m ((c.tc : Thread nD τ).loc main_arg6) ∧ r.2.mem ((c.tc : Thread nD τ).loc main_arg7) = m ((c.tc : Thread nD τ).loc main_arg7) ∧ r.2.mem ((c.tc : Thread nD τ).loc main_arg8) = m ((c.tc : Thread nD τ).loc main_arg8) ∧ r.2.mem ((c.tc : Thread nD τ).loc main_arg9) = m ((c.tc : Thread nD τ).loc main_arg9) ∧ r.2.mem ((c.tc : Thread nD τ).loc main_arg10) = m ((c.tc : Thread nD τ).loc main_arg10) ∧ r.2.mem ((c.tc : Thread nD τ).loc main_arg11) = m ((c.tc : Thread nD τ).loc main_arg11) ∧ r.2.mem ((c.tc : Thread nD τ).loc main_arg12) = m ((c.tc : Thread nD τ).loc main_arg12) ∧ r.2.mem ((c.tc : Thread nD τ).loc main_arg13) = m ((c.tc : Thread nD τ).loc main_arg13)) :=
  (θ_run defs _ _).mono (fun r h c => by
      have h0 : Inv0 (launchContents m c) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) := by
        unfold Inv0; exact ⟨rfl, rfl, rfl, rfl, rfl, rfl, rfl, rfl, rfl, rfl, rfl, rfl, rfl, rfl⟩
      have inv := inv_all h0
      unfold Inv14 at inv
      obtain ⟨a0, a1, a2, a3, a4, a5, a6, a7, a8, a9, a10, a11, a12, a13, hv⟩ := inv
      exact ⟨(h c main_v165).trans hv, (h c main_arg0).trans a0, (h c main_arg1).trans a1, (h c main_arg2).trans a2, (h c main_arg3).trans a3, (h c main_arg4).trans a4, (h c main_arg5).trans a5, (h c main_arg6).trans a6, (h c main_arg7).trans a7, (h c main_arg8).trans a8, (h c main_arg9).trans a9, (h c main_arg10).trans a10, (h c main_arg11).trans a11, (h c main_arg12).trans a12, (h c main_arg13).trans a13⟩)
    (run_seq ValueP.scopedRefs_eq ValueP.scopedSems_eq defs main (fun _ => ValueP.ops) ValueP.main_eq (fun _ => ValueP.ops_sub) m ρ
      (fun _ => fresh_all))

end Cert.Bridge.R

end
-- ==== Proof.lean ====
/-
  The certificate of `Cert.Claim`: the three frames, the (empty) idealization ledger, and the equivalence over the
  extended reals of the kernel program — a two-layer message-passing network whose dense stages run as six pallas_calls
  (node encoder, per layer a message network over gathered edge rows and a node update with layer normalisation,
  output projection) with the gathers and the scatter-add of messages left to the host — and its jnp reference.

  The precondition adds to the floats' finiteness that every entry of `edge_index` is a node number in `[0, 50000)`:
  outside it the kernel's fill-mode `jnp.take` and the reference's clamped indexing differ.

  * The kernel frames are the generated ones. The reference's frame and run are read off its operation list stretch by
    stretch (`Cert.Bridge.R.ref_run`): its result is the nested term `val_main_v165` of the arguments.
  * The kernel program's run with its result named (`Cert.Bridge.K.kernel_run`) ends at the last boundary's contents,
    which `Cert.Bridge.K.out_eq` follows through the six regions to the same term `val_main_v165`.
  * The two runs start from memories agreeing on the arguments, so the two results are one array.
-/
import proofs.«429507_j9285719294448_1_alg».proof.Defs
import proofs.«429507_j9285719294448_1_alg».proof.Proof.Gen.Kernel
import proofs.«429507_j9285719294448_1_alg».proof.Proof.Gen.Kernel.Skeleton
import proofs.«429507_j9285719294448_1_alg».proof.Proof.Gen.Kernel.Launch
import proofs.«429507_j9285719294448_1_alg».proof.Proof.Gen.Kernel.Points
import proofs.«429507_j9285719294448_1_alg».proof.Proof.Gen.Kernel.Frame
import proofs.«429507_j9285719294448_1_alg».proof.Proof.Gen.KernelIdeal
import proofs.«429507_j9285719294448_1_alg».proof.Proof.Gen.KernelIdeal.Skeleton
import proofs.«429507_j9285719294448_1_alg».proof.Proof.Gen.KernelIdeal.Launch
import proofs.«429507_j9285719294448_1_alg».proof.Proof.Gen.KernelIdeal.Points
import proofs.«429507_j9285719294448_1_alg».proof.Proof.Gen.KernelIdeal.Frame
import proofs.«429507_j9285719294448_1_alg».proof.Proof.Gen.ReferenceIdeal
import proofs.«429507_j9285719294448_1_alg».proof.Proof.Gen.Pre_finite_inputs
import proofs.«429507_j9285719294448_1_alg».proof.Proof.KRun
import proofs.«429507_j9285719294448_1_alg».proof.Proof.KVal
import proofs.«429507_j9285719294448_1_alg».proof.Proof.PreIdx
import proofs.«429507_j9285719294448_1_alg».proof.Proof.RefRun
import Idealize.ShloMosaic.Adequacy
import Idealize.ShloMosaic.Init

noncomputable section

namespace Cert.Proof.Claims
open Idealize.ShloMosaic Idealize.SL.Sem

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2) (Cert.Bridge.R.ref_run (F := Ideal) m ρ)

theorem preserves : Cert.preserves_Kernel_KernelIdeal := trivial

theorem algebraic : Cert.algebraic_KernelIdeal_ReferenceIdeal := by
  intro m ρ m' ρ' hpre hagree
  refine ⟨_, (θ_run Cert.KernelIdeal.defs _ _).mono (fun r h c => ⟨(h c).1.trans
      (Cert.Bridge.K.out_eq m ρ c (Cert.Bridge.pre_inr m hpre c).1 (Cert.Bridge.pre_inr m hpre c).2), (h c).2⟩)
    (Cert.Bridge.K.kernel_run (F := Ideal) m ρ), ?_⟩
  refine (θ_run Cert.ReferenceIdeal.defs _ _).mono (fun r h c => ⟨(h c).1.trans ?_, (h c).2⟩)
    (Cert.Bridge.R.ref_run (F := Ideal) m' ρ')
  rw [(hagree c).1, (hagree c).2.1, (hagree c).2.2.1, (hagree c).2.2.2.1, (hagree c).2.2.2.2.1, (hagree c).2.2.2.2.2.1, (hagree c).2.2.2.2.2.2.1, (hagree c).2.2.2.2.2.2.2.1, (hagree c).2.2.2.2.2.2.2.2.1, (hagree c).2.2.2.2.2.2.2.2.2.1, (hagree c).2.2.2.2.2.2.2.2.2.2.1, (hagree c).2.2.2.2.2.2.2.2.2.2.2.1, (hagree c).2.2.2.2.2.2.2.2.2.2.2.2.1, (hagree c).2.2.2.2.2.2.2.2.2.2.2.2.2]

end Cert.Proof.Claims

namespace Cert.Proof

theorem claim : Cert.Claim := ⟨Cert.Kernel.Gen.facts, Cert.KernelIdeal.Gen.facts, Cert.ReferenceIdeal.Gen.facts, Cert.Pre_finite_inputs.Gen.facts,
  Claims.frame_k, Claims.frame_ki, Claims.frame_ri, Claims.preserves, Claims.algebraic⟩

end Cert.Proof

end
